-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x8 : Shape := ⟨2, ![64, 8]⟩
abbrev S8 : Shape := ⟨1, ![8]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_arg6 : FVec F S8 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S8 .f32 := Host.absf main_arg6
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : IVec S1x800000 32 := (extractStridedSlice S1x800000 ![0, 0] · slices_S2x800000_S1x800000_0_0) main_arg1
  let main_v25 : IVec S800000 32 := shapeCast S800000 main_v24 shapeCasts_S1x800000_S800000
  let main_c_8 : IVec S_ 32 := constantI S_ 32 0#32
  let main_v26 : IVec S800000 32 := broadcastInDim S800000 ![] bcast_S_S800000 main_c_8
  let main_v27 : IVec S800000 1 := cmpi .sge main_v25 main_v26
  let main_v28 : IVec S1x800000 32 := (extractStridedSlice S1x800000 ![0, 0] · slices_S2x800000_S1x800000_0_0) main_arg1
  let main_v29 : IVec S800000 32 := shapeCast S800000 main_v28 shapeCasts_S1x800000_S800000
  let main_c_9 : IVec S_ 32 := constantI S_ 32 50000#32
  let main_v30 : IVec S800000 32 := broadcastInDim S800000 ![] bcast_S_S800000 main_c_9
  let main_v31 : IVec S800000 1 := cmpi .slt main_v29 main_v30
  let main_v32 : IVec S800000 1 := andi main_v27 main_v31
  let main_c_10 : IVec S_ 1 := constantI S_ 1 1#1
  let main_v33 : IVec S_ 1 := (fun x v => Host.reduce IntOp.andi x v reducesTo_S800000_S_d0 h_S_) main_v32 main_c_10
  let main_v34 : IVec S_ 1 := andi main_v23 main_v33
  main_v34

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64x8 .f32) (main_arg6 : FVec F S8 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg5
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg1 main_arg6 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x8 : Shape := ⟨2, ![64, 8]⟩
abbrev S8 : Shape := ⟨1, ![8]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1968 : Shape := ⟨1, ![1968]⟩
abbrev S851968 : Shape := ⟨1, ![851968]⟩
abbrev S208x1x4096 : Shape := ⟨3, ![208, 1, 4096]⟩
abbrev S176x128 : Shape := ⟨2, ![176, 128]⟩
abbrev S50176x128 : Shape := ⟨2, ![50176, 128]⟩
abbrev S176 : Shape := ⟨1, ![176]⟩
abbrev S50176 : Shape := ⟨1, ![50176]⟩
abbrev S50176x64 : Shape := ⟨2, ![50176, 64]⟩
abbrev S1024x128 : Shape := ⟨2, ![1024, 128]⟩
abbrev S1024 : Shape := ⟨1, ![1024]⟩
abbrev S1024x64 : Shape := ⟨2, ![1024, 64]⟩
abbrev S1024x1 : Shape := ⟨2, ![1024, 1]⟩
abbrev S208x4096x64 : Shape := ⟨3, ![208, 4096, 64]⟩
abbrev S1x1x4096 : Shape := ⟨3, ![1, 1, 4096]⟩
abbrev S1x4096x64 : Shape := ⟨3, ![1, 4096, 64]⟩
abbrev S4096x64 : Shape := ⟨2, ![4096, 64]⟩
abbrev S4096x1024 : Shape := ⟨2, ![4096, 1024]⟩
abbrev S4096 : Shape := ⟨1, ![4096]⟩
abbrev S4096x1 : Shape := ⟨2, ![4096, 1]⟩
abbrev S1024x4096 : Shape := ⟨2, ![1024, 4096]⟩
abbrev S1x4096 : Shape := ⟨2, ![1, 4096]⟩
abbrev S1x64 : Shape := ⟨2, ![1, 64]⟩
abbrev S256x8 : Shape := ⟨2, ![256, 8]⟩
abbrev S256x64 : Shape := ⟨2, ![256, 64]⟩
abbrev S256x1 : Shape := ⟨2, ![256, 1]⟩
abbrev S256x1024 : Shape := ⟨2, ![256, 1024]⟩
abbrev S1x1024 : Shape := ⟨2, ![1, 1024]⟩
abbrev S256 : Shape := ⟨1, ![256]⟩
abbrev S1x8 : Shape := ⟨2, ![1, 8]⟩

abbrev nBuf : Space → Nat
  | .hbm => 62
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x8, .f32⟩
  | .hbm, ⟨6, _⟩ => ⟨S8, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S1968, .i32⟩
  | .hbm, ⟨39, _⟩ => ⟨S851968, .i32⟩
  | .hbm, ⟨40, _⟩ => ⟨S_, .i32⟩
  | .hbm, ⟨41, _⟩ => ⟨S1968, .i32⟩
  | .hbm, ⟨42, _⟩ => ⟨S851968, .i32⟩
  | .hbm, ⟨43, _⟩ => ⟨S_, .f32⟩
  | .hbm, ⟨44, _⟩ => ⟨S1968, .f32⟩
  | .hbm, ⟨45, _⟩ => ⟨S851968, .f32⟩
  | .hbm, ⟨46, _⟩ => ⟨S208x1x4096, .i32⟩
  | .hbm, ⟨47, _⟩ => ⟨S208x1x4096, .i32⟩
  | .hbm, ⟨48, _⟩ => ⟨S208x1x4096, .f32⟩
  | .hbm, ⟨49, _⟩ => ⟨S_, .f32⟩
  | .hbm, ⟨50, _⟩ => ⟨S176x128, .f32⟩
  | .hbm, ⟨51, _⟩ => ⟨S50176x128, .f32⟩
  | .hbm, ⟨52, _⟩ => ⟨S_, .f32⟩
  | .hbm, ⟨53, _⟩ => ⟨S176, .f32⟩
  | .hbm, ⟨54, _⟩ => ⟨S50176, .f32⟩
  | .hbm, ⟨55, _⟩ => ⟨S50176x64, .f32⟩
  | .hbm, ⟨56, _⟩ => ⟨S208x4096x64, .bf16⟩
  | .hbm, ⟨57, _⟩ => ⟨S50176x64, .f32⟩
  | .hbm, ⟨58, _⟩ => ⟨S_, .i32⟩
  | .hbm, ⟨59, _⟩ => ⟨S176, .i32⟩
  | .hbm, ⟨60, _⟩ => ⟨S50176, .i32⟩
  | .hbm, ⟨61, _⟩ => ⟨S256x8, .f32⟩
  | .local _ .vmem, ⟨0, _⟩ => ⟨S1024x128, .f32⟩
  | .local _ .vmem, ⟨1, _⟩ => ⟨S1024x128, .f32⟩
  | .local _ .vmem, ⟨2, _⟩ => ⟨S128x64, .f32⟩
  | .local _ .vmem, ⟨3, _⟩ => ⟨S1024, .f32⟩
  | .local _ .vmem, ⟨4, _⟩ => ⟨S1024, .f32⟩
  | .local _ .vmem, ⟨5, _⟩ => ⟨S1024x64, .f32⟩
  | .local _ .vmem, ⟨6, _⟩ => ⟨S1024x64, .f32⟩
  | .local _ .vmem, ⟨7, _⟩ => ⟨S1x1x4096, .i32⟩
  | .local _ .vmem, ⟨8, _⟩ => ⟨S1x1x4096, .i32⟩
  | .local _ .vmem, ⟨9, _⟩ => ⟨S1x1x4096, .f32⟩
  | .local _ .vmem, ⟨10, _⟩ => ⟨S1x1x4096, .f32⟩
  | .local _ .vmem, ⟨11, _⟩ => ⟨S1024x64, .f32⟩
  | .local _ .vmem, ⟨12, _⟩ => ⟨S1024x64, .f32⟩
  | .local _ .vmem, ⟨13, _⟩ => ⟨S1x4096x64, .bf16⟩
  | .local _ .vmem, ⟨14, _⟩ => ⟨S1x4096x64, .bf16⟩
  | .local _ .vmem, ⟨15, _⟩ => ⟨S4096x64, .f32⟩
  | .local _ .vmem, ⟨16, _⟩ => ⟨S1x1x4096, .i32⟩
  | .local _ .vmem, ⟨17, _⟩ => ⟨S1x1x4096, .i32⟩
  | .local _ .vmem, ⟨18, _⟩ => ⟨S1x4096x64, .bf16⟩
  | .local _ .vmem, ⟨19, _⟩ => ⟨S1x4096x64, .bf16⟩
  | .local _ .vmem, ⟨20, _⟩ => ⟨S64, .f32⟩
  | .local _ .vmem, ⟨21, _⟩ => ⟨S1024x64, .f32⟩
  | .local _ .vmem, ⟨22, _⟩ => ⟨S1024x64, .f32⟩
  | .local _ .vmem, ⟨23, _⟩ => ⟨S1024x64, .f32⟩
  | .local _ .vmem, ⟨24, _⟩ => ⟨S1024x64, .f32⟩
  | .local _ .vmem, ⟨25, _⟩ => ⟨S1024x64, .f32⟩
  | .local _ .vmem, ⟨26, _⟩ => ⟨S1024, .i32⟩
  | .local _ .vmem, ⟨27, _⟩ => ⟨S1024, .i32⟩
  | .local _ .vmem, ⟨28, _⟩ => ⟨S64x8, .f32⟩
  | .local _ .vmem, ⟨29, _⟩ => ⟨S8, .f32⟩
  | .local _ .vmem, ⟨30, _⟩ => ⟨S256x8, .f32⟩
  | .local _ .vmem, ⟨31, _⟩ => ⟨S256x64, .f32⟩
  | .local _ .vmem, ⟨32, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_scratch0 : Ref sig .tc := ⟨.vmem, 31, rfl⟩
abbrev cc3_scratch1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![208, 49], ![false, false]⟩

def k1_cond2 (i : grid1.Coords) : BitVec 1 :=
  let arg1 : BitVec 32 := BitVec.ofNat 32 (i 1).val
  let c48_i32 : BitVec 32 := 48#32
  let v24 : BitVec 1 := Scalar.cmpi .eq arg1 c48_i32
  let v25 : BitVec 32 := Scalar.extui v24
  let c0_i32_9 : BitVec 32 := 0#32
  let v26 : BitVec 1 := Scalar.cmpi .ne v25 c0_i32_9
  v26

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x4096x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![49, 208], ![false, false]⟩

def k2_cond2 (i : grid2.Coords) : BitVec 1 :=
  let arg1 : BitVec 32 := BitVec.ofNat 32 (i 1).val
  let c207_i32 : BitVec 32 := 207#32
  let v23 : BitVec 1 := Scalar.cmpi .eq arg1 c207_i32
  let v24 : BitVec 32 := Scalar.extui v23
  let c0_i32_10 : BitVec 32 := 0#32
  let v25 : BitVec 1 := Scalar.cmpi .ne v24 c0_i32_10
  v25

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x1x4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x4096x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![49], ![false]⟩

def k3_cond2 (i : grid3.Coords) : BitVec 1 :=
  let arg0 : BitVec 32 := BitVec.ofNat 32 (i 0).val
  let c48_i32 : BitVec 32 := 48#32
  let v28 : BitVec 1 := Scalar.cmpi .eq arg0 c48_i32
  let v29 : BitVec 32 := Scalar.extui v28
  let c0_i32_12 : BitVec 32 := 0#32
  let v30 : BitVec 1 := Scalar.cmpi .ne v29 c0_i32_12
  v30

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  ![arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x8 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S1968 : S_.BroadcastsInDim S1968 (![] : Fin 0 → Fin S1968.rank)
  concatenates_S850000_S1968_S851968_d0 : Shape.Concatenates [S850000, S1968] S851968 0
  shapeCasts_S851968_S208x1x4096 : S851968.ShapeCasts S208x1x4096
  bcast_S_S176x128 : S_.BroadcastsInDim S176x128 (![] : Fin 0 → Fin S176x128.rank)
  concatenates_S50000x128_S176x128_S50176x128_d0 : Shape.Concatenates [S50000x128, S176x128] S50176x128 0
  bcast_S_S176 : S_.BroadcastsInDim S176 (![] : Fin 0 → Fin S176.rank)
  concatenates_S50000_S176_S50176_d0 : Shape.Concatenates [S50000, S176] S50176 0
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1024_S1024_0 : ∀ a, (![0] : Fin 1 → Nat) a + S1024.size a ≤ S1024.size a
  h_S1024 : 0 < S1024.numel
  shapeCasts_S1024_S1024 : S1024.ShapeCasts S1024
  shapeCasts_S1024_S1024x1 : S1024.ShapeCasts S1024x1
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  iota_S4096x1024_d1_w32 : S4096x1024.Iotas .tc 32 [1]
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S4096x1 : S4096.ShapeCasts S4096x1
  broadcasts_S4096x1_S4096x1024 : S4096x1.Broadcasts S4096x1024
  natLt_1_32 : 1 < 32
  shapeCasts_S1024x64_S1024x64 : S1024x64.ShapeCasts S1024x64
  broadcasts_S4096x1_S4096x64 : S4096x1.Broadcasts S4096x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  packedbf16_S1x4096x64_S1x4096x64_0_0_0 : (Rect.unit (s := S1x4096x64) ![0, 0, 0] S1x4096x64.size inb_S1x4096x64_S1x4096x64_0_0_0).PackedRows (EltTy.packing .bf16)
  iota_S1024x4096_d0_w32 : S1024x4096.Iotas .tc 32 [0]
  shapeCasts_S4096_S1x4096 : S4096.ShapeCasts S1x4096
  broadcasts_S1x4096_S1024x4096 : S1x4096.Broadcasts S1024x4096
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x1024_d0_w32 : S256x1024.Iotas .tc 32 [0]
  shapeCasts_S1024_S1x1024 : S1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x64 : S256x1.Broadcasts S256x64
  inb_S64x8_S64x8_0_0 : ∀ a, (![0, 0] : Fin 2 → Nat) a + S64x8.size a ≤ S64x8.size a
  h_S64x8 : 0 < S64x8.numel
  inb_S8_S8_0 : ∀ a, (![0] : Fin 1 → Nat) a + S8.size a ≤ S8.size a
  h_S8 : 0 < S8.numel
  shapeCasts_S8_S1x8 : S8.ShapeCasts S1x8
  broadcasts_S1x8_S256x8 : S1x8.Broadcasts S256x8
  inb_S256x8_S256x8_0_0 : ∀ a, (![0, 0] : Fin 2 → Nat) a + S256x8.size a ≤ S256x8.size a
  h_S256x8 : 0 < S256x8.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1024x128_S128x64_S1024x64_1_0_0_1_n_n_wf : DotDims.WF S1024x128 S128x64 S1024x64 [1] [0] [0] [1] [] []
  dot_S4096x1024_S1024x64_S4096x64_1_0_0_1_n_n_wf : DotDims.WF S4096x1024 S1024x64 S4096x64 [1] [0] [0] [1] [] []
  dot_S1024x4096_S4096x64_S1024x64_1_0_0_1_n_n_wf : DotDims.WF S1024x4096 S4096x64 S1024x64 [1] [0] [0] [1] [] []
  dot_S256x1024_S1024x64_S256x64_1_0_0_1_n_n_wf : DotDims.WF S256x1024 S1024x64 S256x64 [1] [0] [0] [1] [] []
  dot_S256x64_S64x8_S256x8_1_0_0_1_n_n_wf : DotDims.WF S256x64 S64x8 S256x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S50176x128.size a
  hwx0_0 : ∀ i : grid0.Coords, EltTy.bits .f32 = 32 ∨ (Rect.block (s := S50176x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S50176.size a
  hwx0_2 : ∀ i : grid0.Coords, EltTy.bits .f32 = 32 ∨ (Rect.block (s := S50176) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S50176x64.size a
  hwx0_3 : ∀ i : grid0.Coords, EltTy.bits .f32 = 32 ∨ (Rect.block (s := S50176x64) S1024x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x4096.size a ≤ S208x1x4096.size a
  hwx1_0 : ∀ i : grid1.Coords, EltTy.bits .i32 = 32 ∨ (Rect.block (s := S208x1x4096) S1x1x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x4096.size a ≤ S208x1x4096.size a
  hwx1_1 : ∀ i : grid1.Coords, EltTy.bits .f32 = 32 ∨ (Rect.block (s := S208x1x4096) S1x1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S50176x64.size a
  hwx1_2 : ∀ i : grid1.Coords, EltTy.bits .f32 = 32 ∨ (Rect.block (s := S50176x64) S1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x64.size a ≤ S208x4096x64.size a
  hwx1_3 : ∀ i : grid1.Coords, EltTy.bits .bf16 = 32 ∨ (Rect.block (s := S208x4096x64) S1x4096x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x4096.size a ≤ S208x1x4096.size a
  hwx2_0 : ∀ i : grid2.Coords, EltTy.bits .i32 = 32 ∨ (Rect.block (s := S208x1x4096) S1x1x4096.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x4096x64.size a ≤ S208x4096x64.size a
  hwx2_1 : ∀ i : grid2.Coords, EltTy.bits .bf16 = 32 ∨ (Rect.block (s := S208x4096x64) S1x4096x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S50176x64.size a
  hwx2_3 : ∀ i : grid2.Coords, EltTy.bits .f32 = 32 ∨ (Rect.block (s := S50176x64) S1024x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S50176x64.size a
  hwx3_0 : ∀ i : grid3.Coords, EltTy.bits .f32 = 32 ∨ (Rect.block (s := S50176x64) S1024x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024.size a ≤ S50176.size a
  hwx3_1 : ∀ i : grid3.Coords, EltTy.bits .i32 = 32 ∨ (Rect.block (s := S50176) S1024.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x8.size a ≤ S64x8.size a
  hwx3_2 : ∀ i : grid3.Coords, EltTy.bits .f32 = 32 ∨ (Rect.block (s := S64x8) S64x8.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S8.size a ≤ S8.size a
  hwx3_3 : ∀ i : grid3.Coords, EltTy.bits .f32 = 32 ∨ (Rect.block (s := S8) S8.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x8.size a ≤ S256x8.size a
  hwx3_4 : ∀ i : grid3.Coords, EltTy.bits .f32 = 32 ∨ (Rect.block (s := S256x8) S256x8.size (cc3_transform_4 i) (hinb3_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf
def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x64_S64x8_S256x8_1_0_0_1_n_n : DotDims S256x64 S64x8 S256x8 where
  lhsContracting := [1]
  rhsContracting := [0]
  lhsNonContracting := [0]
  rhsNonContracting := [1]
  lhsBatch := []
  rhsBatch := []
  wf := dot_S256x64_S64x8_S256x8_1_0_0_1_n_n_wf

abbrev win0_0 : Pipeline.Window sig grid0 :=
  Pipeline.Window.ofSpec (Memref.whole main_v32) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S1x1x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x1x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v29) S1x1x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S1x4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1024x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v37) S1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S64x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S256x8.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x8 : Shape := ⟨2, ![64, 8]⟩
abbrev S8 : Shape := ⟨1, ![8]⟩
abbrev S50000x64 : Shape := ⟨2, ![50000, 64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S256x64 : Shape := ⟨2, ![256, 64]⟩
abbrev S50000x1 : Shape := ⟨2, ![50000, 1]⟩
abbrev S256 : Shape := ⟨1, ![256]⟩
abbrev S256x1 : Shape := ⟨2, ![256, 1]⟩
abbrev S256x8 : Shape := ⟨2, ![256, 8]⟩
abbrev S1x8 : Shape := ⟨2, ![1, 8]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x8, .f32⟩
  | .hbm, ⟨6, _⟩ => ⟨S8, .f32⟩
  | .hbm, ⟨7, _⟩ => ⟨S50000x64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x1, .f32⟩
  | .hbm, ⟨58, _⟩ => ⟨S850000x64, .f32⟩
  | .hbm, ⟨59, _⟩ => ⟨S850000x64, .f32⟩
  | .hbm, ⟨60, _⟩ => ⟨S_, .f32⟩
  | .hbm, ⟨61, _⟩ => ⟨S50000x64, .f32⟩
  | .hbm, ⟨62, _⟩ => ⟨S850000x1, .i32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S_, .f32⟩
  | .hbm, ⟨68, _⟩ => ⟨S50000x64, .f32⟩
  | .hbm, ⟨69, _⟩ => ⟨S50000x64, .f32⟩
  | .hbm, ⟨70, _⟩ => ⟨S_, .f32⟩
  | .hbm, ⟨71, _⟩ => ⟨S256x64, .f32⟩
  | .hbm, ⟨72, _⟩ => ⟨S50000x1, .i32⟩
  | .hbm, ⟨73, _⟩ => ⟨S256x64, .f32⟩
  | .hbm, ⟨74, _⟩ => ⟨S_, .f32⟩
  | .hbm, ⟨75, _⟩ => ⟨S50000, .f32⟩
  | .hbm, ⟨76, _⟩ => ⟨S_, .f32⟩
  | .hbm, ⟨77, _⟩ => ⟨S256, .f32⟩
  | .hbm, ⟨78, _⟩ => ⟨S50000x1, .i32⟩
  | .hbm, ⟨79, _⟩ => ⟨S256, .f32⟩
  | .hbm, ⟨80, _⟩ => ⟨S_, .f32⟩
  | .hbm, ⟨81, _⟩ => ⟨S256, .f32⟩
  | .hbm, ⟨82, _⟩ => ⟨S256, .f32⟩
  | .hbm, ⟨83, _⟩ => ⟨S256x1, .f32⟩
  | .hbm, ⟨84, _⟩ => ⟨S256x64, .f32⟩
  | .hbm, ⟨85, _⟩ => ⟨S256x64, .f32⟩
  | .hbm, ⟨86, _⟩ => ⟨S256x8, .f32⟩
  | .hbm, ⟨87, _⟩ => ⟨S1x8, .f32⟩
  | .hbm, ⟨88, _⟩ => ⟨S256x8, .f32⟩
  | .hbm, ⟨89, _⟩ => ⟨S256x8, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S256x64 : S_.BroadcastsInDim S256x64 (![] : Fin 0 → Fin S256x64.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S8_S1x8_1 : S8.BroadcastsInDim S1x8 (![1] : Fin 1 → Fin S1x8.rank)
  bcast_S1x8_S256x8_0_1 : S1x8.BroadcastsInDim S256x8 (![0, 1] : Fin 2 → Fin S256x8.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x64_S64x8_S256x8_1_0_0_1_n_n_wf : DotDims.WF S256x64 S64x8 S256x8 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x64_S64x8_S256x8_1_0_0_1_n_n : DotDims S256x64 S64x8 S256x8 where
  lhsContracting := [1]
  rhsContracting := [0]
  lhsNonContracting := [0]
  rhsNonContracting := [1]
  lhsBatch := []
  rhsBatch := []
  wf := dot_S256x64_S64x8_S256x8_1_0_0_1_n_n_wf

class Facts : Prop extends Facts₀ where

variable [Facts]
-- ==== Proof.K.Defs.lean ====
/-
  The four kernel regions of the graph-convolution program, as data: per region, each window's block at a grid point
  read off the region-entry contents `V`; what the body leaves in each staging buffer at a point, through the
  kernel's own arithmetic (the named payloads); and, for the three regions that reduce along an inner grid axis, the
  accumulator the kernel carries in scratch from point to point, by recursion on the point:

  * region 0 (dense layer times a row scale): one store per point, no carried state;
  * region 1 (rows gathered by a comparison-mask product): the accumulator is reset at the first tile of each edge
    block (point ≡ 0 mod 49), a mask product is added at every tile, and the block's messages are stored at the last;
  * region 2 (messages scattered by a comparison-mask product): reset at the first edge block of each node tile
    (point ≡ 0 mod 208), a mask product added per edge block, bias and relu stored at the last;
  * region 3 (mean pool and the final dense layer): sums and counts reset at the first node tile, accumulated over
    the 49 tiles, the quotient and the product with the last weights stored at the last tile.
-/
import proofs.«402996_j73263552135827_2_alg».proof.Proof.Gen.Kernel.Launch
import proofs.«402996_j73263552135827_2_alg».proof.Proof.Gen.Kernel.Skeleton
import proofs.«402996_j73263552135827_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The contents of a core's buffers when a region is entered: the parameter every region is stated at. -/
abbrev Entry (F : FTy → Type) : Type := (c : Dev nD) → (b : Ref sig .tc) → Buf (Elt F) ((c : Thread nD τ).loc b)

variable (V : Entry F)

/-! ## Region 0: y = (x · W) scaled row by row -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body stores into the output block at point `t`: the product of the point's row tile with the weights,
    each row scaled by its entry of the scale vector. -/
def out0 (c : Dev nD) (t : Fin cfg0.N) : Vec F S1024x64 .f32 :=
  k0_pay1 (iblk0 V c 0 t) (iblk0 V c 1 t) (iblk0 V c 2 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ _ := Pipeline.ΦA spec0 c
  q _ := fullShare
  owed _ := 0

/-! ## Region 1: the gather as a comparison-mask product, accumulated over the 49 node tiles -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator after point `n`: the mask product of the point's index block against the point's node
    tile, added to zero at the first tile of an edge block and to what the point before left otherwise. -/
def acc1 (c : Dev nD) : (n : ℕ) → n < cfg1.N → Vec F S4096x64 .f32
  | 0, h => k1_pay2 (grid1.coords ⟨0, h⟩) (iblk1 V c 0 ⟨0, h⟩) (iblk1 V c 2 ⟨0, h⟩) k1_pay1
  | n + 1, h => k1_pay2 (grid1.coords ⟨n + 1, h⟩) (iblk1 V c 0 ⟨n + 1, h⟩) (iblk1 V c 2 ⟨n + 1, h⟩)
      (if (n + 1) % 49 = 0 then k1_pay1 else acc1 c n (Nat.lt_of_succ_lt h))

/-- What the body stores into the message block at the last tile: the accumulator, each row scaled by the edge's weight. -/
def out1 (c : Dev nD) (t : Fin cfg1.N) : Vec F S1x4096x64 .bf16 :=
  k1_pay3 (iblk1 V c 1 t) (acc1 V c t.val t.isLt)

/-- The scratch operand of region 1 as a memref. -/
abbrev scM1 : Memref sig .tc .vmem S4096x64 .f32 := Memref.whole cc1_scratch0

/-- The region's invariant before point `n`: at entry the class's (every scoped buffer at anything); afterwards the
    scratch at what the point before left, the other scoped buffers and the generator register at anything. -/
def PhiS1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut spec1 c [cc1_scratch0] ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := PhiS1 V c t.val (Nat.le_of_lt_succ t.isLt)
  q _ := fullShare
  owed _ := 0

/-! ## Region 2: the scatter as a comparison-mask product, accumulated over the 208 edge blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S1024x64 .f32
  | 0, h => k2_pay2 (grid2.coords ⟨0, h⟩) (iblk2 V c 0 ⟨0, h⟩) (iblk2 V c 1 ⟨0, h⟩) k2_pay1
  | n + 1, h => k2_pay2 (grid2.coords ⟨n + 1, h⟩) (iblk2 V c 0 ⟨n + 1, h⟩) (iblk2 V c 1 ⟨n + 1, h⟩)
      (if (n + 1) % 208 = 0 then k2_pay1 else acc2 c n (Nat.lt_of_succ_lt h))

def out2 (c : Dev nD) (t : Fin cfg2.N) : Vec F S1024x64 .f32 :=
  k2_pay3 (acc2 V c t.val t.isLt) (iblk2 V c 2 t)

abbrev scM2 : Memref sig .tc .vmem S1024x64 .f32 := Memref.whole cc2_scratch0

def PhiS2 (c : Dev nD) : (n : ℕ) → n ≤ cfg2.N → sProp 𝕄
  | 0, _ => Pipeline.ΦA spec2 c
  | n + 1, hn => iprop(owns (c : Thread nD τ) scM2 fullShare (acc2 V c n hn)
      ∗ Pipeline.scopedRestBut spec2 c [cc2_scratch0] ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := PhiS2 V c t.val (Nat.le_of_lt_succ t.isLt)
  q _ := fullShare
  owed _ := 0

/-! ## Region 3: per-graph sums and counts over the 49 node tiles, then the mean and the last dense layer -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The per-graph sums after point `n`. -/
def acc3s (c : Dev nD) : (n : ℕ) → n < cfg3.N → Vec F S256x64 .f32
  | 0, h => k3_pay4 (iblk3 V c 1 ⟨0, h⟩) (iblk3 V c 0 ⟨0, h⟩) k3_pay1
  | n + 1, h => k3_pay4 (iblk3 V c 1 ⟨n + 1, h⟩) (iblk3 V c 0 ⟨n + 1, h⟩) (acc3s c n (Nat.lt_of_succ_lt h))

/-- The per-graph counts after point `n`. -/
def acc3c (c : Dev nD) : (n : ℕ) → n < cfg3.N → Vec F S256x1 .f32
  | 0, h => k3_pay5 (iblk3 V c 1 ⟨0, h⟩) k3_pay2
  | n + 1, h => k3_pay5 (iblk3 V c 1 ⟨n + 1, h⟩) (acc3c c n (Nat.lt_of_succ_lt h))

def out3 (c : Dev nD) (t : Fin cfg3.N) : Vec F S256x8 .f32 :=
  k3_pay6 (acc3c V c t.val t.isLt) (acc3s V c t.val t.isLt) (iblk3 V c 2 t) (iblk3 V c 3 t)

abbrev scM3s : Memref sig .tc .vmem S256x64 .f32 := Memref.whole cc3_scratch0
abbrev scM3c : Memref sig .tc .vmem S256x1 .f32 := Memref.whole cc3_scratch1

def PhiS3 (c : Dev nD) : (n : ℕ) → n ≤ cfg3.N → sProp 𝕄
  | 0, _ => Pipeline.ΦA spec3 c
  | n + 1, hn => iprop(owns (c : Thread nD τ) scM3s fullShare (acc3s V c n hn)
      ∗ owns (c : Thread nD τ) scM3c fullShare (acc3c V c n hn)
      ∗ Pipeline.scopedRestBut spec3 c [cc3_scratch0, cc3_scratch1] ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 V c t
  Φ t := PhiS3 V c t.val (Nat.le_of_lt_succ t.isLt)
  q _ := fullShare
  owed _ := 0

end Cert.Kernel.Hand

end
-- ==== Proof.K.R0.lean ====
/-
  Region 0: the body obligation of its pipeline at every grid point, for the proof data of Defs.lean.
-/
import proofs.«402996_j73263552135827_2_alg».proof.Proof.K.Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Entry F)

/-! ## What the body finds in the input windows' staging buffers -/

/-- The proof data's arrays are the region-entry contents. -/
theorem A_eq0 (c : Dev nD) (w : Fin cfg0.W) : (dat0 V c).A w = V c (Pipeline.arrRef spec0 w) := by
  dsimp only [dat0]

/-- What the body leaves, window by window: each input's block in place, the output at the scaled product. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

/-- The row tile of the features: its staging buffer holds the point's tile, fetched at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The weight matrix: fetched at the first point only; its block index never moves, so the buffer still holds the
    one block at every later point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The slice of the scale vector: fetched at every point. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body's one store -/

/-- The whole output tile as a rectangle: origin zero, the tile's own extents. -/
abbrev rTile0 : Rect S1024x64 := Rect.unit (s := S1024x64) ![0, 0] S1024x64.size inb_S1024x64_S1024x64_0_0

/-- The origins of the body's rectangles are zero. -/
theorem origin2_zero : (![0, 0] : Fin 2 → Nat) = fun _ => 0 := by
  funext a; fin_cases a <;> rfl
theorem origin1_zero : (![0] : Fin 1 → Nat) = fun _ => 0 := by
  funext a; fin_cases a; rfl

/-- The one store tiles the buffer, so it covers it. -/
theorem coverTile0 (p : Vec F S1024x64 .f32) (y : S1024x64.Idx) :
    ∃ pc ∈ ([⟨rTile0, p⟩] : List (View.Piece (Elt F) S1024x64 .f32)), y ∈ pc.1.set :=
  View.cover_of_tiled [⟨rTile0, p⟩] S1024x64.size (by rfl) y

/-! ## The body's triple -/

set_option maxHeartbeats 1000000 in
/-- The kernel on whole staging memrefs — the three inputs' at read contents `x`, `wt`, `sc`, the output's at
    anything — runs to the continuation holding the inputs' as they were and the output's at the scaled product
    `k0_pay1 x wt sc`: three whole loads, a load of the output whose value is dropped, one store through the whole tile. -/
theorem sound_kernel0 (c : Dev nD) (E : Set ℕ) (i : grid0.Coords)
    (arg1 : Memref sig .tc .vmem S1024x128 .f32) (harg1 : arg1.IsWhole)
    (arg2 : Memref sig .tc .vmem S128x64 .f32) (harg2 : arg2.IsWhole)
    (arg3 : Memref sig .tc .vmem S1024 .f32) (harg3 : arg3.IsWhole)
    (arg4 : Memref sig .tc .vmem S1024x64 .f32) (harg4 : arg4.IsWhole)
    (x : Vec F S1024x128 .f32) (wt : Vec F S128x64 .f32) (sc : Vec F S1024 .f32) (K : PUnit → sProp 𝕄) :
    iprop(owns (c : Thread nD τ) arg1 fullShare x ∗ owns (c : Thread nD τ) arg2 fullShare wt
        ∗ owns (c : Thread nD τ) arg3 fullShare sc ∗ (∃ d, owns (c : Thread nD τ) arg4 fullShare d)
        ∗ (iprop(owns (c : Thread nD τ) arg1 fullShare x ∗ owns (c : Thread nD τ) arg2 fullShare wt
            ∗ owns (c : Thread nD τ) arg3 fullShare sc ∗ owns (c : Thread nD τ) arg4 fullShare (k0_pay1 x wt sc)) -∗ K ⟨⟩))
      ⊢ wp frame (wpE (defs₀ (F := F)) Variants.none c none) E (cc0__lin_scale_kernel i arg1 harg1 arg2 harg2 arg3 harg3 arg4 harg4) K := by
  simp only [cc0__lin_scale_kernel_eq_skeleton]; unfold cc0__lin_scale_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (coverTile0 _), View.canon_unit_zero origin2_zero]
  simp only [View.readAt_eq_ld, View.ld_unit_zero (S := S1024x128) origin2_zero,
    View.ld_unit_zero (S := S128x64) origin2_zero, View.ld_unit_zero (S := S1024) origin1_zero]

/-! ## The body obligation, at a generic point -/

/-- What the body is called with at point `t`: the invariant, the core's dues, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same invariant and dues, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three inputs' buffers hold their blocks, so the kernel's triple applies at those
    blocks and leaves the output's buffer at the scaled product of them; the invariant and the dues are not read. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold out0
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1: the body obligation of its pipeline at every grid point, for the proof data of Defs.lean.
-/
import proofs.«402996_j73263552135827_2_alg».proof.Proof.K.Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Entry F)

/-! The grid is 208 edge blocks by 49 node tiles, the node tile the fast axis: point `t` has inner coordinate `t % 49`.
    At a point the body zeroes the scratch accumulator if the inner coordinate is 0, adds the mask product of the
    point's index block against the point's node tile to the scratch, and, if the inner coordinate is 48, stores the
    accumulator scaled row by row by the edge weights into the message block. So a point is of one of three kinds
    (49 > 1: no point is both first and last of its edge block), and the scratch after point `t` is the recursion
    `acc1`: over zero at a first tile, over what the point before left otherwise. -/

/-- The proof data's arrays are the region-entry contents. -/
theorem A_eq1 (c : Dev nD) (w : Fin cfg1.W) : (dat1 V c).A w = V c (Pipeline.arrRef spec1 w) := by
  dsimp only [dat1]

/-! ## Where a point lies in its edge block -/

/-- The body's first conditional, from the grid coordinates: the inner coordinate (the node tile) is 0. -/
abbrev first1 (i : grid1.Coords) : Prop :=
  (Scalar.cmpi .ne (Scalar.extui (Scalar.cmpi .eq (BitVec.ofNat 32 (i 1).val) 0#32)) 0#32) = 1#1
/-- The body's second conditional: the inner coordinate is 48, the last node tile. -/
abbrev last1 (i : grid1.Coords) : Prop := k1_cond2 i = 1#1

/-- The inner axis is the fast one: the node tile of point `t` is `t % 49`. -/
theorem inner1 (t : Fin cfg1.N) : (grid1.coords t 1).val = t.val % 49 := by
  have hs : grid1.stride 1 = 1 := by decide
  show t.val / grid1.stride 1 % 49 = t.val % 49
  rw [hs, Nat.div_one]

/-- Both conditionals compare the inner coordinate, a number below 49, with a constant: decided over the 49 tiles. -/
theorem first1_iff (i : grid1.Coords) : first1 i ↔ (i 1).val = 0 :=
  (by decide +kernel : ∀ j : Fin 49,
    (Scalar.cmpi .ne (Scalar.extui (Scalar.cmpi .eq (BitVec.ofNat 32 j.val) 0#32)) 0#32) = 1#1 ↔ j.val = 0) (i 1)
theorem last1_iff (i : grid1.Coords) : last1 i ↔ (i 1).val = 48 :=
  (by decide +kernel : ∀ j : Fin 49,
    (Scalar.cmpi .ne (Scalar.extui (Scalar.cmpi .eq (BitVec.ofNat 32 j.val) 48#32)) 0#32) = 1#1 ↔ j.val = 48) (i 1)

theorem hfirst1 (t : Fin cfg1.N) : first1 (grid1.coords t) ↔ t.val % 49 = 0 := by
  rw [first1_iff, inner1]
theorem hlast1 (t : Fin cfg1.N) : last1 (grid1.coords t) ↔ t.val % 49 = 48 := by
  rw [last1_iff, inner1]

/-- The message window is idle exactly where the second conditional fails, -/
theorem idle1_3_of (i : grid1.Coords) (h : ¬last1 i) : cfg1.idle 3 i = true := by
  show (!(k1_cond2 i == 1#1)) = true
  rw [Bool.not_eq_true', beq_eq_false_iff_ne]; exact h
/-- live where it holds, -/
theorem live1_3_of (i : grid1.Coords) (h : last1 i) : cfg1.idle 3 i = false := by
  show (!(k1_cond2 i == 1#1)) = false
  rw [h]; rfl
/-- and not written back off the last tile. -/
theorem noFlush1_3 (t : Fin cfg1.N) (h : ¬t.val % 49 = 48) : (cfg1.win 3).flush t = false :=
  Bool.eq_false_iff.mpr fun hf => h ((flush1_3 t).mp hf)

/-! ## The accumulator, unfolded at a point -/

/-- At the first tile of an edge block the accumulator is the point's mask product over zero. -/
theorem acc1_first (c : Dev nD) (t : Fin cfg1.N) (h : t.val % 49 = 0) :
    acc1 V c t.val t.isLt = k1_pay2 (grid1.coords t) (iblk1 V c 0 t) (iblk1 V c 2 t) k1_pay1 := by
  obtain ⟨n, hn⟩ := t
  cases n with
  | zero => rfl
  | succ n =>
    show k1_pay2 _ _ _ (if (n + 1) % 49 = 0 then k1_pay1 else acc1 V c n _) = _
    rw [if_pos h]

/-- At any other tile it is the point's mask product over what the point before left. -/
theorem acc1_next (c : Dev nD) (t : Fin cfg1.N) (h : ¬t.val % 49 = 0) :
    acc1 V c t.val t.isLt = k1_pay2 (grid1.coords t) (iblk1 V c 0 t) (iblk1 V c 2 t)
      (acc1 V c (t.val - 1) (Nat.lt_of_le_of_lt (Nat.sub_le _ _) t.isLt)) := by
  obtain ⟨n, hn⟩ := t
  cases n with
  | zero => exact absurd (Nat.zero_mod _) h
  | succ n =>
    show k1_pay2 _ _ _ (if (n + 1) % 49 = 0 then k1_pay1 else acc1 V c n _) = _
    rw [if_neg h]
    try rfl

/-! ## The invariant, unfolded -/

theorem PhiS1_zero (c : Dev nD) (n : ℕ) (h : n ≤ cfg1.N) (hz : n = 0) : PhiS1 V c n h = Pipeline.ΦA spec1 c := by
  subst hz; rfl

/-- After point `n`: the scratch at that point's accumulator. -/
theorem PhiS1_succ (c : Dev nD) (n : ℕ) (hn : n < cfg1.N) :
    PhiS1 V c (n + 1) hn = iprop(owns (c : Thread nD τ) scM1 fullShare (acc1 V c n hn)
      ∗ Pipeline.scopedRestBut spec1 c [cc1_scratch0] ∗ (∃ r, prngReg c r)) := rfl

/-- Before a point that is not the first: the scratch at what the point before left. -/
theorem PhiS1_pos (c : Dev nD) (n : ℕ) (h : n ≤ cfg1.N) (hz : n ≠ 0) :
    PhiS1 V c n h = iprop(owns (c : Thread nD τ) scM1 fullShare (acc1 V c (n - 1) (by omega))
      ∗ Pipeline.scopedRestBut spec1 c [cc1_scratch0] ∗ (∃ r, prngReg c r)) := by
  cases n with
  | zero => exact absurd rfl hz
  | succ n => rfl

/-- The class's invariant with the scratch operand set apart as a memref owned at some contents. -/
theorem PhiA1_eq (c : Dev nD) :
    (Pipeline.ΦA spec1 c : sProp 𝕄)
      = iprop(iprop(iprop(∃ d, owns (c : Thread nD τ) scM1 fullShare d) ∗ Pipeline.scopedRestBut spec1 c [cc1_scratch0])
          ∗ (∃ r, prngReg c r)) := by
  unfold Pipeline.ΦA; rw [scopedRest1_split]; simp only [scM1, owns_whole]; try rfl

/-- Before any point the invariant holds the scratch at some contents: its named contents forgotten. -/
theorem PhiS1_forget (c : Dev nD) (n : ℕ) (h : n ≤ cfg1.N) :
    PhiS1 V c n h ⊢ iprop(iprop(∃ d, owns (c : Thread nD τ) scM1 fullShare d)
      ∗ Pipeline.scopedRestBut spec1 c [cc1_scratch0] ∗ (∃ r, prngReg c r)) := by
  by_cases hz : n = 0
  · rw [PhiS1_zero V c n h hz, PhiA1_eq]
    iintro ⟨⟨HS, Hr⟩, Hg⟩
    isplitl [HS]; · iexact HS
    isplitl [Hr]; · iexact Hr
    iexact Hg
  · rw [PhiS1_pos V c n h hz]
    iintro ⟨HS, Hr, Hg⟩
    isplitl [HS]; · iexists _; iexact HS
    isplitl [Hr]; · iexact Hr
    iexact Hg

/-! ## The body's three runs -/

theorem zeros2 : (![0, 0] : Fin 2 → Nat) = fun _ => 0 := by funext a; fin_cases a <;> rfl
theorem zeros3 : (![0, 0, 0] : Fin 3 → Nat) = fun _ => 0 := by funext a; fin_cases a <;> rfl

set_option maxHeartbeats 1000000 in
/-- A first tile that is not the last: the scratch, whatever it held, ends at the mask product over zero (the later
    store covers the reset, which the accumulate's load read back); the message buffer is not touched. -/
theorem run1_first (c : Dev nD) (E : Set ℕ) (i : grid1.Coords)
    (arg2 : Memref sig .tc .vmem S1x1x4096 .i32) (harg2 : arg2.IsWhole) (arg3 : Memref sig .tc .vmem S1x1x4096 .f32) (harg3 : arg3.IsWhole)
    (arg4 : Memref sig .tc .vmem S1024x64 .f32) (harg4 : arg4.IsWhole) (arg5 : Memref sig .tc .vmem S1x4096x64 .bf16) (harg5 : arg5.IsWhole)
    (arg6 : Memref sig .tc .vmem S4096x64 .f32) (harg6 : arg6.IsWhole)
    (hc0 : first1 i) (hc1 : ¬last1 i)
    (x0 : Vec F S1x1x4096 .i32) (x1 : Vec F S1x1x4096 .f32) (x2 : Vec F S1024x64 .f32) (xi3 : Vec F S1x4096x64 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k1_pay2 i x0 x2 k1_pay1)) -∗ K ⟨⟩))
      ⊢ wp frame (wpE (defs₀ (F := F)) Variants.none c none) E (cc1__gather_kernel i arg2 harg2 arg3 harg3 arg4 harg4 arg5 harg5 arg6 harg6) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (fun y => ⟨_, List.mem_cons_self, View.mem_set_unit_zero zeros2 inb_S4096x64_S4096x64_0_0 y⟩)]
  rw [View.canon_cons_unit_zero (S := S4096x64) zeros2]
  simp only [View.readAt_eq_ld, harg2.read_unread, harg4.read_unread, View.ld_unit_zero (S := S1x1x4096) zeros3,
    View.ld_unit_zero (S := S1024x64) zeros2, View.readCov_unit_zero (S := S4096x64) _ zeros2]

set_option maxHeartbeats 1000000 in
/-- A tile neither first nor last: the scratch at `xs` ends at the mask product over `xs`; the message buffer is
    not touched. -/
theorem run1_mid (c : Dev nD) (E : Set ℕ) (i : grid1.Coords)
    (arg2 : Memref sig .tc .vmem S1x1x4096 .i32) (harg2 : arg2.IsWhole) (arg3 : Memref sig .tc .vmem S1x1x4096 .f32) (harg3 : arg3.IsWhole)
    (arg4 : Memref sig .tc .vmem S1024x64 .f32) (harg4 : arg4.IsWhole) (arg5 : Memref sig .tc .vmem S1x4096x64 .bf16) (harg5 : arg5.IsWhole)
    (arg6 : Memref sig .tc .vmem S4096x64 .f32) (harg6 : arg6.IsWhole)
    (hc0 : ¬first1 i) (hc1 : ¬last1 i)
    (x0 : Vec F S1x1x4096 .i32) (x1 : Vec F S1x1x4096 .f32) (x2 : Vec F S1024x64 .f32) (xi3 : Vec F S1x4096x64 .bf16)
    (xs : Vec F S4096x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k1_pay2 i x0 x2 xs)) -∗ K ⟨⟩))
      ⊢ wp frame (wpE (defs₀ (F := F)) Variants.none c none) E (cc1__gather_kernel i arg2 harg2 arg3 harg3 arg4 harg4 arg5 harg5 arg6 harg6) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (fun y => ⟨_, List.mem_cons_self, View.mem_set_unit_zero zeros2 inb_S4096x64_S4096x64_0_0 y⟩)]
  rw [View.canon_cons_unit_zero (S := S4096x64) zeros2]
  simp only [View.readAt_eq_ld, harg2.read_unread, harg4.read_unread, harg6.read_unread, View.ld_unit_zero (S := S1x1x4096) zeros3,
    View.ld_unit_zero (S := S1024x64) zeros2, View.ld_unit_zero (S := S4096x64) zeros2]

set_option maxHeartbeats 1000000 in
/-- A last tile (never a first): the scratch at `xs` ends at the mask product over `xs`, and the message buffer,
    whatever it held, at that accumulator scaled by the weights. -/
theorem run1_last (c : Dev nD) (E : Set ℕ) (i : grid1.Coords)
    (arg2 : Memref sig .tc .vmem S1x1x4096 .i32) (harg2 : arg2.IsWhole) (arg3 : Memref sig .tc .vmem S1x1x4096 .f32) (harg3 : arg3.IsWhole)
    (arg4 : Memref sig .tc .vmem S1024x64 .f32) (harg4 : arg4.IsWhole) (arg5 : Memref sig .tc .vmem S1x4096x64 .bf16) (harg5 : arg5.IsWhole)
    (arg6 : Memref sig .tc .vmem S4096x64 .f32) (harg6 : arg6.IsWhole)
    (hc0 : ¬first1 i) (hc1 : last1 i)
    (x0 : Vec F S1x1x4096 .i32) (x1 : Vec F S1x1x4096 .f32) (x2 : Vec F S1024x64 .f32)
    (xs : Vec F S4096x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 x1 (k1_pay2 i x0 x2 xs))
            ∗ owns (c : Thread nD τ) arg6 fullShare (k1_pay2 i x0 x2 xs)) -∗ K ⟨⟩))
      ⊢ wp frame (wpE (defs₀ (F := F)) Variants.none c none) E (cc1__gather_kernel i arg2 harg2 arg3 harg3 arg4 harg4 arg5 harg5 arg6 harg6) K := by
  simp only [cc1__gather_kernel_eq_skeleton]; unfold cc1__gather_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_cons_self, View.mem_set_unit_zero zeros3 inb_S1x4096x64_S1x4096x64_0_0_0 y⟩)]
    rw [View.canon_cons_unit_zero (S := S1x4096x64) zeros3]
    simp only [View.readAt_eq_ld, harg2.read_unread, harg3.read_unread, harg4.read_unread, harg6.read_unread,
      View.ld_unit_zero (S := S1x1x4096) zeros3, View.ld_unit_zero (S := S1024x64) zeros2, View.ld_unit_zero (S := S4096x64) zeros2,
      View.readCov_unit_zero (S := S4096x64) _ zeros2]
  iexists _; isplitr
  swap; · iexact HS
  ipureintro
  sl_unfold_words
  rw [View.read_writes_eq_canon _ _ _ (fun y => ⟨_, List.mem_cons_self, View.mem_set_unit_zero zeros2 inb_S4096x64_S4096x64_0_0 y⟩)]
  rw [View.canon_cons_unit_zero (S := S4096x64) zeros2]
  simp only [View.readAt_eq_ld, harg2.read_unread, harg4.read_unread, harg6.read_unread, View.ld_unit_zero (S := S1x1x4096) zeros3,
    View.ld_unit_zero (S := S1024x64) zeros2, View.ld_unit_zero (S := S4096x64) zeros2]

/-! ## The proof data at a point -/

/-- The invariant at a point's start, restated at the point's number. -/
theorem Phi1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

/-- An input window's current staging buffer holds its block at every point, fetched there or not: where it is not
    fetched (the source words and the weights, off the first tile of an edge block) its block index has not moved
    and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; `t % 49` says which kind of point it is. At a first
    tile the invariant hands over the scratch at anything and takes it back at the mask product over zero; at a later
    tile it hands it over at what the point before left and takes it back at the mask product over that: in both
    cases the accumulator's recursion at `t`. The message buffer is handed back as found off the last tile (the window
    is idle and not written back there) and at the scaled accumulator on it. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  rw [Phi1_castSucc V c t]
  have hN : t.val < 10192 := lt_of_lt_of_eq t.isLt (show cfg1.N = 10192 from N_1)
  by_cases h0 : t.val % 49 = 0
  · have h1 : ¬t.val % 49 = 48 := by omega
    rw [Dat.leavesExact_idle (dat1 V c) 3 t (idle1_3_of _ (fun h => h1 ((hlast1 t).mp h))) (noFlush1_3 t h1)]
    rw [acc1_first V c t h0]
    iintro ⟨HΦ, Ho, ⟨%d0, H0⟩, ⟨%d1, H1⟩, ⟨%d2, H2⟩, ⟨%d3, H3⟩⟩
    icases (PhiS1_forget V c t.val (Nat.le_of_lt t.isLt)) $$ HΦ with ⟨HS, Hr, Hg⟩
    iapply (run1_first c Set.univ (grid1.coords t) _ _ _ _ _ _ _ _ _ _ ((hfirst1 t).mpr h0) (fun h => h1 ((hlast1 t).mp h))
      (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [PhiS1_pos V c _ _ hz, acc1_next V c t h0]
    by_cases h1 : t.val % 49 = 48
    · rw [show (dat1 V c).leavesExact 3 t = owns (c : Thread nD τ) (st1_3 t) fullShare ((dat1 V c).after 3 t) from by
        unfold Dat.leavesExact; rw [live1_3_of _ ((hlast1 t).mpr h1)], after1_3]
      unfold out1
      rw [acc1_next V c t h0]
      iintro ⟨⟨HS, Hr, Hg⟩, Ho, ⟨%d0, H0⟩, ⟨%d1, H1⟩, ⟨%d2, H2⟩, ⟨%d3, H3⟩⟩
      iapply (run1_last c Set.univ (grid1.coords t) _ _ _ _ _ _ _ _ _ _ (fun h => h0 ((hfirst1 t).mp h)) ((hlast1 t).mpr h1)
        (iblk1 V c 0 t) (iblk1 V c 1 t) (iblk1 V c 2 t) (acc1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat1 V c) 3 t (idle1_3_of _ (fun h => h1 ((hlast1 t).mp h))) (noFlush1_3 t h1)]
      iintro ⟨⟨HS, Hr, Hg⟩, Ho, ⟨%d0, H0⟩, ⟨%d1, H1⟩, ⟨%d2, H2⟩, ⟨%d3, H3⟩⟩
      iapply (run1_mid c Set.univ (grid1.coords t) _ _ _ _ _ _ _ _ _ _ (fun h => h0 ((hfirst1 t).mp h)) (fun h => h1 ((hlast1 t).mp h))
        (iblk1 V c 0 t) (iblk1 V c 1 t) (iblk1 V c 2 t) ((dat1 V c).before 3 t d3)
        (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's invariant back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  refine (PhiS1_forget V c _ _).trans ?_
  iintro ⟨HS, Hr, Hg⟩
  isplitl [HS Hr]
  · isplitl [HS]; · iexact HS
    iexact Hr
  iexact Hg

end Cert.Kernel.Hand

end
-- ==== Proof.K.R2.lean ====
/-
  Region 2: the body obligation of its pipeline at every grid point, for the proof data of Defs.lean.
-/
import proofs.«402996_j73263552135827_2_alg».proof.Proof.K.Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Entry F)

/-- The proof data's arrays are the region-entry contents. -/
theorem A_eq2 (c : Dev nD) (w : Fin cfg2.W) : (dat2 V c).A w = V c (Pipeline.arrRef spec2 w) := by
  dsimp only [dat2]

/-! ## The branch conditions of the body, in closed form over the grid -/

/-- The body resets the accumulator where the inner coordinate (the edge block) is zero. -/
abbrev cond2_0 (i : grid2.Coords) : Prop :=
  (Scalar.cmpi .ne (Scalar.extui (Scalar.cmpi .eq (BitVec.ofNat 32 (i 1).val) 0#32)) 0#32) = 1#1
/-- It stores the output block where the inner coordinate is the last, 207. -/
abbrev cond2_1 (i : grid2.Coords) : Prop := k2_cond2 i = 1#1

/-- The reset happens at the points ≡ 0 (mod 208): the first edge block of a node tile. -/
theorem hcond2_0 : ∀ t : Fin cfg2.N, cond2_0 (grid2.coords t) ↔ t.val % 208 = 0 :=
  (by decide +kernel : ∀ t : Fin grid2.N, cond2_0 (grid2.coords t) ↔ t.val % 208 = 0)
/-- The output store happens at the points ≡ 207 (mod 208): the last edge block of a node tile. -/
theorem hcond2_1 : ∀ t : Fin cfg2.N, cond2_1 (grid2.coords t) ↔ t.val % 208 = 207 :=
  (by decide +kernel : ∀ t : Fin grid2.N, cond2_1 (grid2.coords t) ↔ t.val % 208 = 207)

/-! ## Where the windows are idle -/

/-- The three inputs are never idle. -/
theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
/-- The output is idle exactly where the body does not store it, -/
theorem idleAt2_3 (t : Fin cfg2.N) (h : ¬cond2_1 (grid2.coords t)) : cfg2.idle 3 (grid2.coords t) = true := by
  show (!(k2_cond2 (grid2.coords t) == 1#1)) = true
  rw [Bool.not_eq_true', beq_eq_false_iff_ne]; exact h
/-- live where it does, -/
theorem liveAt2_3 (t : Fin cfg2.N) (h : cond2_1 (grid2.coords t)) : cfg2.idle 3 (grid2.coords t) = false := by
  show (!(k2_cond2 (grid2.coords t) == 1#1)) = false
  rw [Bool.not_eq_false', beq_iff_eq]; exact h
/-- and not written back where the point is not the last of its node tile. -/
theorem noFlush2_3 (t : Fin cfg2.N) (h : ¬t.val % 208 = 207) : (cfg2.win 3).flush t = false := by
  rw [← Bool.not_eq_true]; exact fun hf => h ((flush2_3 t).mp hf)

/-! ## The accumulator, point by point -/

/-- At a point that opens a node tile the mask product is added to zero. -/
theorem acc2_reset (c : Dev nD) (t : Fin cfg2.N) (h0 : t.val % 208 = 0) :
    acc2 V c t.val t.isLt = k2_pay2 (grid2.coords t) (iblk2 V c 0 t) (iblk2 V c 1 t) k2_pay1 := by
  obtain ⟨n, hn⟩ := t
  cases n with
  | zero => rfl
  | succ n =>
    exact congrArg (k2_pay2 (grid2.coords ⟨n + 1, hn⟩) (iblk2 V c 0 ⟨n + 1, hn⟩) (iblk2 V c 1 ⟨n + 1, hn⟩)) (if_pos h0)

/-- At any other point it is added to what the point before left. -/
theorem acc2_step (c : Dev nD) (t : Fin cfg2.N) (h0 : ¬t.val % 208 = 0) :
    acc2 V c t.val t.isLt = k2_pay2 (grid2.coords t) (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h0
  | succ n =>
    exact congrArg (k2_pay2 (grid2.coords ⟨n + 1, hn⟩) (iblk2 V c 0 ⟨n + 1, hn⟩) (iblk2 V c 1 ⟨n + 1, hn⟩)) (if_neg h0)

/-! ## The invariant, point by point -/

theorem PhiS2_zero (c : Dev nD) (n : ℕ) (h : n ≤ cfg2.N) (hz : n = 0) : PhiS2 V c n h = Pipeline.ΦA spec2 c := by
  subst hz; rfl

/-- After point `n`: the scratch at that point's accumulator. -/
theorem PhiS2_succ (c : Dev nD) (n : ℕ) (hn : n < cfg2.N) :
    PhiS2 V c (n + 1) hn = iprop(owns (c : Thread nD τ) scM2 fullShare (acc2 V c n hn)
      ∗ Pipeline.scopedRestBut spec2 c [cc2_scratch0] ∗ (∃ r, prngReg c r)) := rfl

/-- Before a point that is not the first: the scratch at the accumulator of the point before. -/
theorem PhiS2_pos (c : Dev nD) (n : ℕ) (h : n ≤ cfg2.N) (hz : n ≠ 0) :
    PhiS2 V c n h = iprop(owns (c : Thread nD τ) scM2 fullShare (acc2 V c (n - 1) (by omega))
      ∗ Pipeline.scopedRestBut spec2 c [cc2_scratch0] ∗ (∃ r, prngReg c r)) := by
  cases n with
  | zero => exact absurd rfl hz
  | succ n => rfl

/-- The class's invariant with the scratch split off as a memref owned at some contents. -/
theorem PhiA2_eq (c : Dev nD) :
    (Pipeline.ΦA spec2 c : sProp 𝕄)
      = iprop(iprop(iprop(∃ d, owns (c : Thread nD τ) scM2 fullShare d)
          ∗ Pipeline.scopedRestBut spec2 c [cc2_scratch0]) ∗ (∃ r, prngReg c r)) := by
  unfold Pipeline.ΦA; rw [scopedRest2_split]; simp only [scM2, owns_whole]; try rfl

/-- The invariant at a point's start, restated at the point's number. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## What the body finds in and leaves in the windows' buffers -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

/-- An input window's current buffer holds its block at every point, fetched there or not: unfetched, the
    block index has not moved since the fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body's accesses: every load and store is of a whole buffer -/

/-- The whole scratch (and the whole output block): the rectangle at the origin of the buffer's own extents. -/
abbrev rAcc : Rect S1024x64 := Rect.unit (s := S1024x64) ![0, 0] S1024x64.size inb_S1024x64_S1024x64_0_0
/-- The origins of the four whole-buffer rectangles are zero, -/
theorem hzAcc : (![0, 0] : Fin S1024x64.rank → Nat) = fun _ => 0 := by funext a; fin_cases a <;> rfl
theorem hzDst : (![0, 0, 0] : Fin S1x1x4096.rank → Nat) = fun _ => 0 := by funext a; fin_cases a <;> rfl
theorem hzMsg : (![0, 0, 0] : Fin S1x4096x64.rank → Nat) = fun _ => 0 := by funext a; fin_cases a <;> rfl
theorem hzBias : (![0] : Fin S64.rank → Nat) = fun _ => 0 := by funext a; fin_cases a <;> rfl
/-- so a store through the scratch's covers every index, whatever was stored before. -/
theorem coverAcc (p : Vec F S1024x64 .f32) (L : List (View.Piece (Elt F) S1024x64 .f32)) (y : S1024x64.Idx) :
    ∃ pc ∈ ((⟨rAcc, p⟩ : View.Piece (Elt F) S1024x64 .f32) :: L), y ∈ pc.1.set :=
  ⟨_, List.mem_cons_self .., View.mem_set_unit_zero (S := S1024x64) hzAcc inb_S1024x64_S1024x64_0_0 y⟩

/-! ## The body's run, case by case, on any whole memrefs -/

set_option maxHeartbeats 1000000 in
/-- CASE A, the first edge block of a node tile: whatever the scratch held, the body zeroes it, adds the block's mask
    product and leaves the output's buffer as it found it. -/
theorem run2_A (c : Dev nD) (i : grid2.Coords)
    (arg2 : Memref sig .tc .vmem S1x1x4096 .i32) (harg2 : arg2.IsWhole) (arg3 : Memref sig .tc .vmem S1x4096x64 .bf16) (harg3 : arg3.IsWhole)
    (arg4 : Memref sig .tc .vmem S64 .f32) (harg4 : arg4.IsWhole) (arg5 : Memref sig .tc .vmem S1024x64 .f32) (harg5 : arg5.IsWhole)
    (arg6 : Memref sig .tc .vmem S1024x64 .f32) (harg6 : arg6.IsWhole) (hc0 : cond2_0 i) (hc1 : ¬cond2_1 i) (xi3 : Vec F S1024x64 .f32)
    (x0 : Vec F S1x1x4096 .i32) (x1 : Vec F S1x4096x64 .bf16) (x2 : Vec F S64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k2_pay2 i x0 x1 k2_pay1)) -∗ K ⟨⟩))
      ⊢ wp frame (wpE (defs₀ (F := F)) Variants.none c none) E (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (coverAcc _ _), View.canon_cons_unit_zero (S := S1024x64) hzAcc]
  simp only [View.readAt_eq_ld, harg2.read_unread, harg3.read_unread, harg4.read_unread, harg6.read_unread,
    View.ld_unit_zero (S := S1x1x4096) hzDst, View.ld_unit_zero (S := S1x4096x64) hzMsg, View.ld_unit_zero (S := S64) hzBias,
    View.ld_unit_zero (S := S1024x64) hzAcc, View.readCov_unit_zero (S := S1024x64) _ hzAcc]

set_option maxHeartbeats 1000000 in
/-- CASE B, an inner edge block: the body adds the block's mask product to what the scratch held and leaves the
    output's buffer as it found it. -/
theorem run2_B (c : Dev nD) (i : grid2.Coords)
    (arg2 : Memref sig .tc .vmem S1x1x4096 .i32) (harg2 : arg2.IsWhole) (arg3 : Memref sig .tc .vmem S1x4096x64 .bf16) (harg3 : arg3.IsWhole)
    (arg4 : Memref sig .tc .vmem S64 .f32) (harg4 : arg4.IsWhole) (arg5 : Memref sig .tc .vmem S1024x64 .f32) (harg5 : arg5.IsWhole)
    (arg6 : Memref sig .tc .vmem S1024x64 .f32) (harg6 : arg6.IsWhole) (hc0 : ¬cond2_0 i) (hc1 : ¬cond2_1 i) (xi3 : Vec F S1024x64 .f32) (xs : Vec F S1024x64 .f32)
    (x0 : Vec F S1x1x4096 .i32) (x1 : Vec F S1x4096x64 .bf16) (x2 : Vec F S64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k2_pay2 i x0 x1 xs)) -∗ K ⟨⟩))
      ⊢ wp frame (wpE (defs₀ (F := F)) Variants.none c none) E (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (coverAcc _ _), View.canon_cons_unit_zero (S := S1024x64) hzAcc]
  simp only [View.readAt_eq_ld, harg2.read_unread, harg3.read_unread, harg4.read_unread, harg6.read_unread,
    View.ld_unit_zero (S := S1x1x4096) hzDst, View.ld_unit_zero (S := S1x4096x64) hzMsg, View.ld_unit_zero (S := S64) hzBias,
    View.ld_unit_zero (S := S1024x64) hzAcc, View.readCov_unit_zero (S := S1024x64) _ hzAcc]

set_option maxHeartbeats 1000000 in
/-- CASE C, the last edge block of a node tile: the body adds the block's mask product to what the scratch held, then
    stores the sum with the bias added and clamped at zero over the whole output block, whatever that held. -/
theorem run2_C (c : Dev nD) (i : grid2.Coords)
    (arg2 : Memref sig .tc .vmem S1x1x4096 .i32) (harg2 : arg2.IsWhole) (arg3 : Memref sig .tc .vmem S1x4096x64 .bf16) (harg3 : arg3.IsWhole)
    (arg4 : Memref sig .tc .vmem S64 .f32) (harg4 : arg4.IsWhole) (arg5 : Memref sig .tc .vmem S1024x64 .f32) (harg5 : arg5.IsWhole)
    (arg6 : Memref sig .tc .vmem S1024x64 .f32) (harg6 : arg6.IsWhole) (hc0 : ¬cond2_0 i) (hc1 : cond2_1 i) (xs : Vec F S1024x64 .f32)
    (x0 : Vec F S1x1x4096 .i32) (x1 : Vec F S1x4096x64 .bf16) (x2 : Vec F S64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k2_pay3 (k2_pay2 i x0 x1 xs) x2) ∗ owns (c : Thread nD τ) arg6 fullShare (k2_pay2 i x0 x1 xs)) -∗ K ⟨⟩))
      ⊢ wp frame (wpE (defs₀ (F := F)) Variants.none c none) E (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (coverAcc _ _), View.canon_cons_unit_zero (S := S1024x64) hzAcc]
    simp only [View.readAt_eq_ld, harg2.read_unread, harg3.read_unread, harg4.read_unread, harg6.read_unread,
    View.ld_unit_zero (S := S1x1x4096) hzDst, View.ld_unit_zero (S := S1x4096x64) hzMsg, View.ld_unit_zero (S := S64) hzBias,
    View.ld_unit_zero (S := S1024x64) hzAcc, View.readCov_unit_zero (S := S1024x64) _ hzAcc]
  iexists _; isplitr
  swap; · iexact HS
  ipureintro
  sl_unfold_words
  rw [View.read_writes_eq_canon _ _ _ (coverAcc _ _), View.canon_cons_unit_zero (S := S1024x64) hzAcc]
  simp only [View.readAt_eq_ld, harg2.read_unread, harg3.read_unread, harg4.read_unread, harg6.read_unread,
    View.ld_unit_zero (S := S1x1x4096) hzDst, View.ld_unit_zero (S := S1x4096x64) hzMsg, View.ld_unit_zero (S := S64) hzBias,
    View.ld_unit_zero (S := S1024x64) hzAcc, View.readCov_unit_zero (S := S1024x64) _ hzAcc]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the point's number modulo 208 says which of the
    three cases it is in (208 > 1: no point is both first and last of its node tile); the invariant hands the body the
    scratch — at anything before the first point, at the accumulator of the point before afterwards — and takes it
    back at this point's accumulator, by the accumulator's recursion; the output's buffer comes back untouched where
    the point is not the last of its tile, and at bias-plus-accumulator clamped at zero where it is. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  have hN : t.val < 10192 := lt_of_lt_of_eq t.isLt (show cfg2.N = 10192 from N_2)
  by_cases h0 : t.val % 208 = 0
  · -- the first edge block of a node tile
    have h1 : ¬t.val % 208 = 207 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t h1)]
    rw [acc2_reset V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply (run2_A c (grid2.coords t) _ _ _ _ _ _ _ _ _ _ hc0 hc1 ((dat2 V c).before 3 t d3) (iblk2 V c 0 t) (iblk2 V c 1 t) (iblk2 V c 2 t) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨HS, HR, Hg⟩, Ho, ⟨%d0, H0⟩, ⟨%d1, H1⟩, ⟨%d2, H2⟩, ⟨%d3, H3⟩⟩
      iapply (run2_A c (grid2.coords t) _ _ _ _ _ _ _ _ _ _ hc0 hc1 ((dat2 V c).before 3 t d3) (iblk2 V c 0 t) (iblk2 V c 1 t) (iblk2 V c 2 t) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond2_0 (grid2.coords t) := fun h => h0 ((hcond2_0 t).mp h)
    rw [acc2_step V c t h0]
    rw [PhiS2_castSucc V c t, PhiS2_pos V c _ _ hz]
    by_cases h1 : t.val % 208 = 207
    · -- the last edge block of a node tile
      have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3]
      unfold out2
      rw [acc2_step V c t h0]
      iintro ⟨⟨HS, HR, Hg⟩, Ho, ⟨%d0, H0⟩, ⟨%d1, H1⟩, ⟨%d2, H2⟩, ⟨%d3, H3⟩⟩
      iapply (run2_C c (grid2.coords t) _ _ _ _ _ _ _ _ _ _ hc0 hc1 (acc2 V c (t.val - 1) (Nat.lt_of_le_of_lt (Nat.sub_le _ _) t.isLt)) (iblk2 V c 0 t) (iblk2 V c 1 t) (iblk2 V c 2 t) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · -- an inner edge block
      have hc1 : ¬cond2_1 (grid2.coords t) := fun h => h1 ((hcond2_1 t).mp h)
      rw [Dat.leavesExact_idle (dat2 V c) 3 t (idleAt2_3 t hc1) (noFlush2_3 t h1)]
      iintro ⟨⟨HS, HR, Hg⟩, Ho, ⟨%d0, H0⟩, ⟨%d1, H1⟩, ⟨%d2, H2⟩, ⟨%d3, H3⟩⟩
      iapply (run2_B c (grid2.coords t) _ _ _ _ _ _ _ _ _ _ hc0 hc1 ((dat2 V c).before 3 t d3) (acc2 V c (t.val - 1) (Nat.lt_of_le_of_lt (Nat.sub_le _ _) t.isLt)) (iblk2 V c 0 t) (iblk2 V c 1 t) (iblk2 V c 2 t) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's invariant back: the scratch's named contents are forgotten. -/
theorem hout2 (c : Dev nD) : (dat2 V c).Φ (Fin.last cfg2.N) ⊢ Pipeline.ΦA spec2 c := by
  have hN : cfg2.N = 10192 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨HS, HR, Hg⟩
  isplitl [HS HR]
  · isplitl [HS]; · iexists _; iexact HS
    iexact HR
  iexact Hg

end Cert.Kernel.Hand

end
-- ==== Proof.K.R3.lean ====
/-
  Region 3: the body obligation of its pipeline at every grid point, for the proof data of Defs.lean.
-/
import proofs.«402996_j73263552135827_2_alg».proof.Proof.K.Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Entry F)

/-! ## Stores and loads through a whole buffer -/

/-- The zero offsets of a rank-2 and of a rank-1 rectangle, however spelt. -/
theorem off2_zero : (![0, 0] : Fin 2 → ℕ) = fun _ => 0 := by funext a; fin_cases a <;> rfl
theorem off1_zero : (![0] : Fin 1 → ℕ) = fun _ => 0 := by funext a; fin_cases a; rfl

/-- A store through the whole-buffer rectangle, made last, leaves its payload: whatever the buffer held and whatever
    was stored before. -/
theorem read_writes_whole_cons {sp : Space} {S : Shape} {e : EltTy} (v : View sig .tc sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

/-! ## The two branch conditions of the body, in closed form over the 49 tiles -/

/-- The reset branch is taken: the tile coordinate compared with zero, as the body computes it. -/
abbrev isFirst3 (i : grid3.Coords) : Prop :=
  (Scalar.cmpi .ne (Scalar.extui (Scalar.cmpi .eq (BitVec.ofNat 32 (i 0).val) 0#32)) 0#32) = 1#1
/-- The output branch is taken: the tile coordinate compared with 48. -/
abbrev isLast3 (i : grid3.Coords) : Prop := k3_cond2 i = 1#1

/-- The reset branch is taken at tile 0 only. -/
theorem isFirst3_iff : ∀ t : Fin cfg3.N, isFirst3 (grid3.coords t) ↔ t.val = 0 :=
  (by decide +kernel : ∀ t : Fin grid3.N, isFirst3 (grid3.coords t) ↔ t.val = 0)
/-- The output branch is taken at tile 48 only. -/
theorem isLast3_iff : ∀ t : Fin cfg3.N, isLast3 (grid3.coords t) ↔ t.val = 48 :=
  (by decide +kernel : ∀ t : Fin grid3.N, isLast3 (grid3.coords t) ↔ t.val = 48)

/-! ## Where the windows are idle -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
/-- Away from the last tile the output window is idle and is not written back. -/
theorem idle3_4 : ∀ t : Fin cfg3.N, ¬isLast3 (grid3.coords t) → cfg3.idle 4 (grid3.coords t) = true := by decide +kernel
theorem noFlush3_4 : ∀ t : Fin cfg3.N, ¬isLast3 (grid3.coords t) → (cfg3.win 4).flush t = false := by decide +kernel
/-- At the last tile it is live. -/
theorem live3_4 : ∀ t : Fin cfg3.N, isLast3 (grid3.coords t) → cfg3.idle 4 (grid3.coords t) = false := by decide +kernel

/-- The proof data's arrays are the region-entry contents. -/
theorem A_eq3 (c : Dev nD) (w : Fin cfg3.W) : (dat3 V c).A w = V c (Pipeline.arrRef spec3 w) := by
  dsimp only [dat3]

/-! ## The accumulators, unfolded at a tile -/

/-- At the first tile the sums are the tile's mask product added to zero. -/
theorem acc3s_first (c : Dev nD) (t : Fin cfg3.N) (hz : t.val = 0) :
    acc3s V c t.val t.isLt = k3_pay4 (iblk3 V c 1 t) (iblk3 V c 0 t) k3_pay1 := by
  obtain ⟨n, hn⟩ := t
  cases n with
  | zero => rfl
  | succ n => exact absurd hz (Nat.succ_ne_zero n)

/-- At a later tile they are the tile's mask product added to what the tile before left. -/
theorem acc3s_later (c : Dev nD) (t : Fin cfg3.N) (hz : t.val ≠ 0) :
    acc3s V c t.val t.isLt
      = k3_pay4 (iblk3 V c 1 t) (iblk3 V c 0 t) (acc3s V c (t.val - 1) (Nat.lt_of_le_of_lt (Nat.sub_le _ _) t.isLt)) := by
  obtain ⟨n, hn⟩ := t
  cases n with
  | zero => exact absurd rfl hz
  | succ n => rfl

/-- At the first tile the counts are the tile's row sums of the mask added to zero. -/
theorem acc3c_first (c : Dev nD) (t : Fin cfg3.N) (hz : t.val = 0) :
    acc3c V c t.val t.isLt = k3_pay5 (iblk3 V c 1 t) k3_pay2 := by
  obtain ⟨n, hn⟩ := t
  cases n with
  | zero => rfl
  | succ n => exact absurd hz (Nat.succ_ne_zero n)

/-- At a later tile they are the tile's row sums added to what the tile before left. -/
theorem acc3c_later (c : Dev nD) (t : Fin cfg3.N) (hz : t.val ≠ 0) :
    acc3c V c t.val t.isLt
      = k3_pay5 (iblk3 V c 1 t) (acc3c V c (t.val - 1) (Nat.lt_of_le_of_lt (Nat.sub_le _ _) t.isLt)) := by
  obtain ⟨n, hn⟩ := t
  cases n with
  | zero => exact absurd rfl hz
  | succ n => rfl

/-! ## The invariant, position by position -/

theorem PhiS3_zero (c : Dev nD) (n : ℕ) (h : n ≤ cfg3.N) (hz : n = 0) : PhiS3 V c n h = Pipeline.ΦA spec3 c := by
  subst hz; rfl

/-- After tile `n`: both scratches at that tile's accumulators. -/
theorem PhiS3_succ (c : Dev nD) (n : ℕ) (hn : n < cfg3.N) :
    PhiS3 V c (n + 1) hn = iprop(owns (c : Thread nD τ) scM3s fullShare (acc3s V c n hn)
      ∗ owns (c : Thread nD τ) scM3c fullShare (acc3c V c n hn)
      ∗ Pipeline.scopedRestBut spec3 c [cc3_scratch0, cc3_scratch1] ∗ (∃ r, prngReg c r)) := rfl

/-- Before a tile that is not the first: both scratches at what the tile before left. -/
theorem PhiS3_pos (c : Dev nD) (n : ℕ) (h : n ≤ cfg3.N) (hz : n ≠ 0) :
    PhiS3 V c n h = iprop(owns (c : Thread nD τ) scM3s fullShare (acc3s V c (n - 1) (by omega))
      ∗ owns (c : Thread nD τ) scM3c fullShare (acc3c V c (n - 1) (by omega))
      ∗ Pipeline.scopedRestBut spec3 c [cc3_scratch0, cc3_scratch1] ∗ (∃ r, prngReg c r)) := by
  cases n with
  | zero => exact absurd rfl hz
  | succ n => rfl

/-- The class's invariant with the two scratches opened: each owned whole at some contents, the other scoped buffers
    unopened, the generator register at some state. -/
theorem PhiA3_eq (c : Dev nD) :
    (Pipeline.ΦA spec3 c : sProp 𝕄)
      = iprop(iprop(iprop((∃ d, owns (c : Thread nD τ) scM3s fullShare d) ∗ (∃ d, owns (c : Thread nD τ) scM3c fullShare d))
          ∗ Pipeline.scopedRestBut spec3 c [cc3_scratch0, cc3_scratch1]) ∗ (∃ r, prngReg c r)) := by
  unfold Pipeline.ΦA; rw [scopedRest3_split]; simp only [scM3s, scM3c, owns_whole]; try rfl

/-! ## The proof data, window by window -/

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 V c t := by dsimp only [dat3]

/-- The invariant at a tile's start, restated at the tile's number. -/
theorem PhiS3_castSucc (c : Dev nD) (t : Fin cfg3.N) :
    (dat3 V c).Φ t.castSucc = PhiS3 V c t.val (Nat.le_of_lt t.isLt) := by
  dsimp only [dat3]; simp only [Fin.coe_castSucc]

/-- Each input's current staging buffer holds its block at every tile, fetched there or not: an input the body
    leaves in place, never idle, uncut; unfetched, its block index has not moved. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-! ## The body on whole memrefs, one run per case

The printed body is its skeleton of loads and stores over the named payloads; each case runs it through to the
continuation, with every buffer it touched at its explicit contents. -/

set_option maxHeartbeats 1000000 in
theorem run3_A (c : Dev nD) (i : grid3.Coords)
    (arg1 : Memref sig .tc .vmem S1024x64 .f32) (harg1 : arg1.IsWhole) (arg2 : Memref sig .tc .vmem S1024 .i32) (harg2 : arg2.IsWhole)
    (arg3 : Memref sig .tc .vmem S64x8 .f32) (harg3 : arg3.IsWhole) (arg4 : Memref sig .tc .vmem S8 .f32) (harg4 : arg4.IsWhole)
    (arg5 : Memref sig .tc .vmem S256x8 .f32) (harg5 : arg5.IsWhole) (arg6 : Memref sig .tc .vmem S256x64 .f32) (harg6 : arg6.IsWhole)
    (arg7 : Memref sig .tc .vmem S256x1 .f32) (harg7 : arg7.IsWhole)
    (hc0 : isFirst3 i) (hc1 : ¬isLast3 i)
    (xh : Vec F S1024x64 .f32) (xg : Vec F S1024 .i32)
    (E : Set ℕ) (K : PUnit → sProp 𝕄) :
    iprop(owns (c : Thread nD τ) arg1 fullShare xh ∗ owns (c : Thread nD τ) arg2 fullShare xg
        ∗ (∃ d, owns (c : Thread nD τ) arg6 fullShare d) ∗ (∃ d, owns (c : Thread nD τ) arg7 fullShare d)
        ∗ (iprop(owns (c : Thread nD τ) arg1 fullShare xh ∗ owns (c : Thread nD τ) arg2 fullShare xg
            ∗ owns (c : Thread nD τ) arg6 fullShare (k3_pay4 xg xh k3_pay1) ∗ owns (c : Thread nD τ) arg7 fullShare (k3_pay5 xg k3_pay2)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f1, %hf1, H1⟩, ⟨%f2, %hf2, H2⟩, ⟨%d6, %f6, -, H6⟩, ⟨%d7, %f7, -, H7⟩, Hk⟩
  obtain rfl := harg1.eq_unread hf1; obtain rfl := harg2.eq_unread hf2
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H6]
  · iexists _; isplitr
    swap; · iexact H6
    ipureintro
    sl_unfold_words
    refine (read_writes_whole_cons _ _ off2_zero _ _ _).trans ?_
    simp only [View.readAt_eq_ld, hf1, hf2, View.readCov_unit_zero (S := S256x64) _ off2_zero,
      View.ld_unit_zero (S := S1024x64) off2_zero, View.ld_unit_zero (S := S1024) off1_zero]
  iexists _; isplitr
  swap; · iexact H7
  ipureintro
  sl_unfold_words
  refine (read_writes_whole_cons _ _ off2_zero _ _ _).trans ?_
  simp only [View.readAt_eq_ld, hf2, View.readCov_unit_zero (S := S256x1) _ off2_zero,
    View.ld_unit_zero (S := S1024) off1_zero]

set_option maxHeartbeats 1000000 in
theorem run3_B (c : Dev nD) (i : grid3.Coords)
    (arg1 : Memref sig .tc .vmem S1024x64 .f32) (harg1 : arg1.IsWhole) (arg2 : Memref sig .tc .vmem S1024 .i32) (harg2 : arg2.IsWhole)
    (arg3 : Memref sig .tc .vmem S64x8 .f32) (harg3 : arg3.IsWhole) (arg4 : Memref sig .tc .vmem S8 .f32) (harg4 : arg4.IsWhole)
    (arg5 : Memref sig .tc .vmem S256x8 .f32) (harg5 : arg5.IsWhole) (arg6 : Memref sig .tc .vmem S256x64 .f32) (harg6 : arg6.IsWhole)
    (arg7 : Memref sig .tc .vmem S256x1 .f32) (harg7 : arg7.IsWhole)
    (hc0 : ¬isFirst3 i) (hc1 : ¬isLast3 i)
    (xh : Vec F S1024x64 .f32) (xg : Vec F S1024 .i32) (s : Vec F S256x64 .f32) (n : Vec F S256x1 .f32)
    (E : Set ℕ) (K : PUnit → sProp 𝕄) :
    iprop(owns (c : Thread nD τ) arg1 fullShare xh ∗ owns (c : Thread nD τ) arg2 fullShare xg
        ∗ owns (c : Thread nD τ) arg6 fullShare s ∗ owns (c : Thread nD τ) arg7 fullShare n
        ∗ (iprop(owns (c : Thread nD τ) arg1 fullShare xh ∗ owns (c : Thread nD τ) arg2 fullShare xg
            ∗ owns (c : Thread nD τ) arg6 fullShare (k3_pay4 xg xh s) ∗ owns (c : Thread nD τ) arg7 fullShare (k3_pay5 xg n)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f1, %hf1, H1⟩, ⟨%f2, %hf2, H2⟩, ⟨%f6, %hf6, H6⟩, ⟨%f7, %hf7, H7⟩, Hk⟩
  obtain rfl := harg1.eq_unread hf1; obtain rfl := harg2.eq_unread hf2
  obtain rfl := harg6.eq_unread hf6; obtain rfl := harg7.eq_unread hf7
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H6]
  · iexists _; isplitr
    swap; · iexact H6
    ipureintro
    refine (read_writes_whole_cons _ _ off2_zero _ _ _).trans ?_
    simp only [View.readAt_eq_ld, hf1, hf2, hf6, View.ld_unit_zero (S := S1024x64) off2_zero,
      View.ld_unit_zero (S := S1024) off1_zero, View.ld_unit_zero (S := S256x64) off2_zero]
  iexists _; isplitr
  swap; · iexact H7
  ipureintro
  refine (read_writes_whole_cons _ _ off2_zero _ _ _).trans ?_
  simp only [View.readAt_eq_ld, hf2, hf7, View.ld_unit_zero (S := S1024) off1_zero, View.ld_unit_zero (S := S256x1) off2_zero]

set_option maxHeartbeats 1000000 in
theorem run3_C (c : Dev nD) (i : grid3.Coords)
    (arg1 : Memref sig .tc .vmem S1024x64 .f32) (harg1 : arg1.IsWhole) (arg2 : Memref sig .tc .vmem S1024 .i32) (harg2 : arg2.IsWhole)
    (arg3 : Memref sig .tc .vmem S64x8 .f32) (harg3 : arg3.IsWhole) (arg4 : Memref sig .tc .vmem S8 .f32) (harg4 : arg4.IsWhole)
    (arg5 : Memref sig .tc .vmem S256x8 .f32) (harg5 : arg5.IsWhole) (arg6 : Memref sig .tc .vmem S256x64 .f32) (harg6 : arg6.IsWhole)
    (arg7 : Memref sig .tc .vmem S256x1 .f32) (harg7 : arg7.IsWhole)
    (hc0 : ¬isFirst3 i) (hc1 : isLast3 i)
    (xh : Vec F S1024x64 .f32) (xg : Vec F S1024 .i32) (xw : Vec F S64x8 .f32) (xb : Vec F S8 .f32)
    (s : Vec F S256x64 .f32) (n : Vec F S256x1 .f32)
    (E : Set ℕ) (K : PUnit → sProp 𝕄) :
    iprop(owns (c : Thread nD τ) arg1 fullShare xh ∗ owns (c : Thread nD τ) arg2 fullShare xg
        ∗ owns (c : Thread nD τ) arg3 fullShare xw ∗ owns (c : Thread nD τ) arg4 fullShare xb
        ∗ (∃ d, owns (c : Thread nD τ) arg5 fullShare d)
        ∗ owns (c : Thread nD τ) arg6 fullShare s ∗ owns (c : Thread nD τ) arg7 fullShare n
        ∗ (iprop(owns (c : Thread nD τ) arg1 fullShare xh ∗ owns (c : Thread nD τ) arg2 fullShare xg
            ∗ owns (c : Thread nD τ) arg3 fullShare xw ∗ owns (c : Thread nD τ) arg4 fullShare xb
            ∗ owns (c : Thread nD τ) arg5 fullShare (k3_pay6 (k3_pay5 xg n) (k3_pay4 xg xh s) xw xb)
            ∗ owns (c : Thread nD τ) arg6 fullShare (k3_pay4 xg xh s) ∗ owns (c : Thread nD τ) arg7 fullShare (k3_pay5 xg n)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg1.eq_unread hf1; obtain rfl := harg2.eq_unread hf2
  obtain rfl := harg3.eq_unread hf3; obtain rfl := harg4.eq_unread hf4
  obtain rfl := harg6.eq_unread hf6; obtain rfl := harg7.eq_unread hf7
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    refine (read_writes_whole_cons _ _ off2_zero _ _ _).trans ?_
    simp only [View.readAt_eq_ld, hf1, hf2, hf3, hf4, hf6, hf7,
      View.readCov_unit_zero (S := S256x64) _ off2_zero, View.readCov_unit_zero (S := S256x1) _ off2_zero,
      View.ld_unit_zero (S := S1024x64) off2_zero, View.ld_unit_zero (S := S1024) off1_zero,
      View.ld_unit_zero (S := S64x8) off2_zero, View.ld_unit_zero (S := S8) off1_zero,
      View.ld_unit_zero (S := S256x64) off2_zero, View.ld_unit_zero (S := S256x1) off2_zero]
  isplitl [H6]
  · iexists _; isplitr
    swap; · iexact H6
    ipureintro
    sl_unfold_words
    refine (read_writes_whole_cons _ _ off2_zero _ _ _).trans ?_
    simp only [View.readAt_eq_ld, hf1, hf2, hf6, View.ld_unit_zero (S := S1024x64) off2_zero,
      View.ld_unit_zero (S := S1024) off1_zero, View.ld_unit_zero (S := S256x64) off2_zero]
  iexists _; isplitr
  swap; · iexact H7
  ipureintro
  sl_unfold_words
  refine (read_writes_whole_cons _ _ off2_zero _ _ _).trans ?_
  simp only [View.readAt_eq_ld, hf2, hf7, View.ld_unit_zero (S := S1024) off1_zero, View.ld_unit_zero (S := S256x1) off2_zero]

/-! ## The body obligation at a tile -/

/-- What the body is called with at tile `t`: the invariant, nothing owed, each window's current staging buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- And what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any tile. The four inputs' buffers hold their blocks; the tile's number says which of the three cases it
    is. At tile 0 the invariant hands both scratches at anything and takes them back at the first accumulators; at a
    later tile it hands them at what the tile before left and takes them back one step on; at tile 48 the output
    buffer, handed at anything, comes back at the mean-pooled product; before that it is idle and comes back untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [live3_0 t], after3_0]
  rw [show (dat3 V c).leavesExact 1 t = owns (c : Thread nD τ) (st3_1 t) fullShare ((dat3 V c).after 1 t) from by
    unfold Dat.leavesExact; rw [live3_1 t], after3_1]
  rw [show (dat3 V c).leavesExact 2 t = owns (c : Thread nD τ) (st3_2 t) fullShare ((dat3 V c).after 2 t) from by
    unfold Dat.leavesExact; rw [live3_2 t], after3_2]
  rw [show (dat3 V c).leavesExact 3 t = owns (c : Thread nD τ) (st3_3 t) fullShare ((dat3 V c).after 3 t) from by
    unfold Dat.leavesExact; rw [live3_3 t], after3_3]
  have hN : t.val < 49 := lt_of_lt_of_eq t.isLt (show cfg3.N = 49 from N_3)
  by_cases hz : t.val = 0
  · -- tile 0: reset, then accumulate; the output idle
    have hc0 : isFirst3 (grid3.coords t) := (isFirst3_iff t).mpr hz
    have hc1 : ¬isLast3 (grid3.coords t) := fun h => by have := (isLast3_iff t).mp h; omega
    rw [Dat.leavesExact_idle (dat3 V c) 4 t (idle3_4 t hc1) (noFlush3_4 t hc1)]
    rw [acc3s_first V c t hz, acc3c_first V c t hz]
    rw [PhiS3_castSucc V c t, PhiS3_zero V c _ _ hz, PhiA3_eq]
    iintro ⟨⟨⟨⟨HS, HC⟩, HR⟩, Hg⟩, Ho, ⟨%d0, H0⟩, ⟨%d1, H1⟩, ⟨%d2, H2⟩, ⟨%d3, H3⟩, H4⟩
    iapply (run3_A c (grid3.coords t) _ _ _ _ _ _ _ _ _ _ _ _ _ _ hc0 hc1 (iblk3 V c 0 t) (iblk3 V c 1 t) Set.univ _)
    isplitl [H0]; · iexact H0
    isplitl [H1]; · iexact H1
    isplitl [HS]; · iexact HS
    isplitl [HC]; · iexact HC
    iintro ⟨H0, H1, HS, HC⟩
    isplitl [HS HC HR Hg]
    · isplitl [HS]; · iexact HS
      isplitl [HC]; · iexact HC
      isplitl [HR]; · iexact HR
      iexact Hg
    isplitl [Ho]; · iexact Ho
    isplitl [H0]; · iexact H0
    isplitl [H1]; · iexact H1
    isplitl [H2]; · iexact H2
    isplitl [H3]; · iexact H3
    iexact H4
  · by_cases hl : t.val = 48
    · -- tile 48: accumulate, then store the output
      have hc0 : ¬isFirst3 (grid3.coords t) := fun h => hz ((isFirst3_iff t).mp h)
      have hc1 : isLast3 (grid3.coords t) := (isLast3_iff t).mpr hl
      rw [show (dat3 V c).leavesExact 4 t = owns (c : Thread nD τ) (st3_4 t) fullShare ((dat3 V c).after 4 t) from by
        unfold Dat.leavesExact; rw [live3_4 t hc1], after3_4]
      unfold out3
      rw [acc3s_later V c t hz, acc3c_later V c t hz]
      rw [PhiS3_castSucc V c t, PhiS3_pos V c _ _ hz]
      iintro ⟨⟨HS, HC, HR, Hg⟩, Ho, ⟨%d0, H0⟩, ⟨%d1, H1⟩, ⟨%d2, H2⟩, ⟨%d3, H3⟩, ⟨%d4, H4⟩⟩
      iapply (run3_C c (grid3.coords t) _ _ _ _ _ _ _ _ _ _ _ _ _ _ hc0 hc1 (iblk3 V c 0 t) (iblk3 V c 1 t)
        (iblk3 V c 2 t) (iblk3 V c 3 t) _ _ Set.univ _)
      isplitl [H0]; · iexact H0
      isplitl [H1]; · iexact H1
      isplitl [H2]; · iexact H2
      isplitl [H3]; · iexact H3
      isplitl [H4]; · iexists _; iexact H4
      isplitl [HS]; · iexact HS
      isplitl [HC]; · iexact HC
      iintro ⟨H0, H1, H2, H3, H4, HS, HC⟩
      isplitl [HS HC HR Hg]
      · isplitl [HS]; · iexact HS
        isplitl [HC]; · iexact HC
        isplitl [HR]; · iexact HR
        iexact Hg
      isplitl [Ho]; · iexact Ho
      isplitl [H0]; · iexact H0
      isplitl [H1]; · iexact H1
      isplitl [H2]; · iexact H2
      isplitl [H3]; · iexact H3
      iexact H4
    · -- a tile between: accumulate; the output idle
      have hc0 : ¬isFirst3 (grid3.coords t) := fun h => hz ((isFirst3_iff t).mp h)
      have hc1 : ¬isLast3 (grid3.coords t) := fun h => hl ((isLast3_iff t).mp h)
      rw [Dat.leavesExact_idle (dat3 V c) 4 t (idle3_4 t hc1) (noFlush3_4 t hc1)]
      rw [acc3s_later V c t hz, acc3c_later V c t hz]
      rw [PhiS3_castSucc V c t, PhiS3_pos V c _ _ hz]
      iintro ⟨⟨HS, HC, HR, Hg⟩, Ho, ⟨%d0, H0⟩, ⟨%d1, H1⟩, ⟨%d2, H2⟩, ⟨%d3, H3⟩, H4⟩
      iapply (run3_B c (grid3.coords t) _ _ _ _ _ _ _ _ _ _ _ _ _ _ hc0 hc1 (iblk3 V c 0 t) (iblk3 V c 1 t) _ _ Set.univ _)
      isplitl [H0]; · iexact H0
      isplitl [H1]; · iexact H1
      isplitl [HS]; · iexact HS
      isplitl [HC]; · iexact HC
      iintro ⟨H0, H1, HS, HC⟩
      isplitl [HS HC HR Hg]
      · isplitl [HS]; · iexact HS
        isplitl [HC]; · iexact HC
        isplitl [HR]; · iexact HR
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]

/-- After the last point the invariant gives the class's invariant back: the scratch's named contents are forgotten. -/
theorem hout3 (c : Dev nD) : (dat3 V c).Φ (Fin.last cfg3.N) ⊢ Pipeline.ΦA spec3 c := by
  have hne : (Fin.last cfg3.N).val ≠ 0 := by rw [Fin.val_last]; have : cfg3.N = 49 := N_3; omega
  rw [show (dat3 V c).Φ (Fin.last cfg3.N) = PhiS3 V c (Fin.last cfg3.N).val (Nat.le_of_lt_succ (Fin.last cfg3.N).isLt) from rfl,
    PhiS3_pos V c _ _ hne, PhiA3_eq]
  iintro ⟨HS, HC, HR, Hg⟩
  isplitl [HS HC HR]
  · isplitl [HS HC]
    · isplitl [HS]
      · iexists _; iexact HS
      iexists _; iexact HC
    iexact HR
  iexact Hg

end Cert.Kernel.Hand

end
-- ==== Proof.K.Run.lean ====
/-
  The run of @main: the contents of a core's buffers at each boundary between @main's eight items (three stretches of
  host operations, regions 0, 1, 2, one more stretch, region 3), folded from the launch memory — a stretch applies its
  operations, a region leaves its arrays at what its pipeline's write-backs leave and every other buffer as entered —;
  every pipeline's proof data at its region's entry contents; one segment record per item; and the launch: every weakly
  fair execution of @main terminates, nothing faulting, with every unscoped buffer at the last fold.
-/
import proofs.«402996_j73263552135827_2_alg».proof.Proof.K.R0
import proofs.«402996_j73263552135827_2_alg».proof.Proof.K.R1
import proofs.«402996_j73263552135827_2_alg».proof.Proof.K.R2
import proofs.«402996_j73263552135827_2_alg».proof.Proof.K.R3
import proofs.«402996_j73263552135827_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch (indices, degrees, the reciprocal square roots). -/
abbrev W1 : Dev nD → Valuation τ sig (Elt F) := fun c => StableHlo.after hostOps0 (W0 m ρ c)
/-- After the select that makes the scale vector. -/
abbrev W2 : Dev nD → Valuation τ sig (Elt F) := fun c => StableHlo.after hostOps0_1 (W1 m ρ c)
/-- After the third stretch (per-edge weights, padding, blocking): region 0's entry. -/
abbrev W3 : Dev nD → Valuation τ sig (Elt F) := fun c => StableHlo.after hostOps0_2 (W2 m ρ c)
/-- The same read at the TensorCore's references: what region 0's proof data take. -/
abbrev V3 : Entry F := fun c b => W3 m ρ c b
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
abbrev V4 : Entry F := fun c b => W4 m ρ c b
/-- At region 1's exit. -/
def W5 (c : Dev nD) : Valuation τ sig (Elt F) :=
  Pipeline.withArrays spec1 c (W4 m ρ c) fun w => (dat1 (V4 m ρ) c).arrAt w cfg1.N
abbrev V5 : Entry F := fun c b => W5 m ρ c b
/-- At region 2's exit. -/
def W6 (c : Dev nD) : Valuation τ sig (Elt F) :=
  Pipeline.withArrays spec2 c (W5 m ρ c) fun w => (dat2 (V5 m ρ) c).arrAt w cfg2.N
/-- After the last stretch (graph ids padded): region 3's entry. -/
abbrev W7 : Dev nD → Valuation τ sig (Elt F) := fun c => StableHlo.after hostOps3 (W6 m ρ c)
abbrev V7 : Entry F := fun c b => W7 m ρ c b
/-- At region 3's exit: the end of @main. -/
def W8 (c : Dev nD) : Valuation τ sig (Elt F) :=
  Pipeline.withArrays spec3 c (W7 m ρ c) fun w => (dat3 (V7 m ρ) c).arrAt w cfg3.N

theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

/-- A buffer no operation of the first stretch writes holds its launch contents after it (likewise below). -/
theorem W1_of (c : Dev nD) (r : Ref sig .tc) (h : r ∉ hostOps0_W) : W1 m ρ c r = W0 m ρ c r :=
  StableHlo.after_of_writes_sub hostOps0 _ hostOps0_writes h
theorem W2_of (c : Dev nD) (r : Ref sig .tc) (h : r ∉ hostOps0_1_W) : W2 m ρ c r = W1 m ρ c r :=
  StableHlo.after_of_writes_sub hostOps0_1 _ hostOps0_1_writes h
theorem W3_of (c : Dev nD) (r : Ref sig .tc) (h : r ∉ hostOps0_2_W) : W3 m ρ c r = W2 m ρ c r :=
  StableHlo.after_of_writes_sub hostOps0_2 _ hostOps0_2_writes h
theorem W7_of (c : Dev nD) (r : Ref sig .tc) (h : r ∉ hostOps3_W) : W7 m ρ c r = W6 m ρ c r :=
  StableHlo.after_of_writes_sub hostOps3 _ hostOps3_writes h

/-! ## What a region's exit holds

At a region's exit each of its arrays holds what the pipeline's write-backs leave and every other buffer what it held at
entry: the two facts that put the arrays back among the core's unscoped buffers. -/

/-- Region 2's exit contents and region 3's, read at the TensorCore's references. -/
private abbrev Vx6 : Entry F := fun c b => W6 m ρ c b
private abbrev Vx8 : Entry F := fun c b => W8 m ρ c b

private theorem hF0 (c : Dev nD) (w : Fin cfg0.W) : (dat0 (V3 m ρ) c).arrAt w cfg0.N = V4 m ρ c (Pipeline.arrRef spec0 w) :=
  (W4_arr m ρ c w).symm
private theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
private theorem hF1 (c : Dev nD) (w : Fin cfg1.W) : (dat1 (V4 m ρ) c).arrAt w cfg1.N = V5 m ρ c (Pipeline.arrRef spec1 w) :=
  (W5_arr m ρ c w).symm
private theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)
private theorem hF2 (c : Dev nD) (w : Fin cfg2.W) : (dat2 (V5 m ρ) c).arrAt w cfg2.N = Vx6 m ρ c (Pipeline.arrRef spec2 w) :=
  (W6_arr m ρ c w).symm
private theorem hrest2 (c : Dev nD) : ∀ b, b ∉ Finset.univ.image (Pipeline.arrRef spec2) → Vx6 m ρ c b = V5 m ρ c b :=
  fun b hb => W6_of_ne m ρ c b fun w e => hb (Finset.mem_image.mpr ⟨w, Finset.mem_univ _, e⟩)
private theorem hF3 (c : Dev nD) (w : Fin cfg3.W) : (dat3 (V7 m ρ) c).arrAt w cfg3.N = Vx8 m ρ c (Pipeline.arrRef spec3 w) :=
  (W8_arr m ρ c w).symm
private theorem hrest3 (c : Dev nD) : ∀ b, b ∉ Finset.univ.image (Pipeline.arrRef spec3) → Vx8 m ρ c b = V7 m ρ c b :=
  fun b hb => W8_of_ne m ρ c b fun w e => hb (Finset.mem_image.mpr ⟨w, Finset.mem_univ _, e⟩)

/-! ## The proof data family and the thread state -/

/-- Every pipeline's proof data, each at its region's entry contents. -/
private def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
  | ⟨2, _⟩ => fun c => dat2 (V5 m ρ) c
  | ⟨3, _⟩ => fun c => dat3 (V7 m ρ) c
private abbrev 𝒱₀ : Variants := Variants.none
/-- No core owes another anything: no level is assigned. -/
private abbrev Lz : GSem nD τ sig → Finset Unit := fun _ => ∅
private abbrev lvz : GSem nD τ sig → Unit → ℕ := fun _ _ => 0
/-- What rides beside the buffers through every item: the generator register at some state, and the core owing nothing. -/
private abbrev Rst (c : Dev nD) : sProp 𝕄 := iprop((∃ r, prngReg c r) ∗ ∃ W, owes (c : Thread nD τ) (0 : CellTallies nD τ sig Unit) W)
/-- A stretch of host operations as a segment, entered with every unscoped buffer at the contents `Wc`. -/
private abbrev hseg (ops : List (HloOp τ sig (Elt F))) (hsub : ops.Forall fun op => op.bufs ⊆ StableHlo.tcRefs τ sig)
    (hfresh : ops.Forall fun op => op.fresh = ∅) (Wc : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wc Rst
/-- The last thread state without the dues: every unscoped buffer at the last fold, the generator register at some state. -/
private abbrev Tend (c : Dev nD) : sProp 𝕄 := iprop(StableHlo.held (c : Thread nD τ) (Pipeline.ucRefs τ sig) (W8 m ρ c) ∗ ∃ r, prngReg c r)

/-! ## The regions as segments

Each region is entered with every unscoped buffer at its entry fold and left with them at its exit fold. Its arrays are
split out of the unscoped buffers on the way in and put back, at what the write-backs leave, on the way out; the generator
register goes into the region's invariant and comes back; nothing is owed; the kernel has no semaphore of its own. -/

set_option backward.isDefEq.respectTransparency.types false in
/-- Region 0: entered at `W3`, left at `W4`. Its invariant is the class's own. -/
private def reg0 : Pipeline.RegionSeg (pcfgs (F := F)) adm (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ Lz lvz 0 fun _ _ => rfl
  pre c := iprop(StableHlo.held (c : Thread nD τ) (Pipeline.ucRefs τ sig) (W3 m ρ c) ∗ Rst c)
  post c := iprop(StableHlo.held (c : Thread nD τ) (Pipeline.ucRefs τ sig) (W4 m ρ c) ∗ Rst c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wd, -, HO⟩; iexists Wd; iexact HO

set_option backward.isDefEq.respectTransparency.types false in
/-- Region 1: entered at `W4`, left at `W5`. Its invariant carries the scratch accumulator; it is made from the class's at
    entry and forgotten to it at exit. -/
private def reg1 : Pipeline.RegionSeg (pcfgs (F := F)) adm (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ Lz lvz 1 fun _ _ => rfl
  pre c := iprop(StableHlo.held (c : Thread nD τ) (Pipeline.ucRefs τ sig) (W4 m ρ c) ∗ Rst c)
  post c := iprop(StableHlo.held (c : Thread nD τ) (Pipeline.ucRefs τ sig) (W5 m ρ c) ∗ Rst c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact Hrest
  hin c := by
    refine .trans ?_ (hin1 (V4 m ρ) c)
    unfold Pipeline.ΦA
    iintro ⟨Hp, -, Hr⟩
    isplitl [Hr]; · iexact Hr
    iexact Hp
  hout c := by
    rw [Pipeline.ownSems0_none]
    refine .trans (hout1 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wd, -, HO⟩; iexists Wd; iexact HO

set_option backward.isDefEq.respectTransparency.types false in
/-- Region 2: entered at `W5`, left at `W6`. -/
private def reg2 : Pipeline.RegionSeg (pcfgs (F := F)) adm (pdats m ρ) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ Lz lvz 2 fun _ _ => rfl
  pre c := iprop(StableHlo.held (c : Thread nD τ) (Pipeline.ucRefs τ sig) (W5 m ρ c) ∗ Rst c)
  post c := iprop(StableHlo.held (c : Thread nD τ) (Pipeline.ucRefs τ sig) (W6 m ρ c) ∗ Rst c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact Hrest
  hin c := by
    refine .trans ?_ (hin2 (V5 m ρ) c)
    unfold Pipeline.ΦA
    iintro ⟨Hp, -, Hr⟩
    isplitl [Hr]; · iexact Hr
    iexact Hp
  hout c := by
    rw [Pipeline.ownSems0_none]
    refine .trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (Vx6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wd, -, HO⟩; iexists Wd; iexact HO

set_option backward.isDefEq.respectTransparency.types false in
/-- Region 3: entered at `W7`, left at `W8`, the end of @main: its exit state is the last thread state beside the
    core owing nothing. -/
private def reg3 : Pipeline.RegionSeg (pcfgs (F := F)) adm (pdats m ρ) () defs₀ 𝒱₀ Lz lvz 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ Lz lvz 3 fun _ _ => rfl
  pre c := iprop(StableHlo.held (c : Thread nD τ) (Pipeline.ucRefs τ sig) (W7 m ρ c) ∗ Rst c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact Hrest
  hin c := by
    refine .trans ?_ (hin3 (V7 m ρ) c)
    unfold Pipeline.ΦA
    iintro ⟨Hp, -, Hr⟩
    isplitl [Hr]; · iexact Hr
    iexact Hp
  hout c := by
    rw [Pipeline.ownSems0_none]
    refine .trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (Vx8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%Wd, -, HO⟩; iexists Wd; iexact HO

/-! ## @main as segments -/

/-- @main's eight items in order: a host segment per stretch from its boundary's fold, a region per kernel call. -/
private abbrev segs : List (Pipeline.Seg (pcfgs (F := F)) adm (pdats m ρ) () defs₀ 𝒱₀ Lz lvz) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .region (reg2 m ρ),
    .host (hseg hostOps3 hostOps3_sub hostOps3_fresh (W6 m ρ)),
    .region (reg3 m ρ) ]
/-- @main is the run of the segments: it is the chain of its items, and so is the segments' run. -/
private theorem main_run (c : Dev nD) : main (F := F) c = Pipeline.Seg.run (segs m ρ) := (main_chain c).trans (by chain_rfl)

/-- An unscoped TensorCore reference is among those the thread state holds. -/
private theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The launch -/

/-- THE RUN. From any memory with zero counters every weakly fair execution of @main on the TensorCores terminates,
    nothing faulting, and every final state holds every unscoped buffer at the last fold `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) := by
  set_option backward.isDefEq.respectTransparency.types false in
  exact Pipeline.θ_run_regions_kit (pcfgs (F := F)) adm (pdats m ρ) () cellOf_inj emb₁ defs₀ 𝒱₀ Lz lvz m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := Tend m ρ)
    (hch := ⟨fun _ => .rfl, fun _ => .rfl, fun _ => .rfl, fun _ => .rfl, fun _ => .rfl, fun _ => .rfl, fun _ => .rfl,
      fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- An argument array reaches the end as launched: no stretch writes it, and a region reads it through an input window
    or bypasses it. -/
theorem W8_args (c : Dev nD) :
    W8 m ρ c (Proc.devRef .tc main_arg0) = m ((c : Thread nD τ).loc main_arg0)
    ∧ W8 m ρ c (Proc.devRef .tc main_arg1) = m ((c : Thread nD τ).loc main_arg1)
    ∧ W8 m ρ c (Proc.devRef .tc main_arg2) = m ((c : Thread nD τ).loc main_arg2)
    ∧ W8 m ρ c (Proc.devRef .tc main_arg3) = m ((c : Thread nD τ).loc main_arg3)
    ∧ W8 m ρ c (Proc.devRef .tc main_arg4) = m ((c : Thread nD τ).loc main_arg4)
    ∧ W8 m ρ c (Proc.devRef .tc main_arg5) = m ((c : Thread nD τ).loc main_arg5)
    ∧ W8 m ρ c (Proc.devRef .tc main_arg6) = m ((c : Thread nD τ).loc main_arg6) := by
  refine ⟨?_, ?_, ?_, ?_, ?_, ?_, ?_⟩
  · -- no stretch writes it, no region has it as a window
    exact (W8_of_ne m ρ c main_arg0 (by decide)).trans <| (W7_of m ρ c main_arg0 (by decide)).trans <|
      (W6_of_ne m ρ c main_arg0 (by decide)).trans <| (W5_of_ne m ρ c main_arg0 (by decide)).trans <|
      (W4_of_ne m ρ c main_arg0 (by decide)).trans <| (W3_of m ρ c main_arg0 (by decide)).trans <|
      (W2_of m ρ c main_arg0 (by decide)).trans <| (W1_of m ρ c main_arg0 (by decide)).trans rfl
  · exact (W8_of_ne m ρ c main_arg1 (by decide)).trans <| (W7_of m ρ c main_arg1 (by decide)).trans <|
      (W6_of_ne m ρ c main_arg1 (by decide)).trans <| (W5_of_ne m ρ c main_arg1 (by decide)).trans <|
      (W4_of_ne m ρ c main_arg1 (by decide)).trans <| (W3_of m ρ c main_arg1 (by decide)).trans <|
      (W2_of m ρ c main_arg1 (by decide)).trans <| (W1_of m ρ c main_arg1 (by decide)).trans rfl
  · exact (W8_of_ne m ρ c main_arg2 (by decide)).trans <| (W7_of m ρ c main_arg2 (by decide)).trans <|
      (W6_of_ne m ρ c main_arg2 (by decide)).trans <| (W5_of_ne m ρ c main_arg2 (by decide)).trans <|
      (W4_of_ne m ρ c main_arg2 (by decide)).trans <| (W3_of m ρ c main_arg2 (by decide)).trans <|
      (W2_of m ρ c main_arg2 (by decide)).trans <| (W1_of m ρ c main_arg2 (by decide)).trans rfl
  · -- the second window of region 0, an input: its array leaves the region as entered
    exact (W8_of_ne m ρ c main_arg3 (by decide)).trans <| (W7_of m ρ c main_arg3 (by decide)).trans <|
      (W6_of_ne m ρ c main_arg3 (by decide)).trans <| (W5_of_ne m ρ c main_arg3 (by decide)).trans <|
      ((W4_arr m ρ c 1).trans (((dat0 (V3 m ρ) c).arrAt_in 1 rfl _).trans (A_eq0 (V3 m ρ) c 1))).trans <|
      (W3_of m ρ c main_arg3 (by decide)).trans <|
      (W2_of m ρ c main_arg3 (by decide)).trans <| (W1_of m ρ c main_arg3 (by decide)).trans rfl
  · -- the third window of region 2, an input
    exact (W8_of_ne m ρ c main_arg4 (by decide)).trans <| (W7_of m ρ c main_arg4 (by decide)).trans <|
      ((W6_arr m ρ c 2).trans (((dat2 (V5 m ρ) c).arrAt_in 2 rfl _).trans (A_eq2 (V5 m ρ) c 2))).trans <|
      (W5_of_ne m ρ c main_arg4 (by decide)).trans <|
      (W4_of_ne m ρ c main_arg4 (by decide)).trans <| (W3_of m ρ c main_arg4 (by decide)).trans <|
      (W2_of m ρ c main_arg4 (by decide)).trans <| (W1_of m ρ c main_arg4 (by decide)).trans rfl
  · -- the third window of region 3, an input
    exact ((W8_arr m ρ c 2).trans (((dat3 (V7 m ρ) c).arrAt_in 2 rfl _).trans (A_eq3 (V7 m ρ) c 2))).trans <|
      (W7_of m ρ c main_arg5 (by decide)).trans <|
      (W6_of_ne m ρ c main_arg5 (by decide)).trans <| (W5_of_ne m ρ c main_arg5 (by decide)).trans <|
      (W4_of_ne m ρ c main_arg5 (by decide)).trans <| (W3_of m ρ c main_arg5 (by decide)).trans <|
      (W2_of m ρ c main_arg5 (by decide)).trans <| (W1_of m ρ c main_arg5 (by decide)).trans rfl
  · -- the fourth window of region 3, an input
    exact ((W8_arr m ρ c 3).trans (((dat3 (V7 m ρ) c).arrAt_in 3 rfl _).trans (A_eq3 (V7 m ρ) c 3))).trans <|
      (W7_of m ρ c main_arg6 (by decide)).trans <|
      (W6_of_ne m ρ c main_arg6 (by decide)).trans <| (W5_of_ne m ρ c main_arg6 (by decide)).trans <|
      (W4_of_ne m ρ c main_arg6 (by decide)).trans <| (W3_of m ρ c main_arg6 (by decide)).trans <|
      (W2_of m ρ c main_arg6 (by decide)).trans <| (W1_of m ρ c main_arg6 (by decide)).trans rfl

/-- THE FRAME: at the compiled mesh, from any memory with zero counters, every weakly fair execution of @main terminates,
    nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r hr c => ?_) (run_all m ρ)
  obtain ⟨h0, h1, h2, h3, h4, h5, h6⟩ := W8_args m ρ c
  exact ⟨(hr c _ (mem_uc main_arg0 (by decide))).trans h0, (hr c _ (mem_uc main_arg1 (by decide))).trans h1,
    (hr c _ (mem_uc main_arg2 (by decide))).trans h2, (hr c _ (mem_uc main_arg3 (by decide))).trans h3,
    (hr c _ (mem_uc main_arg4 (by decide))).trans h4, (hr c _ (mem_uc main_arg5 (by decide))).trans h5,
    (hr c _ (mem_uc main_arg6 (by decide))).trans h6⟩

end Cert.Kernel.Hand

end
-- ==== Proof.KI.Defs.lean ====
/-
  The four kernel regions of the graph-convolution program, as data: per region, each window's block at a grid point
  read off the region-entry contents `V`; what the body leaves in each staging buffer at a point, through the
  kernel's own arithmetic (the named payloads); and, for the three regions that reduce along an inner grid axis, the
  accumulator the kernel carries in scratch from point to point, by recursion on the point:

  * region 0 (dense layer times a row scale): one store per point, no carried state;
  * region 1 (rows gathered by a comparison-mask product): the accumulator is reset at the first tile of each edge
    block (point ≡ 0 mod 49), a mask product is added at every tile, and the block's messages are stored at the last;
  * region 2 (messages scattered by a comparison-mask product): reset at the first edge block of each node tile
    (point ≡ 0 mod 208), a mask product added per edge block, bias and relu stored at the last;
  * region 3 (mean pool and the final dense layer): sums and counts reset at the first node tile, accumulated over
    the 49 tiles, the quotient and the product with the last weights stored at the last tile.
-/
import proofs.«402996_j73263552135827_2_alg».proof.Proof.Gen.KernelIdeal.Launch
import proofs.«402996_j73263552135827_2_alg».proof.Proof.Gen.KernelIdeal.Skeleton
import proofs.«402996_j73263552135827_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The contents of a core's buffers when a region is entered: the parameter every region is stated at. -/
abbrev Entry (F : FTy → Type) : Type := (c : Dev nD) → (b : Ref sig .tc) → Buf (Elt F) ((c : Thread nD τ).loc b)

variable (V : Entry F)

/-! ## Region 0: y = (x · W) scaled row by row -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body stores into the output block at point `t`: the product of the point's row tile with the weights,
    each row scaled by its entry of the scale vector. -/
def out0 (c : Dev nD) (t : Fin cfg0.N) : Vec F S1024x64 .f32 :=
  k0_pay1 (iblk0 V c 0 t) (iblk0 V c 1 t) (iblk0 V c 2 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ _ := Pipeline.ΦA spec0 c
  q _ := fullShare
  owed _ := 0

/-! ## Region 1: the gather as a comparison-mask product, accumulated over the 49 node tiles -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator after point `n`: the mask product of the point's index block against the point's node
    tile, added to zero at the first tile of an edge block and to what the point before left otherwise. -/
def acc1 (c : Dev nD) : (n : ℕ) → n < cfg1.N → Vec F S4096x64 .f32
  | 0, h => k1_pay2 (grid1.coords ⟨0, h⟩) (iblk1 V c 0 ⟨0, h⟩) (iblk1 V c 2 ⟨0, h⟩) k1_pay1
  | n + 1, h => k1_pay2 (grid1.coords ⟨n + 1, h⟩) (iblk1 V c 0 ⟨n + 1, h⟩) (iblk1 V c 2 ⟨n + 1, h⟩)
      (if (n + 1) % 49 = 0 then k1_pay1 else acc1 c n (Nat.lt_of_succ_lt h))

/-- What the body stores into the message block at the last tile: the accumulator, each row scaled by the edge's weight. -/
def out1 (c : Dev nD) (t : Fin cfg1.N) : Vec F S1x4096x64 .bf16 :=
  k1_pay3 (iblk1 V c 1 t) (acc1 V c t.val t.isLt)

/-- The scratch operand of region 1 as a memref. -/
abbrev scM1 : Memref sig .tc .vmem S4096x64 .f32 := Memref.whole cc1_scratch0

/-- The region's invariant before point `n`: at entry the class's (every scoped buffer at anything); afterwards the
    scratch at what the point before left, the other scoped buffers and the generator register at anything. -/
def PhiS1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut spec1 c [cc1_scratch0] ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := PhiS1 V c t.val (Nat.le_of_lt_succ t.isLt)
  q _ := fullShare
  owed _ := 0

/-! ## Region 2: the scatter as a comparison-mask product, accumulated over the 208 edge blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S1024x64 .f32
  | 0, h => k2_pay2 (grid2.coords ⟨0, h⟩) (iblk2 V c 0 ⟨0, h⟩) (iblk2 V c 1 ⟨0, h⟩) k2_pay1
  | n + 1, h => k2_pay2 (grid2.coords ⟨n + 1, h⟩) (iblk2 V c 0 ⟨n + 1, h⟩) (iblk2 V c 1 ⟨n + 1, h⟩)
      (if (n + 1) % 208 = 0 then k2_pay1 else acc2 c n (Nat.lt_of_succ_lt h))

def out2 (c : Dev nD) (t : Fin cfg2.N) : Vec F S1024x64 .f32 :=
  k2_pay3 (acc2 V c t.val t.isLt) (iblk2 V c 2 t)

abbrev scM2 : Memref sig .tc .vmem S1024x64 .f32 := Memref.whole cc2_scratch0

def PhiS2 (c : Dev nD) : (n : ℕ) → n ≤ cfg2.N → sProp 𝕄
  | 0, _ => Pipeline.ΦA spec2 c
  | n + 1, hn => iprop(owns (c : Thread nD τ) scM2 fullShare (acc2 V c n hn)
      ∗ Pipeline.scopedRestBut spec2 c [cc2_scratch0] ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := PhiS2 V c t.val (Nat.le_of_lt_succ t.isLt)
  q _ := fullShare
  owed _ := 0

/-! ## Region 3: per-graph sums and counts over the 49 node tiles, then the mean and the last dense layer -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The per-graph sums after point `n`. -/
def acc3s (c : Dev nD) : (n : ℕ) → n < cfg3.N → Vec F S256x64 .f32
  | 0, h => k3_pay4 (iblk3 V c 1 ⟨0, h⟩) (iblk3 V c 0 ⟨0, h⟩) k3_pay1
  | n + 1, h => k3_pay4 (iblk3 V c 1 ⟨n + 1, h⟩) (iblk3 V c 0 ⟨n + 1, h⟩) (acc3s c n (Nat.lt_of_succ_lt h))

/-- The per-graph counts after point `n`. -/
def acc3c (c : Dev nD) : (n : ℕ) → n < cfg3.N → Vec F S256x1 .f32
  | 0, h => k3_pay5 (iblk3 V c 1 ⟨0, h⟩) k3_pay2
  | n + 1, h => k3_pay5 (iblk3 V c 1 ⟨n + 1, h⟩) (acc3c c n (Nat.lt_of_succ_lt h))

def out3 (c : Dev nD) (t : Fin cfg3.N) : Vec F S256x8 .f32 :=
  k3_pay6 (acc3c V c t.val t.isLt) (acc3s V c t.val t.isLt) (iblk3 V c 2 t) (iblk3 V c 3 t)

abbrev scM3s : Memref sig .tc .vmem S256x64 .f32 := Memref.whole cc3_scratch0
abbrev scM3c : Memref sig .tc .vmem S256x1 .f32 := Memref.whole cc3_scratch1

def PhiS3 (c : Dev nD) : (n : ℕ) → n ≤ cfg3.N → sProp 𝕄
  | 0, _ => Pipeline.ΦA spec3 c
  | n + 1, hn => iprop(owns (c : Thread nD τ) scM3s fullShare (acc3s V c n hn)
      ∗ owns (c : Thread nD τ) scM3c fullShare (acc3c V c n hn)
      ∗ Pipeline.scopedRestBut spec3 c [cc3_scratch0, cc3_scratch1] ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 V c t
  Φ t := PhiS3 V c t.val (Nat.le_of_lt_succ t.isLt)
  q _ := fullShare
  owed _ := 0

end Cert.KernelIdeal.Hand

end
-- ==== Proof.KI.R0.lean ====
/-
  Region 0: the body obligation of its pipeline at every grid point, for the proof data of Defs.lean.
-/
import proofs.«402996_j73263552135827_2_alg».proof.Proof.KI.Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-! ## What the body finds in the input windows' staging buffers -/

/-- The proof data's arrays are the region-entry contents. -/
theorem A_eq0 (c : Dev nD) (w : Fin cfg0.W) : (dat0 V c).A w = V c (Pipeline.arrRef spec0 w) := by
  dsimp only [dat0]

/-- What the body leaves, window by window: each input's block in place, the output at the scaled product. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

/-- The row tile of the features: its staging buffer holds the point's tile, fetched at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The weight matrix: fetched at the first point only; its block index never moves, so the buffer still holds the
    one block at every later point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The slice of the scale vector: fetched at every point. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body's one store -/

/-- The whole output tile as a rectangle: origin zero, the tile's own extents. -/
abbrev rTile0 : Rect S1024x64 := Rect.unit (s := S1024x64) ![0, 0] S1024x64.size inb_S1024x64_S1024x64_0_0

/-- The origins of the body's rectangles are zero. -/
theorem origin2_zero : (![0, 0] : Fin 2 → Nat) = fun _ => 0 := by
  funext a; fin_cases a <;> rfl
theorem origin1_zero : (![0] : Fin 1 → Nat) = fun _ => 0 := by
  funext a; fin_cases a; rfl

/-- The one store tiles the buffer, so it covers it. -/
theorem coverTile0 (p : Vec F S1024x64 .f32) (y : S1024x64.Idx) :
    ∃ pc ∈ ([⟨rTile0, p⟩] : List (View.Piece (Elt F) S1024x64 .f32)), y ∈ pc.1.set :=
  View.cover_of_tiled [⟨rTile0, p⟩] S1024x64.size (by rfl) y

/-! ## The body's triple -/

set_option maxHeartbeats 1000000 in
/-- The kernel on whole staging memrefs — the three inputs' at read contents `x`, `wt`, `sc`, the output's at
    anything — runs to the continuation holding the inputs' as they were and the output's at the scaled product
    `k0_pay1 x wt sc`: three whole loads, a load of the output whose value is dropped, one store through the whole tile. -/
theorem sound_kernel0 (c : Dev nD) (E : Set ℕ) (i : grid0.Coords)
    (arg1 : Memref sig .tc .vmem S1024x128 .f32) (harg1 : arg1.IsWhole)
    (arg2 : Memref sig .tc .vmem S128x64 .f32) (harg2 : arg2.IsWhole)
    (arg3 : Memref sig .tc .vmem S1024 .f32) (harg3 : arg3.IsWhole)
    (arg4 : Memref sig .tc .vmem S1024x64 .f32) (harg4 : arg4.IsWhole)
    (x : Vec F S1024x128 .f32) (wt : Vec F S128x64 .f32) (sc : Vec F S1024 .f32) (K : PUnit → sProp 𝕄) :
    iprop(owns (c : Thread nD τ) arg1 fullShare x ∗ owns (c : Thread nD τ) arg2 fullShare wt
        ∗ owns (c : Thread nD τ) arg3 fullShare sc ∗ (∃ d, owns (c : Thread nD τ) arg4 fullShare d)
        ∗ (iprop(owns (c : Thread nD τ) arg1 fullShare x ∗ owns (c : Thread nD τ) arg2 fullShare wt
            ∗ owns (c : Thread nD τ) arg3 fullShare sc ∗ owns (c : Thread nD τ) arg4 fullShare (k0_pay1 x wt sc)) -∗ K ⟨⟩))
      ⊢ wp frame (wpE (defs₀ (F := F)) Variants.none c none) E (cc0__lin_scale_kernel i arg1 harg1 arg2 harg2 arg3 harg3 arg4 harg4) K := by
  simp only [cc0__lin_scale_kernel_eq_skeleton]; unfold cc0__lin_scale_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (coverTile0 _), View.canon_unit_zero origin2_zero]
  simp only [View.readAt_eq_ld, View.ld_unit_zero (S := S1024x128) origin2_zero,
    View.ld_unit_zero (S := S128x64) origin2_zero, View.ld_unit_zero (S := S1024) origin1_zero]

/-! ## The body obligation, at a generic point -/

/-- What the body is called with at point `t`: the invariant, the core's dues, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same invariant and dues, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three inputs' buffers hold their blocks, so the kernel's triple applies at those
    blocks and leaves the output's buffer at the scaled product of them; the invariant and the dues are not read. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold out0
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1: the body obligation of its pipeline at every grid point, for the proof data of Defs.lean.
-/
import proofs.«402996_j73263552135827_2_alg».proof.Proof.KI.Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-! The grid is 208 edge blocks by 49 node tiles, the node tile the fast axis: point `t` has inner coordinate `t % 49`.
    At a point the body zeroes the scratch accumulator if the inner coordinate is 0, adds the mask product of the
    point's index block against the point's node tile to the scratch, and, if the inner coordinate is 48, stores the
    accumulator scaled row by row by the edge weights into the message block. So a point is of one of three kinds
    (49 > 1: no point is both first and last of its edge block), and the scratch after point `t` is the recursion
    `acc1`: over zero at a first tile, over what the point before left otherwise. -/

/-- The proof data's arrays are the region-entry contents. -/
theorem A_eq1 (c : Dev nD) (w : Fin cfg1.W) : (dat1 V c).A w = V c (Pipeline.arrRef spec1 w) := by
  dsimp only [dat1]

/-! ## Where a point lies in its edge block -/

/-- The body's first conditional, from the grid coordinates: the inner coordinate (the node tile) is 0. -/
abbrev first1 (i : grid1.Coords) : Prop :=
  (Scalar.cmpi .ne (Scalar.extui (Scalar.cmpi .eq (BitVec.ofNat 32 (i 1).val) 0#32)) 0#32) = 1#1
/-- The body's second conditional: the inner coordinate is 48, the last node tile. -/
abbrev last1 (i : grid1.Coords) : Prop := k1_cond2 i = 1#1

/-- The inner axis is the fast one: the node tile of point `t` is `t % 49`. -/
theorem inner1 (t : Fin cfg1.N) : (grid1.coords t 1).val = t.val % 49 := by
  have hs : grid1.stride 1 = 1 := by decide
  show t.val / grid1.stride 1 % 49 = t.val % 49
  rw [hs, Nat.div_one]

/-- Both conditionals compare the inner coordinate, a number below 49, with a constant: decided over the 49 tiles. -/
theorem first1_iff (i : grid1.Coords) : first1 i ↔ (i 1).val = 0 :=
  (by decide +kernel : ∀ j : Fin 49,
    (Scalar.cmpi .ne (Scalar.extui (Scalar.cmpi .eq (BitVec.ofNat 32 j.val) 0#32)) 0#32) = 1#1 ↔ j.val = 0) (i 1)
theorem last1_iff (i : grid1.Coords) : last1 i ↔ (i 1).val = 48 :=
  (by decide +kernel : ∀ j : Fin 49,
    (Scalar.cmpi .ne (Scalar.extui (Scalar.cmpi .eq (BitVec.ofNat 32 j.val) 48#32)) 0#32) = 1#1 ↔ j.val = 48) (i 1)

theorem hfirst1 (t : Fin cfg1.N) : first1 (grid1.coords t) ↔ t.val % 49 = 0 := by
  rw [first1_iff, inner1]
theorem hlast1 (t : Fin cfg1.N) : last1 (grid1.coords t) ↔ t.val % 49 = 48 := by
  rw [last1_iff, inner1]

/-- The message window is idle exactly where the second conditional fails, -/
theorem idle1_3_of (i : grid1.Coords) (h : ¬last1 i) : cfg1.idle 3 i = true := by
  show (!(k1_cond2 i == 1#1)) = true
  rw [Bool.not_eq_true', beq_eq_false_iff_ne]; exact h
/-- live where it holds, -/
theorem live1_3_of (i : grid1.Coords) (h : last1 i) : cfg1.idle 3 i = false := by
  show (!(k1_cond2 i == 1#1)) = false
  rw [h]; rfl
/-- and not written back off the last tile. -/
theorem noFlush1_3 (t : Fin cfg1.N) (h : ¬t.val % 49 = 48) : (cfg1.win 3).flush t = false :=
  Bool.eq_false_iff.mpr fun hf => h ((flush1_3 t).mp hf)

/-! ## The accumulator, unfolded at a point -/

/-- At the first tile of an edge block the accumulator is the point's mask product over zero. -/
theorem acc1_first (c : Dev nD) (t : Fin cfg1.N) (h : t.val % 49 = 0) :
    acc1 V c t.val t.isLt = k1_pay2 (grid1.coords t) (iblk1 V c 0 t) (iblk1 V c 2 t) k1_pay1 := by
  obtain ⟨n, hn⟩ := t
  cases n with
  | zero => rfl
  | succ n =>
    show k1_pay2 _ _ _ (if (n + 1) % 49 = 0 then k1_pay1 else acc1 V c n _) = _
    rw [if_pos h]

/-- At any other tile it is the point's mask product over what the point before left. -/
theorem acc1_next (c : Dev nD) (t : Fin cfg1.N) (h : ¬t.val % 49 = 0) :
    acc1 V c t.val t.isLt = k1_pay2 (grid1.coords t) (iblk1 V c 0 t) (iblk1 V c 2 t)
      (acc1 V c (t.val - 1) (Nat.lt_of_le_of_lt (Nat.sub_le _ _) t.isLt)) := by
  obtain ⟨n, hn⟩ := t
  cases n with
  | zero => exact absurd (Nat.zero_mod _) h
  | succ n =>
    show k1_pay2 _ _ _ (if (n + 1) % 49 = 0 then k1_pay1 else acc1 V c n _) = _
    rw [if_neg h]
    try rfl

/-! ## The invariant, unfolded -/

theorem PhiS1_zero (c : Dev nD) (n : ℕ) (h : n ≤ cfg1.N) (hz : n = 0) : PhiS1 V c n h = Pipeline.ΦA spec1 c := by
  subst hz; rfl

/-- After point `n`: the scratch at that point's accumulator. -/
theorem PhiS1_succ (c : Dev nD) (n : ℕ) (hn : n < cfg1.N) :
    PhiS1 V c (n + 1) hn = iprop(owns (c : Thread nD τ) scM1 fullShare (acc1 V c n hn)
      ∗ Pipeline.scopedRestBut spec1 c [cc1_scratch0] ∗ (∃ r, prngReg c r)) := rfl

/-- Before a point that is not the first: the scratch at what the point before left. -/
theorem PhiS1_pos (c : Dev nD) (n : ℕ) (h : n ≤ cfg1.N) (hz : n ≠ 0) :
    PhiS1 V c n h = iprop(owns (c : Thread nD τ) scM1 fullShare (acc1 V c (n - 1) (by omega))
      ∗ Pipeline.scopedRestBut spec1 c [cc1_scratch0] ∗ (∃ r, prngReg c r)) := by
  cases n with
  | zero => exact absurd rfl hz
  | succ n => rfl

/-- The class's invariant with the scratch operand set apart as a memref owned at some contents. -/
theorem PhiA1_eq (c : Dev nD) :
    (Pipeline.ΦA spec1 c : sProp 𝕄)
      = iprop(iprop(iprop(∃ d, owns (c : Thread nD τ) scM1 fullShare d) ∗ Pipeline.scopedRestBut spec1 c [cc1_scratch0])
          ∗ (∃ r, prngReg c r)) := by
  unfold Pipeline.ΦA; rw [scopedRest1_split]; simp only [scM1, owns_whole]; try rfl

/-- Before any point the invariant holds the scratch at some contents: its named contents forgotten. -/
theorem PhiS1_forget (c : Dev nD) (n : ℕ) (h : n ≤ cfg1.N) :
    PhiS1 V c n h ⊢ iprop(iprop(∃ d, owns (c : Thread nD τ) scM1 fullShare d)
      ∗ Pipeline.scopedRestBut spec1 c [cc1_scratch0] ∗ (∃ r, prngReg c r)) := by
  by_cases hz : n = 0
  · rw [PhiS1_zero V c n h hz, PhiA1_eq]
    iintro ⟨⟨HS, Hr⟩, Hg⟩
    isplitl [HS]; · iexact HS
    isplitl [Hr]; · iexact Hr
    iexact Hg
  · rw [PhiS1_pos V c n h hz]
    iintro ⟨HS, Hr, Hg⟩
    isplitl [HS]; · iexists _; iexact HS
    isplitl [Hr]; · iexact Hr
    iexact Hg

/-! ## The body's three runs -/

theorem zeros2 : (![0, 0] : Fin 2 → Nat) = fun _ => 0 := by funext a; fin_cases a <;> rfl
theorem zeros3 : (![0, 0, 0] : Fin 3 → Nat) = fun _ => 0 := by funext a; fin_cases a <;> rfl

set_option maxHeartbeats 1000000 in
/-- A first tile that is not the last: the scratch, whatever it held, ends at the mask product over zero (the later
    store covers the reset, which the accumulate's load read back); the message buffer is not touched. -/
theorem run1_first (c : Dev nD) (E : Set ℕ) (i : grid1.Coords)
    (arg2 : Memref sig .tc .vmem S1x1x4096 .i32) (harg2 : arg2.IsWhole) (arg3 : Memref sig .tc .vmem S1x1x4096 .f32) (harg3 : arg3.IsWhole)
    (arg4 : Memref sig .tc .vmem S1024x64 .f32) (harg4 : arg4.IsWhole) (arg5 : Memref sig .tc .vmem S1x4096x64 .bf16) (harg5 : arg5.IsWhole)
    (arg6 : Memref sig .tc .vmem S4096x64 .f32) (harg6 : arg6.IsWhole)
    (hc0 : first1 i) (hc1 : ¬last1 i)
    (x0 : Vec F S1x1x4096 .i32) (x1 : Vec F S1x1x4096 .f32) (x2 : Vec F S1024x64 .f32) (xi3 : Vec F S1x4096x64 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k1_pay2 i x0 x2 k1_pay1)) -∗ K ⟨⟩))
      ⊢ wp frame (wpE (defs₀ (F := F)) Variants.none c none) E (cc1__gather_kernel i arg2 harg2 arg3 harg3 arg4 harg4 arg5 harg5 arg6 harg6) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (fun y => ⟨_, List.mem_cons_self, View.mem_set_unit_zero zeros2 inb_S4096x64_S4096x64_0_0 y⟩)]
  rw [View.canon_cons_unit_zero (S := S4096x64) zeros2]
  simp only [View.readAt_eq_ld, harg2.read_unread, harg4.read_unread, View.ld_unit_zero (S := S1x1x4096) zeros3,
    View.ld_unit_zero (S := S1024x64) zeros2, View.readCov_unit_zero (S := S4096x64) _ zeros2]

set_option maxHeartbeats 1000000 in
/-- A tile neither first nor last: the scratch at `xs` ends at the mask product over `xs`; the message buffer is
    not touched. -/
theorem run1_mid (c : Dev nD) (E : Set ℕ) (i : grid1.Coords)
    (arg2 : Memref sig .tc .vmem S1x1x4096 .i32) (harg2 : arg2.IsWhole) (arg3 : Memref sig .tc .vmem S1x1x4096 .f32) (harg3 : arg3.IsWhole)
    (arg4 : Memref sig .tc .vmem S1024x64 .f32) (harg4 : arg4.IsWhole) (arg5 : Memref sig .tc .vmem S1x4096x64 .bf16) (harg5 : arg5.IsWhole)
    (arg6 : Memref sig .tc .vmem S4096x64 .f32) (harg6 : arg6.IsWhole)
    (hc0 : ¬first1 i) (hc1 : ¬last1 i)
    (x0 : Vec F S1x1x4096 .i32) (x1 : Vec F S1x1x4096 .f32) (x2 : Vec F S1024x64 .f32) (xi3 : Vec F S1x4096x64 .bf16)
    (xs : Vec F S4096x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare (k1_pay2 i x0 x2 xs)) -∗ K ⟨⟩))
      ⊢ wp frame (wpE (defs₀ (F := F)) Variants.none c none) E (cc1__gather_kernel i arg2 harg2 arg3 harg3 arg4 harg4 arg5 harg5 arg6 harg6) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (fun y => ⟨_, List.mem_cons_self, View.mem_set_unit_zero zeros2 inb_S4096x64_S4096x64_0_0 y⟩)]
  rw [View.canon_cons_unit_zero (S := S4096x64) zeros2]
  simp only [View.readAt_eq_ld, harg2.read_unread, harg4.read_unread, harg6.read_unread, View.ld_unit_zero (S := S1x1x4096) zeros3,
    View.ld_unit_zero (S := S1024x64) zeros2, View.ld_unit_zero (S := S4096x64) zeros2]

set_option maxHeartbeats 1000000 in
/-- A last tile (never a first): the scratch at `xs` ends at the mask product over `xs`, and the message buffer,
    whatever it held, at that accumulator scaled by the weights. -/
theorem run1_last (c : Dev nD) (E : Set ℕ) (i : grid1.Coords)
    (arg2 : Memref sig .tc .vmem S1x1x4096 .i32) (harg2 : arg2.IsWhole) (arg3 : Memref sig .tc .vmem S1x1x4096 .f32) (harg3 : arg3.IsWhole)
    (arg4 : Memref sig .tc .vmem S1024x64 .f32) (harg4 : arg4.IsWhole) (arg5 : Memref sig .tc .vmem S1x4096x64 .bf16) (harg5 : arg5.IsWhole)
    (arg6 : Memref sig .tc .vmem S4096x64 .f32) (harg6 : arg6.IsWhole)
    (hc0 : ¬first1 i) (hc1 : last1 i)
    (x0 : Vec F S1x1x4096 .i32) (x1 : Vec F S1x1x4096 .f32) (x2 : Vec F S1024x64 .f32)
    (xs : Vec F S4096x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 x1 (k1_pay2 i x0 x2 xs))
            ∗ owns (c : Thread nD τ) arg6 fullShare (k1_pay2 i x0 x2 xs)) -∗ K ⟨⟩))
      ⊢ wp frame (wpE (defs₀ (F := F)) Variants.none c none) E (cc1__gather_kernel i arg2 harg2 arg3 harg3 arg4 harg4 arg5 harg5 arg6 harg6) K := by
  simp only [cc1__gather_kernel_eq_skeleton]; unfold cc1__gather_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_cons_self, View.mem_set_unit_zero zeros3 inb_S1x4096x64_S1x4096x64_0_0_0 y⟩)]
    rw [View.canon_cons_unit_zero (S := S1x4096x64) zeros3]
    simp only [View.readAt_eq_ld, harg2.read_unread, harg3.read_unread, harg4.read_unread, harg6.read_unread,
      View.ld_unit_zero (S := S1x1x4096) zeros3, View.ld_unit_zero (S := S1024x64) zeros2, View.ld_unit_zero (S := S4096x64) zeros2,
      View.readCov_unit_zero (S := S4096x64) _ zeros2]
  iexists _; isplitr
  swap; · iexact HS
  ipureintro
  sl_unfold_words
  rw [View.read_writes_eq_canon _ _ _ (fun y => ⟨_, List.mem_cons_self, View.mem_set_unit_zero zeros2 inb_S4096x64_S4096x64_0_0 y⟩)]
  rw [View.canon_cons_unit_zero (S := S4096x64) zeros2]
  simp only [View.readAt_eq_ld, harg2.read_unread, harg4.read_unread, harg6.read_unread, View.ld_unit_zero (S := S1x1x4096) zeros3,
    View.ld_unit_zero (S := S1024x64) zeros2, View.ld_unit_zero (S := S4096x64) zeros2]

/-! ## The proof data at a point -/

/-- The invariant at a point's start, restated at the point's number. -/
theorem Phi1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

/-- An input window's current staging buffer holds its block at every point, fetched there or not: where it is not
    fetched (the source words and the weights, off the first tile of an edge block) its block index has not moved
    and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; `t % 49` says which kind of point it is. At a first
    tile the invariant hands over the scratch at anything and takes it back at the mask product over zero; at a later
    tile it hands it over at what the point before left and takes it back at the mask product over that: in both
    cases the accumulator's recursion at `t`. The message buffer is handed back as found off the last tile (the window
    is idle and not written back there) and at the scaled accumulator on it. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  rw [Phi1_castSucc V c t]
  have hN : t.val < 10192 := lt_of_lt_of_eq t.isLt (show cfg1.N = 10192 from N_1)
  by_cases h0 : t.val % 49 = 0
  · have h1 : ¬t.val % 49 = 48 := by omega
    rw [Dat.leavesExact_idle (dat1 V c) 3 t (idle1_3_of _ (fun h => h1 ((hlast1 t).mp h))) (noFlush1_3 t h1)]
    rw [acc1_first V c t h0]
    iintro ⟨HΦ, Ho, ⟨%d0, H0⟩, ⟨%d1, H1⟩, ⟨%d2, H2⟩, ⟨%d3, H3⟩⟩
    icases (PhiS1_forget V c t.val (Nat.le_of_lt t.isLt)) $$ HΦ with ⟨HS, Hr, Hg⟩
    iapply (run1_first c Set.univ (grid1.coords t) _ _ _ _ _ _ _ _ _ _ ((hfirst1 t).mpr h0) (fun h => h1 ((hlast1 t).mp h))
      (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [PhiS1_pos V c _ _ hz, acc1_next V c t h0]
    by_cases h1 : t.val % 49 = 48
    · rw [show (dat1 V c).leavesExact 3 t = owns (c : Thread nD τ) (st1_3 t) fullShare ((dat1 V c).after 3 t) from by
        unfold Dat.leavesExact; rw [live1_3_of _ ((hlast1 t).mpr h1)], after1_3]
      unfold out1
      rw [acc1_next V c t h0]
      iintro ⟨⟨HS, Hr, Hg⟩, Ho, ⟨%d0, H0⟩, ⟨%d1, H1⟩, ⟨%d2, H2⟩, ⟨%d3, H3⟩⟩
      iapply (run1_last c Set.univ (grid1.coords t) _ _ _ _ _ _ _ _ _ _ (fun h => h0 ((hfirst1 t).mp h)) ((hlast1 t).mpr h1)
        (iblk1 V c 0 t) (iblk1 V c 1 t) (iblk1 V c 2 t) (acc1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat1 V c) 3 t (idle1_3_of _ (fun h => h1 ((hlast1 t).mp h))) (noFlush1_3 t h1)]
      iintro ⟨⟨HS, Hr, Hg⟩, Ho, ⟨%d0, H0⟩, ⟨%d1, H1⟩, ⟨%d2, H2⟩, ⟨%d3, H3⟩⟩
      iapply (run1_mid c Set.univ (grid1.coords t) _ _ _ _ _ _ _ _ _ _ (fun h => h0 ((hfirst1 t).mp h)) (fun h => h1 ((hlast1 t).mp h))
        (iblk1 V c 0 t) (iblk1 V c 1 t) (iblk1 V c 2 t) ((dat1 V c).before 3 t d3)
        (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's invariant back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  refine (PhiS1_forget V c _ _).trans ?_
  iintro ⟨HS, Hr, Hg⟩
  isplitl [HS Hr]
  · isplitl [HS]; · iexact HS
    iexact Hr
  iexact Hg

end Cert.KernelIdeal.Hand

end
-- ==== Proof.KI.R2.lean ====
/-
  Region 2: the body obligation of its pipeline at every grid point, for the proof data of Defs.lean.
-/
import proofs.«402996_j73263552135827_2_alg».proof.Proof.KI.Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-- The proof data's arrays are the region-entry contents. -/
theorem A_eq2 (c : Dev nD) (w : Fin cfg2.W) : (dat2 V c).A w = V c (Pipeline.arrRef spec2 w) := by
  dsimp only [dat2]

/-! ## The branch conditions of the body, in closed form over the grid -/

/-- The body resets the accumulator where the inner coordinate (the edge block) is zero. -/
abbrev cond2_0 (i : grid2.Coords) : Prop :=
  (Scalar.cmpi .ne (Scalar.extui (Scalar.cmpi .eq (BitVec.ofNat 32 (i 1).val) 0#32)) 0#32) = 1#1
/-- It stores the output block where the inner coordinate is the last, 207. -/
abbrev cond2_1 (i : grid2.Coords) : Prop := k2_cond2 i = 1#1

/-- The reset happens at the points ≡ 0 (mod 208): the first edge block of a node tile. -/
theorem hcond2_0 : ∀ t : Fin cfg2.N, cond2_0 (grid2.coords t) ↔ t.val % 208 = 0 :=
  (by decide +kernel : ∀ t : Fin grid2.N, cond2_0 (grid2.coords t) ↔ t.val % 208 = 0)
/-- The output store happens at the points ≡ 207 (mod 208): the last edge block of a node tile. -/
theorem hcond2_1 : ∀ t : Fin cfg2.N, cond2_1 (grid2.coords t) ↔ t.val % 208 = 207 :=
  (by decide +kernel : ∀ t : Fin grid2.N, cond2_1 (grid2.coords t) ↔ t.val % 208 = 207)

/-! ## Where the windows are idle -/

/-- The three inputs are never idle. -/
theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
/-- The output is idle exactly where the body does not store it, -/
theorem idleAt2_3 (t : Fin cfg2.N) (h : ¬cond2_1 (grid2.coords t)) : cfg2.idle 3 (grid2.coords t) = true := by
  show (!(k2_cond2 (grid2.coords t) == 1#1)) = true
  rw [Bool.not_eq_true', beq_eq_false_iff_ne]; exact h
/-- live where it does, -/
theorem liveAt2_3 (t : Fin cfg2.N) (h : cond2_1 (grid2.coords t)) : cfg2.idle 3 (grid2.coords t) = false := by
  show (!(k2_cond2 (grid2.coords t) == 1#1)) = false
  rw [Bool.not_eq_false', beq_iff_eq]; exact h
/-- and not written back where the point is not the last of its node tile. -/
theorem noFlush2_3 (t : Fin cfg2.N) (h : ¬t.val % 208 = 207) : (cfg2.win 3).flush t = false := by
  rw [← Bool.not_eq_true]; exact fun hf => h ((flush2_3 t).mp hf)

/-! ## The accumulator, point by point -/

/-- At a point that opens a node tile the mask product is added to zero. -/
theorem acc2_reset (c : Dev nD) (t : Fin cfg2.N) (h0 : t.val % 208 = 0) :
    acc2 V c t.val t.isLt = k2_pay2 (grid2.coords t) (iblk2 V c 0 t) (iblk2 V c 1 t) k2_pay1 := by
  obtain ⟨n, hn⟩ := t
  cases n with
  | zero => rfl
  | succ n =>
    exact congrArg (k2_pay2 (grid2.coords ⟨n + 1, hn⟩) (iblk2 V c 0 ⟨n + 1, hn⟩) (iblk2 V c 1 ⟨n + 1, hn⟩)) (if_pos h0)

/-- At any other point it is added to what the point before left. -/
theorem acc2_step (c : Dev nD) (t : Fin cfg2.N) (h0 : ¬t.val % 208 = 0) :
    acc2 V c t.val t.isLt = k2_pay2 (grid2.coords t) (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h0
  | succ n =>
    exact congrArg (k2_pay2 (grid2.coords ⟨n + 1, hn⟩) (iblk2 V c 0 ⟨n + 1, hn⟩) (iblk2 V c 1 ⟨n + 1, hn⟩)) (if_neg h0)

/-! ## The invariant, point by point -/

theorem PhiS2_zero (c : Dev nD) (n : ℕ) (h : n ≤ cfg2.N) (hz : n = 0) : PhiS2 V c n h = Pipeline.ΦA spec2 c := by
  subst hz; rfl

/-- After point `n`: the scratch at that point's accumulator. -/
theorem PhiS2_succ (c : Dev nD) (n : ℕ) (hn : n < cfg2.N) :
    PhiS2 V c (n + 1) hn = iprop(owns (c : Thread nD τ) scM2 fullShare (acc2 V c n hn)
      ∗ Pipeline.scopedRestBut spec2 c [cc2_scratch0] ∗ (∃ r, prngReg c r)) := rfl

/-- Before a point that is not the first: the scratch at the accumulator of the point before. -/
theorem PhiS2_pos (c : Dev nD) (n : ℕ) (h : n ≤ cfg2.N) (hz : n ≠ 0) :
    PhiS2 V c n h = iprop(owns (c : Thread nD τ) scM2 fullShare (acc2 V c (n - 1) (by omega))
      ∗ Pipeline.scopedRestBut spec2 c [cc2_scratch0] ∗ (∃ r, prngReg c r)) := by
  cases n with
  | zero => exact absurd rfl hz
  | succ n => rfl

/-- The class's invariant with the scratch split off as a memref owned at some contents. -/
theorem PhiA2_eq (c : Dev nD) :
    (Pipeline.ΦA spec2 c : sProp 𝕄)
      = iprop(iprop(iprop(∃ d, owns (c : Thread nD τ) scM2 fullShare d)
          ∗ Pipeline.scopedRestBut spec2 c [cc2_scratch0]) ∗ (∃ r, prngReg c r)) := by
  unfold Pipeline.ΦA; rw [scopedRest2_split]; simp only [scM2, owns_whole]; try rfl

/-- The invariant at a point's start, restated at the point's number. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## What the body finds in and leaves in the windows' buffers -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

/-- An input window's current buffer holds its block at every point, fetched there or not: unfetched, the
    block index has not moved since the fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body's accesses: every load and store is of a whole buffer -/

/-- The whole scratch (and the whole output block): the rectangle at the origin of the buffer's own extents. -/
abbrev rAcc : Rect S1024x64 := Rect.unit (s := S1024x64) ![0, 0] S1024x64.size inb_S1024x64_S1024x64_0_0
/-- The origins of the four whole-buffer rectangles are zero, -/
theorem hzAcc : (![0, 0] : Fin S1024x64.rank → Nat) = fun _ => 0 := by funext a; fin_cases a <;> rfl
theorem hzDst : (![0, 0, 0] : Fin S1x1x4096.rank → Nat) = fun _ => 0 := by funext a; fin_cases a <;> rfl
theorem hzMsg : (![0, 0, 0] : Fin S1x4096x64.rank → Nat) = fun _ => 0 := by funext a; fin_cases a <;> rfl
theorem hzBias : (![0] : Fin S64.rank → Nat) = fun _ => 0 := by funext a; fin_cases a <;> rfl
/-- so a store through the scratch's covers every index, whatever was stored before. -/
theorem coverAcc (p : Vec F S1024x64 .f32) (L : List (View.Piece (Elt F) S1024x64 .f32)) (y : S1024x64.Idx) :
    ∃ pc ∈ ((⟨rAcc, p⟩ : View.Piece (Elt F) S1024x64 .f32) :: L), y ∈ pc.1.set :=
  ⟨_, List.mem_cons_self .., View.mem_set_unit_zero (S := S1024x64) hzAcc inb_S1024x64_S1024x64_0_0 y⟩

/-! ## The body's run, case by case, on any whole memrefs -/

set_option maxHeartbeats 1000000 in
/-- CASE A, the first edge block of a node tile: whatever the scratch held, the body zeroes it, adds the block's mask
    product and leaves the output's buffer as it found it. -/
theorem run2_A (c : Dev nD) (i : grid2.Coords)
    (arg2 : Memref sig .tc .vmem S1x1x4096 .i32) (harg2 : arg2.IsWhole) (arg3 : Memref sig .tc .vmem S1x4096x64 .bf16) (harg3 : arg3.IsWhole)
    (arg4 : Memref sig .tc .vmem S64 .f32) (harg4 : arg4.IsWhole) (arg5 : Memref sig .tc .vmem S1024x64 .f32) (harg5 : arg5.IsWhole)
    (arg6 : Memref sig .tc .vmem S1024x64 .f32) (harg6 : arg6.IsWhole) (hc0 : cond2_0 i) (hc1 : ¬cond2_1 i) (xi3 : Vec F S1024x64 .f32)
    (x0 : Vec F S1x1x4096 .i32) (x1 : Vec F S1x4096x64 .bf16) (x2 : Vec F S64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k2_pay2 i x0 x1 k2_pay1)) -∗ K ⟨⟩))
      ⊢ wp frame (wpE (defs₀ (F := F)) Variants.none c none) E (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (coverAcc _ _), View.canon_cons_unit_zero (S := S1024x64) hzAcc]
  simp only [View.readAt_eq_ld, harg2.read_unread, harg3.read_unread, harg4.read_unread, harg6.read_unread,
    View.ld_unit_zero (S := S1x1x4096) hzDst, View.ld_unit_zero (S := S1x4096x64) hzMsg, View.ld_unit_zero (S := S64) hzBias,
    View.ld_unit_zero (S := S1024x64) hzAcc, View.readCov_unit_zero (S := S1024x64) _ hzAcc]

set_option maxHeartbeats 1000000 in
/-- CASE B, an inner edge block: the body adds the block's mask product to what the scratch held and leaves the
    output's buffer as it found it. -/
theorem run2_B (c : Dev nD) (i : grid2.Coords)
    (arg2 : Memref sig .tc .vmem S1x1x4096 .i32) (harg2 : arg2.IsWhole) (arg3 : Memref sig .tc .vmem S1x4096x64 .bf16) (harg3 : arg3.IsWhole)
    (arg4 : Memref sig .tc .vmem S64 .f32) (harg4 : arg4.IsWhole) (arg5 : Memref sig .tc .vmem S1024x64 .f32) (harg5 : arg5.IsWhole)
    (arg6 : Memref sig .tc .vmem S1024x64 .f32) (harg6 : arg6.IsWhole) (hc0 : ¬cond2_0 i) (hc1 : ¬cond2_1 i) (xi3 : Vec F S1024x64 .f32) (xs : Vec F S1024x64 .f32)
    (x0 : Vec F S1x1x4096 .i32) (x1 : Vec F S1x4096x64 .bf16) (x2 : Vec F S64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k2_pay2 i x0 x1 xs)) -∗ K ⟨⟩))
      ⊢ wp frame (wpE (defs₀ (F := F)) Variants.none c none) E (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (coverAcc _ _), View.canon_cons_unit_zero (S := S1024x64) hzAcc]
  simp only [View.readAt_eq_ld, harg2.read_unread, harg3.read_unread, harg4.read_unread, harg6.read_unread,
    View.ld_unit_zero (S := S1x1x4096) hzDst, View.ld_unit_zero (S := S1x4096x64) hzMsg, View.ld_unit_zero (S := S64) hzBias,
    View.ld_unit_zero (S := S1024x64) hzAcc, View.readCov_unit_zero (S := S1024x64) _ hzAcc]

set_option maxHeartbeats 1000000 in
/-- CASE C, the last edge block of a node tile: the body adds the block's mask product to what the scratch held, then
    stores the sum with the bias added and clamped at zero over the whole output block, whatever that held. -/
theorem run2_C (c : Dev nD) (i : grid2.Coords)
    (arg2 : Memref sig .tc .vmem S1x1x4096 .i32) (harg2 : arg2.IsWhole) (arg3 : Memref sig .tc .vmem S1x4096x64 .bf16) (harg3 : arg3.IsWhole)
    (arg4 : Memref sig .tc .vmem S64 .f32) (harg4 : arg4.IsWhole) (arg5 : Memref sig .tc .vmem S1024x64 .f32) (harg5 : arg5.IsWhole)
    (arg6 : Memref sig .tc .vmem S1024x64 .f32) (harg6 : arg6.IsWhole) (hc0 : ¬cond2_0 i) (hc1 : cond2_1 i) (xs : Vec F S1024x64 .f32)
    (x0 : Vec F S1x1x4096 .i32) (x1 : Vec F S1x4096x64 .bf16) (x2 : Vec F S64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k2_pay3 (k2_pay2 i x0 x1 xs) x2) ∗ owns (c : Thread nD τ) arg6 fullShare (k2_pay2 i x0 x1 xs)) -∗ K ⟨⟩))
      ⊢ wp frame (wpE (defs₀ (F := F)) Variants.none c none) E (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (coverAcc _ _), View.canon_cons_unit_zero (S := S1024x64) hzAcc]
    simp only [View.readAt_eq_ld, harg2.read_unread, harg3.read_unread, harg4.read_unread, harg6.read_unread,
    View.ld_unit_zero (S := S1x1x4096) hzDst, View.ld_unit_zero (S := S1x4096x64) hzMsg, View.ld_unit_zero (S := S64) hzBias,
    View.ld_unit_zero (S := S1024x64) hzAcc, View.readCov_unit_zero (S := S1024x64) _ hzAcc]
  iexists _; isplitr
  swap; · iexact HS
  ipureintro
  sl_unfold_words
  rw [View.read_writes_eq_canon _ _ _ (coverAcc _ _), View.canon_cons_unit_zero (S := S1024x64) hzAcc]
  simp only [View.readAt_eq_ld, harg2.read_unread, harg3.read_unread, harg4.read_unread, harg6.read_unread,
    View.ld_unit_zero (S := S1x1x4096) hzDst, View.ld_unit_zero (S := S1x4096x64) hzMsg, View.ld_unit_zero (S := S64) hzBias,
    View.ld_unit_zero (S := S1024x64) hzAcc, View.readCov_unit_zero (S := S1024x64) _ hzAcc]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the point's number modulo 208 says which of the
    three cases it is in (208 > 1: no point is both first and last of its node tile); the invariant hands the body the
    scratch — at anything before the first point, at the accumulator of the point before afterwards — and takes it
    back at this point's accumulator, by the accumulator's recursion; the output's buffer comes back untouched where
    the point is not the last of its tile, and at bias-plus-accumulator clamped at zero where it is. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  have hN : t.val < 10192 := lt_of_lt_of_eq t.isLt (show cfg2.N = 10192 from N_2)
  by_cases h0 : t.val % 208 = 0
  · -- the first edge block of a node tile
    have h1 : ¬t.val % 208 = 207 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t h1)]
    rw [acc2_reset V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply (run2_A c (grid2.coords t) _ _ _ _ _ _ _ _ _ _ hc0 hc1 ((dat2 V c).before 3 t d3) (iblk2 V c 0 t) (iblk2 V c 1 t) (iblk2 V c 2 t) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨HS, HR, Hg⟩, Ho, ⟨%d0, H0⟩, ⟨%d1, H1⟩, ⟨%d2, H2⟩, ⟨%d3, H3⟩⟩
      iapply (run2_A c (grid2.coords t) _ _ _ _ _ _ _ _ _ _ hc0 hc1 ((dat2 V c).before 3 t d3) (iblk2 V c 0 t) (iblk2 V c 1 t) (iblk2 V c 2 t) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond2_0 (grid2.coords t) := fun h => h0 ((hcond2_0 t).mp h)
    rw [acc2_step V c t h0]
    rw [PhiS2_castSucc V c t, PhiS2_pos V c _ _ hz]
    by_cases h1 : t.val % 208 = 207
    · -- the last edge block of a node tile
      have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3]
      unfold out2
      rw [acc2_step V c t h0]
      iintro ⟨⟨HS, HR, Hg⟩, Ho, ⟨%d0, H0⟩, ⟨%d1, H1⟩, ⟨%d2, H2⟩, ⟨%d3, H3⟩⟩
      iapply (run2_C c (grid2.coords t) _ _ _ _ _ _ _ _ _ _ hc0 hc1 (acc2 V c (t.val - 1) (Nat.lt_of_le_of_lt (Nat.sub_le _ _) t.isLt)) (iblk2 V c 0 t) (iblk2 V c 1 t) (iblk2 V c 2 t) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · -- an inner edge block
      have hc1 : ¬cond2_1 (grid2.coords t) := fun h => h1 ((hcond2_1 t).mp h)
      rw [Dat.leavesExact_idle (dat2 V c) 3 t (idleAt2_3 t hc1) (noFlush2_3 t h1)]
      iintro ⟨⟨HS, HR, Hg⟩, Ho, ⟨%d0, H0⟩, ⟨%d1, H1⟩, ⟨%d2, H2⟩, ⟨%d3, H3⟩⟩
      iapply (run2_B c (grid2.coords t) _ _ _ _ _ _ _ _ _ _ hc0 hc1 ((dat2 V c).before 3 t d3) (acc2 V c (t.val - 1) (Nat.lt_of_le_of_lt (Nat.sub_le _ _) t.isLt)) (iblk2 V c 0 t) (iblk2 V c 1 t) (iblk2 V c 2 t) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's invariant back: the scratch's named contents are forgotten. -/
theorem hout2 (c : Dev nD) : (dat2 V c).Φ (Fin.last cfg2.N) ⊢ Pipeline.ΦA spec2 c := by
  have hN : cfg2.N = 10192 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨HS, HR, Hg⟩
  isplitl [HS HR]
  · isplitl [HS]; · iexists _; iexact HS
    iexact HR
  iexact Hg

end Cert.KernelIdeal.Hand

end
-- ==== Proof.KI.R3.lean ====
/-
  Region 3: the body obligation of its pipeline at every grid point, for the proof data of Defs.lean.
-/
import proofs.«402996_j73263552135827_2_alg».proof.Proof.KI.Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-! ## Stores and loads through a whole buffer -/

/-- The zero offsets of a rank-2 and of a rank-1 rectangle, however spelt. -/
theorem off2_zero : (![0, 0] : Fin 2 → ℕ) = fun _ => 0 := by funext a; fin_cases a <;> rfl
theorem off1_zero : (![0] : Fin 1 → ℕ) = fun _ => 0 := by funext a; fin_cases a; rfl

/-- A store through the whole-buffer rectangle, made last, leaves its payload: whatever the buffer held and whatever
    was stored before. -/
theorem read_writes_whole_cons {sp : Space} {S : Shape} {e : EltTy} (v : View sig .tc sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

/-! ## The two branch conditions of the body, in closed form over the 49 tiles -/

/-- The reset branch is taken: the tile coordinate compared with zero, as the body computes it. -/
abbrev isFirst3 (i : grid3.Coords) : Prop :=
  (Scalar.cmpi .ne (Scalar.extui (Scalar.cmpi .eq (BitVec.ofNat 32 (i 0).val) 0#32)) 0#32) = 1#1
/-- The output branch is taken: the tile coordinate compared with 48. -/
abbrev isLast3 (i : grid3.Coords) : Prop := k3_cond2 i = 1#1

/-- The reset branch is taken at tile 0 only. -/
theorem isFirst3_iff : ∀ t : Fin cfg3.N, isFirst3 (grid3.coords t) ↔ t.val = 0 :=
  (by decide +kernel : ∀ t : Fin grid3.N, isFirst3 (grid3.coords t) ↔ t.val = 0)
/-- The output branch is taken at tile 48 only. -/
theorem isLast3_iff : ∀ t : Fin cfg3.N, isLast3 (grid3.coords t) ↔ t.val = 48 :=
  (by decide +kernel : ∀ t : Fin grid3.N, isLast3 (grid3.coords t) ↔ t.val = 48)

/-! ## Where the windows are idle -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
/-- Away from the last tile the output window is idle and is not written back. -/
theorem idle3_4 : ∀ t : Fin cfg3.N, ¬isLast3 (grid3.coords t) → cfg3.idle 4 (grid3.coords t) = true := by decide +kernel
theorem noFlush3_4 : ∀ t : Fin cfg3.N, ¬isLast3 (grid3.coords t) → (cfg3.win 4).flush t = false := by decide +kernel
/-- At the last tile it is live. -/
theorem live3_4 : ∀ t : Fin cfg3.N, isLast3 (grid3.coords t) → cfg3.idle 4 (grid3.coords t) = false := by decide +kernel

/-- The proof data's arrays are the region-entry contents. -/
theorem A_eq3 (c : Dev nD) (w : Fin cfg3.W) : (dat3 V c).A w = V c (Pipeline.arrRef spec3 w) := by
  dsimp only [dat3]

/-! ## The accumulators, unfolded at a tile -/

/-- At the first tile the sums are the tile's mask product added to zero. -/
theorem acc3s_first (c : Dev nD) (t : Fin cfg3.N) (hz : t.val = 0) :
    acc3s V c t.val t.isLt = k3_pay4 (iblk3 V c 1 t) (iblk3 V c 0 t) k3_pay1 := by
  obtain ⟨n, hn⟩ := t
  cases n with
  | zero => rfl
  | succ n => exact absurd hz (Nat.succ_ne_zero n)

/-- At a later tile they are the tile's mask product added to what the tile before left. -/
theorem acc3s_later (c : Dev nD) (t : Fin cfg3.N) (hz : t.val ≠ 0) :
    acc3s V c t.val t.isLt
      = k3_pay4 (iblk3 V c 1 t) (iblk3 V c 0 t) (acc3s V c (t.val - 1) (Nat.lt_of_le_of_lt (Nat.sub_le _ _) t.isLt)) := by
  obtain ⟨n, hn⟩ := t
  cases n with
  | zero => exact absurd rfl hz
  | succ n => rfl

/-- At the first tile the counts are the tile's row sums of the mask added to zero. -/
theorem acc3c_first (c : Dev nD) (t : Fin cfg3.N) (hz : t.val = 0) :
    acc3c V c t.val t.isLt = k3_pay5 (iblk3 V c 1 t) k3_pay2 := by
  obtain ⟨n, hn⟩ := t
  cases n with
  | zero => rfl
  | succ n => exact absurd hz (Nat.succ_ne_zero n)

/-- At a later tile they are the tile's row sums added to what the tile before left. -/
theorem acc3c_later (c : Dev nD) (t : Fin cfg3.N) (hz : t.val ≠ 0) :
    acc3c V c t.val t.isLt
      = k3_pay5 (iblk3 V c 1 t) (acc3c V c (t.val - 1) (Nat.lt_of_le_of_lt (Nat.sub_le _ _) t.isLt)) := by
  obtain ⟨n, hn⟩ := t
  cases n with
  | zero => exact absurd rfl hz
  | succ n => rfl

/-! ## The invariant, position by position -/

theorem PhiS3_zero (c : Dev nD) (n : ℕ) (h : n ≤ cfg3.N) (hz : n = 0) : PhiS3 V c n h = Pipeline.ΦA spec3 c := by
  subst hz; rfl

/-- After tile `n`: both scratches at that tile's accumulators. -/
theorem PhiS3_succ (c : Dev nD) (n : ℕ) (hn : n < cfg3.N) :
    PhiS3 V c (n + 1) hn = iprop(owns (c : Thread nD τ) scM3s fullShare (acc3s V c n hn)
      ∗ owns (c : Thread nD τ) scM3c fullShare (acc3c V c n hn)
      ∗ Pipeline.scopedRestBut spec3 c [cc3_scratch0, cc3_scratch1] ∗ (∃ r, prngReg c r)) := rfl

/-- Before a tile that is not the first: both scratches at what the tile before left. -/
theorem PhiS3_pos (c : Dev nD) (n : ℕ) (h : n ≤ cfg3.N) (hz : n ≠ 0) :
    PhiS3 V c n h = iprop(owns (c : Thread nD τ) scM3s fullShare (acc3s V c (n - 1) (by omega))
      ∗ owns (c : Thread nD τ) scM3c fullShare (acc3c V c (n - 1) (by omega))
      ∗ Pipeline.scopedRestBut spec3 c [cc3_scratch0, cc3_scratch1] ∗ (∃ r, prngReg c r)) := by
  cases n with
  | zero => exact absurd rfl hz
  | succ n => rfl

/-- The class's invariant with the two scratches opened: each owned whole at some contents, the other scoped buffers
    unopened, the generator register at some state. -/
theorem PhiA3_eq (c : Dev nD) :
    (Pipeline.ΦA spec3 c : sProp 𝕄)
      = iprop(iprop(iprop((∃ d, owns (c : Thread nD τ) scM3s fullShare d) ∗ (∃ d, owns (c : Thread nD τ) scM3c fullShare d))
          ∗ Pipeline.scopedRestBut spec3 c [cc3_scratch0, cc3_scratch1]) ∗ (∃ r, prngReg c r)) := by
  unfold Pipeline.ΦA; rw [scopedRest3_split]; simp only [scM3s, scM3c, owns_whole]; try rfl

/-! ## The proof data, window by window -/

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 V c t := by dsimp only [dat3]

/-- The invariant at a tile's start, restated at the tile's number. -/
theorem PhiS3_castSucc (c : Dev nD) (t : Fin cfg3.N) :
    (dat3 V c).Φ t.castSucc = PhiS3 V c t.val (Nat.le_of_lt t.isLt) := by
  dsimp only [dat3]; simp only [Fin.coe_castSucc]

/-- Each input's current staging buffer holds its block at every tile, fetched there or not: an input the body
    leaves in place, never idle, uncut; unfetched, its block index has not moved. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-! ## The body on whole memrefs, one run per case

The printed body is its skeleton of loads and stores over the named payloads; each case runs it through to the
continuation, with every buffer it touched at its explicit contents. -/

set_option maxHeartbeats 1000000 in
theorem run3_A (c : Dev nD) (i : grid3.Coords)
    (arg1 : Memref sig .tc .vmem S1024x64 .f32) (harg1 : arg1.IsWhole) (arg2 : Memref sig .tc .vmem S1024 .i32) (harg2 : arg2.IsWhole)
    (arg3 : Memref sig .tc .vmem S64x8 .f32) (harg3 : arg3.IsWhole) (arg4 : Memref sig .tc .vmem S8 .f32) (harg4 : arg4.IsWhole)
    (arg5 : Memref sig .tc .vmem S256x8 .f32) (harg5 : arg5.IsWhole) (arg6 : Memref sig .tc .vmem S256x64 .f32) (harg6 : arg6.IsWhole)
    (arg7 : Memref sig .tc .vmem S256x1 .f32) (harg7 : arg7.IsWhole)
    (hc0 : isFirst3 i) (hc1 : ¬isLast3 i)
    (xh : Vec F S1024x64 .f32) (xg : Vec F S1024 .i32)
    (E : Set ℕ) (K : PUnit → sProp 𝕄) :
    iprop(owns (c : Thread nD τ) arg1 fullShare xh ∗ owns (c : Thread nD τ) arg2 fullShare xg
        ∗ (∃ d, owns (c : Thread nD τ) arg6 fullShare d) ∗ (∃ d, owns (c : Thread nD τ) arg7 fullShare d)
        ∗ (iprop(owns (c : Thread nD τ) arg1 fullShare xh ∗ owns (c : Thread nD τ) arg2 fullShare xg
            ∗ owns (c : Thread nD τ) arg6 fullShare (k3_pay4 xg xh k3_pay1) ∗ owns (c : Thread nD τ) arg7 fullShare (k3_pay5 xg k3_pay2)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f1, %hf1, H1⟩, ⟨%f2, %hf2, H2⟩, ⟨%d6, %f6, -, H6⟩, ⟨%d7, %f7, -, H7⟩, Hk⟩
  obtain rfl := harg1.eq_unread hf1; obtain rfl := harg2.eq_unread hf2
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H6]
  · iexists _; isplitr
    swap; · iexact H6
    ipureintro
    sl_unfold_words
    refine (read_writes_whole_cons _ _ off2_zero _ _ _).trans ?_
    simp only [View.readAt_eq_ld, hf1, hf2, View.readCov_unit_zero (S := S256x64) _ off2_zero,
      View.ld_unit_zero (S := S1024x64) off2_zero, View.ld_unit_zero (S := S1024) off1_zero]
  iexists _; isplitr
  swap; · iexact H7
  ipureintro
  sl_unfold_words
  refine (read_writes_whole_cons _ _ off2_zero _ _ _).trans ?_
  simp only [View.readAt_eq_ld, hf2, View.readCov_unit_zero (S := S256x1) _ off2_zero,
    View.ld_unit_zero (S := S1024) off1_zero]

set_option maxHeartbeats 1000000 in
theorem run3_B (c : Dev nD) (i : grid3.Coords)
    (arg1 : Memref sig .tc .vmem S1024x64 .f32) (harg1 : arg1.IsWhole) (arg2 : Memref sig .tc .vmem S1024 .i32) (harg2 : arg2.IsWhole)
    (arg3 : Memref sig .tc .vmem S64x8 .f32) (harg3 : arg3.IsWhole) (arg4 : Memref sig .tc .vmem S8 .f32) (harg4 : arg4.IsWhole)
    (arg5 : Memref sig .tc .vmem S256x8 .f32) (harg5 : arg5.IsWhole) (arg6 : Memref sig .tc .vmem S256x64 .f32) (harg6 : arg6.IsWhole)
    (arg7 : Memref sig .tc .vmem S256x1 .f32) (harg7 : arg7.IsWhole)
    (hc0 : ¬isFirst3 i) (hc1 : ¬isLast3 i)
    (xh : Vec F S1024x64 .f32) (xg : Vec F S1024 .i32) (s : Vec F S256x64 .f32) (n : Vec F S256x1 .f32)
    (E : Set ℕ) (K : PUnit → sProp 𝕄) :
    iprop(owns (c : Thread nD τ) arg1 fullShare xh ∗ owns (c : Thread nD τ) arg2 fullShare xg
        ∗ owns (c : Thread nD τ) arg6 fullShare s ∗ owns (c : Thread nD τ) arg7 fullShare n
        ∗ (iprop(owns (c : Thread nD τ) arg1 fullShare xh ∗ owns (c : Thread nD τ) arg2 fullShare xg
            ∗ owns (c : Thread nD τ) arg6 fullShare (k3_pay4 xg xh s) ∗ owns (c : Thread nD τ) arg7 fullShare (k3_pay5 xg n)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f1, %hf1, H1⟩, ⟨%f2, %hf2, H2⟩, ⟨%f6, %hf6, H6⟩, ⟨%f7, %hf7, H7⟩, Hk⟩
  obtain rfl := harg1.eq_unread hf1; obtain rfl := harg2.eq_unread hf2
  obtain rfl := harg6.eq_unread hf6; obtain rfl := harg7.eq_unread hf7
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H6]
  · iexists _; isplitr
    swap; · iexact H6
    ipureintro
    refine (read_writes_whole_cons _ _ off2_zero _ _ _).trans ?_
    simp only [View.readAt_eq_ld, hf1, hf2, hf6, View.ld_unit_zero (S := S1024x64) off2_zero,
      View.ld_unit_zero (S := S1024) off1_zero, View.ld_unit_zero (S := S256x64) off2_zero]
  iexists _; isplitr
  swap; · iexact H7
  ipureintro
  refine (read_writes_whole_cons _ _ off2_zero _ _ _).trans ?_
  simp only [View.readAt_eq_ld, hf2, hf7, View.ld_unit_zero (S := S1024) off1_zero, View.ld_unit_zero (S := S256x1) off2_zero]

set_option maxHeartbeats 1000000 in
theorem run3_C (c : Dev nD) (i : grid3.Coords)
    (arg1 : Memref sig .tc .vmem S1024x64 .f32) (harg1 : arg1.IsWhole) (arg2 : Memref sig .tc .vmem S1024 .i32) (harg2 : arg2.IsWhole)
    (arg3 : Memref sig .tc .vmem S64x8 .f32) (harg3 : arg3.IsWhole) (arg4 : Memref sig .tc .vmem S8 .f32) (harg4 : arg4.IsWhole)
    (arg5 : Memref sig .tc .vmem S256x8 .f32) (harg5 : arg5.IsWhole) (arg6 : Memref sig .tc .vmem S256x64 .f32) (harg6 : arg6.IsWhole)
    (arg7 : Memref sig .tc .vmem S256x1 .f32) (harg7 : arg7.IsWhole)
    (hc0 : ¬isFirst3 i) (hc1 : isLast3 i)
    (xh : Vec F S1024x64 .f32) (xg : Vec F S1024 .i32) (xw : Vec F S64x8 .f32) (xb : Vec F S8 .f32)
    (s : Vec F S256x64 .f32) (n : Vec F S256x1 .f32)
    (E : Set ℕ) (K : PUnit → sProp 𝕄) :
    iprop(owns (c : Thread nD τ) arg1 fullShare xh ∗ owns (c : Thread nD τ) arg2 fullShare xg
        ∗ owns (c : Thread nD τ) arg3 fullShare xw ∗ owns (c : Thread nD τ) arg4 fullShare xb
        ∗ (∃ d, owns (c : Thread nD τ) arg5 fullShare d)
        ∗ owns (c : Thread nD τ) arg6 fullShare s ∗ owns (c : Thread nD τ) arg7 fullShare n
        ∗ (iprop(owns (c : Thread nD τ) arg1 fullShare xh ∗ owns (c : Thread nD τ) arg2 fullShare xg
            ∗ owns (c : Thread nD τ) arg3 fullShare xw ∗ owns (c : Thread nD τ) arg4 fullShare xb
            ∗ owns (c : Thread nD τ) arg5 fullShare (k3_pay6 (k3_pay5 xg n) (k3_pay4 xg xh s) xw xb)
            ∗ owns (c : Thread nD τ) arg6 fullShare (k3_pay4 xg xh s) ∗ owns (c : Thread nD τ) arg7 fullShare (k3_pay5 xg n)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg1.eq_unread hf1; obtain rfl := harg2.eq_unread hf2
  obtain rfl := harg3.eq_unread hf3; obtain rfl := harg4.eq_unread hf4
  obtain rfl := harg6.eq_unread hf6; obtain rfl := harg7.eq_unread hf7
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    refine (read_writes_whole_cons _ _ off2_zero _ _ _).trans ?_
    simp only [View.readAt_eq_ld, hf1, hf2, hf3, hf4, hf6, hf7,
      View.readCov_unit_zero (S := S256x64) _ off2_zero, View.readCov_unit_zero (S := S256x1) _ off2_zero,
      View.ld_unit_zero (S := S1024x64) off2_zero, View.ld_unit_zero (S := S1024) off1_zero,
      View.ld_unit_zero (S := S64x8) off2_zero, View.ld_unit_zero (S := S8) off1_zero,
      View.ld_unit_zero (S := S256x64) off2_zero, View.ld_unit_zero (S := S256x1) off2_zero]
  isplitl [H6]
  · iexists _; isplitr
    swap; · iexact H6
    ipureintro
    sl_unfold_words
    refine (read_writes_whole_cons _ _ off2_zero _ _ _).trans ?_
    simp only [View.readAt_eq_ld, hf1, hf2, hf6, View.ld_unit_zero (S := S1024x64) off2_zero,
      View.ld_unit_zero (S := S1024) off1_zero, View.ld_unit_zero (S := S256x64) off2_zero]
  iexists _; isplitr
  swap; · iexact H7
  ipureintro
  sl_unfold_words
  refine (read_writes_whole_cons _ _ off2_zero _ _ _).trans ?_
  simp only [View.readAt_eq_ld, hf2, hf7, View.ld_unit_zero (S := S1024) off1_zero, View.ld_unit_zero (S := S256x1) off2_zero]

/-! ## The body obligation at a tile -/

/-- What the body is called with at tile `t`: the invariant, nothing owed, each window's current staging buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- And what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any tile. The four inputs' buffers hold their blocks; the tile's number says which of the three cases it
    is. At tile 0 the invariant hands both scratches at anything and takes them back at the first accumulators; at a
    later tile it hands them at what the tile before left and takes them back one step on; at tile 48 the output
    buffer, handed at anything, comes back at the mean-pooled product; before that it is idle and comes back untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [live3_0 t], after3_0]
  rw [show (dat3 V c).leavesExact 1 t = owns (c : Thread nD τ) (st3_1 t) fullShare ((dat3 V c).after 1 t) from by
    unfold Dat.leavesExact; rw [live3_1 t], after3_1]
  rw [show (dat3 V c).leavesExact 2 t = owns (c : Thread nD τ) (st3_2 t) fullShare ((dat3 V c).after 2 t) from by
    unfold Dat.leavesExact; rw [live3_2 t], after3_2]
  rw [show (dat3 V c).leavesExact 3 t = owns (c : Thread nD τ) (st3_3 t) fullShare ((dat3 V c).after 3 t) from by
    unfold Dat.leavesExact; rw [live3_3 t], after3_3]
  have hN : t.val < 49 := lt_of_lt_of_eq t.isLt (show cfg3.N = 49 from N_3)
  by_cases hz : t.val = 0
  · -- tile 0: reset, then accumulate; the output idle
    have hc0 : isFirst3 (grid3.coords t) := (isFirst3_iff t).mpr hz
    have hc1 : ¬isLast3 (grid3.coords t) := fun h => by have := (isLast3_iff t).mp h; omega
    rw [Dat.leavesExact_idle (dat3 V c) 4 t (idle3_4 t hc1) (noFlush3_4 t hc1)]
    rw [acc3s_first V c t hz, acc3c_first V c t hz]
    rw [PhiS3_castSucc V c t, PhiS3_zero V c _ _ hz, PhiA3_eq]
    iintro ⟨⟨⟨⟨HS, HC⟩, HR⟩, Hg⟩, Ho, ⟨%d0, H0⟩, ⟨%d1, H1⟩, ⟨%d2, H2⟩, ⟨%d3, H3⟩, H4⟩
    iapply (run3_A c (grid3.coords t) _ _ _ _ _ _ _ _ _ _ _ _ _ _ hc0 hc1 (iblk3 V c 0 t) (iblk3 V c 1 t) Set.univ _)
    isplitl [H0]; · iexact H0
    isplitl [H1]; · iexact H1
    isplitl [HS]; · iexact HS
    isplitl [HC]; · iexact HC
    iintro ⟨H0, H1, HS, HC⟩
    isplitl [HS HC HR Hg]
    · isplitl [HS]; · iexact HS
      isplitl [HC]; · iexact HC
      isplitl [HR]; · iexact HR
      iexact Hg
    isplitl [Ho]; · iexact Ho
    isplitl [H0]; · iexact H0
    isplitl [H1]; · iexact H1
    isplitl [H2]; · iexact H2
    isplitl [H3]; · iexact H3
    iexact H4
  · by_cases hl : t.val = 48
    · -- tile 48: accumulate, then store the output
      have hc0 : ¬isFirst3 (grid3.coords t) := fun h => hz ((isFirst3_iff t).mp h)
      have hc1 : isLast3 (grid3.coords t) := (isLast3_iff t).mpr hl
      rw [show (dat3 V c).leavesExact 4 t = owns (c : Thread nD τ) (st3_4 t) fullShare ((dat3 V c).after 4 t) from by
        unfold Dat.leavesExact; rw [live3_4 t hc1], after3_4]
      unfold out3
      rw [acc3s_later V c t hz, acc3c_later V c t hz]
      rw [PhiS3_castSucc V c t, PhiS3_pos V c _ _ hz]
      iintro ⟨⟨HS, HC, HR, Hg⟩, Ho, ⟨%d0, H0⟩, ⟨%d1, H1⟩, ⟨%d2, H2⟩, ⟨%d3, H3⟩, ⟨%d4, H4⟩⟩
      iapply (run3_C c (grid3.coords t) _ _ _ _ _ _ _ _ _ _ _ _ _ _ hc0 hc1 (iblk3 V c 0 t) (iblk3 V c 1 t)
        (iblk3 V c 2 t) (iblk3 V c 3 t) _ _ Set.univ _)
      isplitl [H0]; · iexact H0
      isplitl [H1]; · iexact H1
      isplitl [H2]; · iexact H2
      isplitl [H3]; · iexact H3
      isplitl [H4]; · iexists _; iexact H4
      isplitl [HS]; · iexact HS
      isplitl [HC]; · iexact HC
      iintro ⟨H0, H1, H2, H3, H4, HS, HC⟩
      isplitl [HS HC HR Hg]
      · isplitl [HS]; · iexact HS
        isplitl [HC]; · iexact HC
        isplitl [HR]; · iexact HR
        iexact Hg
      isplitl [Ho]; · iexact Ho
      isplitl [H0]; · iexact H0
      isplitl [H1]; · iexact H1
      isplitl [H2]; · iexact H2
      isplitl [H3]; · iexact H3
      iexact H4
    · -- a tile between: accumulate; the output idle
      have hc0 : ¬isFirst3 (grid3.coords t) := fun h => hz ((isFirst3_iff t).mp h)
      have hc1 : ¬isLast3 (grid3.coords t) := fun h => hl ((isLast3_iff t).mp h)
      rw [Dat.leavesExact_idle (dat3 V c) 4 t (idle3_4 t hc1) (noFlush3_4 t hc1)]
      rw [acc3s_later V c t hz, acc3c_later V c t hz]
      rw [PhiS3_castSucc V c t, PhiS3_pos V c _ _ hz]
      iintro ⟨⟨HS, HC, HR, Hg⟩, Ho, ⟨%d0, H0⟩, ⟨%d1, H1⟩, ⟨%d2, H2⟩, ⟨%d3, H3⟩, H4⟩
      iapply (run3_B c (grid3.coords t) _ _ _ _ _ _ _ _ _ _ _ _ _ _ hc0 hc1 (iblk3 V c 0 t) (iblk3 V c 1 t) _ _ Set.univ _)
      isplitl [H0]; · iexact H0
      isplitl [H1]; · iexact H1
      isplitl [HS]; · iexact HS
      isplitl [HC]; · iexact HC
      iintro ⟨H0, H1, HS, HC⟩
      isplitl [HS HC HR Hg]
      · isplitl [HS]; · iexact HS
        isplitl [HC]; · iexact HC
        isplitl [HR]; · iexact HR
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]

/-- After the last point the invariant gives the class's invariant back: the scratch's named contents are forgotten. -/
theorem hout3 (c : Dev nD) : (dat3 V c).Φ (Fin.last cfg3.N) ⊢ Pipeline.ΦA spec3 c := by
  have hne : (Fin.last cfg3.N).val ≠ 0 := by rw [Fin.val_last]; have : cfg3.N = 49 := N_3; omega
  rw [show (dat3 V c).Φ (Fin.last cfg3.N) = PhiS3 V c (Fin.last cfg3.N).val (Nat.le_of_lt_succ (Fin.last cfg3.N).isLt) from rfl,
    PhiS3_pos V c _ _ hne, PhiA3_eq]
  iintro ⟨HS, HC, HR, Hg⟩
  isplitl [HS HC HR]
  · isplitl [HS HC]
    · isplitl [HS]
      · iexists _; iexact HS
      iexists _; iexact HC
    iexact HR
  iexact Hg

end Cert.KernelIdeal.Hand

end
-- ==== Proof.KI.Run.lean ====
/-
  The run of @main: the contents of a core's buffers at each boundary between @main's eight items (three stretches of
  host operations, regions 0, 1, 2, one more stretch, region 3), folded from the launch memory — a stretch applies its
  operations, a region leaves its arrays at what its pipeline's write-backs leave and every other buffer as entered —;
  every pipeline's proof data at its region's entry contents; one segment record per item; and the launch: every weakly
  fair execution of @main terminates, nothing faulting, with every unscoped buffer at the last fold.
-/
import proofs.«402996_j73263552135827_2_alg».proof.Proof.KI.R0
import proofs.«402996_j73263552135827_2_alg».proof.Proof.KI.R1
import proofs.«402996_j73263552135827_2_alg».proof.Proof.KI.R2
import proofs.«402996_j73263552135827_2_alg».proof.Proof.KI.R3
import proofs.«402996_j73263552135827_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch (indices, degrees, the reciprocal square roots). -/
abbrev W1 : Dev nD → Valuation τ sig (Elt F) := fun c => StableHlo.after hostOps0 (W0 m ρ c)
/-- After the select that makes the scale vector. -/
abbrev W2 : Dev nD → Valuation τ sig (Elt F) := fun c => StableHlo.after hostOps0_1 (W1 m ρ c)
/-- After the third stretch (per-edge weights, padding, blocking): region 0's entry. -/
abbrev W3 : Dev nD → Valuation τ sig (Elt F) := fun c => StableHlo.after hostOps0_2 (W2 m ρ c)
/-- The same read at the TensorCore's references: what region 0's proof data take. -/
abbrev V3 : Entry F := fun c b => W3 m ρ c b
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
abbrev V4 : Entry F := fun c b => W4 m ρ c b
/-- At region 1's exit. -/
def W5 (c : Dev nD) : Valuation τ sig (Elt F) :=
  Pipeline.withArrays spec1 c (W4 m ρ c) fun w => (dat1 (V4 m ρ) c).arrAt w cfg1.N
abbrev V5 : Entry F := fun c b => W5 m ρ c b
/-- At region 2's exit. -/
def W6 (c : Dev nD) : Valuation τ sig (Elt F) :=
  Pipeline.withArrays spec2 c (W5 m ρ c) fun w => (dat2 (V5 m ρ) c).arrAt w cfg2.N
/-- After the last stretch (graph ids padded): region 3's entry. -/
abbrev W7 : Dev nD → Valuation τ sig (Elt F) := fun c => StableHlo.after hostOps3 (W6 m ρ c)
abbrev V7 : Entry F := fun c b => W7 m ρ c b
/-- At region 3's exit: the end of @main. -/
def W8 (c : Dev nD) : Valuation τ sig (Elt F) :=
  Pipeline.withArrays spec3 c (W7 m ρ c) fun w => (dat3 (V7 m ρ) c).arrAt w cfg3.N

theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

/-- A buffer no operation of the first stretch writes holds its launch contents after it (likewise below). -/
theorem W1_of (c : Dev nD) (r : Ref sig .tc) (h : r ∉ hostOps0_W) : W1 m ρ c r = W0 m ρ c r :=
  StableHlo.after_of_writes_sub hostOps0 _ hostOps0_writes h
theorem W2_of (c : Dev nD) (r : Ref sig .tc) (h : r ∉ hostOps0_1_W) : W2 m ρ c r = W1 m ρ c r :=
  StableHlo.after_of_writes_sub hostOps0_1 _ hostOps0_1_writes h
theorem W3_of (c : Dev nD) (r : Ref sig .tc) (h : r ∉ hostOps0_2_W) : W3 m ρ c r = W2 m ρ c r :=
  StableHlo.after_of_writes_sub hostOps0_2 _ hostOps0_2_writes h
theorem W7_of (c : Dev nD) (r : Ref sig .tc) (h : r ∉ hostOps3_W) : W7 m ρ c r = W6 m ρ c r :=
  StableHlo.after_of_writes_sub hostOps3 _ hostOps3_writes h

/-! ## What a region's exit holds

At a region's exit each of its arrays holds what the pipeline's write-backs leave and every other buffer what it held at
entry: the two facts that put the arrays back among the core's unscoped buffers. -/

/-- Region 2's exit contents and region 3's, read at the TensorCore's references. -/
private abbrev Vx6 : Entry F := fun c b => W6 m ρ c b
private abbrev Vx8 : Entry F := fun c b => W8 m ρ c b

private theorem hF0 (c : Dev nD) (w : Fin cfg0.W) : (dat0 (V3 m ρ) c).arrAt w cfg0.N = V4 m ρ c (Pipeline.arrRef spec0 w) :=
  (W4_arr m ρ c w).symm
private theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
private theorem hF1 (c : Dev nD) (w : Fin cfg1.W) : (dat1 (V4 m ρ) c).arrAt w cfg1.N = V5 m ρ c (Pipeline.arrRef spec1 w) :=
  (W5_arr m ρ c w).symm
private theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)
private theorem hF2 (c : Dev nD) (w : Fin cfg2.W) : (dat2 (V5 m ρ) c).arrAt w cfg2.N = Vx6 m ρ c (Pipeline.arrRef spec2 w) :=
  (W6_arr m ρ c w).symm
private theorem hrest2 (c : Dev nD) : ∀ b, b ∉ Finset.univ.image (Pipeline.arrRef spec2) → Vx6 m ρ c b = V5 m ρ c b :=
  fun b hb => W6_of_ne m ρ c b fun w e => hb (Finset.mem_image.mpr ⟨w, Finset.mem_univ _, e⟩)
private theorem hF3 (c : Dev nD) (w : Fin cfg3.W) : (dat3 (V7 m ρ) c).arrAt w cfg3.N = Vx8 m ρ c (Pipeline.arrRef spec3 w) :=
  (W8_arr m ρ c w).symm
private theorem hrest3 (c : Dev nD) : ∀ b, b ∉ Finset.univ.image (Pipeline.arrRef spec3) → Vx8 m ρ c b = V7 m ρ c b :=
  fun b hb => W8_of_ne m ρ c b fun w e => hb (Finset.mem_image.mpr ⟨w, Finset.mem_univ _, e⟩)

/-! ## The proof data family and the thread state -/

/-- Every pipeline's proof data, each at its region's entry contents. -/
private def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
  | ⟨2, _⟩ => fun c => dat2 (V5 m ρ) c
  | ⟨3, _⟩ => fun c => dat3 (V7 m ρ) c
private abbrev 𝒱₀ : Variants := Variants.none
/-- No core owes another anything: no level is assigned. -/
private abbrev Lz : GSem nD τ sig → Finset Unit := fun _ => ∅
private abbrev lvz : GSem nD τ sig → Unit → ℕ := fun _ _ => 0
/-- What rides beside the buffers through every item: the generator register at some state, and the core owing nothing. -/
private abbrev Rst (c : Dev nD) : sProp 𝕄 := iprop((∃ r, prngReg c r) ∗ ∃ W, owes (c : Thread nD τ) (0 : CellTallies nD τ sig Unit) W)
/-- A stretch of host operations as a segment, entered with every unscoped buffer at the contents `Wc`. -/
private abbrev hseg (ops : List (HloOp τ sig (Elt F))) (hsub : ops.Forall fun op => op.bufs ⊆ StableHlo.tcRefs τ sig)
    (hfresh : ops.Forall fun op => op.fresh = ∅) (Wc : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wc Rst
/-- The last thread state without the dues: every unscoped buffer at the last fold, the generator register at some state. -/
private abbrev Tend (c : Dev nD) : sProp 𝕄 := iprop(StableHlo.held (c : Thread nD τ) (Pipeline.ucRefs τ sig) (W8 m ρ c) ∗ ∃ r, prngReg c r)

/-! ## The regions as segments

Each region is entered with every unscoped buffer at its entry fold and left with them at its exit fold. Its arrays are
split out of the unscoped buffers on the way in and put back, at what the write-backs leave, on the way out; the generator
register goes into the region's invariant and comes back; nothing is owed; the kernel has no semaphore of its own. -/

set_option backward.isDefEq.respectTransparency.types false in
/-- Region 0: entered at `W3`, left at `W4`. Its invariant is the class's own. -/
private def reg0 : Pipeline.RegionSeg (pcfgs (F := F)) adm (pdats m ρ) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ Lz lvz 0 fun _ _ => rfl
  pre c := iprop(StableHlo.held (c : Thread nD τ) (Pipeline.ucRefs τ sig) (W3 m ρ c) ∗ Rst c)
  post c := iprop(StableHlo.held (c : Thread nD τ) (Pipeline.ucRefs τ sig) (W4 m ρ c) ∗ Rst c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wd, -, HO⟩; iexists Wd; iexact HO

set_option backward.isDefEq.respectTransparency.types false in
/-- Region 1: entered at `W4`, left at `W5`. Its invariant carries the scratch accumulator; it is made from the class's at
    entry and forgotten to it at exit. -/
private def reg1 : Pipeline.RegionSeg (pcfgs (F := F)) adm (pdats m ρ) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ Lz lvz 1 fun _ _ => rfl
  pre c := iprop(StableHlo.held (c : Thread nD τ) (Pipeline.ucRefs τ sig) (W4 m ρ c) ∗ Rst c)
  post c := iprop(StableHlo.held (c : Thread nD τ) (Pipeline.ucRefs τ sig) (W5 m ρ c) ∗ Rst c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact Hrest
  hin c := by
    refine .trans ?_ (hin1 (V4 m ρ) c)
    unfold Pipeline.ΦA
    iintro ⟨Hp, -, Hr⟩
    isplitl [Hr]; · iexact Hr
    iexact Hp
  hout c := by
    rw [Pipeline.ownSems0_none]
    refine .trans (hout1 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wd, -, HO⟩; iexists Wd; iexact HO

set_option backward.isDefEq.respectTransparency.types false in
/-- Region 2: entered at `W5`, left at `W6`. -/
private def reg2 : Pipeline.RegionSeg (pcfgs (F := F)) adm (pdats m ρ) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ Lz lvz 2 fun _ _ => rfl
  pre c := iprop(StableHlo.held (c : Thread nD τ) (Pipeline.ucRefs τ sig) (W5 m ρ c) ∗ Rst c)
  post c := iprop(StableHlo.held (c : Thread nD τ) (Pipeline.ucRefs τ sig) (W6 m ρ c) ∗ Rst c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact Hrest
  hin c := by
    refine .trans ?_ (hin2 (V5 m ρ) c)
    unfold Pipeline.ΦA
    iintro ⟨Hp, -, Hr⟩
    isplitl [Hr]; · iexact Hr
    iexact Hp
  hout c := by
    rw [Pipeline.ownSems0_none]
    refine .trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (Vx6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wd, -, HO⟩; iexists Wd; iexact HO

set_option backward.isDefEq.respectTransparency.types false in
/-- Region 3: entered at `W7`, left at `W8`, the end of @main: its exit state is the last thread state beside the
    core owing nothing. -/
private def reg3 : Pipeline.RegionSeg (pcfgs (F := F)) adm (pdats m ρ) () defs₀ 𝒱₀ Lz lvz 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ Lz lvz 3 fun _ _ => rfl
  pre c := iprop(StableHlo.held (c : Thread nD τ) (Pipeline.ucRefs τ sig) (W7 m ρ c) ∗ Rst c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact Hrest
  hin c := by
    refine .trans ?_ (hin3 (V7 m ρ) c)
    unfold Pipeline.ΦA
    iintro ⟨Hp, -, Hr⟩
    isplitl [Hr]; · iexact Hr
    iexact Hp
  hout c := by
    rw [Pipeline.ownSems0_none]
    refine .trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (Vx8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%Wd, -, HO⟩; iexists Wd; iexact HO

/-! ## @main as segments -/

/-- @main's eight items in order: a host segment per stretch from its boundary's fold, a region per kernel call. -/
private abbrev segs : List (Pipeline.Seg (pcfgs (F := F)) adm (pdats m ρ) () defs₀ 𝒱₀ Lz lvz) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .region (reg2 m ρ),
    .host (hseg hostOps3 hostOps3_sub hostOps3_fresh (W6 m ρ)),
    .region (reg3 m ρ) ]
/-- @main is the run of the segments: it is the chain of its items, and so is the segments' run. -/
private theorem main_run (c : Dev nD) : main (F := F) c = Pipeline.Seg.run (segs m ρ) := (main_chain c).trans (by chain_rfl)

/-- An unscoped TensorCore reference is among those the thread state holds. -/
private theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The launch -/

/-- THE RUN. From any memory with zero counters every weakly fair execution of @main on the TensorCores terminates,
    nothing faulting, and every final state holds every unscoped buffer at the last fold `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) := by
  set_option backward.isDefEq.respectTransparency.types false in
  exact Pipeline.θ_run_regions_kit (pcfgs (F := F)) adm (pdats m ρ) () cellOf_inj emb₁ defs₀ 𝒱₀ Lz lvz m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := Tend m ρ)
    (hch := ⟨fun _ => .rfl, fun _ => .rfl, fun _ => .rfl, fun _ => .rfl, fun _ => .rfl, fun _ => .rfl, fun _ => .rfl,
      fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- An argument array reaches the end as launched: no stretch writes it, and a region reads it through an input window
    or bypasses it. -/
theorem W8_args (c : Dev nD) :
    W8 m ρ c (Proc.devRef .tc main_arg0) = m ((c : Thread nD τ).loc main_arg0)
    ∧ W8 m ρ c (Proc.devRef .tc main_arg1) = m ((c : Thread nD τ).loc main_arg1)
    ∧ W8 m ρ c (Proc.devRef .tc main_arg2) = m ((c : Thread nD τ).loc main_arg2)
    ∧ W8 m ρ c (Proc.devRef .tc main_arg3) = m ((c : Thread nD τ).loc main_arg3)
    ∧ W8 m ρ c (Proc.devRef .tc main_arg4) = m ((c : Thread nD τ).loc main_arg4)
    ∧ W8 m ρ c (Proc.devRef .tc main_arg5) = m ((c : Thread nD τ).loc main_arg5)
    ∧ W8 m ρ c (Proc.devRef .tc main_arg6) = m ((c : Thread nD τ).loc main_arg6) := by
  refine ⟨?_, ?_, ?_, ?_, ?_, ?_, ?_⟩
  · -- no stretch writes it, no region has it as a window
    exact (W8_of_ne m ρ c main_arg0 (by decide)).trans <| (W7_of m ρ c main_arg0 (by decide)).trans <|
      (W6_of_ne m ρ c main_arg0 (by decide)).trans <| (W5_of_ne m ρ c main_arg0 (by decide)).trans <|
      (W4_of_ne m ρ c main_arg0 (by decide)).trans <| (W3_of m ρ c main_arg0 (by decide)).trans <|
      (W2_of m ρ c main_arg0 (by decide)).trans <| (W1_of m ρ c main_arg0 (by decide)).trans rfl
  · exact (W8_of_ne m ρ c main_arg1 (by decide)).trans <| (W7_of m ρ c main_arg1 (by decide)).trans <|
      (W6_of_ne m ρ c main_arg1 (by decide)).trans <| (W5_of_ne m ρ c main_arg1 (by decide)).trans <|
      (W4_of_ne m ρ c main_arg1 (by decide)).trans <| (W3_of m ρ c main_arg1 (by decide)).trans <|
      (W2_of m ρ c main_arg1 (by decide)).trans <| (W1_of m ρ c main_arg1 (by decide)).trans rfl
  · exact (W8_of_ne m ρ c main_arg2 (by decide)).trans <| (W7_of m ρ c main_arg2 (by decide)).trans <|
      (W6_of_ne m ρ c main_arg2 (by decide)).trans <| (W5_of_ne m ρ c main_arg2 (by decide)).trans <|
      (W4_of_ne m ρ c main_arg2 (by decide)).trans <| (W3_of m ρ c main_arg2 (by decide)).trans <|
      (W2_of m ρ c main_arg2 (by decide)).trans <| (W1_of m ρ c main_arg2 (by decide)).trans rfl
  · -- the second window of region 0, an input: its array leaves the region as entered
    exact (W8_of_ne m ρ c main_arg3 (by decide)).trans <| (W7_of m ρ c main_arg3 (by decide)).trans <|
      (W6_of_ne m ρ c main_arg3 (by decide)).trans <| (W5_of_ne m ρ c main_arg3 (by decide)).trans <|
      ((W4_arr m ρ c 1).trans (((dat0 (V3 m ρ) c).arrAt_in 1 rfl _).trans (A_eq0 (V3 m ρ) c 1))).trans <|
      (W3_of m ρ c main_arg3 (by decide)).trans <|
      (W2_of m ρ c main_arg3 (by decide)).trans <| (W1_of m ρ c main_arg3 (by decide)).trans rfl
  · -- the third window of region 2, an input
    exact (W8_of_ne m ρ c main_arg4 (by decide)).trans <| (W7_of m ρ c main_arg4 (by decide)).trans <|
      ((W6_arr m ρ c 2).trans (((dat2 (V5 m ρ) c).arrAt_in 2 rfl _).trans (A_eq2 (V5 m ρ) c 2))).trans <|
      (W5_of_ne m ρ c main_arg4 (by decide)).trans <|
      (W4_of_ne m ρ c main_arg4 (by decide)).trans <| (W3_of m ρ c main_arg4 (by decide)).trans <|
      (W2_of m ρ c main_arg4 (by decide)).trans <| (W1_of m ρ c main_arg4 (by decide)).trans rfl
  · -- the third window of region 3, an input
    exact ((W8_arr m ρ c 2).trans (((dat3 (V7 m ρ) c).arrAt_in 2 rfl _).trans (A_eq3 (V7 m ρ) c 2))).trans <|
      (W7_of m ρ c main_arg5 (by decide)).trans <|
      (W6_of_ne m ρ c main_arg5 (by decide)).trans <| (W5_of_ne m ρ c main_arg5 (by decide)).trans <|
      (W4_of_ne m ρ c main_arg5 (by decide)).trans <| (W3_of m ρ c main_arg5 (by decide)).trans <|
      (W2_of m ρ c main_arg5 (by decide)).trans <| (W1_of m ρ c main_arg5 (by decide)).trans rfl
  · -- the fourth window of region 3, an input
    exact ((W8_arr m ρ c 3).trans (((dat3 (V7 m ρ) c).arrAt_in 3 rfl _).trans (A_eq3 (V7 m ρ) c 3))).trans <|
      (W7_of m ρ c main_arg6 (by decide)).trans <|
      (W6_of_ne m ρ c main_arg6 (by decide)).trans <| (W5_of_ne m ρ c main_arg6 (by decide)).trans <|
      (W4_of_ne m ρ c main_arg6 (by decide)).trans <| (W3_of m ρ c main_arg6 (by decide)).trans <|
      (W2_of m ρ c main_arg6 (by decide)).trans <| (W1_of m ρ c main_arg6 (by decide)).trans rfl

/-- THE FRAME: at the compiled mesh, from any memory with zero counters, every weakly fair execution of @main terminates,
    nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r hr c => ?_) (run_all m ρ)
  obtain ⟨h0, h1, h2, h3, h4, h5, h6⟩ := W8_args m ρ c
  exact ⟨(hr c _ (mem_uc main_arg0 (by decide))).trans h0, (hr c _ (mem_uc main_arg1 (by decide))).trans h1,
    (hr c _ (mem_uc main_arg2 (by decide))).trans h2, (hr c _ (mem_uc main_arg3 (by decide))).trans h3,
    (hr c _ (mem_uc main_arg4 (by decide))).trans h4, (hr c _ (mem_uc main_arg5 (by decide))).trans h5,
    (hr c _ (mem_uc main_arg6 (by decide))).trans h6⟩

end Cert.KernelIdeal.Hand

end
-- ==== Proof.Spec.lean ====
/-
  The mathematics of the certificate, on plain finite index types and extended reals, with no program in sight.

  One graph-convolution layer with self-loops and symmetric normalisation, a relu, a mean pool over graph ids and a
  dense layer. The kernel computes the gather and the scatter-add as products with comparison masks
  (row e of the gather mask is the indicator of the edge's source among the 50176 padded nodes; row j of the scatter
  mask is the indicator of the edges whose destination is j), over zero-padded operands: edges padded to 851968 with
  weight 0, nodes padded to 50176 with zero features, zero scale and graph id −1. The reference gathers and
  scatter-adds directly. The two agree because a sum of indicator-weighted terms is the sum over the indices the
  indicator selects, because a padded edge carries weight 0 and a padded node graph id −1, and because the product of
  extended reals is associative and commutative (`(xl · d_src) · d_dst = xl · (d_src · d_dst)`); no step distributes a
  product over a sum, so no finiteness is used. The one hypothesis is that every SOURCE index lies in `[0, 50000)`:
  outside it the reference's gather clamps to a real node while the mask selects nothing.
-/
import Idealize.ShloMosaic.PureOps.Ideal
import Idealize.ShloMosaic.Lib.ValueIdx

open scoped BigOperators

noncomputable section

namespace Cert.Proof.Spec

open Idealize.ShloMosaic Finset

/-! ## What each kernel region computes, from the arrays it is handed -/

/-- Region 0: the dense layer of a row, scaled by the row's entry of the scale vector. -/
def yS (xp : Fin 50176 → Fin 128 → EReal) (W : Fin 128 → Fin 64 → EReal) (dp : Fin 50176 → EReal)
    (n : Fin 50176) (q : Fin 64) : EReal :=
  (∑ k : Fin 128, xp n k * W k q) * dp n

/-- Region 1: the row of `y` the edge's source word selects among the 50176 padded nodes (nothing, if it names none),
    times the edge's weight. `eb` is the edge block, `e` the edge inside it. -/
def msgS (row3 : Fin 208 → Fin 4096 → BitVec 32) (w3 : Fin 208 → Fin 4096 → EReal) (y : Fin 50176 → Fin 64 → EReal)
    (eb : Fin 208) (e : Fin 4096) (q : Fin 64) : EReal :=
  (∑ s : Fin 50176, if row3 eb e = BitVec.ofNat 32 s.val then y s q else 0) * w3 eb e

/-- Region 2: the messages of the edges whose destination word is `j`, summed, plus the bias, through a relu. -/
def hpadS (col3 : Fin 208 → Fin 4096 → BitVec 32) (msg : Fin 208 → Fin 4096 → Fin 64 → EReal) (b : Fin 64 → EReal)
    (j : Fin 50176) (q : Fin 64) : EReal :=
  max ((∑ eb : Fin 208, ∑ e : Fin 4096, if col3 eb e = BitVec.ofNat 32 j.val then msg eb e q else 0) + b q) 0

/-- Region 3: per graph id, the sum of the rows with that id over their count (at least 1), through the last dense layer. -/
def outS (hpad : Fin 50176 → Fin 64 → EReal) (batchp : Fin 50176 → BitVec 32) (Wfc : Fin 64 → Fin 8 → EReal)
    (bfc : Fin 8 → EReal) (g : Fin 256) (o : Fin 8) : EReal :=
  (∑ q : Fin 64, Ideal.div (∑ n : Fin 50176, if batchp n = BitVec.ofNat 32 g.val then hpad n q else 0)
      (max (∑ n : Fin 50176, if batchp n = BitVec.ofNat 32 g.val then (1 : EReal) else 0) 1) * Wfc q o) + bfc o

/-! ## The operands the kernel's host code prepares -/

/-- The node a gather reads for an index word: negative words wrap once by the number of nodes, then the word is read
    signed and clamped into `[0, 49999]`. -/
def gi (w : BitVec 32) : Fin 50000 :=
  let w' : BitVec 32 := if w.slt 0#32 then w + 50000#32 else w
  ⟨min w'.toInt.toNat 49999, by omega⟩

/-- Features padded with zero rows. -/
def xpOf (x : Fin 50000 → Fin 128 → EReal) (n : Fin 50176) (k : Fin 128) : EReal :=
  if h : n.val < 50000 then x ⟨n.val, h⟩ k else 0
/-- The scale vector padded with zeros. -/
def dpOf (dinv : Fin 50000 → EReal) (n : Fin 50176) : EReal :=
  if h : n.val < 50000 then dinv ⟨n.val, h⟩ else 0
/-- An index list of the 850000 edges (with self-loops) padded with the word 0 and cut into 208 blocks of 4096. -/
def idx3Of (ix : Fin 850000 → BitVec 32) (eb : Fin 208) (e : Fin 4096) : BitVec 32 :=
  if h : eb.val * 4096 + e.val < 850000 then ix ⟨eb.val * 4096 + e.val, h⟩ else 0#32
/-- The per-edge weight — the scale of the edge's destination as the gather reads it — padded with zeros, in blocks. -/
def w3Of (col : Fin 850000 → BitVec 32) (dinv : Fin 50000 → EReal) (eb : Fin 208) (e : Fin 4096) : EReal :=
  if h : eb.val * 4096 + e.val < 850000 then dinv (gi (col ⟨eb.val * 4096 + e.val, h⟩)) else 0
/-- Graph ids padded with −1. -/
def batchpOf (batch : Fin 50000 → BitVec 32) (n : Fin 50176) : BitVec 32 :=
  if h : n.val < 50000 then batch ⟨n.val, h⟩ else 4294967295#32

/-! ## The reference -/

/-- The reference's message of edge `e`: the dense layer of the source node's features, times the product of the two
    endpoint scales, each node read as the gather reads it. -/
def refMsg (x : Fin 50000 → Fin 128 → EReal) (row col : Fin 850000 → BitVec 32) (dinv : Fin 50000 → EReal)
    (W : Fin 128 → Fin 64 → EReal) (e : Fin 850000) (q : Fin 64) : EReal :=
  (∑ k : Fin 128, x (gi (row e)) k * W k q) * (dinv (gi (row e)) * dinv (gi (col e)))

/-- The reference's hidden row of node `j`: zero plus the messages of the edges whose destination word, read signed,
    is `j`, plus the bias, through a relu. -/
def refH (x : Fin 50000 → Fin 128 → EReal) (row col : Fin 850000 → BitVec 32) (dinv : Fin 50000 → EReal)
    (W : Fin 128 → Fin 64 → EReal) (b : Fin 64 → EReal) (j : Fin 50000) (q : Fin 64) : EReal :=
  max (((0 : EReal) + ∑ e ∈ univ.filter (fun e : Fin 850000 => (col e).toInt = (j.val : Int)), refMsg x row col dinv W e q) + b q) 0

/-- The reference's result at `(g, o)`: per graph id the mean of the hidden rows with that id (sum and count as
    scatter-adds into zero: the sum over the nodes whose id word, read signed, is `g`), through the last dense layer. -/
def refS (h : Fin 50000 → Fin 64 → EReal) (batch : Fin 50000 → BitVec 32) (Wfc : Fin 64 → Fin 8 → EReal)
    (bfc : Fin 8 → EReal) (g : Fin 256) (o : Fin 8) : EReal :=
  (∑ q : Fin 64, Ideal.div ((0 : EReal) + ∑ n ∈ univ.filter (fun n : Fin 50000 => (batch n).toInt = (g.val : Int)), h n q)
      (max ((0 : EReal) + ∑ n ∈ univ.filter (fun n : Fin 50000 => (batch n).toInt = (g.val : Int)), (1 : EReal)) 1) * Wfc q o) + bfc o

end Cert.Proof.Spec

end
-- ==== Proof.SpecInputs.lean ====
/-
  The programs' inputs as plain families, and the two quantities both programs compute with the same host operations:
  the list of the 850000 edge endpoints (the 800000 given ones, then one self-loop per node) and the scale vector
  (the reciprocal square root of the in-degree, zero where the degree is not positive). Float literals stay as the words
  the programs print: the same word on both sides is never evaluated.
-/
import proofs.«402996_j73263552135827_2_alg».proof.Proof.Spec

open scoped BigOperators

noncomputable section

namespace Cert.Proof.Spec

open Idealize.ShloMosaic Finset

/-- One row of the edge list followed by the self-loops: edge `e < 800000` has the given endpoint, edge `800000 + n` is
    node `n`'s loop. -/
def edgeW (ei : Fin 800000 → BitVec 32) (e : Fin 850000) : BitVec 32 :=
  if h : e.val < 800000 then ei ⟨e.val, h⟩ else BitVec.ofNat 32 (e.val - 800000)

/-- The in-degree as the scatter-add computes it: the zero word's value plus, for every edge whose destination word read
    signed is `j`, the one word's value. -/
def degS (col : Fin 850000 → BitVec 32) (j : Fin 50000) : EReal :=
  Ideal.ofBits .f32 0x00000000#32 + ∑ e ∈ univ.filter (fun e : Fin 850000 => (col e).toInt = (j.val : Int)), Ideal.ofBits .f32 0x3F800000#32

/-- The scale vector: the reciprocal square root of the degree where the degree is positive, zero elsewhere. -/
def dinvS (col : Fin 850000 → BitVec 32) (j : Fin 50000) : EReal :=
  Scalar.select (Ideal.cmp .ogt (degS col j) (Ideal.ofBits .f32 0x00000000#32)) (Ideal.rsqrt (degS col j)) (Ideal.ofBits .f32 0x00000000#32)

end Cert.Proof.Spec

end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.KI.HostVals.lean ====
/-
  What the kernel program's host operations hand its four regions, read at an index at the ideal instance, and which
  buffer of the fold each region's operand is: the padded features and scale vector, the blocked source and destination
  words and per-edge weights, the padded graph ids; the parameters as launched; each region's result where the next finds it.
-/
import proofs.«402996_j73263552135827_2_alg».proof.Proof.KI.Run
import proofs.«402996_j73263552135827_2_alg».proof.Proof.SpecInputs
import proofs.«402996_j73263552135827_2_alg».proof.Proof.LibGatherScatter
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.KernelIdeal.Hand

open Idealize.ShloMosaic Idealize.ShloMosaic.TcCoe Idealize.ShloMosaic.ValueIdx Idealize.SL.Sem
open Cert.KernelIdeal Cert.KernelIdeal.Gen Cert.Proof.Spec

/-! ## Layout operations read at an index -/

section Layout
variable {α : Type}

/-- Two rank-one arrays laid end to end, read at position `n`: the first array below its extent, the second past it. -/
private theorem concat1_apply {A B C : Nat} (x : (⟨1, ![A]⟩ : Shape).Idx → α) (y : (⟨1, ![B]⟩ : Shape).Idx → α)
    (h : Shape.Concatenates [(⟨1, ![A]⟩ : Shape), ⟨1, ![B]⟩] ⟨1, ![C]⟩ 0) (hC : C = A + B) (n : Fin C) :
    concatenate ⟨1, ![C]⟩ 0 [⟨⟨1, ![A]⟩, x⟩, ⟨⟨1, ![B]⟩, y⟩] h (ix1 n)
      = if hn : n.val < A then x (ix1 ⟨n.val, hn⟩) else y (ix1 ⟨n.val - A, by omega⟩) := by
  split
  · next hn =>
    exact concatenate_pair_apply_left 0 x y h (ix1 n) rfl (ix1 ⟨n.val, hn⟩) (fun b => by
      obtain rfl : b = 0 := Subsingleton.elim _ _; rfl)
  · next hn =>
    refine concatenate_pair_apply_right 0 x y h (ix1 n) rfl rfl (ix1 ⟨n.val - A, by omega⟩) (fun b hb => ?_) ?_
    · obtain rfl : b = 0 := Subsingleton.elim _ _; exact absurd rfl hb
    · show n.val - A + A = n.val; omega

/-- Two rank-two arrays of one width stacked along the rows, read at row `n`, column `k`. -/
private theorem concat2_rows_apply {A B C D : Nat} (x : (⟨2, ![A, D]⟩ : Shape).Idx → α) (y : (⟨2, ![B, D]⟩ : Shape).Idx → α)
    (h : Shape.Concatenates [(⟨2, ![A, D]⟩ : Shape), ⟨2, ![B, D]⟩] ⟨2, ![C, D]⟩ 0) (hC : C = A + B) (n : Fin C) (k : Fin D) :
    concatenate ⟨2, ![C, D]⟩ 0 [⟨⟨2, ![A, D]⟩, x⟩, ⟨⟨2, ![B, D]⟩, y⟩] h (ix2 n k)
      = if hn : n.val < A then x (ix2 ⟨n.val, hn⟩ k) else y (ix2 ⟨n.val - A, by omega⟩ k) := by
  split
  · next hn =>
    exact concatenate_pair_apply_left 0 x y h (ix2 n k) rfl (ix2 ⟨n.val, hn⟩ k) (fun b => by
      match b with
      | ⟨0, _⟩ => rfl
      | ⟨1, _⟩ => rfl)
  · next hn =>
    refine concatenate_pair_apply_right 0 x y h (ix2 n k) rfl rfl (ix2 ⟨n.val - A, by omega⟩ k) (fun b hb => ?_) ?_
    · match b, hb with
      | ⟨0, _⟩, hb => exact absurd rfl hb
      | ⟨1, _⟩, _ => rfl
    · show n.val - A + A = n.val; omega

/-- The 851968 padded edges cut into 208 blocks of 4096: block `p`, position `q` is edge `4096 p + q`. -/
private theorem reshape_blocks_apply (x : S851968.Idx → α) (h : S851968.ShapeCasts S208x1x4096) (p : Fin 208) (q : Fin 4096) :
    shapeCast S208x1x4096 x h (ix3 p (0 : Fin 1) q) = x (ix1 ⟨p.val * 4096 + q.val, by omega⟩) := by
  refine shapeCast_apply x h _ (ix1 ⟨p.val * 4096 + q.val, by omega⟩) ?_
  rw [Shape.rowMajor_val_one, Shape.rowMajor_val_three]
  show p.val * 4096 + q.val = (p.val * 1 + 0) * 4096 + q.val
  omega

/-- A scalar float constant broadcast to any shape reads the constant's value everywhere. -/
private theorem bcast_const_apply {T : Shape} (h : S_.BroadcastsInDim T ![]) (w : BitVec 32) (j : T.Idx) :
    broadcastInDim T ![] h (constant (F := Ideal) S_ .f32 w) j = Ideal.ofBits .f32 w := by
  unfold broadcastInDim; rfl

/-- A scalar word constant broadcast to any shape reads the word everywhere. -/
private theorem bcast_constI_apply {T : Shape} (h : S_.BroadcastsInDim T ![]) (w : BitVec 32) (j : T.Idx) :
    broadcastInDim T ![] h (constantI S_ 32 w) j = w := by
  unfold broadcastInDim; rfl

/-- A vector made a column, read at row `e`. -/
private theorem column_apply {n : Nat} (hn : n ≠ 1) (x : (⟨1, ![n]⟩ : Shape).Idx → α)
    (h : (⟨1, ![n]⟩ : Shape).BroadcastsInDim ⟨2, ![n, 1]⟩ ![0]) (e : Fin n) :
    broadcastInDim ⟨2, ![n, 1]⟩ ![0] h x (ix2 e (0 : Fin 1)) = x (ix1 e) := by
  refine broadcastInDim_apply _ h x _ (ix1 e) (fun a => ?_)
  obtain rfl : a = 0 := Subsingleton.elim _ _
  show e.val = if n = 1 then 0 else e.val
  rw [if_neg hn]

end Layout

/-- A one-row array made a vector, read at position `e`. -/
private theorem reshape_row_apply {α : Type} {n : Nat} (x : (⟨2, ![1, n]⟩ : Shape).Idx → α)
    (h : (⟨2, ![1, n]⟩ : Shape).ShapeCasts ⟨1, ![n]⟩) (e : Fin n) :
    shapeCast ⟨1, ![n]⟩ x h (ix1 e) = x (ix2 (0 : Fin 1) e) := by
  refine shapeCast_apply x h (ix1 e) (ix2 (0 : Fin 1) e) ?_
  rw [Shape.rowMajor_val_two, Shape.rowMajor_val_one]
  show 0 * n + e.val = e.val
  omega

/-- Row `r` of a two-row array cut out as a one-row array, read at position `e`. -/
private theorem slice_row_apply {α : Type} {n : Nat} (o : Nat) (r : Fin 2) (hr : r.val = o) (x : (⟨2, ![2, n]⟩ : Shape).Idx → α)
    (h : (⟨2, ![2, n]⟩ : Shape).Slices ![o, 0] ⟨2, ![1, n]⟩) (e : Fin n) :
    extractStridedSlice ⟨2, ![1, n]⟩ ![o, 0] x h (ix2 (0 : Fin 1) e) = x (ix2 r e) := by
  refine extractStridedSlice_apply _ x h _ (ix2 r e) (fun a => ?_)
  match a with
  | ⟨0, _⟩ => show r.val = o + 0; omega
  | ⟨1, _⟩ => show e.val = 0 + e.val; omega

/-- The select between a word moved up by the number of nodes and the word itself, on "the word is negative". -/
private theorem wrap_word (a : BitVec 32) :
    Scalar.select (IntOp.cmpi .slt a 0#32) (IntOp.addi a 50000#32) a = if a.slt 0#32 then a + 50000#32 else a := by
  cases h : a.slt 0#32 <;> simp [Scalar.select, IntOp.cmpi, IntOp.addi, h]

/-- The host's reciprocal square root at an index is the extended reals' of the element … -/
private theorem host_rsqrt_apply {s : Shape} (x : FVec Ideal s .f32) (i : s.Idx) : Host.rsqrt x i = Ideal.rsqrt (x i) := rfl
/-- … and the comparison at an index compares the elements. -/
private theorem cmpf_ogt_apply {s : Shape} (a b : FVec Ideal s .f32) (i : s.Idx) :
    cmpf .ogt a b i = Ideal.cmp .ogt (a i) (b i) := rfl

/-! ## The edge lists and the scale vector the first two stretches make, from any contents before them -/

section Stretch01
variable (V : Valuation τ sig (Elt Ideal))

/-- The source words: row 0 of the edge array made a vector, then the node numbers (one self-loop per node). -/
private abbrev rowOf : S850000.Idx → BitVec 32 :=
  concatenate S850000 0
    [⟨S800000, shapeCast S800000 (extractStridedSlice S1x800000 ![0, 0] (V (Proc.devRef .tc main_arg1) : S2x800000.Idx → BitVec 32)
        slices_S2x800000_S1x800000_0_0) shapeCasts_S1x800000_S800000⟩,
     ⟨S50000, iotaInDim S50000 32 0⟩] concatenates_S800000_S50000_S850000_d0

/-- The destination words: row 1 of the edge array made a vector, then the node numbers. -/
private abbrev colOf : S850000.Idx → BitVec 32 :=
  concatenate S850000 0
    [⟨S800000, shapeCast S800000 (extractStridedSlice S1x800000 ![1, 0] (V (Proc.devRef .tc main_arg1) : S2x800000.Idx → BitVec 32)
        slices_S2x800000_S1x800000_1_0) shapeCasts_S1x800000_S800000⟩,
     ⟨S50000, iotaInDim S50000 32 0⟩] concatenates_S800000_S50000_S850000_d0

/-- The degrees: a one scattered onto zero at every edge's destination word. -/
private abbrev degOf : S50000.Idx → EReal :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 (colOf V))
    (broadcastInDim S850000 ![] bcast_S_S850000 (constant (F := Ideal) S_ .f32 0x3F800000#32))

private theorem ops0_v3 : (StableHlo.after hostOps0 V (Proc.devRef .tc main_v3) : S850000.Idx → BitVec 32) = rowOf V := by
  after_results; rfl

private theorem ops0_v6 : (StableHlo.after hostOps0 V (Proc.devRef .tc main_v6) : S850000.Idx → BitVec 32) = colOf V := by
  after_results; rfl

/-- Where the degree is compared with zero … -/
private theorem ops0_v12 : (StableHlo.after hostOps0 V (Proc.devRef .tc main_v12) : S50000.Idx → BitVec 1)
    = cmpf .ogt (degOf V) (broadcastInDim S50000 ![] bcast_S_S50000 (constant (F := Ideal) S_ .f32 0x00000000#32)) := by
  after_results; rfl

/-- … its reciprocal square root … -/
private theorem ops0_v13 : (StableHlo.after hostOps0 V (Proc.devRef .tc main_v13) : S50000.Idx → EReal)
    = Host.rsqrt (F := Ideal) (s := S50000) (φ := .f32) (degOf V) := by
  after_results; rfl

/-- … and the zero the select falls back on. -/
private theorem ops0_cst2 : (StableHlo.after hostOps0 V (Proc.devRef .tc main_cst_2) : S_.Idx → EReal)
    = constant (F := Ideal) S_ .f32 0x00000000#32 := by
  after_results

/-- The select of the second stretch: the reciprocal square root where the comparison holds, the constant elsewhere. -/
private theorem ops1_v14 : (StableHlo.after hostOps0_1 V (Proc.devRef .tc main_v14) : S50000.Idx → EReal)
    = select (V (Proc.devRef .tc main_v12) : S50000.Idx → BitVec 1) (V (Proc.devRef .tc main_v13) : S50000.Idx → EReal)
        (broadcastInDim S50000 ![] bcast_S_S50000 (V (Proc.devRef .tc main_cst_2) : S_.Idx → EReal)) := by
  after_results
  simp only [StableHlo.TRef.ofBuf, StableHlo.TRef.toBuf, cast_eq]
  rfl

/-- The degree of node `j`: the zero word's value plus a one for every edge whose destination word, read signed, is `j`. -/
private theorem deg_at (j : Fin 50000) : degOf V (ix1 j) = degS (fun e => colOf V (ix1 e)) j := by
  unfold degS
  refine (Cert.Proof.GS.scatterAdd_scat1_apply (N := 50000) (E := 850000) scatter_S50000_S850000x1_S850000_n_0_0_1_wf _ _ _ j).trans ?_
  rw [bcast_const_apply]
  refine congrArg (fun t => Ideal.ofBits .f32 0x00000000#32 + t) ?_
  refine Finset.sum_congr (Finset.filter_congr fun e _ => ?_) (fun e _ => bcast_const_apply _ _ _)
  rw [column_apply (by decide)]

end Stretch01

/-! ## What the third stretch of host operations leaves in the buffers the regions read, from any contents before it -/

section Stretch
variable (V : Valuation τ sig (Elt Ideal))

/-- The features with 176 zero rows appended. -/
private theorem ops2_v32 : (StableHlo.after hostOps0_2 V (Proc.devRef .tc main_v32) : S50176x128.Idx → EReal)
    = concatenate S50176x128 0 [⟨S50000x128, (V (Proc.devRef .tc main_arg0) : S50000x128.Idx → EReal)⟩,
        ⟨S176x128, broadcastInDim S176x128 ![] bcast_S_S176x128 (constant (F := Ideal) S_ .f32 0x00000000#32)⟩]
        concatenates_S50000x128_S176x128_S50176x128_d0 := by
  after_results

/-- The scale vector with 176 zeros appended. -/
private theorem ops2_v34 : (StableHlo.after hostOps0_2 V (Proc.devRef .tc main_v34) : S50176.Idx → EReal)
    = concatenate S50176 0 [⟨S50000, (V (Proc.devRef .tc main_v14) : S50000.Idx → EReal)⟩,
        ⟨S176, broadcastInDim S176 ![] bcast_S_S176 (constant (F := Ideal) S_ .f32 0x00000000#32)⟩]
        concatenates_S50000_S176_S50176_d0 := by
  after_results

/-- The source words with 1968 zero words appended, in 208 blocks of 4096. -/
private theorem ops2_v28 : (StableHlo.after hostOps0_2 V (Proc.devRef .tc main_v28) : S208x1x4096.Idx → BitVec 32)
    = shapeCast S208x1x4096 (concatenate S851968 0 [⟨S850000, (V (Proc.devRef .tc main_v3) : S850000.Idx → BitVec 32)⟩,
        ⟨S1968, broadcastInDim S1968 ![] bcast_S_S1968 (constantI S_ 32 0#32)⟩]
        concatenates_S850000_S1968_S851968_d0) shapeCasts_S851968_S208x1x4096 := by
  after_results; rfl

/-- The per-edge weights — the scale vector gathered at the destination words, a negative word first moved up by the
    number of nodes — with 1968 zeros appended, in 208 blocks of 4096. -/
private theorem ops2_v30 : (StableHlo.after hostOps0_2 V (Proc.devRef .tc main_v30) : S208x1x4096.Idx → EReal)
    = shapeCast S208x1x4096 (concatenate S851968 0
        [⟨S850000, Host.gather gather_S50000_S850000x1_S850000_n_0_n_n_0_1_1 (V (Proc.devRef .tc main_v14) : S50000.Idx → EReal)
            (broadcastInDim S850000x1 ![0] bcast_S850000_S850000x1_0
              (select (cmpi .slt (V (Proc.devRef .tc main_v6) : S850000.Idx → BitVec 32) (broadcastInDim S850000 ![] bcast_S_S850000 (constantI S_ 32 0#32)))
                (addi (V (Proc.devRef .tc main_v6) : S850000.Idx → BitVec 32) (broadcastInDim S850000 ![] bcast_S_S850000 (constantI S_ 32 50000#32)))
                (V (Proc.devRef .tc main_v6) : S850000.Idx → BitVec 32)))⟩,
         ⟨S1968, broadcastInDim S1968 ![] bcast_S_S1968 (constant (F := Ideal) S_ .f32 0x00000000#32)⟩]
        concatenates_S850000_S1968_S851968_d0) shapeCasts_S851968_S208x1x4096 := by
  after_results; rfl

end Stretch

variable (m : (ℓ : Loc nD τ sig) → Buf (Elt Ideal) ℓ) (ρ : Dev nD → PrngReg)

/-! ## The inputs as plain families -/

def xIn (c : Dev nD) : Fin 50000 → Fin 128 → EReal := fun n k => (m ((c.tc : Thread nD τ).loc main_arg0) : S50000x128.Idx → EReal) (ix2 n k)
def eiIn (c : Dev nD) : Fin 2 → Fin 800000 → BitVec 32 := fun a e => (m ((c.tc : Thread nD τ).loc main_arg1) : S2x800000.Idx → BitVec 32) (ix2 a e)
def batchIn (c : Dev nD) : Fin 50000 → BitVec 32 := fun n => (m ((c.tc : Thread nD τ).loc main_arg2) : S50000.Idx → BitVec 32) (ix1 n)
def WIn (c : Dev nD) : Fin 128 → Fin 64 → EReal := fun k q => (m ((c.tc : Thread nD τ).loc main_arg3) : S128x64.Idx → EReal) (ix2 k q)
def bIn (c : Dev nD) : Fin 64 → EReal := fun q => (m ((c.tc : Thread nD τ).loc main_arg4) : S64.Idx → EReal) (ix1 q)
def WfcIn (c : Dev nD) : Fin 64 → Fin 8 → EReal := fun q o => (m ((c.tc : Thread nD τ).loc main_arg5) : S64x8.Idx → EReal) (ix2 q o)
def bfcIn (c : Dev nD) : Fin 8 → EReal := fun o => (m ((c.tc : Thread nD τ).loc main_arg6) : S8.Idx → EReal) (ix1 o)
/-- The source and destination words of the 850000 edges. -/
def rowIn (c : Dev nD) : Fin 850000 → BitVec 32 := edgeW (eiIn m c 0)
def colIn (c : Dev nD) : Fin 850000 → BitVec 32 := edgeW (eiIn m c 1)

/-! ## The edge words and the scale vector where the third stretch reads them -/

/-- The source words the first stretch computes are the edge array's row 0 followed by the self-loops. -/
private theorem rowOf_eq (c : Dev nD) : (fun e : Fin 850000 => rowOf (W0 m ρ c) (ix1 e)) = rowIn m c := by
  funext e
  show concatenate S850000 0 _ _ (ix1 e) = _
  rw [concat1_apply (A := 800000) (B := 50000) (C := 850000) _ _ _ rfl]
  unfold rowIn edgeW
  split
  · next h => rw [reshape_row_apply, slice_row_apply 0 0 rfl]; rfl
  · next h => rfl

/-- The destination words the first stretch computes are the edge array's row 1 followed by the self-loops. -/
private theorem colOf_eq (c : Dev nD) : (fun e : Fin 850000 => colOf (W0 m ρ c) (ix1 e)) = colIn m c := by
  funext e
  show concatenate S850000 0 _ _ (ix1 e) = _
  rw [concat1_apply (A := 800000) (B := 50000) (C := 850000) _ _ _ rfl]
  unfold colIn edgeW
  split
  · next h => rw [reshape_row_apply, slice_row_apply 1 1 rfl]; rfl
  · next h => rfl

/-- The source word of edge `e` where the third stretch reads it: no operation of the second stretch writes it. -/
private theorem row_at (c : Dev nD) (e : Fin 850000) :
    (W2 m ρ c (Proc.devRef .tc main_v3) : S850000.Idx → BitVec 32) (ix1 e) = rowIn m c e := by
  rw [W2_of m ρ c main_v3 (by decide)]
  show (StableHlo.after hostOps0 (W0 m ρ c) (Proc.devRef .tc main_v3) : S850000.Idx → BitVec 32) (ix1 e) = _
  rw [ops0_v3]
  exact congrFun (rowOf_eq m ρ c) e

/-- The destination word of edge `e` where the third stretch reads it. -/
private theorem col_at (c : Dev nD) (e : Fin 850000) :
    (W2 m ρ c (Proc.devRef .tc main_v6) : S850000.Idx → BitVec 32) (ix1 e) = colIn m c e := by
  rw [W2_of m ρ c main_v6 (by decide)]
  show (StableHlo.after hostOps0 (W0 m ρ c) (Proc.devRef .tc main_v6) : S850000.Idx → BitVec 32) (ix1 e) = _
  rw [ops0_v6]
  exact congrFun (colOf_eq m ρ c) e

/-- The scale of node `j` where the third stretch reads it: the select of the second stretch over what the first left. -/
private theorem dinv_at (c : Dev nD) (j : Fin 50000) :
    (W2 m ρ c (Proc.devRef .tc main_v14) : S50000.Idx → EReal) (ix1 j) = dinvS (colIn m c) j := by
  show (StableHlo.after hostOps0_1 (W1 m ρ c) (Proc.devRef .tc main_v14) : S50000.Idx → EReal) (ix1 j) = _
  rw [ops1_v14, select_apply]
  show Scalar.select ((StableHlo.after hostOps0 (W0 m ρ c) (Proc.devRef .tc main_v12) : S50000.Idx → BitVec 1) (ix1 j))
      ((StableHlo.after hostOps0 (W0 m ρ c) (Proc.devRef .tc main_v13) : S50000.Idx → EReal) (ix1 j))
      (broadcastInDim S50000 ![] bcast_S_S50000 (StableHlo.after hostOps0 (W0 m ρ c) (Proc.devRef .tc main_cst_2) : S_.Idx → EReal) (ix1 j)) = _
  rw [ops0_v12, ops0_v13, ops0_cst2, cmpf_ogt_apply, host_rsqrt_apply, bcast_const_apply, deg_at, colOf_eq]
  rfl

/-! ## Region 0's operands -/

theorem hv_xp (c : Dev nD) (n : Fin 50176) (k : Fin 128) :
    (V3 m ρ c main_v32 : S50176x128.Idx → EReal) (ix2 n k) = xpOf (xIn m c) n k := by
  show (StableHlo.after hostOps0_2 (W2 m ρ c) (Proc.devRef .tc main_v32) : S50176x128.Idx → EReal) (ix2 n k) = _
  rw [ops2_v32, concat2_rows_apply (A := 50000) (B := 176) (C := 50176) _ _ _ rfl]
  unfold xpOf
  split
  · next h =>
    rw [W2_of m ρ c main_arg0 (by decide), W1_of m ρ c main_arg0 (by decide)]
    rfl
  · next h =>
    rw [bcast_const_apply]
    exact Ideal.ofBits_zero_f32
theorem hv_W (c : Dev nD) (k : Fin 128) (q : Fin 64) :
    (V3 m ρ c main_arg3 : S128x64.Idx → EReal) (ix2 k q) = WIn m c k q := by
  show (W3 m ρ c (Proc.devRef .tc main_arg3) : S128x64.Idx → EReal) (ix2 k q) = _
  rw [W3_of m ρ c main_arg3 (by decide), W2_of m ρ c main_arg3 (by decide), W1_of m ρ c main_arg3 (by decide)]
  rfl
theorem hv_dp (c : Dev nD) (n : Fin 50176) :
    (V3 m ρ c main_v34 : S50176.Idx → EReal) (ix1 n) = dpOf (dinvS (colIn m c)) n := by
  show (StableHlo.after hostOps0_2 (W2 m ρ c) (Proc.devRef .tc main_v34) : S50176.Idx → EReal) (ix1 n) = _
  rw [ops2_v34, concat1_apply (A := 50000) (B := 176) (C := 50176) _ _ _ rfl]
  unfold dpOf
  split
  · next h => exact dinv_at m ρ c ⟨n.val, h⟩
  · next h =>
    rw [bcast_const_apply]
    exact Ideal.ofBits_zero_f32

/-! ## Region 1's operands -/

theorem hv_row3 (c : Dev nD) (eb : Fin 208) (e : Fin 4096) :
    (V4 m ρ c main_v28 : S208x1x4096.Idx → BitVec 32) (ix3 eb 0 e) = idx3Of (rowIn m c) eb e := by
  show (W4 m ρ c (Proc.devRef .tc main_v28) : S208x1x4096.Idx → BitVec 32) (ix3 eb 0 e) = _
  rw [W4_of_ne m ρ c main_v28 (by decide)]
  show (StableHlo.after hostOps0_2 (W2 m ρ c) (Proc.devRef .tc main_v28) : S208x1x4096.Idx → BitVec 32) (ix3 eb 0 e) = _
  rw [ops2_v28, reshape_blocks_apply, concat1_apply (A := 850000) (B := 1968) (C := 851968) _ _ _ rfl]
  unfold idx3Of
  split
  · next h => exact row_at m ρ c ⟨eb.val * 4096 + e.val, h⟩
  · next h => exact bcast_constI_apply _ _ _
theorem hv_w3 (c : Dev nD) (eb : Fin 208) (e : Fin 4096) :
    (V4 m ρ c main_v30 : S208x1x4096.Idx → EReal) (ix3 eb 0 e) = w3Of (colIn m c) (dinvS (colIn m c)) eb e := by
  show (W4 m ρ c (Proc.devRef .tc main_v30) : S208x1x4096.Idx → EReal) (ix3 eb 0 e) = _
  rw [W4_of_ne m ρ c main_v30 (by decide)]
  show (StableHlo.after hostOps0_2 (W2 m ρ c) (Proc.devRef .tc main_v30) : S208x1x4096.Idx → EReal) (ix3 eb 0 e) = _
  rw [ops2_v30, reshape_blocks_apply, concat1_apply (A := 850000) (B := 1968) (C := 851968) _ _ _ rfl]
  unfold w3Of
  split
  · next h =>
    refine (Cert.Proof.GS.gather_gath1_apply (N := 50000) (E := 850000) (by decide)
      gather_S50000_S850000x1_S850000_n_0_n_n_0_1_1_wf _ _ ⟨eb.val * 4096 + e.val, h⟩).trans ?_
    rw [column_apply (by decide), select_apply]
    show (W2 m ρ c (Proc.devRef .tc main_v14) : S50000.Idx → EReal) (ix1 (Cert.Proof.GS.row _
      (Scalar.select (IntOp.cmpi .slt ((W2 m ρ c (Proc.devRef .tc main_v6) : S850000.Idx → BitVec 32) (ix1 ⟨eb.val * 4096 + e.val, h⟩)) 0#32)
        (IntOp.addi ((W2 m ρ c (Proc.devRef .tc main_v6) : S850000.Idx → BitVec 32) (ix1 ⟨eb.val * 4096 + e.val, h⟩)) 50000#32)
        ((W2 m ρ c (Proc.devRef .tc main_v6) : S850000.Idx → BitVec 32) (ix1 ⟨eb.val * 4096 + e.val, h⟩))))) = _
    rw [dinv_at, col_at, wrap_word]
    rfl
  · next h =>
    rw [bcast_const_apply]
    exact Ideal.ofBits_zero_f32
theorem hv_y (c : Dev nD) :
    (V4 m ρ c main_v35 : S50176x64.Idx → EReal) = ((dat0 (V3 m ρ) c).arrAt 3 cfg0.N : S50176x64.Idx → EReal) := by
  exact W4_arr m ρ c 3

end Cert.KernelIdeal.Hand

end
-- ==== Proof.KI.HostVals2.lean ====
/-
  What the kernel program's host operations hand regions 2 and 3, read at an index at the ideal instance, and which
  buffer of the fold each operand is: the blocked destination words, the bias, the padded graph ids, the last layer's
  parameters as launched; each region's result where the next item finds it.
-/
import proofs.«402996_j73263552135827_2_alg».proof.Proof.KI.HostVals

set_option maxRecDepth 16384

open scoped BigOperators

noncomputable section

namespace Cert.KernelIdeal.Hand

open Idealize.ShloMosaic Idealize.ShloMosaic.TcCoe Idealize.ShloMosaic.ValueIdx Idealize.SL.Sem
open Cert.KernelIdeal Cert.KernelIdeal.Gen Cert.Proof.Spec

variable (m : (ℓ : Loc nD τ sig) → Buf (Elt Ideal) ℓ) (ρ : Dev nD → PrngReg)

/-! ## The destination words and the graph ids through the host operations

  The destination list is row 1 of the edge array followed by the node numbers (the self-loops); it is padded with the
  zero word to 851968 = 208 · 4096 entries and cut into 208 blocks of 4096, so the entry at (block, lane) sits at the flat
  position block · 4096 + lane. The graph ids are padded with the word −1 to 50176 entries. -/

/-- The third stretch's blocked destination words, as the operations' term over the stretch's entry contents. -/
private theorem dst_blocked_term (V : Valuation τ sig (Elt Ideal)) :
    (StableHlo.after (hostOps0_2 (F := Ideal)) V (Proc.devRef .tc main_v29) : S208x1x4096.Idx → BitVec 32)
      = shapeCast S208x1x4096 (concatenate S851968 0 [⟨S850000, (V (Proc.devRef .tc main_v6) : S850000.Idx → BitVec 32)⟩,
          ⟨S1968, broadcastInDim S1968 ![] bcast_S_S1968 (constantI S_ 32 0#32)⟩] concatenates_S850000_S1968_S851968_d0) shapeCasts_S851968_S208x1x4096 := by
  after_results
  rfl

/-- The first stretch's destination list: row 1 of the edge array, then the node numbers. -/
private theorem dst_list_term (V : Valuation τ sig (Elt Ideal)) :
    (StableHlo.after (hostOps0 (F := Ideal)) V (Proc.devRef .tc main_v6) : S850000.Idx → BitVec 32)
      = concatenate S850000 0 [⟨S800000, shapeCast S800000 (extractStridedSlice S1x800000 ![1, 0] (V (Proc.devRef .tc main_arg1) : S2x800000.Idx → BitVec 32) slices_S2x800000_S1x800000_1_0) shapeCasts_S1x800000_S800000⟩,
          ⟨S50000, iotaInDim S50000 32 0⟩] concatenates_S800000_S50000_S850000_d0 := by
  after_results
  rfl

/-- The destination list read at an edge: the given endpoint below 800000, the node's own number from there on. -/
private theorem dst_list_apply (X : S2x800000.Idx → BitVec 32) (n : Fin 850000) :
    concatenate S850000 0 [⟨S800000, shapeCast S800000 (extractStridedSlice S1x800000 ![1, 0] X slices_S2x800000_S1x800000_1_0) shapeCasts_S1x800000_S800000⟩,
          ⟨S50000, iotaInDim S50000 32 0⟩] concatenates_S800000_S50000_S850000_d0 (ix1 n)
      = edgeW (fun e => X (ix2 1 e)) n := by
  unfold edgeW
  by_cases h : n.val < 800000
  · -- an edge of the given list: the first piece, whose entry n is row 1, column n of the edge array
    rw [dif_pos h]
    refine (concatenate_pair_apply_left (t := S850000) (s₁ := S800000) (s₂ := S50000) 0 _ _ _ _ rfl (ix1 ⟨n.val, h⟩)
      (fun b => by match b with | ⟨0, _⟩ => rfl)).trans ?_
    refine (shapeCast_apply _ _ _ (ix2 (0 : Fin 1) ⟨n.val, h⟩) ?_).trans ?_
    · rw [Shape.rowMajor_val_two, Shape.rowMajor_val_one]
      show 0 * 800000 + n.val = n.val
      omega
    · exact extractStridedSlice_apply _ _ _ _ (ix2 (1 : Fin 2) ⟨n.val, h⟩) (fun a => by
        match a with
        | ⟨0, _⟩ => rfl
        | ⟨1, _⟩ => show n.val = 0 + n.val; omega)
  · -- a self-loop: the second piece, the node numbers, at n − 800000
    rw [dif_neg h]
    have h2 : n.val - 800000 < 50000 := by have := n.isLt; omega
    refine (concatenate_pair_apply_right (t := S850000) (s₁ := S800000) (s₂ := S50000) 0 _ _ _ _ rfl rfl (ix1 ⟨n.val - 800000, h2⟩)
      (fun b hb => absurd (Fin.ext (by have hb1 : b.val < 1 := b.isLt; show b.val = 0; omega)) hb) ?_).trans ?_
    · show n.val - 800000 + 800000 = n.val
      omega
    · rfl

/-- The padded, blocked list read at (block, lane): the list's entry while the flat position is an edge, the zero word
    past the end. -/
private theorem dst_blocked_apply (Y : S850000.Idx → BitVec 32) (eb : Fin 208) (e : Fin 4096) :
    shapeCast S208x1x4096 (concatenate S851968 0 [⟨S850000, Y⟩,
          ⟨S1968, broadcastInDim S1968 ![] bcast_S_S1968 (constantI S_ 32 0#32)⟩] concatenates_S850000_S1968_S851968_d0) shapeCasts_S851968_S208x1x4096 (ix3 eb 0 e)
      = idx3Of (fun n => Y (ix1 n)) eb e := by
  unfold idx3Of
  have hlt : eb.val * 4096 + e.val < 851968 := by have := eb.isLt; have := e.isLt; omega
  -- the cast keeps the row-major position: (block, 0, lane) is flat position block · 4096 + lane
  refine (shapeCast_apply _ _ _ (ix1 ⟨eb.val * 4096 + e.val, hlt⟩) ?_).trans ?_
  · rw [Shape.rowMajor_val_one, Shape.rowMajor_val_three]
    show eb.val * 4096 + e.val = (eb.val * 1 + 0) * 4096 + e.val
    omega
  by_cases h : eb.val * 4096 + e.val < 850000
  · rw [dif_pos h]
    exact concatenate_pair_apply_left (t := S851968) (s₁ := S850000) (s₂ := S1968) 0 _ _ _ _ rfl (ix1 ⟨eb.val * 4096 + e.val, h⟩)
      (fun b => by match b with | ⟨0, _⟩ => rfl)
  · rw [dif_neg h]
    have h2 : eb.val * 4096 + e.val - 850000 < 1968 := by omega
    refine (concatenate_pair_apply_right (t := S851968) (s₁ := S850000) (s₂ := S1968) 0 _ _ _ _ rfl rfl (ix1 ⟨eb.val * 4096 + e.val - 850000, h2⟩)
      (fun b hb => absurd (Fin.ext (by have hb1 : b.val < 1 := b.isLt; show b.val = 0; omega)) hb) ?_).trans ?_
    · show eb.val * 4096 + e.val - 850000 + 850000 = eb.val * 4096 + e.val
      omega
    · rfl

/-- The three stretches together: the blocked destination words over the launch contents (the middle stretch writes
    nothing the list is made of). -/
private theorem dst_blocked_of_launch (V : Valuation τ sig (Elt Ideal)) (eb : Fin 208) (e : Fin 4096) :
    (StableHlo.after (hostOps0_2 (F := Ideal)) (StableHlo.after (hostOps0_1 (F := Ideal)) (StableHlo.after (hostOps0 (F := Ideal)) V)) (Proc.devRef .tc main_v29) : S208x1x4096.Idx → BitVec 32) (ix3 eb 0 e)
      = idx3Of (edgeW (fun e' => (V (Proc.devRef .tc main_arg1) : S2x800000.Idx → BitVec 32) (ix2 1 e'))) eb e := by
  rw [dst_blocked_term, dst_blocked_apply]
  congr 1
  funext n
  rw [StableHlo.after_of_writes_sub (hostOps0_1 (F := Ideal)) _ hostOps0_1_writes (r := main_v6) (by decide), dst_list_term]
  exact dst_list_apply _ n

/-- The last stretch's padded graph ids, as the operations' term over the stretch's entry contents. -/
private theorem ids_padded_term (V : Valuation τ sig (Elt Ideal)) :
    (StableHlo.after (hostOps3 (F := Ideal)) V (Proc.devRef .tc main_v39) : S50176.Idx → BitVec 32)
      = concatenate S50176 0 [⟨S50000, (V (Proc.devRef .tc main_arg2) : S50000.Idx → BitVec 32)⟩,
          ⟨S176, broadcastInDim S176 ![] bcast_S_S176 (constantI S_ 32 4294967295#32)⟩] concatenates_S50000_S176_S50176_d0 := by
  after_results

/-- The padded graph ids read at a node: the node's id below 50000, the word −1 from there on. -/
private theorem ids_padded_apply (Y : S50000.Idx → BitVec 32) (n : Fin 50176) :
    concatenate S50176 0 [⟨S50000, Y⟩,
          ⟨S176, broadcastInDim S176 ![] bcast_S_S176 (constantI S_ 32 4294967295#32)⟩] concatenates_S50000_S176_S50176_d0 (ix1 n)
      = batchpOf (fun k => Y (ix1 k)) n := by
  unfold batchpOf
  by_cases h : n.val < 50000
  · rw [dif_pos h]
    exact concatenate_pair_apply_left (t := S50176) (s₁ := S50000) (s₂ := S176) 0 _ _ _ _ rfl (ix1 ⟨n.val, h⟩)
      (fun b => by match b with | ⟨0, _⟩ => rfl)
  · rw [dif_neg h]
    have h2 : n.val - 50000 < 176 := by have := n.isLt; omega
    refine (concatenate_pair_apply_right (t := S50176) (s₁ := S50000) (s₂ := S176) 0 _ _ _ _ rfl rfl (ix1 ⟨n.val - 50000, h2⟩)
      (fun b hb => absurd (Fin.ext (by have hb1 : b.val < 1 := b.isLt; show b.val = 0; omega)) hb) ?_).trans ?_
    · show n.val - 50000 + 50000 = n.val
      omega
    · rfl

/-! ## Region 2's operands -/

theorem hv_col3 (c : Dev nD) (eb : Fin 208) (e : Fin 4096) :
    (V5 m ρ c main_v29 : S208x1x4096.Idx → BitVec 32) (ix3 eb 0 e) = idx3Of (colIn m c) eb e := by
  -- regions 0 and 1 leave the array as the third stretch wrote it
  show (W5 m ρ c (Proc.devRef .tc main_v29) : S208x1x4096.Idx → BitVec 32) (ix3 eb 0 e) = _
  rw [W5_of_ne m ρ c main_v29 (by decide), W4_of_ne m ρ c main_v29 (by decide)]
  exact dst_blocked_of_launch (W0 m ρ c) eb e
theorem hv_msg (c : Dev nD) :
    (V5 m ρ c main_v36 : S208x4096x64.Idx → EReal) = ((dat1 (V4 m ρ) c).arrAt 3 cfg1.N : S208x4096x64.Idx → EReal) := by
  exact W5_arr m ρ c 3
theorem hv_b (c : Dev nD) (q : Fin 64) :
    (V5 m ρ c main_arg4 : S64.Idx → EReal) (ix1 q) = bIn m c q := by
  show (W5 m ρ c (Proc.devRef .tc main_arg4) : S64.Idx → EReal) (ix1 q) = _
  rw [W5_of_ne m ρ c main_arg4 (by decide), W4_of_ne m ρ c main_arg4 (by decide), W3_of m ρ c main_arg4 (by decide),
    W2_of m ρ c main_arg4 (by decide), W1_of m ρ c main_arg4 (by decide)]
  rfl

/-! ## Region 3's operands, and the result -/

theorem hv_hpad (c : Dev nD) :
    (V7 m ρ c main_v37 : S50176x64.Idx → EReal) = ((dat2 (V5 m ρ) c).arrAt 3 cfg2.N : S50176x64.Idx → EReal) := by
  show W7 m ρ c (Proc.devRef .tc main_v37) = _
  rw [W7_of m ρ c main_v37 (by decide)]
  exact W6_arr m ρ c 3
theorem hv_batchp (c : Dev nD) (n : Fin 50176) :
    (V7 m ρ c main_v39 : S50176.Idx → BitVec 32) (ix1 n) = batchpOf (batchIn m c) n := by
  show (StableHlo.after (hostOps3 (F := Ideal)) (W6 m ρ c) (Proc.devRef .tc main_v39) : S50176.Idx → BitVec 32) (ix1 n) = _
  rw [ids_padded_term, ids_padded_apply]
  -- the ids themselves are an argument no item before the last stretch writes
  refine congrArg (fun f => batchpOf f n) ?_
  funext k
  rw [W6_of_ne m ρ c main_arg2 (by decide), W5_of_ne m ρ c main_arg2 (by decide), W4_of_ne m ρ c main_arg2 (by decide),
    W3_of m ρ c main_arg2 (by decide), W2_of m ρ c main_arg2 (by decide), W1_of m ρ c main_arg2 (by decide)]
  rfl
theorem hv_Wfc (c : Dev nD) (q : Fin 64) (o : Fin 8) :
    (V7 m ρ c main_arg5 : S64x8.Idx → EReal) (ix2 q o) = WfcIn m c q o := by
  show (W7 m ρ c (Proc.devRef .tc main_arg5) : S64x8.Idx → EReal) (ix2 q o) = _
  rw [W7_of m ρ c main_arg5 (by decide), W6_of_ne m ρ c main_arg5 (by decide), W5_of_ne m ρ c main_arg5 (by decide),
    W4_of_ne m ρ c main_arg5 (by decide), W3_of m ρ c main_arg5 (by decide), W2_of m ρ c main_arg5 (by decide),
    W1_of m ρ c main_arg5 (by decide)]
  rfl
theorem hv_bfc (c : Dev nD) (o : Fin 8) :
    (V7 m ρ c main_arg6 : S8.Idx → EReal) (ix1 o) = bfcIn m c o := by
  show (W7 m ρ c (Proc.devRef .tc main_arg6) : S8.Idx → EReal) (ix1 o) = _
  rw [W7_of m ρ c main_arg6 (by decide), W6_of_ne m ρ c main_arg6 (by decide), W5_of_ne m ρ c main_arg6 (by decide),
    W4_of_ne m ρ c main_arg6 (by decide), W3_of m ρ c main_arg6 (by decide), W2_of m ρ c main_arg6 (by decide),
    W1_of m ρ c main_arg6 (by decide)]
  rfl
theorem hv_out (c : Dev nD) :
    (W8 m ρ c (Proc.devRef .tc main_v40) : S256x8.Idx → EReal) = ((dat3 (V7 m ρ) c).arrAt 4 cfg3.N : S256x8.Idx → EReal) := by
  exact W8_arr m ρ c 4

end Cert.KernelIdeal.Hand

end
-- ==== Proof.SpecTiles.lean ====
/-
  A sum over the 50176 padded nodes, tile by tile: 50176 = 49 tiles of 1024.
-/
import proofs.«402996_j73263552135827_2_alg».proof.Proof.Spec
import Mathlib.Algebra.BigOperators.Group.Finset.Basic
import Mathlib.Data.Fintype.BigOperators

open scoped BigOperators

noncomputable section

namespace Cert.Proof.Spec

open Idealize.ShloMosaic Finset

/-- A sum over 50176 = 49 · 1024 indices, tile by tile. -/
theorem sum_tiles_49 (f : Fin 50176 → EReal) :
    ∑ a : Fin 49, ∑ l : Fin 1024, f ⟨a.val * 1024 + l.val, by omega⟩ = ∑ s : Fin 50176, f s := by
  -- the double sum is a sum over pairs (tile, lane) ...
  rw [← Fintype.sum_prod_type' (f := fun (a : Fin 49) (l : Fin 1024) => f ⟨a.val * 1024 + l.val, by omega⟩)]
  -- ... and (tile, lane) ↦ tile · 1024 + lane is a bijection onto the 50176 indices, with inverse s ↦ (s / 1024, s % 1024)
  refine Fintype.sum_equiv
    ⟨fun p => ⟨p.1.val * 1024 + p.2.val, by omega⟩,
     fun s => (⟨s.val / 1024, by omega⟩, ⟨s.val % 1024, by omega⟩), ?_, ?_⟩ _ _ (fun p => rfl)
  · rintro ⟨a, l⟩
    ext
    · show (a.val * 1024 + l.val) / 1024 = a.val
      omega
    · show (a.val * 1024 + l.val) % 1024 = l.val
      omega
  · intro s
    ext
    show s.val / 1024 * 1024 + s.val % 1024 = s.val
    omega

end Cert.Proof.Spec

end
-- ==== Proof.KI.V0.lean ====
/-
  The value of region 0: what its output array holds after the region, entry by entry, at the ideal instance.
-/
import proofs.«402996_j73263552135827_2_alg».proof.Proof.KI.Defs
import proofs.«402996_j73263552135827_2_alg».proof.Proof.Spec
import proofs.«402996_j73263552135827_2_alg».proof.Proof.SpecTiles
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Proof.Spec

variable (V : Entry Ideal)

/-! ## The body's arithmetic at an entry -/

/-- The matrix product's dimension numbers: the row of the result is the row of the left operand. -/
private theorem lhs_dot0_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
/-- The left operand's column is the contraction coordinate. -/
private theorem lhs_dot0_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
/-- The right operand's row is the contraction coordinate. -/
private theorem rhs_dot0_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
/-- The column of the result is the column of the right operand. -/
private theorem rhs_dot0_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

/-- What the body stores, at row `p` and column `q` of its block: the row of the feature tile against the column of the
    weights, summed over the 128 features, times the row's scale. -/
private theorem pay0_apply (x : Vec Ideal S1024x128 .f32) (w : Vec Ideal S128x64 .f32) (d : Vec Ideal S1024 .f32) (p : Fin 1024) (q : Fin 64) :
    k0_pay1 (F := Ideal) x w d (ix2 p q) = (∑ k : Fin 128, x (ix2 p k) * w (ix2 k q)) * d (ix1 p) := by
  unfold k0_pay1
  simp only [matmul]
  rw [mulf_apply, Ideal.matmul_constant_zero_apply, ← Equiv.sum_comp (contrEquiv1 dot_S1024x128_S128x64_S1024x64_1_0_0_1_n_n 128 rfl rfl).symm]
  refine congrArg₂ (· * ·) (Finset.sum_congr rfl fun k _ => ?_) ?_
  · -- one term of the product: the operands' indices are (p, k) and (k, q), and narrowing to bf16 changes no value
    have hk := contrEquiv1_symm_val dot_S1024x128_S128x64_S1024x64_1_0_0_1_n_n 128 rfl rfl k
    have el : dot_S1024x128_S128x64_S1024x64_1_0_0_1_n_n.lhsIdx (ix2 p q) ((contrEquiv1 dot_S1024x128_S128x64_S1024x64_1_0_0_1_n_n 128 rfl rfl).symm k) = ix2 p k := funext fun a => Fin.ext (by
      match a with
      | ⟨0, _⟩ => exact lhs_dot0_0 _ _
      | ⟨1, _⟩ => exact (lhs_dot0_1 _ _).trans hk)
    have er : dot_S1024x128_S128x64_S1024x64_1_0_0_1_n_n.rhsIdx (ix2 p q) ((contrEquiv1 dot_S1024x128_S128x64_S1024x64_1_0_0_1_n_n 128 rfl rfl).symm k) = ix2 k q := funext fun a => Fin.ext (by
      match a with
      | ⟨0, _⟩ => exact (rhs_dot0_0 _ _).trans hk
      | ⟨1, _⟩ => exact rhs_dot0_1 _ _)
    rw [el, er, truncf_apply, truncf_apply, shapeCast_self]
  · -- the scale column: entry (p, q) of the broadcast is entry (p, 0) of the column, which is entry p of the vector
    refine (broadcastTo_apply _ _ (ix2 p q) (ix2 p (0 : Fin 1)) fun a => ?_).trans ?_
    · match a with
      | ⟨0, _⟩ => rfl
      | ⟨1, _⟩ => rfl
    · refine (shapeCast_apply _ _ (ix2 p (0 : Fin 1)) (ix1 p) ?_).trans ?_
      · rw [Shape.rowMajor_val_one, Shape.rowMajor_val_two]
        show p.val = p.val * 1 + 0
        omega
      · rw [shapeCast_self]

/-! ## The grid: which rows of which array a point's blocks are -/

/-- The block index maps over the 49 points: the feature tile, the scale tile and the output tile of point `t` are
    tile `t` of their arrays, all columns; the weights are one block. -/
private theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = t.val
    ∧ win0_3.index t (0 : Fin 2) = t.val ∧ win0_3.index t (1 : Fin 2) = 0 :=
  (by decide +kernel : ∀ t : Fin grid0.N, _)

/-- The grid has 49 points. -/
private theorem lt49 (t : Fin cfg0.N) : t.val < 49 := Nat.lt_of_lt_of_eq t.isLt N_0

/-- Row `p` of point `t`'s feature tile is row `1024 t + p` of the padded features. -/
private theorem xblk0_apply (c : Dev nD) (t : Fin cfg0.N) (p : Fin 1024) (k : Fin 128) (n : Fin 50176) (hn : n.val = t.val * 1024 + p.val) :
    (iblk0 V c 0 t : S1024x128.Idx → EReal) (ix2 p k) = (V c main_v32 : S50176x128.Idx → EReal) (ix2 n k) := by
  obtain ⟨e0, e1, -⟩ := idx_facts0 t
  show (V c main_v32 : S50176x128.Idx → EReal) (((cfg0.win 0).blk t).view.emb (ix2 p k)) = _
  refine congrArg _ (funext fun a => Fin.ext ?_)
  match a with
  | ⟨0, _⟩ => show win0_0.index t (0 : Fin 2) * 1024 + 1 * p.val = n.val; omega
  | ⟨1, _⟩ => show win0_0.index t (1 : Fin 2) * 128 + 1 * k.val = k.val; omega

/-- The weights' one block is the weights. -/
private theorem wblk0_apply (c : Dev nD) (t : Fin cfg0.N) (k : Fin 128) (q : Fin 64) :
    (iblk0 V c 1 t : S128x64.Idx → EReal) (ix2 k q) = (V c main_arg3 : S128x64.Idx → EReal) (ix2 k q) := by
  obtain ⟨-, -, e0, e1, -⟩ := idx_facts0 t
  show (V c main_arg3 : S128x64.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- Entry `p` of point `t`'s scale tile is entry `1024 t + p` of the padded scale vector. -/
private theorem dblk0_apply (c : Dev nD) (t : Fin cfg0.N) (p : Fin 1024) (n : Fin 50176) (hn : n.val = t.val * 1024 + p.val) :
    (iblk0 V c 2 t : S1024.Idx → EReal) (ix1 p) = (V c main_v34 : S50176.Idx → EReal) (ix1 n) := by
  obtain ⟨-, -, -, -, e0, -⟩ := idx_facts0 t
  show (V c main_v34 : S50176.Idx → EReal) (((cfg0.win 2).blk t).view.emb (ix1 p)) = _
  refine congrArg _ (funext fun a => Fin.ext ?_)
  match a with
  | ⟨0, _⟩ => show win0_2.index t (0 : Fin 1) * 1024 + 1 * p.val = n.val; omega

/-! ## From the blocks to the array -/

/-- The whole output array: the scaled dense layer of every padded row. -/
private def y0 (c : Dev nD) : S50176x64.Idx → EReal := fun i =>
  yS (fun n k => (V c main_v32 : S50176x128.Idx → EReal) (ix2 n k)) (fun k q => (V c main_arg3 : S128x64.Idx → EReal) (ix2 k q))
    (fun n => (V c main_v34 : S50176.Idx → EReal) (ix1 n)) (i 0) (i 1)

/-- What point `t` writes back is tile `t` of that array: row `p` of the stored block is computed from row `p` of the
    point's feature tile and entry `p` of its scale tile, which are row and entry `1024 t + p` of the padded operands. -/
private theorem flushed0_eq (c : Dev nD) (t : Fin cfg0.N) :
    (dat0 V c).flushed 3 t = ((cfg0.win 3).blk t).view.read (Elt Ideal) (y0 V c) := by
  have ht := lt49 t
  obtain ⟨-, -, -, -, -, e0, e1⟩ := idx_facts0 t
  funext j
  obtain ⟨p, q, rfl⟩ : ∃ (p : Fin 1024) (q : Fin 64), j = ix2 p q := ⟨j 0, j 1, eq_ix2 j⟩
  have hp := p.isLt
  have hlt : t.val * 1024 + p.val < 50176 := by omega
  have he : ((cfg0.win 3).blk t).view.emb (ix2 p q) = (ix2 (⟨t.val * 1024 + p.val, hlt⟩ : Fin 50176) q : S50176x64.Idx) :=
    funext fun a => Fin.ext (by
      match a with
      | ⟨0, _⟩ => show win0_3.index t (0 : Fin 2) * 1024 + 1 * p.val = t.val * 1024 + p.val; omega
      | ⟨1, _⟩ => show win0_3.index t (1 : Fin 2) * 64 + 1 * q.val = q.val; omega)
  show (out0 V c t : S1024x64.Idx → EReal) (ix2 p q) = y0 V c (((cfg0.win 3).blk t).view.emb (ix2 p q))
  rw [he]
  refine (pay0_apply (iblk0 V c 0 t) (iblk0 V c 1 t) (iblk0 V c 2 t) p q).trans ?_
  unfold y0 yS
  exact congrArg₂ (fun a b : EReal => a * b)
    (Finset.sum_congr rfl fun k _ => congrArg₂ (fun a b : EReal => a * b)
      (xblk0_apply V c t p k ⟨t.val * 1024 + p.val, hlt⟩ rfl) (wblk0_apply V c t k q))
    (dblk0_apply V c t p ⟨t.val * 1024 + p.val, hlt⟩ rfl)

/-- An entry of the output array lies in point `t`'s block iff its row is in tile `t`. -/
private theorem mem_blk0 (t : Fin cfg0.N) (i : S50176x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v35).slice (win0_3.rect t)).set ↔ _
  rw [View.set_slice_whole, Rect.mem_set_unit]
  exact Iff.rfl

/-- Every entry is written back: row `n` by point `n / 1024`. -/
private theorem cover0 (i : S50176x64.Idx) : ∃ t : Fin cfg0.N, (cfg0.win 3).flush t = true ∧ i ∈ ((cfg0.win 3).blk t).view.set := by
  have hi0 : (i 0).val < 50176 := (i 0).isLt
  have hi1 : (i 1).val < 64 := (i 1).isLt
  let t : Fin cfg0.N := ⟨(i 0).val / 1024, by rw [show cfg0.N = 49 from N_0]; omega⟩
  have htv : t.val = (i 0).val / 1024 := rfl
  obtain ⟨-, -, -, -, -, e0, e1⟩ := idx_facts0 t
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 64 ≤ (i 1).val ∧ (i 1).val < win0_3.index t (1 : Fin 2) * 64 + 64; omega

/-- So after the region the output array is that array. -/
private theorem arr0_final (c : Dev nD) : (dat0 V c).arrAt 3 cfg0.N = y0 V c :=
  (dat0 V c).arrAt_eq_of_cover 3 (y0 V c) (fun t _ => flushed0_eq V c t) cover0

/-- REGION 0's OUTPUT ARRAY, after the region, at an entry: the dense layer of row `n` of the padded features, times the
    row's entry of the padded scale vector. -/
theorem y_final (c : Dev nD) (n : Fin 50176) (q : Fin 64) :
    ((dat0 V c).arrAt 3 cfg0.N : S50176x64.Idx → EReal) (ix2 n q)
      = yS (fun n k => (V c main_v32 : S50176x128.Idx → EReal) (ix2 n k)) (fun k q => (V c main_arg3 : S128x64.Idx → EReal) (ix2 k q))
          (fun n => (V c main_v34 : S50176.Idx → EReal) (ix1 n)) n q := by
  rw [arr0_final V c]
  rfl

end Cert.KernelIdeal.Hand

end
-- ==== Proof.KI.V1.lean ====
/-
  The value of region 1 (the gather as a mask product accumulated over 49 node tiles): what its output array holds after
  the region, entry by entry, at the ideal instance.
-/
import proofs.«402996_j73263552135827_2_alg».proof.Proof.KI.Defs
import proofs.«402996_j73263552135827_2_alg».proof.Proof.Spec
import proofs.«402996_j73263552135827_2_alg».proof.Proof.SpecTiles
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Proof.Spec

/-! ## The body's arithmetic at an entry -/

/-- The comparison mask's entry as a number: one where the comparison holds, zero elsewhere. -/
private theorem mask_val (b : Bool) : ((((BitVec.ofBool b).setWidth 32).toInt : ℝ) : EReal) = if b = true then 1 else 0 := by
  cases b
  · have h : ((BitVec.ofBool false).setWidth 32).toInt = 0 := by decide
    rw [h]; simp
  · have h : ((BitVec.ofBool true).setWidth 32).toInt = 1 := by decide
    rw [h]; simp

/-- A word less a tile's first index is a lane iff the word is the tile's first index plus the lane (in 32-bit words). -/
private theorem word_sub_eq_iff (w : BitVec 32) (st l : Nat) :
    (w - BitVec.ofNat 32 st * 1024#32 = BitVec.ofNat 32 l) ↔ w = BitVec.ofNat 32 (st * 1024 + l) := by
  have e : BitVec.ofNat 32 (st * 1024 + l) = BitVec.ofNat 32 l + BitVec.ofNat 32 st * 1024#32 := by
    rw [Nat.add_comm, BitVec.ofNat_add, BitVec.ofNat_mul]
  rw [e]
  constructor
  · intro h; rw [← h, BitVec.sub_add_cancel]
  · intro h; rw [h, BitVec.add_sub_cancel]

private theorem lhs_D1_0 (i : S4096x64.Idx) (k : dot_S4096x1024_S1024x64_S4096x64_1_0_0_1_n_n.contr.Idx) :
    (dot_S4096x1024_S1024x64_S4096x64_1_0_0_1_n_n.lhsIdx i k 0).val = (i 0).val := by
  unfold DotDims.lhsIdx
  rw [dif_neg (show ¬(0 : Fin S4096x1024.rank) ∈ dot_S4096x1024_S1024x64_S4096x64_1_0_0_1_n_n.lhsBatch by decide), dif_pos (show (0 : Fin S4096x1024.rank) ∈ dot_S4096x1024_S1024x64_S4096x64_1_0_0_1_n_n.lhsNonContracting by decide)]
  rfl
private theorem lhs_D1_1 (i : S4096x64.Idx) (k : dot_S4096x1024_S1024x64_S4096x64_1_0_0_1_n_n.contr.Idx) :
    (dot_S4096x1024_S1024x64_S4096x64_1_0_0_1_n_n.lhsIdx i k 1).val = (k ⟨0, by decide⟩).val :=
  dot_S4096x1024_S1024x64_S4096x64_1_0_0_1_n_n.lhsIdx_val_of_single rfl i k
private theorem rhs_D1_0 (i : S4096x64.Idx) (k : dot_S4096x1024_S1024x64_S4096x64_1_0_0_1_n_n.contr.Idx) :
    (dot_S4096x1024_S1024x64_S4096x64_1_0_0_1_n_n.rhsIdx i k 0).val = (k ⟨0, by decide⟩).val :=
  dot_S4096x1024_S1024x64_S4096x64_1_0_0_1_n_n.rhsIdx_val_of_single rfl i k
private theorem rhs_D1_1 (i : S4096x64.Idx) (k : dot_S4096x1024_S1024x64_S4096x64_1_0_0_1_n_n.contr.Idx) :
    (dot_S4096x1024_S1024x64_S4096x64_1_0_0_1_n_n.rhsIdx i k 1).val = (i 1).val := by
  unfold DotDims.rhsIdx
  rw [dif_neg (show ¬(1 : Fin S1024x64.rank) ∈ dot_S4096x1024_S1024x64_S4096x64_1_0_0_1_n_n.rhsBatch by decide), dif_pos (show (1 : Fin S1024x64.rank) ∈ dot_S4096x1024_S1024x64_S4096x64_1_0_0_1_n_n.rhsNonContracting by decide)]
  rfl

/-- The mask product into the zero accumulator, at an entry: the sum over the tile's 1024 lanes. -/
private theorem matmul_D1_apply (A : FVec Ideal S4096x1024 .bf16) (B : FVec Ideal S1024x64 .bf16) (e : Fin 4096) (q : Fin 64) :
    matmul dot_S4096x1024_S1024x64_S4096x64_1_0_0_1_n_n none A B (constant S4096x64 .f32 0x00000000#32) (ix2 e q)
      = ∑ k : Fin 1024, A (ix2 e k) * B (ix2 k q) := by
  simp only [matmul]
  rw [Ideal.matmul_constant_zero_apply, ← Equiv.sum_comp (ValueIdx.contrEquiv1 dot_S4096x1024_S1024x64_S4096x64_1_0_0_1_n_n 1024 rfl rfl).symm]
  refine Finset.sum_congr rfl fun k _ => ?_
  have hk := ValueIdx.contrEquiv1_symm_val dot_S4096x1024_S1024x64_S4096x64_1_0_0_1_n_n 1024 rfl rfl k
  have el : dot_S4096x1024_S1024x64_S4096x64_1_0_0_1_n_n.lhsIdx (ix2 e q) ((ValueIdx.contrEquiv1 dot_S4096x1024_S1024x64_S4096x64_1_0_0_1_n_n 1024 rfl rfl).symm k) = ix2 e k := funext fun a => Fin.ext (by
    match a with
    | ⟨0, _⟩ => exact lhs_D1_0 _ _
    | ⟨1, _⟩ => exact (lhs_D1_1 _ _).trans hk)
  have er : dot_S4096x1024_S1024x64_S4096x64_1_0_0_1_n_n.rhsIdx (ix2 e q) ((ValueIdx.contrEquiv1 dot_S4096x1024_S1024x64_S4096x64_1_0_0_1_n_n 1024 rfl rfl).symm k) = ix2 k q := funext fun a => Fin.ext (by
    match a with
    | ⟨0, _⟩ => exact (rhs_D1_0 _ _).trans hk
    | ⟨1, _⟩ => exact rhs_D1_1 _ _)
  rw [el, er]

/-- The stored block at an entry: the accumulator's entry times the edge's weight (the change of format is the identity). -/
private theorem pay3_apply (v27 : Vec Ideal S1x1x4096 .f32) (v30 : Vec Ideal S4096x64 .f32) (e : Fin 4096) (q : Fin 64) :
    k1_pay3 (F := Ideal) v27 v30 (ix3 (0 : Fin 1) e q) = v30 (ix2 e q) * v27 (ix3 (0 : Fin 1) (0 : Fin 1) e) := by
  unfold k1_pay3
  refine (shapeCast_ab_1ab_apply _ _ (0 : Fin 1) e q).trans ?_
  refine (truncf_apply (ψ := .bf16) _ bitsLt_bf16_f32 _).trans ?_
  refine (mulf_apply _ _ _).trans ?_
  refine congrArg (v30 (ix2 e q) * ·) ?_
  refine (broadcastTo_apply _ _ (ix2 e q) (ix2 e (0 : Fin 1)) (fun a => by
    match a with
    | ⟨0, _⟩ => rfl
    | ⟨1, _⟩ => rfl)).trans ?_
  refine (shapeCast_apply _ _ (ix2 e (0 : Fin 1)) (ix1 e) (by
    rw [Shape.rowMajor_val_one, Shape.rowMajor_val_two]; show e.val = e.val * 1 + 0; omega)).trans ?_
  exact shapeCast_apply _ _ (ix1 e) (ix3 (0 : Fin 1) (0 : Fin 1) e) (by
    rw [Shape.rowMajor_val_three, Shape.rowMajor_val_one]; show (0 * 1 + 0) * 4096 + e.val = e.val; omega)

/-- The mask's entry at (edge, lane): one iff the edge's source word is the tile's first index plus the lane. -/
private theorem mask_apply (v4 : Vec Ideal S1x1x4096 .i32) (st : Nat) (e : Fin 4096) (l : Fin 1024) :
    (truncf .bf16 (sitofp .f32 (extui 32 (cmpi .eq
        (broadcastTo S4096x1024 (shapeCast S4096x1 (subi (shapeCast S4096 v4 shapeCasts_S1x1x4096_S4096)
          (broadcast S4096 (Scalar.muli (BitVec.ofNat 32 st) 1024#32))) shapeCasts_S4096_S4096x1) broadcasts_S4096x1_S4096x1024)
        (iota .tc S4096x1024 32 [1] iota_S4096x1024_d1_w32)) natLt_1_32)) bitsLt_bf16_f32 : FVec Ideal S4096x1024 .bf16) (ix2 e l)
      = if v4 (ix3 (0 : Fin 1) (0 : Fin 1) e) = BitVec.ofNat 32 (st * 1024 + l.val) then 1 else 0 := by
  refine (truncf_apply (ψ := .bf16) _ bitsLt_bf16_f32 _).trans ?_
  refine (sitofp_apply _ _).trans ?_
  refine (mask_val _).trans ?_
  refine if_congr ?_ rfl rfl
  rw [beq_iff_eq]
  have hA : (broadcastTo S4096x1024 (shapeCast S4096x1 (subi (shapeCast S4096 v4 shapeCasts_S1x1x4096_S4096)
          (broadcast S4096 (Scalar.muli (BitVec.ofNat 32 st) 1024#32))) shapeCasts_S4096_S4096x1) broadcasts_S4096x1_S4096x1024) (ix2 e l)
        = v4 (ix3 (0 : Fin 1) (0 : Fin 1) e) - BitVec.ofNat 32 st * 1024#32 := by
    refine (broadcastTo_apply _ _ (ix2 e l) (ix2 e (0 : Fin 1)) (fun a => by
      match a with
      | ⟨0, _⟩ => rfl
      | ⟨1, _⟩ => rfl)).trans ?_
    refine (shapeCast_apply _ _ (ix2 e (0 : Fin 1)) (ix1 e) (by
      rw [Shape.rowMajor_val_one, Shape.rowMajor_val_two]; show e.val = e.val * 1 + 0; omega)).trans ?_
    show (shapeCast S4096 v4 shapeCasts_S1x1x4096_S4096) (ix1 e) - BitVec.ofNat 32 st * 1024#32 = _
    refine congrArg (· - BitVec.ofNat 32 st * 1024#32) ?_
    exact shapeCast_apply _ _ (ix1 e) (ix3 (0 : Fin 1) (0 : Fin 1) e) (by
      rw [Shape.rowMajor_val_three, Shape.rowMajor_val_one]; show (0 * 1 + 0) * 4096 + e.val = e.val; omega)
  have hB : (iota .tc S4096x1024 32 [1] iota_S4096x1024_d1_w32) (ix2 e l) = BitVec.ofNat 32 l.val :=
    iota_single_apply .tc S4096x1024 32 1 iota_S4096x1024_d1_w32 (ix2 e l)
  rw [hA, hB]
  exact word_sub_eq_iff _ st l.val

/-- The accumulator after a point, at an entry: what it held, plus the row of the point's node tile the edge's source
    word selects (nothing if it names no node of the tile). -/
private theorem pay2_apply (i : grid1.Coords) (v4 : Vec Ideal S1x1x4096 .i32) (v15 : Vec Ideal S1024x64 .f32) (v19 : Vec Ideal S4096x64 .f32) (e : Fin 4096) (q : Fin 64) :
    k1_pay2 (F := Ideal) i v4 v15 v19 (ix2 e q) = v19 (ix2 e q) + ∑ l : Fin 1024, (if v4 (ix3 (0 : Fin 1) (0 : Fin 1) e) = BitVec.ofNat 32 ((i 1).val * 1024 + l.val) then v15 (ix2 l q) else 0) := by
  unfold k1_pay2
  refine (congrFun (shapeCast_self _ _) _).trans ?_
  refine (addf_apply _ _ _).trans ?_
  refine congrArg (v19 (ix2 e q) + ·) ?_
  refine (matmul_D1_apply _ _ e q).trans ?_
  refine Finset.sum_congr rfl fun l _ => ?_
  have hB : (truncf .bf16 (shapeCast S1024x64 v15 shapeCasts_S1024x64_S1024x64) bitsLt_bf16_f32 : FVec Ideal S1024x64 .bf16) (ix2 l q) = v15 (ix2 l q) :=
    (truncf_apply (ψ := .bf16) _ bitsLt_bf16_f32 _).trans (congrFun (shapeCast_self _ _) _)
  rw [hB, mask_apply v4 (i 1).val e l]
  split
  · exact one_mul _
  · exact zero_mul _

/-- The accumulator's reset value is zero. -/
private theorem pay1_apply (j : S4096x64.Idx) : k1_pay1 (F := Ideal) j = 0 := by
  unfold k1_pay1
  refine (congrFun (shapeCast_self _ _) _).trans ?_
  exact Ideal.ofBits_zero_f32

variable (V : Entry Ideal)

/-! ## The blocks a point reads, off the region-entry arrays -/

/-- The printed index maps over the grid: point `t` is edge block `t / 49` at node tile `t % 49`. -/
private theorem idx_facts : ∀ t : Fin cfg1.N,
    win1_0.index t (0 : Fin 3) = t.val / 49 ∧ win1_0.index t (1 : Fin 3) = 0 ∧ win1_0.index t (2 : Fin 3) = 0
    ∧ win1_1.index t (0 : Fin 3) = t.val / 49 ∧ win1_1.index t (1 : Fin 3) = 0 ∧ win1_1.index t (2 : Fin 3) = 0
    ∧ win1_2.index t (0 : Fin 2) = t.val % 49 ∧ win1_2.index t (1 : Fin 2) = 0
    ∧ win1_3.index t (0 : Fin 3) = t.val / 49 ∧ win1_3.index t (1 : Fin 3) = 0 ∧ win1_3.index t (2 : Fin 3) = 0
    ∧ (grid1.coords t 1).val = t.val % 49 :=
  (by decide +kernel : ∀ t : Fin grid1.N, _)

private theorem lt_N (t : Fin cfg1.N) : t.val < 10192 := lt_of_lt_of_eq t.isLt N_1

/-- A row of the node array by its number, zero past the 50176 padded nodes. -/
private def ynat (y : S50176x64.Idx → EReal) (q : Fin 64) (s : Nat) : EReal :=
  if h : s < 50176 then y (ix2 (⟨s, h⟩ : Fin 50176) q) else 0

/-- What node tile `a` adds at an entry: the row of the tile the source word selects, if any. -/
private def tileSum (row : BitVec 32) (y : S50176x64.Idx → EReal) (q : Fin 64) (a : Nat) : EReal :=
  ∑ l : Fin 1024, (if row = BitVec.ofNat 32 (a * 1024 + l.val) then ynat y q (a * 1024 + l.val) else 0)

/-- The index block of point `t` is block `t / 49` of the source words. -/
private theorem rowblk_apply (c : Dev nD) (t : Fin cfg1.N) (eb : Fin 208) (heb : t.val / 49 = eb.val) (e : Fin 4096) :
    (iblk1 V c 0 t : S1x1x4096.Idx → BitVec 32) (ix3 (0 : Fin 1) (0 : Fin 1) e)
      = (V c main_v28 : S208x1x4096.Idx → BitVec 32) (ix3 eb (0 : Fin 1) e) := by
  obtain ⟨h0, h1, h2, -⟩ := idx_facts t
  show (V c main_v28 : S208x1x4096.Idx → BitVec 32) (((cfg1.win 0).blk t).view.emb (ix3 (0 : Fin 1) (0 : Fin 1) e)) = _
  refine congrArg _ (funext fun a => Fin.ext ?_)
  match a with
  | ⟨0, _⟩ => show win1_0.index t (0 : Fin 3) * 1 + 1 * 0 = eb.val; omega
  | ⟨1, _⟩ => show win1_0.index t (1 : Fin 3) * 1 + 1 * 0 = 0; omega
  | ⟨2, _⟩ => show win1_0.index t (2 : Fin 3) * 4096 + 1 * e.val = e.val; omega

/-- The weight block of point `t` is block `t / 49` of the edge weights. -/
private theorem wblk_apply (c : Dev nD) (t : Fin cfg1.N) (eb : Fin 208) (heb : t.val / 49 = eb.val) (e : Fin 4096) :
    (iblk1 V c 1 t : S1x1x4096.Idx → EReal) (ix3 (0 : Fin 1) (0 : Fin 1) e)
      = (V c main_v30 : S208x1x4096.Idx → EReal) (ix3 eb (0 : Fin 1) e) := by
  obtain ⟨-, -, -, h0, h1, h2, -⟩ := idx_facts t
  show (V c main_v30 : S208x1x4096.Idx → EReal) (((cfg1.win 1).blk t).view.emb (ix3 (0 : Fin 1) (0 : Fin 1) e)) = _
  refine congrArg _ (funext fun a => Fin.ext ?_)
  match a with
  | ⟨0, _⟩ => show win1_1.index t (0 : Fin 3) * 1 + 1 * 0 = eb.val; omega
  | ⟨1, _⟩ => show win1_1.index t (1 : Fin 3) * 1 + 1 * 0 = 0; omega
  | ⟨2, _⟩ => show win1_1.index t (2 : Fin 3) * 4096 + 1 * e.val = e.val; omega

/-- The node tile of point `t` is rows `(t % 49) · 1024 …` of the node array. -/
private theorem yblk_apply (c : Dev nD) (t : Fin cfg1.N) (l : Fin 1024) (q : Fin 64) :
    (iblk1 V c 2 t : S1024x64.Idx → EReal) (ix2 l q)
      = ynat (V c main_v35 : S50176x64.Idx → EReal) q (t.val % 49 * 1024 + l.val) := by
  obtain ⟨-, -, -, -, -, -, h0, h1, -⟩ := idx_facts t
  have hl := l.isLt
  have hm : t.val % 49 < 49 := Nat.mod_lt _ (by decide)
  unfold ynat
  rw [dif_pos (by omega)]
  show (V c main_v35 : S50176x64.Idx → EReal) (((cfg1.win 2).blk t).view.emb (ix2 l q)) = _
  refine congrArg _ (funext fun a => Fin.ext ?_)
  match a with
  | ⟨0, _⟩ => show win1_2.index t (0 : Fin 2) * 1024 + 1 * l.val = t.val % 49 * 1024 + l.val; omega
  | ⟨1, _⟩ => show win1_2.index t (1 : Fin 2) * 64 + 1 * q.val = q.val; omega

/-- One point's update of the accumulator at an entry, off the arrays. -/
private theorem step_apply (c : Dev nD) (t : Fin cfg1.N) (eb : Fin 208) (heb : t.val / 49 = eb.val) (st : Nat) (hst : t.val % 49 = st)
    (prev : Vec Ideal S4096x64 .f32) (e : Fin 4096) (q : Fin 64) :
    k1_pay2 (F := Ideal) (grid1.coords t) (iblk1 V c 0 t) (iblk1 V c 2 t) prev (ix2 e q)
      = prev (ix2 e q) + tileSum ((V c main_v28 : S208x1x4096.Idx → BitVec 32) (ix3 eb (0 : Fin 1) e)) (V c main_v35) q st := by
  subst hst
  refine (pay2_apply (grid1.coords t) (iblk1 V c 0 t) (iblk1 V c 2 t) prev e q).trans ?_
  refine congrArg (prev (ix2 e q) + ·) ?_
  unfold tileSum
  refine Finset.sum_congr rfl fun l _ => ?_
  have h1 := rowblk_apply V c t eb heb e
  have h2 := yblk_apply V c t l q
  have h3 : (grid1.coords t 1).val = t.val % 49 := (idx_facts t).2.2.2.2.2.2.2.2.2.2.2
  rw [h1, h2, h3]

/-! ## The accumulator, by induction along an edge block's 49 points -/

private theorem acc1_reset (c : Dev nD) : ∀ (n : Nat) (h : n < cfg1.N), n % 49 = 0 →
    acc1 V c n h = k1_pay2 (grid1.coords ⟨n, h⟩) (iblk1 V c 0 ⟨n, h⟩) (iblk1 V c 2 ⟨n, h⟩) (k1_pay1 (F := Ideal))
  | 0, h, _ => rfl
  | n + 1, h, h0 => by
    show k1_pay2 _ _ _ (if (n + 1) % 49 = 0 then k1_pay1 else acc1 V c n _) = _
    rw [if_pos h0]

private theorem acc1_step (c : Dev nD) (n : Nat) (h : n + 1 < cfg1.N) (h0 : ¬(n + 1) % 49 = 0) :
    acc1 V c (n + 1) h = k1_pay2 (grid1.coords ⟨n + 1, h⟩) (iblk1 V c 0 ⟨n + 1, h⟩) (iblk1 V c 2 ⟨n + 1, h⟩) (acc1 V c n (Nat.lt_of_succ_lt h)) := by
  show k1_pay2 _ _ _ (if (n + 1) % 49 = 0 then k1_pay1 else acc1 V c n _) = _
  rw [if_neg h0]

/-- After tile `st` of edge block `eb` the accumulator holds, at an entry, the sum of what tiles `0 … st` added. -/
private theorem acc1_apply (c : Dev nD) (eb : Fin 208) (e : Fin 4096) (q : Fin 64) :
    ∀ (st : Nat) (hst : st < 49) (h : 49 * eb.val + st < cfg1.N),
      acc1 V c (49 * eb.val + st) h (ix2 e q)
        = ∑ a ∈ Finset.range (st + 1), tileSum ((V c main_v28 : S208x1x4096.Idx → BitVec 32) (ix3 eb (0 : Fin 1) e)) (V c main_v35) q a
  | 0, _, h => by
    have hb := eb.isLt
    refine (congrFun (acc1_reset V c (49 * eb.val + 0) h (by omega)) (ix2 e q)).trans ?_
    refine (step_apply V c ⟨49 * eb.val + 0, h⟩ eb (by show (49 * eb.val + 0) / 49 = eb.val; omega) 0
      (by show (49 * eb.val + 0) % 49 = 0; omega) (k1_pay1 (F := Ideal)) e q).trans ?_
    rw [pay1_apply, zero_add, Finset.sum_range_one]
  | st + 1, hst, h => by
    have hb := eb.isLt
    have hne : ¬(49 * eb.val + st + 1) % 49 = 0 := by omega
    refine (congrFun (acc1_step V c (49 * eb.val + st) h hne) (ix2 e q)).trans ?_
    refine (step_apply V c ⟨49 * eb.val + st + 1, h⟩ eb (by show (49 * eb.val + st + 1) / 49 = eb.val; omega) (st + 1)
      (by show (49 * eb.val + st + 1) % 49 = st + 1; omega) _ e q).trans ?_
    rw [acc1_apply c eb e q st (by omega) (Nat.lt_of_succ_lt h), Finset.sum_range_succ _ (st + 1)]

/-- The 49 tiles' contributions are the sum over all 50176 padded nodes. -/
private theorem tiles_sum (row : BitVec 32) (y : S50176x64.Idx → EReal) (q : Fin 64) :
    ∑ a ∈ Finset.range 49, tileSum row y q a
      = ∑ s : Fin 50176, if row = BitVec.ofNat 32 s.val then y (ix2 s q) else 0 := by
  rw [Finset.sum_range, ← sum_tiles_49]
  refine Finset.sum_congr rfl fun a _ => ?_
  unfold tileSum
  refine Finset.sum_congr rfl fun l _ => ?_
  unfold ynat
  rw [dif_pos (by have := a.isLt; have := l.isLt; omega)]

/-! ## From the blocks to the array -/

/-- The three arrays the region reads, at their literal types. -/
private abbrev rowA (c : Dev nD) : S208x1x4096.Idx → BitVec 32 := V c main_v28
private abbrev wA (c : Dev nD) : S208x1x4096.Idx → EReal := V c main_v30
private abbrev yA (c : Dev nD) : S50176x64.Idx → EReal := V c main_v35

/-- What the region leaves in its output array, entry by entry. -/
private def msgArr (c : Dev nD) : S208x4096x64.Idx → EReal := fun i =>
  msgS (fun eb e => (V c main_v28 : S208x1x4096.Idx → BitVec 32) (ix3 eb 0 e))
    (fun eb e => (V c main_v30 : S208x1x4096.Idx → EReal) (ix3 eb 0 e))
    (fun s q => (V c main_v35 : S50176x64.Idx → EReal) (ix2 s q))
    ⟨(i 0).val, (i 0).isLt⟩ ⟨(i 1).val, (i 1).isLt⟩ ⟨(i 2).val, (i 2).isLt⟩

/-- What the last tile's point of an edge block writes back is that block of the array above. -/
private theorem flushed_eq (c : Dev nD) (t : Fin cfg1.N) (hf : (cfg1.win 3).flush t = true) :
    (dat1 V c).flushed 3 t = ((cfg1.win 3).blk t).view.read (Elt Ideal) (msgArr V c) := by
  have ht := lt_N t
  have h48 : t.val % 49 = 48 := (flush1_3 t).mp hf
  obtain ⟨-, -, -, -, -, -, -, -, h30, h31, h32, -⟩ := idx_facts t
  funext j
  obtain ⟨u, e, q, rfl⟩ : ∃ (u : Fin 1) (e : Fin 4096) (q : Fin 64), j = ix3 u e q := ⟨j 0, j 1, j 2, eq_ix3 j⟩
  obtain rfl : u = 0 := Subsingleton.elim _ _
  show k1_pay3 (iblk1 V c 1 t) (acc1 V c t.val t.isLt) (ix3 (0 : Fin 1) e q) = msgArr V c (((cfg1.win 3).blk t).view.emb (ix3 (0 : Fin 1) e q))
  have hq : t.val / 49 < 208 := by omega
  have hemb : ((cfg1.win 3).blk t).view.emb (ix3 (0 : Fin 1) e q) = (ix3 (⟨t.val / 49, hq⟩ : Fin 208) e q : S208x4096x64.Idx) := by
    funext a; apply Fin.ext
    match a with
    | ⟨0, _⟩ => show win1_3.index t (0 : Fin 3) * 1 + 1 * 0 = t.val / 49; omega
    | ⟨1, _⟩ => show win1_3.index t (1 : Fin 3) * 4096 + 1 * e.val = e.val; omega
    | ⟨2, _⟩ => show win1_3.index t (2 : Fin 3) * 64 + 1 * q.val = q.val; omega
  rw [hemb]
  refine (pay3_apply (iblk1 V c 1 t) (acc1 V c t.val t.isLt) e q).trans ?_
  rw [wblk_apply V c t ⟨t.val / 49, hq⟩ rfl e]
  show _ = (∑ s : Fin 50176, if rowA V c (ix3 (⟨t.val / 49, hq⟩ : Fin 208) (0 : Fin 1) e) = BitVec.ofNat 32 s.val
      then yA V c (ix2 s q) else 0) * wA V c (ix3 (⟨t.val / 49, hq⟩ : Fin 208) (0 : Fin 1) e)
  refine congrArg (· * wA V c (ix3 (⟨t.val / 49, hq⟩ : Fin 208) (0 : Fin 1) e)) ?_
  have hsame : ∀ (u : Nat) (hu : u < cfg1.N), u = t.val → acc1 V c u hu = acc1 V c t.val t.isLt := fun u hu e => by subst e; rfl
  have hlt : 49 * (t.val / 49) + 48 < cfg1.N := lt_of_lt_of_eq (by omega : 49 * (t.val / 49) + 48 < 10192) N_1.symm
  rw [← hsame (49 * (t.val / 49) + 48) hlt (by omega)]
  rw [acc1_apply V c ⟨t.val / 49, hq⟩ e q 48 (by decide) hlt]
  exact tiles_sum _ _ q

/-- REGION 1's OUTPUT ARRAY, after the region, at an entry: the row of `y` the edge's source word selects, times the
    edge's weight. -/
theorem msg_final (c : Dev nD) (eb : Fin 208) (e : Fin 4096) (q : Fin 64) :
    ((dat1 V c).arrAt 3 cfg1.N : S208x4096x64.Idx → EReal) (ix3 eb e q)
      = msgS (fun eb e => (V c main_v28 : S208x1x4096.Idx → BitVec 32) (ix3 eb 0 e))
          (fun eb e => (V c main_v30 : S208x1x4096.Idx → EReal) (ix3 eb 0 e))
          (fun s q => (V c main_v35 : S50176x64.Idx → EReal) (ix2 s q)) eb e q := by
  have hb := eb.isLt
  have hlt : 49 * eb.val + 48 < cfg1.N := lt_of_lt_of_eq (by omega : 49 * eb.val + 48 < 10192) N_1.symm
  have hf : (cfg1.win 3).flush ⟨49 * eb.val + 48, hlt⟩ = true :=
    (flush1_3 ⟨49 * eb.val + 48, hlt⟩).mpr (by show (49 * eb.val + 48) % 49 = 48; omega)
  obtain ⟨-, -, -, -, -, -, -, -, h30, h31, h32, -⟩ := idx_facts ⟨49 * eb.val + 48, hlt⟩
  have h30' : win1_3.index ⟨49 * eb.val + 48, hlt⟩ (0 : Fin 3) = (49 * eb.val + 48) / 49 := h30
  have hemb : (ix3 eb e q : S208x4096x64.Idx) = ((cfg1.win 3).blk ⟨49 * eb.val + 48, hlt⟩).view.emb (ix3 (0 : Fin 1) e q) := by
    funext a; apply Fin.ext
    match a with
    | ⟨0, _⟩ => show eb.val = win1_3.index ⟨49 * eb.val + 48, hlt⟩ (0 : Fin 3) * 1 + 1 * 0; omega
    | ⟨1, _⟩ => show e.val = win1_3.index ⟨49 * eb.val + 48, hlt⟩ (1 : Fin 3) * 4096 + 1 * e.val; omega
    | ⟨2, _⟩ => show q.val = win1_3.index ⟨49 * eb.val + 48, hlt⟩ (2 : Fin 3) * 64 + 1 * q.val; omega
  have hi : (ix3 eb e q : S208x4096x64.Idx) ∈ ((cfg1.win 3).blk ⟨49 * eb.val + 48, hlt⟩).view.set := by
    rw [hemb]; exact View.emb_mem_set _ _
  exact (dat1 V c).arrAt_apply_of_mem 3 (msgArr V c) (fun t hf => flushed_eq V c t hf) cfg1.N ⟨49 * eb.val + 48, hlt⟩ (ix3 eb e q) hlt hf hi

end Cert.KernelIdeal.Hand

end
-- ==== Proof.KI.V2.lean ====
/-
  The value of region 2 (the scatter as a mask product accumulated over 208 edge blocks): what its output array holds
  after the region, entry by entry, at the ideal instance.
-/
import proofs.«402996_j73263552135827_2_alg».proof.Proof.KI.Defs
import proofs.«402996_j73263552135827_2_alg».proof.Proof.Spec
import proofs.«402996_j73263552135827_2_alg».proof.Proof.SpecTiles
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Proof.Spec

variable (V : Entry Ideal)

/-! ## The body's arithmetic at an entry -/

/-- A mask entry as an extended real: the comparison bit, widened and read as a signed integer, is 1 where the two words agree and 0 elsewhere. -/
private theorem maskVal (a b : BitVec 32) :
    (FloatOps.sitofp (F := Ideal) .f32 ((IntOp.cmpi .eq a b).setWidth 32) : EReal) = if a = b then 1 else 0 := by
  unfold IntOp.cmpi
  by_cases h : a = b
  · subst h
    rw [if_pos rfl]
    show (((((BitVec.ofBool (a == a)).setWidth 32).toInt : ℝ)) : EReal) = 1
    rw [beq_self_eq_true]
    have e : ((BitVec.ofBool true).setWidth 32).toInt = 1 := by decide
    rw [e]; norm_num
  · rw [if_neg h]
    show (((((BitVec.ofBool (a == b)).setWidth 32).toInt : ℝ)) : EReal) = 0
    rw [beq_eq_false_iff_ne.mpr h]
    have e : ((BitVec.ofBool false).setWidth 32).toInt = 0 := by decide
    rw [e]; norm_num

/-- The word arithmetic of the shifted comparison: subtracting the tile's first node from a destination word leaves lane `l` exactly when the word names node `dt * 1024 + l`. -/
private theorem lane_iff (w : BitVec 32) (dt l : ℕ) :
    BitVec.ofNat 32 l = w - BitVec.ofNat 32 dt * 1024#32 ↔ w = BitVec.ofNat 32 (dt * 1024 + l) := by
  rw [BitVec.ofNat_add, BitVec.ofNat_mul]
  constructor
  · intro h; rw [h, BitVec.add_comm, BitVec.sub_add_cancel]
  · intro h; rw [h, BitVec.add_comm, BitVec.add_sub_cancel]

private abbrev D2 := dot_S1024x4096_S4096x64_S1024x64_1_0_0_1_n_n

private theorem lhs_D2_0 (i : S1024x64.Idx) (k : dot_S1024x4096_S4096x64_S1024x64_1_0_0_1_n_n.contr.Idx) :
    (dot_S1024x4096_S4096x64_S1024x64_1_0_0_1_n_n.lhsIdx i k 0).val = (i 0).val := by
  unfold DotDims.lhsIdx
  rw [dif_neg (show ¬(0 : Fin S1024x4096.rank) ∈ dot_S1024x4096_S4096x64_S1024x64_1_0_0_1_n_n.lhsBatch by decide), dif_pos (show (0 : Fin S1024x4096.rank) ∈ dot_S1024x4096_S4096x64_S1024x64_1_0_0_1_n_n.lhsNonContracting by decide)]
  rfl
private theorem lhs_D2_1 (i : S1024x64.Idx) (k : dot_S1024x4096_S4096x64_S1024x64_1_0_0_1_n_n.contr.Idx) :
    (dot_S1024x4096_S4096x64_S1024x64_1_0_0_1_n_n.lhsIdx i k 1).val = (k ⟨0, by decide⟩).val :=
  dot_S1024x4096_S4096x64_S1024x64_1_0_0_1_n_n.lhsIdx_val_of_single rfl i k
private theorem rhs_D2_0 (i : S1024x64.Idx) (k : dot_S1024x4096_S4096x64_S1024x64_1_0_0_1_n_n.contr.Idx) :
    (dot_S1024x4096_S4096x64_S1024x64_1_0_0_1_n_n.rhsIdx i k 0).val = (k ⟨0, by decide⟩).val :=
  dot_S1024x4096_S4096x64_S1024x64_1_0_0_1_n_n.rhsIdx_val_of_single rfl i k
private theorem rhs_D2_1 (i : S1024x64.Idx) (k : dot_S1024x4096_S4096x64_S1024x64_1_0_0_1_n_n.contr.Idx) :
    (dot_S1024x4096_S4096x64_S1024x64_1_0_0_1_n_n.rhsIdx i k 1).val = (i 1).val := by
  unfold DotDims.rhsIdx
  rw [dif_neg (show ¬(1 : Fin S4096x64.rank) ∈ dot_S1024x4096_S4096x64_S1024x64_1_0_0_1_n_n.rhsBatch by decide), dif_pos (show (1 : Fin S4096x64.rank) ∈ dot_S1024x4096_S4096x64_S1024x64_1_0_0_1_n_n.rhsNonContracting by decide)]
  rfl

/-- The reset value is zero everywhere. -/
private theorem pay1_apply (l : Fin 1024) (q : Fin 64) : (k2_pay1 (F := Ideal)) (ix2 l q) = 0 := by
  unfold k2_pay1
  rw [shapeCast_self]
  show Ideal.ofBits .f32 0x00000000#32 = 0
  exact Ideal.ofBits_zero_f32

/-- A `[1, 1, a]` array cast to `[a]` reads, at `e`, the operand at `(0, 0, e)`. -/
private theorem cast_11a_a {α : Type} {a : ℕ} (x : (⟨3, ![1, 1, a]⟩ : Shape).Idx → α)
    (h : (⟨3, ![1, 1, a]⟩ : Shape).ShapeCasts ⟨1, ![a]⟩) (e : Fin a) :
    shapeCast ⟨1, ![a]⟩ x h (ix1 e) = x (ix3 (0 : Fin 1) (0 : Fin 1) e) :=
  shapeCast_apply x h _ _ (by
    rw [Shape.rowMajor_val_three, Shape.rowMajor_val_one]
    show (0 * 1 + 0) * a + e.val = e.val
    omega)

private theorem cmpi_apply {s : Shape} {w : ℕ} (p : CmpIPredicate) (x y : IVec s w) (i : s.Idx) :
    cmpi p x y i = IntOp.cmpi p (x i) (y i) := rfl
private theorem subi_apply {s : Shape} {w : ℕ} (x y : IVec s w) (i : s.Idx) : subi x y i = x i - y i := rfl

/-- The accumulator's update at an entry: what was there plus, over the block's 4096 edges, the mask entry (1 where the
    destination word less the tile's first node is the lane, else 0) times the edge's message. -/
private theorem pay2_apply (i : grid2.Coords) (col : Vec Ideal S1x1x4096 .i32) (msg : Vec Ideal S1x4096x64 .bf16)
    (acc : Vec Ideal S1024x64 .f32) (l : Fin 1024) (q : Fin 64) :
    k2_pay2 i col msg acc (ix2 l q)
      = acc (ix2 l q) + ∑ e : Fin 4096,
          (if BitVec.ofNat 32 l.val = col (ix3 (0 : Fin 1) (0 : Fin 1) e) - BitVec.ofNat 32 (i 0).val * 1024#32 then (1 : EReal) else 0)
            * msg (ix3 (0 : Fin 1) e q) := by
  unfold k2_pay2
  rw [shapeCast_self, addf_apply]
  simp only [matmul]
  rw [Ideal.matmul_constant_zero_apply,
    ← Equiv.sum_comp (contrEquiv1 dot_S1024x4096_S4096x64_S1024x64_1_0_0_1_n_n 4096 rfl rfl).symm]
  refine congrArg (acc (ix2 l q) + ·) (Finset.sum_congr rfl fun e _ => ?_)
  have hk := contrEquiv1_symm_val dot_S1024x4096_S4096x64_S1024x64_1_0_0_1_n_n 4096 rfl rfl e
  have el : dot_S1024x4096_S4096x64_S1024x64_1_0_0_1_n_n.lhsIdx (ix2 l q) ((contrEquiv1 dot_S1024x4096_S4096x64_S1024x64_1_0_0_1_n_n 4096 rfl rfl).symm e) = ix2 l e := funext fun a => Fin.ext (by
    match a with
    | ⟨0, _⟩ => exact lhs_D2_0 _ _
    | ⟨1, _⟩ => exact (lhs_D2_1 _ _).trans hk)
  have er : dot_S1024x4096_S4096x64_S1024x64_1_0_0_1_n_n.rhsIdx (ix2 l q) ((contrEquiv1 dot_S1024x4096_S4096x64_S1024x64_1_0_0_1_n_n 4096 rfl rfl).symm e) = ix2 e q := funext fun a => Fin.ext (by
    match a with
    | ⟨0, _⟩ => exact (rhs_D2_0 _ _).trans hk
    | ⟨1, _⟩ => exact rhs_D2_1 _ _)
  rw [el, er, shapeCast_1ab_ab_apply, truncf_apply, sitofp_apply, extui_apply, cmpi_apply, maskVal, iota_single_apply,
    broadcastTo_1b_ab_apply, shapeCast_a_1a_apply, subi_apply, cast_11a_a, broadcast_apply]
  rfl

/-- What the last edge block stores: the accumulator plus the bias, or zero where that is negative. -/
private theorem pay3_apply (acc : Vec Ideal S1024x64 .f32) (b : Vec Ideal S64 .f32) (l : Fin 1024) (q : Fin 64) :
    k2_pay3 acc b (ix2 l q) = max (acc (ix2 l q) + b (ix1 q)) 0 := by
  unfold k2_pay3
  rw [maximumf_apply, addf_apply, broadcast_apply, broadcastTo_1b_ab_apply, shapeCast_a_1a_apply]
  show max _ (Ideal.ofBits .f32 0x00000000#32) = _
  rw [Ideal.ofBits_zero_f32]

/-! ## Where a point sits on the grid, and where its blocks sit in their arrays -/

/-- Point `t` is node tile `t / 208`, edge block `t % 208`. -/
private theorem coords_pt : ∀ t : Fin cfg2.N, (grid2.coords t 0).val = t.val / 208 ∧ (grid2.coords t 1).val = t.val % 208 :=
  (by decide +kernel : ∀ t : Fin grid2.N, (grid2.coords t 0).val = t.val / 208 ∧ (grid2.coords t 1).val = t.val % 208)

/-- The destination words' block is the point's edge block. -/
private theorem idx_col : ∀ t : Fin cfg2.N, win2_0.index t 0 = t.val % 208 ∧ win2_0.index t 1 = 0 ∧ win2_0.index t 2 = 0 :=
  (by decide +kernel : ∀ t : Fin grid2.N, win2_0.index t 0 = t.val % 208 ∧ win2_0.index t 1 = 0 ∧ win2_0.index t 2 = 0)

/-- So is the messages' block. -/
private theorem idx_msg : ∀ t : Fin cfg2.N, win2_1.index t 0 = t.val % 208 ∧ win2_1.index t 1 = 0 ∧ win2_1.index t 2 = 0 :=
  (by decide +kernel : ∀ t : Fin grid2.N, win2_1.index t 0 = t.val % 208 ∧ win2_1.index t 1 = 0 ∧ win2_1.index t 2 = 0)

/-- The bias is one block. -/
private theorem idx_bias : ∀ t : Fin cfg2.N, win2_2.index t 0 = 0 :=
  (by decide +kernel : ∀ t : Fin grid2.N, win2_2.index t 0 = 0)

/-- The output's block is the point's node tile. -/
private theorem idx_out : ∀ t : Fin cfg2.N, win2_3.index t 0 = t.val / 208 ∧ win2_3.index t 1 = 0 :=
  (by decide +kernel : ∀ t : Fin grid2.N, win2_3.index t 0 = t.val / 208 ∧ win2_3.index t 1 = 0)

/-- The destination words the body loads at a point are those of the point's edge block. -/
private theorem col_blk (c : Dev nD) (t : Fin cfg2.N) (a : Fin 208) (ha : a.val = t.val % 208) (e : Fin 4096) :
    (iblk2 V c 0 t : Vec Ideal S1x1x4096 .i32) (ix3 (0 : Fin 1) (0 : Fin 1) e)
      = (V c main_v29 : S208x1x4096.Idx → BitVec 32) (ix3 a 0 e) := by
  unfold iblk2
  rw [View.read_apply]
  show V c main_v29 _ = V c main_v29 _
  refine congrArg (V c main_v29) (funext fun d => Fin.ext ?_)
  match d with
  | ⟨0, _⟩ => show win2_0.index t 0 * 1 + 1 * 0 = a.val; rw [(idx_col t).1, ha]; omega
  | ⟨1, _⟩ => show win2_0.index t 1 * 1 + 1 * 0 = 0; rw [(idx_col t).2.1]
  | ⟨2, _⟩ => show win2_0.index t 2 * 4096 + 1 * e.val = e.val; rw [(idx_col t).2.2]; omega

/-- The messages it loads are those of the point's edge block. -/
private theorem msg_blk (c : Dev nD) (t : Fin cfg2.N) (a : Fin 208) (ha : a.val = t.val % 208) (e : Fin 4096) (q : Fin 64) :
    (iblk2 V c 1 t : Vec Ideal S1x4096x64 .bf16) (ix3 (0 : Fin 1) e q)
      = (V c main_v36 : S208x4096x64.Idx → EReal) (ix3 a e q) := by
  unfold iblk2
  rw [View.read_apply]
  show V c main_v36 _ = V c main_v36 _
  refine congrArg (V c main_v36) (funext fun d => Fin.ext ?_)
  match d with
  | ⟨0, _⟩ => show win2_1.index t 0 * 1 + 1 * 0 = a.val; rw [(idx_msg t).1, ha]; omega
  | ⟨1, _⟩ => show win2_1.index t 1 * 4096 + 1 * e.val = e.val; rw [(idx_msg t).2.1]; omega
  | ⟨2, _⟩ => show win2_1.index t 2 * 64 + 1 * q.val = q.val; rw [(idx_msg t).2.2]; omega

/-- The bias it loads is the whole bias. -/
private theorem bias_blk (c : Dev nD) (t : Fin cfg2.N) (q : Fin 64) :
    (iblk2 V c 2 t : Vec Ideal S64 .f32) (ix1 q) = (V c main_arg4 : S64.Idx → EReal) (ix1 q) := by
  unfold iblk2
  rw [View.read_apply]
  show V c main_arg4 _ = V c main_arg4 _
  refine congrArg (V c main_arg4) (funext fun d => Fin.ext ?_)
  match d with
  | ⟨0, _⟩ => show win2_2.index t 0 * 64 + 1 * q.val = q.val; rw [idx_bias t]; omega

/-- The output's blocks are whole: 1024 rows of 64. -/
private theorem xsize_out : ∀ t : Fin cfg2.N, win2_3.xsize (grid2.coords t) 0 = 1024 ∧ win2_3.xsize (grid2.coords t) 1 = 64 :=
  (by decide +kernel : ∀ t : Fin grid2.N, win2_3.xsize (grid2.coords t) 0 = 1024 ∧ win2_3.xsize (grid2.coords t) 1 = 64)

/-! ## The accumulator over the edge blocks of a node tile -/

/-- The messages of edge block `a` whose destination word names node `n`, summed (nothing past the last block). -/
private def blockSum (c : Dev nD) (n : ℕ) (q : Fin 64) (a : ℕ) : EReal :=
  if h : a < 208 then
    ∑ e : Fin 4096, if (V c main_v29 : S208x1x4096.Idx → BitVec 32) (ix3 (⟨a, h⟩ : Fin 208) 0 e) = BitVec.ofNat 32 n
      then (V c main_v36 : S208x4096x64.Idx → EReal) (ix3 (⟨a, h⟩ : Fin 208) e q) else 0
  else 0

/-- One point's update of an accumulator entry: lane `l` of node tile `t / 208` gains edge block `t % 208`'s messages
    to node `(t / 208) * 1024 + l`; a mask entry times a message is the message where the mask selects it and zero elsewhere. -/
private theorem step_pt (c : Dev nD) (t : Fin cfg2.N) (prev : Vec Ideal S1024x64 .f32) (l : Fin 1024) (q : Fin 64) :
    k2_pay2 (grid2.coords t) (iblk2 V c 0 t) (iblk2 V c 1 t) prev (ix2 l q)
      = prev (ix2 l q) + blockSum V c (t.val / 208 * 1024 + l.val) q (t.val % 208) := by
  refine (pay2_apply (grid2.coords t) (iblk2 V c 0 t) (iblk2 V c 1 t) prev l q).trans ?_
  refine congrArg (prev (ix2 l q) + ·) ?_
  have hlt : t.val % 208 < 208 := Nat.mod_lt _ (by decide)
  unfold blockSum
  rw [dif_pos hlt]
  refine Finset.sum_congr rfl fun e _ => ?_
  rw [col_blk V c t ⟨t.val % 208, hlt⟩ rfl e, msg_blk V c t ⟨t.val % 208, hlt⟩ rfl e q, (coords_pt t).1]
  by_cases h : (V c main_v29 : S208x1x4096.Idx → BitVec 32) (ix3 (⟨t.val % 208, hlt⟩ : Fin 208) 0 e)
      = BitVec.ofNat 32 (t.val / 208 * 1024 + l.val)
  · rw [if_pos ((lane_iff _ _ _).mpr h), if_pos h, one_mul]
  · rw [if_neg (fun h' => h ((lane_iff _ _ _).mp h')), if_neg h, zero_mul]

/-- After point `n` an accumulator entry holds the messages to its node from the edge blocks `0 … n % 208` of the
    point's node tile: the first block is added to zero, every later one to what the point before left. -/
private theorem acc2_eq (c : Dev nD) (l : Fin 1024) (q : Fin 64) : ∀ (n : ℕ) (h : n < cfg2.N),
    acc2 V c n h (ix2 l q) = ∑ a ∈ Finset.range (n % 208 + 1), blockSum V c (n / 208 * 1024 + l.val) q a
  | 0, h => by
    show k2_pay2 (grid2.coords ⟨0, h⟩) (iblk2 V c 0 ⟨0, h⟩) (iblk2 V c 1 ⟨0, h⟩) (k2_pay1 (F := Ideal)) (ix2 l q) = _
    rw [step_pt V c ⟨0, h⟩ (k2_pay1 (F := Ideal)) l q, pay1_apply, zero_add]
    show blockSum V c (0 / 208 * 1024 + l.val) q (0 % 208) = _
    rw [Finset.sum_range_one]
  | n + 1, h => by
    show k2_pay2 (grid2.coords ⟨n + 1, h⟩) (iblk2 V c 0 ⟨n + 1, h⟩) (iblk2 V c 1 ⟨n + 1, h⟩)
      (if (n + 1) % 208 = 0 then (k2_pay1 (F := Ideal)) else acc2 V c n (Nat.lt_of_succ_lt h)) (ix2 l q) = _
    rw [step_pt V c ⟨n + 1, h⟩ _ l q]
    show (if (n + 1) % 208 = 0 then (k2_pay1 (F := Ideal)) else acc2 V c n (Nat.lt_of_succ_lt h)) (ix2 l q)
      + blockSum V c ((n + 1) / 208 * 1024 + l.val) q ((n + 1) % 208) = _
    by_cases h0 : (n + 1) % 208 = 0
    · rw [if_pos h0, pay1_apply, zero_add, h0, Finset.sum_range_one]
    · have e1 : (n + 1) / 208 = n / 208 := by omega
      have e2 : (n + 1) % 208 = n % 208 + 1 := by omega
      rw [if_neg h0, e1, e2, Finset.sum_range_succ, acc2_eq c l q n (Nat.lt_of_succ_lt h)]

/-- The sum over the block numbers below 208 is the sum over the 208 edge blocks. -/
private theorem blockSum_total (c : Dev nD) (n : ℕ) (q : Fin 64) :
    ∑ a ∈ Finset.range 208, blockSum V c n q a
      = ∑ eb : Fin 208, ∑ e : Fin 4096,
          ((if (V c main_v29 : S208x1x4096.Idx → BitVec 32) (ix3 eb 0 e) = BitVec.ofNat 32 n
            then (V c main_v36 : S208x4096x64.Idx → EReal) (ix3 eb e q) else 0 : EReal)) := by
  rw [← Fin.sum_univ_eq_sum_range]
  refine Finset.sum_congr rfl fun eb _ => ?_
  unfold blockSum
  rw [dif_pos eb.isLt]

/-! ## The output array -/

/-- The region's output as one function of the entry arrays. -/
private def hpadG (c : Dev nD) : S50176x64.Idx → EReal := fun i =>
  hpadS (fun eb e => (V c main_v29 : S208x1x4096.Idx → BitVec 32) (ix3 eb 0 e))
    (fun eb e q => (V c main_v36 : S208x4096x64.Idx → EReal) (ix3 eb e q))
    (fun q => (V c main_arg4 : S64.Idx → EReal) (ix1 q)) (i 0) (i 1)

/-- The specification at a node given by its number and a column given twice. -/
private theorem hpadS_nat (c : Dev nD) (j : Fin 50176) (q q' : Fin 64) (n : ℕ) (hn : j.val = n) (hq : q.val = q'.val) :
    hpadS (fun eb e => (V c main_v29 : S208x1x4096.Idx → BitVec 32) (ix3 eb 0 e))
        (fun eb e q => (V c main_v36 : S208x4096x64.Idx → EReal) (ix3 eb e q))
        (fun q => (V c main_arg4 : S64.Idx → EReal) (ix1 q)) j q
      = max ((∑ a ∈ Finset.range 208, blockSum V c n q' a) + (V c main_arg4 : S64.Idx → EReal) (ix1 q')) 0 := by
  obtain rfl : q = q' := Fin.ext hq
  subst hn
  unfold hpadS
  rw [blockSum_total]

/-- What the last edge block of a node tile stores at lane `l`: the messages to node `(t / 208) * 1024 + l` from all 208
    edge blocks, plus the bias, through the relu. -/
private theorem out2_apply (c : Dev nD) (t : Fin cfg2.N) (h207 : t.val % 208 = 207) (l : Fin 1024) (q : Fin 64) :
    out2 V c t (ix2 l q)
      = max ((∑ a ∈ Finset.range 208, blockSum V c (t.val / 208 * 1024 + l.val) q a)
          + (V c main_arg4 : S64.Idx → EReal) (ix1 q)) 0 := by
  show k2_pay3 (acc2 V c t.val t.isLt) (iblk2 V c 2 t) (ix2 l q) = _
  refine (pay3_apply (acc2 V c t.val t.isLt) (iblk2 V c 2 t) l q).trans ?_
  rw [acc2_eq V c l q t.val t.isLt, bias_blk V c t q, h207]

private theorem out2_at (c : Dev nD) (t : Fin cfg2.N) (h207 : t.val % 208 = 207) (i : S1024x64.Idx) :
    out2 V c t i
      = max ((∑ a ∈ Finset.range 208, blockSum V c (t.val / 208 * 1024 + (i 0).val) (i 1) a)
          + (V c main_arg4 : S64.Idx → EReal) (ix1 (i 1))) 0 := by
  obtain ⟨l, q, rfl⟩ : ∃ (l : Fin 1024) (q : Fin 64), i = ix2 l q := ⟨i 0, i 1, eq_ix2 i⟩
  exact out2_apply V c t h207 l q

/-- The block a point writes back is its block of the specification: tile `t / 208`, lane by lane. -/
private theorem flushed_eq (c : Dev nD) (t : Fin cfg2.N) (hf : (cfg2.win 3).flush t = true) :
    (dat2 V c).flushed 3 t = ((cfg2.win 3).blk t).view.read (Elt Ideal) (hpadG V c) := by
  have h207 : t.val % 208 = 207 := (flush2_3 t).mp hf
  funext y
  rw [View.read_apply]
  show out2 V c t ((cfg2.win 3).xinj (grid2.coords t) y) = hpadG V c (((cfg2.win 3).blk t).view.emb y)
  rw [out2_at V c t h207]
  unfold hpadG
  refine (hpadS_nat V c _ _ _ _ ?_ ?_).symm
  · show win2_3.index t 0 * 1024 + 1 * (y 0).val = t.val / 208 * 1024 + (y 0).val
    rw [(idx_out t).1]; omega
  · show win2_3.index t 1 * 64 + 1 * (y 1).val = (y 1).val
    rw [(idx_out t).2]; omega

/-- Every entry of the output array lies in the block that the last point of its node tile writes back. -/
private theorem cover_out (c : Dev nD) (i : ((cfg2.win 3).arr.view.loc (c.tc : Thread nD τ)).2.ty.Idx) :
    ∃ t : Fin cfg2.N, (cfg2.win 3).flush t = true ∧ i ∈ ((cfg2.win 3).blk t).view.set := by
  have h0 : (i 0 : ℕ) < 50176 := (i 0).isLt
  have h1 : (i 1 : ℕ) < 64 := (i 1).isLt
  have hN : cfg2.N = 10192 := N_2
  have hlt : 208 * ((i 0 : ℕ) / 1024) + 207 < cfg2.N := by rw [hN]; omega
  obtain ⟨t, ht⟩ : ∃ t : Fin cfg2.N, t.val = 208 * ((i 0 : ℕ) / 1024) + 207 := ⟨⟨_, hlt⟩, rfl⟩
  refine ⟨t, (flush2_3 t).mpr (by omega), ?_⟩
  show i ∈ ((View.whole main_v37).slice (win2_3.rect t)).set
  rw [View.set_slice_whole, Rect.mem_set_unit]
  intro a
  match a with
  | ⟨0, _⟩ =>
    show win2_3.index t 0 * 1024 ≤ (i 0 : ℕ) ∧ (i 0 : ℕ) < win2_3.index t 0 * 1024 + win2_3.xsize (grid2.coords t) 0
    rw [(idx_out t).1, (xsize_out t).1]
    omega
  | ⟨1, _⟩ =>
    show win2_3.index t 1 * 64 ≤ (i 1 : ℕ) ∧ (i 1 : ℕ) < win2_3.index t 1 * 64 + win2_3.xsize (grid2.coords t) 1
    rw [(idx_out t).2, (xsize_out t).2]
    omega

/-- REGION 2's OUTPUT ARRAY, after the region, at an entry: the messages whose destination word is `j`, summed, plus the
    bias, through a relu. -/
theorem hpad_final (c : Dev nD) (j : Fin 50176) (q : Fin 64) :
    ((dat2 V c).arrAt 3 cfg2.N : S50176x64.Idx → EReal) (ix2 j q)
      = hpadS (fun eb e => (V c main_v29 : S208x1x4096.Idx → BitVec 32) (ix3 eb 0 e))
          (fun eb e q => (V c main_v36 : S208x4096x64.Idx → EReal) (ix3 eb e q))
          (fun q => (V c main_arg4 : S64.Idx → EReal) (ix1 q)) j q := by
  have hfin : (dat2 V c).arrAt 3 cfg2.N = hpadG V c :=
    (dat2 V c).arrAt_eq_of_cover 3 (hpadG V c) (fun t hf => flushed_eq V c t hf) (cover_out c)
  exact congrFun hfin (ix2 j q)

end Cert.KernelIdeal.Hand

end
-- ==== Proof.KI.V3.lean ====
/-
  The value of region 3 (sums and counts per graph id accumulated over 49 node tiles, the mean, the last dense layer):
  what its output array holds after the region, entry by entry, at the ideal instance.
-/
import proofs.«402996_j73263552135827_2_alg».proof.Proof.KI.Defs
import proofs.«402996_j73263552135827_2_alg».proof.Proof.Spec
import proofs.«402996_j73263552135827_2_alg».proof.Proof.SpecTiles
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Proof.Spec

variable (V : Entry Ideal)

/-- The comparison mask of a node tile at an entry: 1 where the lane's graph id word is the row's graph number, else 0. -/
private theorem mask_apply (ids : Vec Ideal S1024 .i32) (g : Fin 256) (l : Fin 1024) :
    (k3_pay3 (F := Ideal) ids) (ix2 g l) = if BitVec.ofNat 32 g.val = ids (ix1 l) then (1 : EReal) else 0 := by
  unfold k3_pay3
  -- the id lanes broadcast along the graph axis read lane l
  have hb : broadcastTo S256x1024 (shapeCast S1x1024 (shapeCast S1024 ids shapeCasts_S1024_S1024) shapeCasts_S1024_S1x1024)
      broadcasts_S1x1024_S256x1024 (ix2 g l) = ids (ix1 l) := by
    rw [shapeCast_self]
    refine (broadcastTo_apply _ _ (ix2 g l) (ix2 (0 : Fin 1) l) ?_).trans ?_
    · intro a
      match a with
      | ⟨0, _⟩ => rfl
      | ⟨1, _⟩ => rfl
    · refine shapeCast_apply _ _ _ (ix1 l) ?_
      rw [Shape.rowMajor_val_one, Shape.rowMajor_val_two]
      show l.val = 0 * 1024 + l.val
      omega
  -- the iota along the graph axis reads the row's number
  have hi : iota Kind.tc S256x1024 32 [0] iota_S256x1024_d0_w32 (ix2 g l) = BitVec.ofNat 32 g.val :=
    iota_single_apply _ _ _ _ _ _
  show FloatOps.sitofp FTy.f32 ((IntOp.cmpi CmpIPredicate.eq (iota Kind.tc S256x1024 32 [0] iota_S256x1024_d0_w32 (ix2 g l))
      (broadcastTo S256x1024 (shapeCast S1x1024 (shapeCast S1024 ids shapeCasts_S1024_S1024) shapeCasts_S1024_S1x1024)
      broadcasts_S1x1024_S256x1024 (ix2 g l))).setWidth 32) = _
  rw [hb, hi]
  by_cases h : BitVec.ofNat 32 g.val = ids (ix1 l)
  · rw [if_pos h, IntOp.cmpi_eq.mpr h]
    show (((BitVec.setWidth 32 (1#1 : BitVec 1)).toInt : ℝ) : EReal) = 1
    rw [show (BitVec.setWidth 32 (1#1 : BitVec 1)).toInt = 1 from by decide]
    simp
  · rw [if_neg h, eq_zero_of_ne_one (fun e => h (IntOp.cmpi_eq.mp e))]
    show (((BitVec.setWidth 32 (0#1 : BitVec 1)).toInt : ℝ) : EReal) = 0
    rw [show (BitVec.setWidth 32 (0#1 : BitVec 1)).toInt = 0 from by decide]
    simp

/-- The mask product's dimension numbers: which coordinates of the two operands an output entry and a contraction index name. -/
private theorem dotM_lhs_0 (i : S256x64.Idx) (q : dot_S256x1024_S1024x64_S256x64_1_0_0_1_n_n.contr.Idx) :
    (dot_S256x1024_S1024x64_S256x64_1_0_0_1_n_n.lhsIdx i q 0).val = (i 0).val := by
  unfold DotDims.lhsIdx
  rw [dif_neg (show ¬(0 : Fin S256x1024.rank) ∈ dot_S256x1024_S1024x64_S256x64_1_0_0_1_n_n.lhsBatch by decide), dif_pos (show (0 : Fin S256x1024.rank) ∈ dot_S256x1024_S1024x64_S256x64_1_0_0_1_n_n.lhsNonContracting by decide)]
  rfl
private theorem dotM_lhs_1 (i : S256x64.Idx) (q : dot_S256x1024_S1024x64_S256x64_1_0_0_1_n_n.contr.Idx) :
    (dot_S256x1024_S1024x64_S256x64_1_0_0_1_n_n.lhsIdx i q 1).val = (q ⟨0, by decide⟩).val :=
  dot_S256x1024_S1024x64_S256x64_1_0_0_1_n_n.lhsIdx_val_of_single rfl i q
private theorem dotM_rhs_0 (i : S256x64.Idx) (q : dot_S256x1024_S1024x64_S256x64_1_0_0_1_n_n.contr.Idx) :
    (dot_S256x1024_S1024x64_S256x64_1_0_0_1_n_n.rhsIdx i q 0).val = (q ⟨0, by decide⟩).val :=
  dot_S256x1024_S1024x64_S256x64_1_0_0_1_n_n.rhsIdx_val_of_single rfl i q
private theorem dotM_rhs_1 (i : S256x64.Idx) (q : dot_S256x1024_S1024x64_S256x64_1_0_0_1_n_n.contr.Idx) :
    (dot_S256x1024_S1024x64_S256x64_1_0_0_1_n_n.rhsIdx i q 1).val = (i 1).val := by
  unfold DotDims.rhsIdx
  rw [dif_neg (show ¬(1 : Fin S1024x64.rank) ∈ dot_S256x1024_S1024x64_S256x64_1_0_0_1_n_n.rhsBatch by decide), dif_pos (show (1 : Fin S1024x64.rank) ∈ dot_S256x1024_S1024x64_S256x64_1_0_0_1_n_n.rhsNonContracting by decide)]
  rfl

/-- The mask product (graphs × lanes times lanes × features) into the zero accumulator, at an entry: the sum over the contracted axis of the operands' products. -/
private theorem dotM_apply (a : FVec Ideal S256x1024 .bf16) (b : FVec Ideal S1024x64 .bf16) (r : Fin 256) (c : Fin 64) :
    matmul dot_S256x1024_S1024x64_S256x64_1_0_0_1_n_n none a b (constant S256x64 .f32 0x00000000#32) (ix2 r c) = ∑ k : Fin 1024, a (ix2 r k) * b (ix2 k c) := by
  simp only [matmul]
  rw [Ideal.matmul_constant_zero_apply, ← Equiv.sum_comp (contrEquiv1 dot_S256x1024_S1024x64_S256x64_1_0_0_1_n_n 1024 rfl rfl).symm]
  refine Finset.sum_congr rfl fun k _ => ?_
  have hk := contrEquiv1_symm_val dot_S256x1024_S1024x64_S256x64_1_0_0_1_n_n 1024 rfl rfl k
  have el : dot_S256x1024_S1024x64_S256x64_1_0_0_1_n_n.lhsIdx (ix2 r c) ((contrEquiv1 dot_S256x1024_S1024x64_S256x64_1_0_0_1_n_n 1024 rfl rfl).symm k) = ix2 r k := funext fun a => Fin.ext (by
    match a with
    | ⟨0, _⟩ => exact dotM_lhs_0 _ _
    | ⟨1, _⟩ => exact (dotM_lhs_1 _ _).trans hk)
  have er : dot_S256x1024_S1024x64_S256x64_1_0_0_1_n_n.rhsIdx (ix2 r c) ((contrEquiv1 dot_S256x1024_S1024x64_S256x64_1_0_0_1_n_n 1024 rfl rfl).symm k) = ix2 k c := funext fun a => Fin.ext (by
    match a with
    | ⟨0, _⟩ => exact (dotM_rhs_0 _ _).trans hk
    | ⟨1, _⟩ => exact dotM_rhs_1 _ _)
  rw [el, er]

/-- The last dense layer's dimension numbers: which coordinates of the two operands an output entry and a contraction index name. -/
private theorem dotW_lhs_0 (i : S256x8.Idx) (q : dot_S256x64_S64x8_S256x8_1_0_0_1_n_n.contr.Idx) :
    (dot_S256x64_S64x8_S256x8_1_0_0_1_n_n.lhsIdx i q 0).val = (i 0).val := by
  unfold DotDims.lhsIdx
  rw [dif_neg (show ¬(0 : Fin S256x64.rank) ∈ dot_S256x64_S64x8_S256x8_1_0_0_1_n_n.lhsBatch by decide), dif_pos (show (0 : Fin S256x64.rank) ∈ dot_S256x64_S64x8_S256x8_1_0_0_1_n_n.lhsNonContracting by decide)]
  rfl
private theorem dotW_lhs_1 (i : S256x8.Idx) (q : dot_S256x64_S64x8_S256x8_1_0_0_1_n_n.contr.Idx) :
    (dot_S256x64_S64x8_S256x8_1_0_0_1_n_n.lhsIdx i q 1).val = (q ⟨0, by decide⟩).val :=
  dot_S256x64_S64x8_S256x8_1_0_0_1_n_n.lhsIdx_val_of_single rfl i q
private theorem dotW_rhs_0 (i : S256x8.Idx) (q : dot_S256x64_S64x8_S256x8_1_0_0_1_n_n.contr.Idx) :
    (dot_S256x64_S64x8_S256x8_1_0_0_1_n_n.rhsIdx i q 0).val = (q ⟨0, by decide⟩).val :=
  dot_S256x64_S64x8_S256x8_1_0_0_1_n_n.rhsIdx_val_of_single rfl i q
private theorem dotW_rhs_1 (i : S256x8.Idx) (q : dot_S256x64_S64x8_S256x8_1_0_0_1_n_n.contr.Idx) :
    (dot_S256x64_S64x8_S256x8_1_0_0_1_n_n.rhsIdx i q 1).val = (i 1).val := by
  unfold DotDims.rhsIdx
  rw [dif_neg (show ¬(1 : Fin S64x8.rank) ∈ dot_S256x64_S64x8_S256x8_1_0_0_1_n_n.rhsBatch by decide), dif_pos (show (1 : Fin S64x8.rank) ∈ dot_S256x64_S64x8_S256x8_1_0_0_1_n_n.rhsNonContracting by decide)]
  rfl

/-- The last dense layer's product (graphs × features times features × outputs) into the zero accumulator, at an entry: the sum over the contracted axis of the operands' products. -/
private theorem dotW_apply (a : FVec Ideal S256x64 .bf16) (b : FVec Ideal S64x8 .bf16) (r : Fin 256) (c : Fin 8) :
    matmul dot_S256x64_S64x8_S256x8_1_0_0_1_n_n none a b (constant S256x8 .f32 0x00000000#32) (ix2 r c) = ∑ k : Fin 64, a (ix2 r k) * b (ix2 k c) := by
  simp only [matmul]
  rw [Ideal.matmul_constant_zero_apply, ← Equiv.sum_comp (contrEquiv1 dot_S256x64_S64x8_S256x8_1_0_0_1_n_n 64 rfl rfl).symm]
  refine Finset.sum_congr rfl fun k _ => ?_
  have hk := contrEquiv1_symm_val dot_S256x64_S64x8_S256x8_1_0_0_1_n_n 64 rfl rfl k
  have el : dot_S256x64_S64x8_S256x8_1_0_0_1_n_n.lhsIdx (ix2 r c) ((contrEquiv1 dot_S256x64_S64x8_S256x8_1_0_0_1_n_n 64 rfl rfl).symm k) = ix2 r k := funext fun a => Fin.ext (by
    match a with
    | ⟨0, _⟩ => exact dotW_lhs_0 _ _
    | ⟨1, _⟩ => exact (dotW_lhs_1 _ _).trans hk)
  have er : dot_S256x64_S64x8_S256x8_1_0_0_1_n_n.rhsIdx (ix2 r c) ((contrEquiv1 dot_S256x64_S64x8_S256x8_1_0_0_1_n_n 64 rfl rfl).symm k) = ix2 k c := funext fun a => Fin.ext (by
    match a with
    | ⟨0, _⟩ => exact (dotW_rhs_0 _ _).trans hk
    | ⟨1, _⟩ => exact dotW_rhs_1 _ _)
  rw [el, er]

/-- The sums' update at an entry: the accumulator plus, over the tile's lanes, the mask times the hidden row's feature. -/
private theorem pay4_apply (ids : Vec Ideal S1024 .i32) (h : Vec Ideal S1024x64 .f32) (acc : Vec Ideal S256x64 .f32)
    (g : Fin 256) (q : Fin 64) :
    (k3_pay4 (F := Ideal) ids h acc) (ix2 g q)
      = acc (ix2 g q) + ∑ l : Fin 1024, (if BitVec.ofNat 32 g.val = ids (ix1 l) then (1 : EReal) else 0) * h (ix2 l q) := by
  unfold k3_pay4
  rw [shapeCast_self, shapeCast_self, addf_apply, dotM_apply]
  refine congrArg (acc (ix2 g q) + ·) (Finset.sum_congr rfl fun l _ => ?_)
  rw [truncf_apply, truncf_apply, mask_apply]

/-- The counts' update at an entry: the accumulator plus the mask summed over the tile's lanes. -/
private theorem pay5_apply (ids : Vec Ideal S1024 .i32) (acc : Vec Ideal S256x1 .f32) (g : Fin 256) (z : Fin 1) :
    (k3_pay5 (F := Ideal) ids acc) (ix2 g z)
      = acc (ix2 g z) + ∑ l : Fin 1024, (if BitVec.ofNat 32 g.val = ids (ix1 l) then (1 : EReal) else 0) := by
  unfold k3_pay5
  rw [shapeCast_self, addf_apply]
  refine congrArg (acc (ix2 g z) + ·) ?_
  refine (shapeCast_apply _ _ (ix2 g z) (ix1 g) ?_).trans ?_
  · rw [Shape.rowMajor_val_one, Shape.rowMajor_val_two]
    show g.val = g.val * 1 + z.val
    omega
  · refine (Ideal.multiReduction_add_single (k3_pay3 (F := Ideal) ids) 0x00000000#32 reduces_S256x1024_S256 _ _ (ix1 g)).trans ?_
    refine Finset.sum_congr rfl fun l _ => ?_
    have e : reduces_S256x1024_S256.lift (ix1 g) l = ix2 g l := funext fun a => Fin.ext (by
      match a with
      | ⟨0, _⟩ => rfl
      | ⟨1, _⟩ => rfl)
    rw [e]
    exact mask_apply ids g l

/-- The f32 word of 1.0 is the extended real 1. -/
private theorem ofBits_one_f32 : Ideal.ofBits .f32 0x3F800000#32 = 1 := by
  simp [Ideal.ofBits, Ideal.ieee]
  rw [← EReal.coe_mul, show (8388608 : ℝ) * (2 ^ 23)⁻¹ = 1 from by norm_num, EReal.coe_one]

/-- The stored block at an entry: the sums over the counts (at least 1), through the last dense layer, plus its bias. -/
private theorem pay6_apply (cnt : Vec Ideal S256x1 .f32) (sums : Vec Ideal S256x64 .f32) (W : Vec Ideal S64x8 .f32)
    (b : Vec Ideal S8 .f32) (g : Fin 256) (o : Fin 8) :
    (k3_pay6 (F := Ideal) cnt sums W b) (ix2 g o)
      = (∑ q : Fin 64, Ideal.div (sums (ix2 g q)) (max (cnt (ix2 g (0 : Fin 1))) 1) * W (ix2 q o)) + b (ix1 o) := by
  unfold k3_pay6
  rw [addf_apply, dotW_apply]
  -- the bias row broadcast along the graph axis reads its lane
  have hb : broadcastTo S256x8 (shapeCast S1x8 b shapeCasts_S8_S1x8) broadcasts_S1x8_S256x8 (ix2 g o) = b (ix1 o) := by
    refine (broadcastTo_apply _ _ (ix2 g o) (ix2 (0 : Fin 1) o) ?_).trans ?_
    · intro a
      match a with
      | ⟨0, _⟩ => rfl
      | ⟨1, _⟩ => rfl
    · refine shapeCast_apply _ _ _ (ix1 o) ?_
      rw [Shape.rowMajor_val_one, Shape.rowMajor_val_two]
      show o.val = 0 * 8 + o.val
      omega
  rw [hb]
  refine congrArg (· + b (ix1 o)) (Finset.sum_congr rfl fun q _ => ?_)
  rw [truncf_apply, truncf_apply, divf_apply]
  -- the clamped count column broadcast along the feature axis reads its row
  have hc : broadcastTo S256x64 (maximumf (F := Ideal) cnt (broadcast S256x1 (FloatOps.ofBits (F := Ideal) FTy.f32 1065353216#32)))
      broadcasts_S256x1_S256x64 (ix2 g q) = max (cnt (ix2 g (0 : Fin 1))) 1 := by
    refine (broadcastTo_apply _ _ (ix2 g q) (ix2 g (0 : Fin 1)) ?_).trans ?_
    · intro a
      match a with
      | ⟨0, _⟩ => rfl
      | ⟨1, _⟩ => rfl
    · rw [maximumf_apply, broadcast_apply]
      exact congrArg (max (cnt (ix2 g (0 : Fin 1)))) ofBits_one_f32
  rw [hc]

/-- The hidden array the region reads, at node n and feature q. -/
private abbrev hid (c : Dev nD) (n : Fin 50176) (q : Fin 64) : EReal := (V c main_v37 : S50176x64.Idx → EReal) (ix2 n q)
/-- The graph id word of node n. -/
private abbrev bat (c : Dev nD) (n : Fin 50176) : BitVec 32 := (V c main_v39 : S50176.Idx → BitVec 32) (ix1 n)

/-- The grid has 49 points: a point's number is below 49. -/
private theorem lt49 (t : Fin cfg3.N) : t.val < 49 := lt_of_lt_of_eq t.isLt N_3

/-- The block indices of the two tiled windows at a point: the point's number along the node axis, 0 along the features. -/
private theorem idx_facts : ∀ t : Fin cfg3.N,
    win3_0.index t (0 : Fin 2) = t.val ∧ win3_0.index t (1 : Fin 2) = 0 ∧ win3_1.index t (0 : Fin 1) = t.val :=
  (by decide +kernel : ∀ t : Fin grid3.N, _)

/-- Node tile t of the hidden array at (l, q) is the array at node t·1024 + l. -/
private theorem blk0_apply (c : Dev nD) (t : Fin cfg3.N) (l : Fin 1024) (q : Fin 64) :
    (iblk3 V c 0 t : Vec Ideal S1024x64 .f32) (ix2 l q)
      = hid V c ⟨t.val * 1024 + l.val, by have := lt49 t; have := l.isLt; omega⟩ q := by
  unfold iblk3
  rw [View.read_apply]
  show V c main_v37 _ = V c main_v37 _
  congr 1
  funext a
  apply Fin.ext
  match a with
  | ⟨0, _⟩ =>
    show win3_0.index t 0 * 1024 + 1 * l.val = t.val * 1024 + l.val
    rw [(idx_facts t).1]; omega
  | ⟨1, _⟩ =>
    show win3_0.index t 1 * 64 + 1 * q.val = q.val
    rw [(idx_facts t).2.1]; omega

/-- Node tile t of the graph ids at lane l is the id of node t·1024 + l. -/
private theorem blk1_apply (c : Dev nD) (t : Fin cfg3.N) (l : Fin 1024) :
    (iblk3 V c 1 t : Vec Ideal S1024 .i32) (ix1 l)
      = bat V c ⟨t.val * 1024 + l.val, by have := lt49 t; have := l.isLt; omega⟩ := by
  unfold iblk3
  rw [View.read_apply]
  show V c main_v39 _ = V c main_v39 _
  congr 1
  funext a
  apply Fin.ext
  match a with
  | ⟨0, _⟩ =>
    show win3_1.index t 0 * 1024 + 1 * l.val = t.val * 1024 + l.val
    rw [(idx_facts t).2.2]; omega

/-- The two whole windows' block index is 0 on every axis at every point. -/
private theorem idx_facts_whole : ∀ t : Fin cfg3.N,
    win3_2.index t (0 : Fin 2) = 0 ∧ win3_2.index t (1 : Fin 2) = 0 ∧ win3_3.index t (0 : Fin 1) = 0 :=
  (by decide +kernel : ∀ t : Fin grid3.N, _)

/-- The last layer's weights are one block: the block is the array. -/
private theorem blk2_apply (c : Dev nD) (t : Fin cfg3.N) (q : Fin 64) (o : Fin 8) :
    (iblk3 V c 2 t : Vec Ideal S64x8 .f32) (ix2 q o) = (V c main_arg5 : S64x8.Idx → EReal) (ix2 q o) := by
  unfold iblk3
  rw [View.read_apply]
  show V c main_arg5 _ = V c main_arg5 _
  congr 1
  funext a
  apply Fin.ext
  match a with
  | ⟨0, _⟩ =>
    show win3_2.index t 0 * 64 + 1 * q.val = q.val
    rw [(idx_facts_whole t).1]; omega
  | ⟨1, _⟩ =>
    show win3_2.index t 1 * 8 + 1 * o.val = o.val
    rw [(idx_facts_whole t).2.1]; omega

/-- The last layer's bias is one block: the block is the array. -/
private theorem blk3_apply (c : Dev nD) (t : Fin cfg3.N) (o : Fin 8) :
    (iblk3 V c 3 t : Vec Ideal S8 .f32) (ix1 o) = (V c main_arg6 : S8.Idx → EReal) (ix1 o) := by
  unfold iblk3
  rw [View.read_apply]
  show V c main_arg6 _ = V c main_arg6 _
  congr 1
  funext a
  apply Fin.ext
  match a with
  | ⟨0, _⟩ =>
    show win3_3.index t 0 * 8 + 1 * o.val = o.val
    rw [(idx_facts_whole t).2.2]; omega

/-- The reset value of the sums is the zero block. -/
private theorem pay1_apply (j : S256x64.Idx) : (k3_pay1 (F := Ideal)) j = 0 := by
  unfold k3_pay1
  rw [shapeCast_self]
  exact Ideal.ofBits_zero_f32

/-- The reset value of the counts is the zero column. -/
private theorem pay2_apply (j : S256x1.Idx) : (k3_pay2 (F := Ideal)) j = 0 := by
  unfold k3_pay2
  rw [shapeCast_self]
  exact Ideal.ofBits_zero_f32

/-- Node tile a's part of graph g's sum of feature q: over the tile's 1024 nodes, the hidden entry of those whose id
    word is g (nothing past the 49 tiles). -/
private def tileS (c : Dev nD) (g : Fin 256) (q : Fin 64) (a : ℕ) : EReal :=
  if h : a < 49 then
    ∑ l : Fin 1024,
      if bat V c ⟨a * 1024 + l.val, by have := l.isLt; omega⟩ = BitVec.ofNat 32 g.val
      then hid V c ⟨a * 1024 + l.val, by have := l.isLt; omega⟩ q else 0
  else 0

/-- Node tile a's part of graph g's count: how many of the tile's 1024 nodes have id word g. -/
private def tileC (c : Dev nD) (g : Fin 256) (a : ℕ) : EReal :=
  if h : a < 49 then
    ∑ l : Fin 1024,
      if bat V c ⟨a * 1024 + l.val, by have := l.isLt; omega⟩ = BitVec.ofNat 32 g.val then (1 : EReal) else 0
  else 0

/-- At point t the mask product of the point's two blocks is tile t's part of the sum: the mask's 1 keeps a node's
    hidden entry, its 0 drops it. -/
private theorem stepS (c : Dev nD) (t : Fin cfg3.N) (g : Fin 256) (q : Fin 64) :
    (∑ l : Fin 1024, (if BitVec.ofNat 32 g.val = (iblk3 V c 1 t : Vec Ideal S1024 .i32) (ix1 l) then (1 : EReal) else 0)
        * (iblk3 V c 0 t : Vec Ideal S1024x64 .f32) (ix2 l q)) = tileS V c g q t.val := by
  unfold tileS
  rw [dif_pos (lt49 t)]
  refine Finset.sum_congr rfl fun l _ => ?_
  rw [blk1_apply V c t l, blk0_apply V c t l q]
  by_cases hA : BitVec.ofNat 32 g.val = bat V c ⟨t.val * 1024 + l.val, by have := lt49 t; have := l.isLt; omega⟩
  · rw [if_pos hA, if_pos hA.symm, one_mul]
  · rw [if_neg hA, if_neg (fun e => hA e.symm), zero_mul]

/-- At point t the mask's lane sum is tile t's part of the count. -/
private theorem stepC (c : Dev nD) (t : Fin cfg3.N) (g : Fin 256) :
    (∑ l : Fin 1024, (if BitVec.ofNat 32 g.val = (iblk3 V c 1 t : Vec Ideal S1024 .i32) (ix1 l) then (1 : EReal) else 0))
      = tileC V c g t.val := by
  unfold tileC
  rw [dif_pos (lt49 t)]
  refine Finset.sum_congr rfl fun l _ => ?_
  rw [blk1_apply V c t l]
  by_cases hA : BitVec.ofNat 32 g.val = bat V c ⟨t.val * 1024 + l.val, by have := lt49 t; have := l.isLt; omega⟩
  · rw [if_pos hA, if_pos hA.symm]
  · rw [if_neg hA, if_neg (fun e => hA e.symm)]

/-- The carried sums after point n are the parts of tiles 0 … n added up: zero plus tile 0's at the first point, the
    previous value plus tile n's after. -/
private theorem acc3s_eq (c : Dev nD) (g : Fin 256) (q : Fin 64) :
    ∀ (n : ℕ) (h : n < cfg3.N), acc3s V c n h (ix2 g q) = ∑ a ∈ Finset.range (n + 1), tileS V c g q a
  | 0, h => by
    show (k3_pay4 (iblk3 V c 1 ⟨0, h⟩) (iblk3 V c 0 ⟨0, h⟩) (k3_pay1 (F := Ideal)) : Vec Ideal S256x64 .f32) (ix2 g q) = _
    refine (pay4_apply _ _ _ g q).trans ?_
    rw [pay1_apply, zero_add, Finset.sum_range_one]
    exact stepS V c ⟨0, h⟩ g q
  | n + 1, h => by
    show (k3_pay4 (iblk3 V c 1 ⟨n + 1, h⟩) (iblk3 V c 0 ⟨n + 1, h⟩) (acc3s V c n (Nat.lt_of_succ_lt h)) : Vec Ideal S256x64 .f32) (ix2 g q) = _
    refine (pay4_apply _ _ _ g q).trans ?_
    rw [Finset.sum_range_succ _ (n + 1), acc3s_eq c g q n (Nat.lt_of_succ_lt h)]
    exact congrArg (_ + ·) (stepS V c ⟨n + 1, h⟩ g q)

/-- The carried counts after point n are the counts of tiles 0 … n added up. -/
private theorem acc3c_eq (c : Dev nD) (g : Fin 256) (z : Fin 1) :
    ∀ (n : ℕ) (h : n < cfg3.N), acc3c V c n h (ix2 g z) = ∑ a ∈ Finset.range (n + 1), tileC V c g a
  | 0, h => by
    show (k3_pay5 (iblk3 V c 1 ⟨0, h⟩) (k3_pay2 (F := Ideal)) : Vec Ideal S256x1 .f32) (ix2 g z) = _
    refine (pay5_apply _ _ g z).trans ?_
    rw [pay2_apply, zero_add, Finset.sum_range_one]
    exact stepC V c ⟨0, h⟩ g
  | n + 1, h => by
    show (k3_pay5 (iblk3 V c 1 ⟨n + 1, h⟩) (acc3c V c n (Nat.lt_of_succ_lt h)) : Vec Ideal S256x1 .f32) (ix2 g z) = _
    refine (pay5_apply _ _ g z).trans ?_
    rw [Finset.sum_range_succ _ (n + 1), acc3c_eq c g z n (Nat.lt_of_succ_lt h)]
    exact congrArg (_ + ·) (stepC V c ⟨n + 1, h⟩ g)

/-- The 49 tiles' parts are the sum over all 50176 padded nodes (node a·1024 + l is lane l of tile a). -/
private theorem tileS_total (c : Dev nD) (g : Fin 256) (q : Fin 64) :
    ∑ a ∈ Finset.range (48 + 1), tileS V c g q a
      = ∑ n : Fin 50176, if bat V c n = BitVec.ofNat 32 g.val then hid V c n q else 0 := by
  refine Eq.trans ?_ (sum_tiles_49 (fun n : Fin 50176 => if bat V c n = BitVec.ofNat 32 g.val then hid V c n q else 0))
  rw [Finset.sum_range]
  refine Finset.sum_congr rfl fun a _ => ?_
  unfold tileS
  rw [dif_pos a.isLt]

/-- Likewise the counts. -/
private theorem tileC_total (c : Dev nD) (g : Fin 256) :
    ∑ a ∈ Finset.range (48 + 1), tileC V c g a
      = ∑ n : Fin 50176, if bat V c n = BitVec.ofNat 32 g.val then (1 : EReal) else 0 := by
  refine Eq.trans ?_ (sum_tiles_49 (fun n : Fin 50176 => if bat V c n = BitVec.ofNat 32 g.val then (1 : EReal) else 0))
  rw [Finset.sum_range]
  refine Finset.sum_congr rfl fun a _ => ?_
  unfold tileC
  rw [dif_pos a.isLt]

/-- The last grid point, the only one that writes the output block back. -/
private abbrev t48 : Fin cfg3.N := ⟨48, by decide⟩

/-- The one write-back, at point 48, writes what the body stored there: the output's one block, at block index (0, 0),
    read through zero offsets is the whole array. -/
private theorem flushed_eq (c : Dev nD) (t : Fin cfg3.N) (hf : (cfg3.win 4).flush t = true) :
    (dat3 V c).flushed 4 t = ((cfg3.win 4).blk t).view.read (Elt Ideal) (out3 V c t48) := by
  have h48 : t.val = 48 := by have := (flush3_4 t).mp hf; have := lt49 t; omega
  obtain rfl : t = t48 := Fin.ext h48
  show (cfg3.win 4).cut (grid3.coords t48) (out3 V c t48) = _
  have hz' : (fun a => win3_4.index t48 a * main_v40.ty.shape.size a) = fun _ => 0 := funext fun a => by fin_cases a <;> decide
  exact (Memref.read_access_unit_zero (Elt Ideal) main_v40 hz' (fun a => by rw [congrFun hz' a]; simp) (out3 V c t48)).symm

/-- So the output array ends holding what the body stored at the last point: that point's block covers the array. -/
private theorem arr_final (c : Dev nD) : (dat3 V c).arrAt 4 cfg3.N = out3 V c t48 :=
  (dat3 V c).arrAt_eq_of_cover 4 (out3 V c t48) (flushed_eq V c) fun i =>
    ⟨t48, (flush3_4 t48).mpr rfl, by
      show i ∈ ((View.whole main_v40).slice (win3_4.rect t48)).set
      rw [View.set_slice_whole, Rect.mem_set_unit]
      intro a
      have h0 : (i 0 : Nat) < 256 := (i 0).isLt
      have h1 : (i 1 : Nat) < 8 := (i 1).isLt
      match a with
      | ⟨0, _⟩ =>
        show win3_4.index t48 0 * win3_4.size 0 ≤ (i 0 : Nat) ∧ (i 0 : Nat) < win3_4.index t48 0 * win3_4.size 0 + win3_4.xsize (grid3.coords t48) 0
        rw [show win3_4.index t48 0 * win3_4.size 0 = 0 from by decide +kernel, show win3_4.xsize (grid3.coords t48) 0 = 256 from by decide +kernel]
        omega
      | ⟨1, _⟩ =>
        show win3_4.index t48 1 * win3_4.size 1 ≤ (i 1 : Nat) ∧ (i 1 : Nat) < win3_4.index t48 1 * win3_4.size 1 + win3_4.xsize (grid3.coords t48) 1
        rw [show win3_4.index t48 1 * win3_4.size 1 = 0 from by decide +kernel, show win3_4.xsize (grid3.coords t48) 1 = 8 from by decide +kernel]
        omega⟩

/-- REGION 3's OUTPUT ARRAY, after the region, at an entry: per graph id the mean of the hidden rows with that id,
    through the last dense layer. -/
theorem out_final (c : Dev nD) (g : Fin 256) (o : Fin 8) :
    ((dat3 V c).arrAt 4 cfg3.N : S256x8.Idx → EReal) (ix2 g o)
      = outS (fun n q => (V c main_v37 : S50176x64.Idx → EReal) (ix2 n q))
          (fun n => (V c main_v39 : S50176.Idx → BitVec 32) (ix1 n))
          (fun q o => (V c main_arg5 : S64x8.Idx → EReal) (ix2 q o))
          (fun o => (V c main_arg6 : S8.Idx → EReal) (ix1 o)) g o := by
  -- the array is the block stored at the last point: the quotient of the carried sums by the carried counts, times the
  -- last weights, plus the bias
  refine (congrFun (arr_final V c) (ix2 g o)).trans ?_
  show (k3_pay6 (acc3c V c 48 t48.isLt) (acc3s V c 48 t48.isLt) (iblk3 V c 2 t48) (iblk3 V c 3 t48) : Vec Ideal S256x8 .f32) (ix2 g o) = _
  refine (pay6_apply _ _ _ _ g o).trans ?_
  unfold outS
  rw [blk3_apply V c t48 o]
  refine congrArg (· + (V c main_arg6 : S8.Idx → EReal) (ix1 o)) (Finset.sum_congr rfl fun q _ => ?_)
  -- the carried sums and counts after the last point are the sums over all padded nodes
  rw [blk2_apply V c t48 q o, acc3s_eq V c g q 48 t48.isLt, acc3c_eq V c g 0 48 t48.isLt, tileS_total V c g q, tileC_total V c g]

end Cert.KernelIdeal.Hand

end
-- ==== Proof.KernelValue.lean ====
/-
  The kernel program's result, read down to the argument arrays: the four regions' values composed through what the host
  operations hand each region. Region 3's output at `(g, o)` is the pool-and-dense formula of region 2's array, the padded
  graph ids and the last layer's parameters; region 2's array is the scatter formula of region 1's messages, the blocked
  destination words and the bias; region 1's messages are the gather formula of region 0's rows, the blocked source words
  and the per-edge weights; region 0's rows are the dense layer of the padded features scaled by the padded scale vector.
-/
import proofs.«402996_j73263552135827_2_alg».proof.Proof.KI.HostVals2
import proofs.«402996_j73263552135827_2_alg».proof.Proof.KI.V0
import proofs.«402996_j73263552135827_2_alg».proof.Proof.KI.V1
import proofs.«402996_j73263552135827_2_alg».proof.Proof.KI.V2
import proofs.«402996_j73263552135827_2_alg».proof.Proof.KI.V3

set_option maxRecDepth 16384

open scoped BigOperators

noncomputable section

namespace Cert.KernelIdeal.Hand

open Idealize.ShloMosaic Idealize.ShloMosaic.TcCoe Idealize.ShloMosaic.ValueIdx Idealize.SL.Sem
open Cert.KernelIdeal Cert.KernelIdeal.Gen Cert.Proof.Spec

variable (m : (ℓ : Loc nD τ sig) → Buf (Elt Ideal) ℓ) (ρ : Dev nD → PrngReg)

/-- Region 0's rows, where region 1 finds them: the dense layer of the padded features, scaled row by row. -/
theorem y_value (c : Dev nD) :
    (fun (s : Fin 50176) (q : Fin 64) => (V4 m ρ c main_v35 : S50176x64.Idx → EReal) (ix2 s q))
      = yS (xpOf (xIn m c)) (WIn m c) (dpOf (dinvS (colIn m c))) := by
  funext s q
  have e1 : (fun (n : Fin 50176) (k : Fin 128) => (V3 m ρ c main_v32 : S50176x128.Idx → EReal) (ix2 n k)) = xpOf (xIn m c) :=
    funext fun n => funext fun k => hv_xp m ρ c n k
  have e2 : (fun (k : Fin 128) (q : Fin 64) => (V3 m ρ c main_arg3 : S128x64.Idx → EReal) (ix2 k q)) = WIn m c :=
    funext fun k => funext fun q => hv_W m ρ c k q
  have e3 : (fun (n : Fin 50176) => (V3 m ρ c main_v34 : S50176.Idx → EReal) (ix1 n)) = dpOf (dinvS (colIn m c)) :=
    funext fun n => hv_dp m ρ c n
  rw [hv_y m ρ c, y_final (V3 m ρ) c s q, e1, e2, e3]

/-- Region 1's messages, where region 2 finds them: each edge's source row of `y`, times the edge's weight. -/
theorem msg_value (c : Dev nD) :
    (fun (eb : Fin 208) (e : Fin 4096) (q : Fin 64) => (V5 m ρ c main_v36 : S208x4096x64.Idx → EReal) (ix3 eb e q))
      = msgS (idx3Of (rowIn m c)) (w3Of (colIn m c) (dinvS (colIn m c)))
          (yS (xpOf (xIn m c)) (WIn m c) (dpOf (dinvS (colIn m c)))) := by
  funext eb e q
  have e1 : (fun (eb : Fin 208) (e : Fin 4096) => (V4 m ρ c main_v28 : S208x1x4096.Idx → BitVec 32) (ix3 eb 0 e)) = idx3Of (rowIn m c) :=
    funext fun eb => funext fun e => hv_row3 m ρ c eb e
  have e2 : (fun (eb : Fin 208) (e : Fin 4096) => (V4 m ρ c main_v30 : S208x1x4096.Idx → EReal) (ix3 eb 0 e))
      = w3Of (colIn m c) (dinvS (colIn m c)) :=
    funext fun eb => funext fun e => hv_w3 m ρ c eb e
  rw [hv_msg m ρ c, msg_final (V4 m ρ) c eb e q, e1, e2, y_value m ρ c]

/-- Region 2's hidden rows, where region 3 finds them: the messages scattered by destination, plus the bias, through a relu. -/
theorem hpad_value (c : Dev nD) :
    (fun (n : Fin 50176) (q : Fin 64) => (V7 m ρ c main_v37 : S50176x64.Idx → EReal) (ix2 n q))
      = hpadS (idx3Of (colIn m c)) (msgS (idx3Of (rowIn m c)) (w3Of (colIn m c) (dinvS (colIn m c)))
          (yS (xpOf (xIn m c)) (WIn m c) (dpOf (dinvS (colIn m c))))) (bIn m c) := by
  funext n q
  have e1 : (fun (eb : Fin 208) (e : Fin 4096) => (V5 m ρ c main_v29 : S208x1x4096.Idx → BitVec 32) (ix3 eb 0 e)) = idx3Of (colIn m c) :=
    funext fun eb => funext fun e => hv_col3 m ρ c eb e
  have e2 : (fun (q : Fin 64) => (V5 m ρ c main_arg4 : S64.Idx → EReal) (ix1 q)) = bIn m c :=
    funext fun q => hv_b m ρ c q
  rw [hv_hpad m ρ c, hpad_final (V5 m ρ) c n q, e1, e2, msg_value m ρ c]

/-- THE KERNEL PROGRAM'S RESULT at `(g, o)`: the four stages composed, over the argument arrays. -/
theorem kernel_result (c : Dev nD) (g : Fin 256) (o : Fin 8) :
    (W8 m ρ c (Proc.devRef .tc main_v40) : S256x8.Idx → EReal) (ix2 g o)
      = outS (hpadS (idx3Of (colIn m c)) (msgS (idx3Of (rowIn m c)) (w3Of (colIn m c) (dinvS (colIn m c)))
          (yS (xpOf (xIn m c)) (WIn m c) (dpOf (dinvS (colIn m c))))) (bIn m c))
          (batchpOf (batchIn m c)) (WfcIn m c) (bfcIn m c) g o := by
  have e1 : (fun (n : Fin 50176) => (V7 m ρ c main_v39 : S50176.Idx → BitVec 32) (ix1 n)) = batchpOf (batchIn m c) :=
    funext fun n => hv_batchp m ρ c n
  have e2 : (fun (q : Fin 64) (o : Fin 8) => (V7 m ρ c main_arg5 : S64x8.Idx → EReal) (ix2 q o)) = WfcIn m c :=
    funext fun q => funext fun o => hv_Wfc m ρ c q o
  have e3 : (fun (o : Fin 8) => (V7 m ρ c main_arg6 : S8.Idx → EReal) (ix1 o)) = bfcIn m c :=
    funext fun o => hv_bfc m ρ c o
  rw [hv_out m ρ c, out_final (V7 m ρ) c g o, e1, e2, e3, hpad_value m ρ c]

end Cert.KernelIdeal.Hand

end
-- ==== Proof.RefG.lean ====
/-
  The reference's result, read at an index: the stages of its run composed down to the argument arrays, in the form of
  the specification (Spec.lean's `refS` over `refH`, with the edge lists and the scale vector of SpecInputs.lean).
-/
import proofs.«402996_j73263552135827_2_alg».proof.Proof.RefRead
import proofs.«402996_j73263552135827_2_alg».proof.Proof.SpecInputs
import proofs.«402996_j73263552135827_2_alg».proof.Proof.LibGatherScatter
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value Cert.Proof.Spec

/-! ## Two literal words -/

/-- The word of the float one is one. -/
theorem ofBits_one_f32 : Ideal.ofBits .f32 0x3F800000#32 = 1 := by
  simp [Ideal.ofBits, Ideal.ieee]
  rw [← EReal.coe_mul, ← EReal.coe_one]
  congr 1
  norm_num

/-! ## The edge lists -/

/-- The sources' list at an edge: the given endpoint below 800000, the node's own number from there on. -/
theorem rows_apply (x1 : (⟨S2x800000, .i32⟩ : BufTy).Contents (Elt Ideal)) (e : Fin 850000) :
    Read.val_main_v4 (F := Ideal) x1 (ix1 e) = edgeW (fun e' => x1 (ix2 (0 : Fin 2) e')) e := by
  unfold Read.val_main_v4 edgeW
  by_cases h : e.val < 800000
  · rw [dif_pos h]
    rw [concatenate_pair_apply_left (0 : Fin S850000.rank) _ _ concatenates_S800000_S50000_S850000_d0 (ix1 e) rfl
      (ix1 (⟨e.val, h⟩ : Fin 800000)) (fun b => by match b with | ⟨0, _⟩ => rfl)]
    rw [Read.val_main_v3_apply, Read.val_main_v2_apply]
    congr 1
    funext a; refine Fin.ext ?_
    match a with
    | ⟨0, _⟩ => rfl
    | ⟨1, _⟩ => exact Nat.mod_eq_of_lt h
  · rw [dif_neg h]
    rw [concatenate_pair_apply_right (0 : Fin S850000.rank) _ _ concatenates_S800000_S50000_S850000_d0 (ix1 e) rfl rfl
      (ix1 (⟨e.val - 800000, by omega⟩ : Fin 50000)) (fun b hb => by match b with | ⟨0, _⟩ => exact absurd rfl hb)
      (by show e.val - 800000 + 800000 = e.val; omega)]
    rfl

/-- The destinations' list at an edge. -/
theorem cols_apply (x1 : (⟨S2x800000, .i32⟩ : BufTy).Contents (Elt Ideal)) (e : Fin 850000) :
    Read.val_main_v7 (F := Ideal) x1 (ix1 e) = edgeW (fun e' => x1 (ix2 (1 : Fin 2) e')) e := by
  unfold Read.val_main_v7 edgeW
  by_cases h : e.val < 800000
  · rw [dif_pos h]
    rw [concatenate_pair_apply_left (0 : Fin S850000.rank) _ _ concatenates_S800000_S50000_S850000_d0 (ix1 e) rfl
      (ix1 (⟨e.val, h⟩ : Fin 800000)) (fun b => by match b with | ⟨0, _⟩ => rfl)]
    rw [Read.val_main_v6_apply, Read.val_main_v5_apply]
    congr 1
    funext a; refine Fin.ext ?_
    match a with
    | ⟨0, _⟩ => rfl
    | ⟨1, _⟩ => exact Nat.mod_eq_of_lt h
  · rw [dif_neg h]
    rw [concatenate_pair_apply_right (0 : Fin S850000.rank) _ _ concatenates_S800000_S50000_S850000_d0 (ix1 e) rfl rfl
      (ix1 (⟨e.val - 800000, by omega⟩ : Fin 50000)) (fun b hb => by match b with | ⟨0, _⟩ => exact absurd rfl hb)
      (by show e.val - 800000 + 800000 = e.val; omega)]
    rfl

/-! ## The index words the gathers read: a negative word wrapped once by the number of nodes -/

/-- A word below zero moved up by 50000, any other word left alone. -/
def wrapW (w : BitVec 32) : BitVec 32 := Scalar.select (IntOp.cmpi .slt w 0#32) (IntOp.addi w 50000#32) w

/-- The clamp of a wrapped word is the specification's node. -/
theorem clamp_wrapW (w : BitVec 32) :
    (⟨min (wrapW w).toInt.toNat (50000 - 1), by omega⟩ : Fin 50000) = gi w := by
  have hsel : wrapW w = (if w.slt 0#32 then w + 50000#32 else w) := by
    unfold wrapW Scalar.select IntOp.cmpi IntOp.addi
    cases h : w.slt 0#32 <;> simp
  unfold gi
  refine Fin.ext ?_
  simp only [hsel]

/-- The first gather's index word of an edge: the source, wrapped. -/
theorem srcw1_apply (x1 : (⟨S2x800000, .i32⟩ : BufTy).Contents (Elt Ideal)) (e : Fin 850000) :
    Read.val_main_v20 (F := Ideal) x1 (ix1 e) = wrapW (edgeW (fun e' => x1 (ix2 (0 : Fin 2) e')) e) := by
  rw [Read.val_main_v20_apply, Read.val_main_v17_apply, Read.val_main_v19_apply, Read.val_main_v16_apply,
    Read.val_main_c_apply, Read.val_main_v18_apply, Read.val_main_c_3_apply, rows_apply]
  rfl

/-- The second gather's index word of an edge: the destination, wrapped. -/
theorem dstw_apply (x1 : (⟨S2x800000, .i32⟩ : BufTy).Contents (Elt Ideal)) (e : Fin 850000) :
    Read.val_main_v27 (F := Ideal) x1 (ix1 e) = wrapW (edgeW (fun e' => x1 (ix2 (1 : Fin 2) e')) e) := by
  rw [Read.val_main_v27_apply, Read.val_main_v24_apply, Read.val_main_v26_apply, Read.val_main_v23_apply,
    Read.val_main_c_4_apply, Read.val_main_v25_apply, Read.val_main_c_5_apply, cols_apply]
  rfl

/-- The row gather's index word of an edge: the source, wrapped. -/
theorem srcw2_apply (x1 : (⟨S2x800000, .i32⟩ : BufTy).Contents (Elt Ideal)) (e : Fin 850000) :
    Read.val_main_v35 (F := Ideal) x1 (ix1 e) = wrapW (edgeW (fun e' => x1 (ix2 (0 : Fin 2) e')) e) := by
  rw [Read.val_main_v35_apply, Read.val_main_v32_apply, Read.val_main_v34_apply, Read.val_main_v31_apply,
    Read.val_main_c_6_apply, Read.val_main_v33_apply, Read.val_main_c_7_apply, rows_apply]
  rfl

/-! ## The dense layer of a node -/

/-- The first dense layer at `(n, q)`: the sum over the 128 features. -/
theorem xlin_apply (x0 : (⟨S50000x128, .f32⟩ : BufTy).Contents (Elt Ideal)) (x3 : (⟨S128x64, .f32⟩ : BufTy).Contents (Elt Ideal))
    (n : Fin 50000) (q : Fin 64) :
    Read.val_main_v0 (F := Ideal) x0 x3 (ix2 n q) = ∑ k : Fin 128, x0 (ix2 n k) * x3 (ix2 k q) := by
  rw [Read.val_main_v0_apply]
  refine Finset.sum_congr rfl fun k _ => ?_
  have el : Read.lidx_main_v0 (ix2 n q) k = ix2 n k :=
    funext fun a => Fin.ext (by match a with | ⟨0, _⟩ => rfl | ⟨1, _⟩ => rfl)
  have er : Read.ridx_main_v0 (ix2 n q) k = ix2 k q :=
    funext fun a => Fin.ext (by match a with | ⟨0, _⟩ => rfl | ⟨1, _⟩ => rfl)
  rw [el, er]

/-! ## The program's index records are the general ones -/

theorem scat_deg_eq : scatter_S50000_S850000x1_S850000_n_0_0_1
    = Cert.Proof.GS.scat1 50000 850000 scatter_S50000_S850000x1_S850000_n_0_0_1_wf := rfl
theorem gath_ent_eq : gather_S50000_S850000x1_S850000_n_0_n_n_0_1_1
    = Cert.Proof.GS.gath1 50000 850000 gather_S50000_S850000x1_S850000_n_0_n_n_0_1_1_wf := rfl
theorem gath_row_eq : gather_S50000x64_S850000x1_S850000x64_1_0_n_n_0_1_164
    = Cert.Proof.GS.gathD 50000 850000 64 gather_S50000x64_S850000x1_S850000x64_1_0_n_n_0_1_164_wf := rfl
theorem scat_msg_eq : scatter_S50000x64_S850000x1_S850000x64_1_0_0_1
    = Cert.Proof.GS.scatD 50000 850000 64 scatter_S50000x64_S850000x1_S850000x64_1_0_0_1_wf := rfl
theorem scat_sum_eq : scatter_S256x64_S50000x1_S50000x64_1_0_0_1
    = Cert.Proof.GS.scatD 256 50000 64 scatter_S256x64_S50000x1_S50000x64_1_0_0_1_wf := rfl
theorem scat_cnt_eq : scatter_S256_S50000x1_S50000_n_0_0_1
    = Cert.Proof.GS.scat1 256 50000 scatter_S256_S50000x1_S50000_n_0_0_1_wf := rfl

/-! ## A scatter-add read at an index, its three operands given at an index -/

/-- Rows: the operand's entry `z`, the index column the list `col`, the updates' column `q` the family `u`. -/
theorem scatD_read {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) (z : EReal) (col : Fin E → BitVec w) (u : Fin E → EReal)
    (hx : x (ix2 i q) = z) (hidx : ∀ e, idx (ix2 e (0 : Fin 1)) = col e) (hupd : ∀ e, upd (ix2 e q) = u e) :
    Host.scatterAdd (Cert.Proof.GS.scatD N E D wf) x idx upd (ix2 i q)
      = z + ∑ e ∈ Finset.univ.filter (fun e : Fin E => (col e).toInt = (i.val : Int)), u e := by
  rw [Cert.Proof.GS.scatterAdd_scatD_apply, hx]
  refine congrArg (fun t => z + t) ?_
  exact Finset.sum_congr (Finset.filter_congr fun e _ => by rw [hidx e]) (fun e _ => hupd e)

/-- Entries: the same without the column. -/
theorem scat1_read {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32)
    (i : Fin N) (z : EReal) (col : Fin E → BitVec w) (u : Fin E → EReal)
    (hx : x (ix1 i) = z) (hidx : ∀ e, idx (ix2 e (0 : Fin 1)) = col e) (hupd : ∀ e, upd (ix1 e) = u e) :
    Host.scatterAdd (Cert.Proof.GS.scat1 N E wf) x idx upd (ix1 i)
      = z + ∑ e ∈ Finset.univ.filter (fun e : Fin E => (col e).toInt = (i.val : Int)), u e := by
  rw [Cert.Proof.GS.scatterAdd_scat1_apply, hx]
  refine congrArg (fun t => z + t) ?_
  exact Finset.sum_congr (Finset.filter_congr fun e _ => by rw [hidx e]) (fun e _ => hupd e)

/-- An index column `[850000, 1]` read through a map that keeps coordinate 0 is the list's index. -/
theorem colIdx_eq (f : S850000x1.Idx → S850000.Idx) (hf : ∀ i, (f i 0).val = (i 0).val) (e : Fin 850000) :
    f (ix2 e (0 : Fin 1)) = ix1 e :=
  funext fun a => Fin.ext (by match a with | ⟨0, _⟩ => exact hf _)

/-- The general clamp of a wrapped word is the specification's node. -/
theorem row_wrapW (h : 0 < 50000) (w : BitVec 32) : Cert.Proof.GS.row (N := 50000) h (wrapW w) = gi w :=
  clamp_wrapW w

/-! ## The degree and the scale vector -/

/-- The degree of node `j`: the scatter-add of the one word into zeros. -/
theorem deg_apply (x1 : (⟨S2x800000, .i32⟩ : BufTy).Contents (Elt Ideal)) (j : Fin 50000) :
    Read.val_main_v11 (F := Ideal) x1 (ix1 j) = degS (edgeW (fun e' => x1 (ix2 (1 : Fin 2) e'))) j := by
  unfold Read.val_main_v11 degS
  rw [scat_deg_eq]
  exact scat1_read _ _ _ _ j _ _ _
    (by rw [Read.val_main_v9_apply, Read.val_main_cst_0_apply, Ideal.ofBits_def])
    (fun e => by rw [Read.val_main_v10_apply, colIdx_eq Read.idx_main_v10 (fun _ => rfl)]; exact cols_apply x1 e)
    (fun e => by rw [Read.val_main_v8_apply, Read.val_main_cst_apply, Ideal.ofBits_def])

/-- The scale of node `j`. -/
theorem dinv_apply (x1 : (⟨S2x800000, .i32⟩ : BufTy).Contents (Elt Ideal)) (j : Fin 50000) :
    Read.val_main_v15 (F := Ideal) x1 (ix1 j) = dinvS (edgeW (fun e' => x1 (ix2 (1 : Fin 2) e'))) j := by
  unfold dinvS
  rw [Read.val_main_v15_apply, Read.val_main_v13_apply, Read.val_main_v14_apply, Read.val_main_v12_apply,
    Read.val_main_cst_1_apply, Read.val_main_call0_v1_apply, Read.val_main_call0_v0_apply, Read.val_main_cst_2_apply,
    deg_apply, Ideal.cmpf_def, Ideal.hostUnary_rsqrt_def, Ideal.ofBits_def]

/-! ## The messages -/

/-- The weight of edge `e`: the product of its endpoints' scales, each node as the gather reads it. -/
theorem norm_apply (x1 : (⟨S2x800000, .i32⟩ : BufTy).Contents (Elt Ideal)) (e : Fin 850000) :
    Read.val_main_v30 (F := Ideal) x1 (ix1 e)
      = dinvS (edgeW (fun e' => x1 (ix2 (1 : Fin 2) e'))) (gi (edgeW (fun e' => x1 (ix2 (0 : Fin 2) e')) e))
        * dinvS (edgeW (fun e' => x1 (ix2 (1 : Fin 2) e'))) (gi (edgeW (fun e' => x1 (ix2 (1 : Fin 2) e')) e)) := by
  rw [Read.val_main_v30_apply, Ideal.mulf_def]
  unfold Read.val_main_v22 Read.val_main_v29
  rw [gath_ent_eq, Cert.Proof.GS.gather_gath1_apply (by decide), Cert.Proof.GS.gather_gath1_apply (by decide),
    Read.val_main_v21_apply, colIdx_eq Read.idx_main_v21 (fun _ => rfl), srcw1_apply, row_wrapW,
    Read.val_main_v28_apply, colIdx_eq Read.idx_main_v28 (fun _ => rfl), dstw_apply, row_wrapW,
    dinv_apply, dinv_apply]

/-- The message of edge `e`, column `q`. -/
theorem msg_apply (x0 : (⟨S50000x128, .f32⟩ : BufTy).Contents (Elt Ideal)) (x1 : (⟨S2x800000, .i32⟩ : BufTy).Contents (Elt Ideal))
    (x3 : (⟨S128x64, .f32⟩ : BufTy).Contents (Elt Ideal)) (e : Fin 850000) (q : Fin 64) :
    Read.val_main_v40 (F := Ideal) x0 x1 x3 (ix2 e q)
      = refMsg (fun n k => x0 (ix2 n k)) (edgeW (fun e' => x1 (ix2 (0 : Fin 2) e'))) (edgeW (fun e' => x1 (ix2 (1 : Fin 2) e')))
          (dinvS (edgeW (fun e' => x1 (ix2 (1 : Fin 2) e')))) (fun k q' => x3 (ix2 k q')) e q := by
  unfold refMsg
  have ei : Read.idx_main_v38 (Read.idx_main_v39 (ix2 e q)) = ix1 e :=
    funext fun a => Fin.ext (by match a with | ⟨0, _⟩ => rfl)
  rw [Read.val_main_v40_apply, Ideal.mulf_def, Read.val_main_v39_apply, Read.val_main_v38_apply, ei, norm_apply]
  unfold Read.val_main_v37
  rw [gath_row_eq, Cert.Proof.GS.gather_gathD_apply (by decide), Read.val_main_v36_apply,
    colIdx_eq Read.idx_main_v36 (fun _ => rfl), srcw2_apply, row_wrapW, xlin_apply]

/-! ## The hidden rows -/

/-- The hidden row of node `j`, column `q`. -/
theorem hid_apply (x0 : (⟨S50000x128, .f32⟩ : BufTy).Contents (Elt Ideal)) (x1 : (⟨S2x800000, .i32⟩ : BufTy).Contents (Elt Ideal))
    (x3 : (⟨S128x64, .f32⟩ : BufTy).Contents (Elt Ideal)) (x4 : (⟨S64, .f32⟩ : BufTy).Contents (Elt Ideal))
    (j : Fin 50000) (q : Fin 64) :
    Read.val_main_v47 (F := Ideal) x0 x1 x3 x4 (ix2 j q)
      = refH (fun n k => x0 (ix2 n k)) (edgeW (fun e' => x1 (ix2 (0 : Fin 2) e'))) (edgeW (fun e' => x1 (ix2 (1 : Fin 2) e')))
          (dinvS (edgeW (fun e' => x1 (ix2 (1 : Fin 2) e')))) (fun k q' => x3 (ix2 k q')) (fun q' => x4 (ix1 q')) j q := by
  unfold refH
  have eb : Read.idx_main_v44 (Read.idx_main_v45 (ix2 j q)) = ix1 q :=
    funext fun a => Fin.ext (by match a with | ⟨0, _⟩ => rfl)
  rw [Read.val_main_v47_apply, Read.val_main_v46_apply, Read.val_main_v45_apply, Read.val_main_v44_apply, eb,
    Read.val_main_call1_v0_apply, Read.val_main_call1_cst_apply, Ideal.maximumf_def, Ideal.addf_def, Ideal.ofBits_def,
    Ideal.ofBits_zero_f32]
  unfold Read.val_main_v43
  rw [scat_msg_eq]
  refine congrArg (fun t => max (t + x4 (ix1 q)) 0) ?_
  exact scatD_read _ _ _ _ j q 0 _ _
    (by rw [Read.val_main_v41_apply, Read.val_main_cst_8_apply, Ideal.ofBits_def, Ideal.ofBits_zero_f32])
    (fun e => by rw [Read.val_main_v42_apply, colIdx_eq Read.idx_main_v42 (fun _ => rfl)]; exact cols_apply x1 e)
    (fun e => msg_apply x0 x1 x3 e q)

/-! ## The last dense layer over the pooled rows -/

/-- The result at `(g, o)` from the pooled sums and counts: the sums over the counts (at least the one word's value),
    through the last dense layer. -/
theorem out_apply (x0 : (⟨S50000x128, .f32⟩ : BufTy).Contents (Elt Ideal)) (x1 : (⟨S2x800000, .i32⟩ : BufTy).Contents (Elt Ideal))
    (x2 : (⟨S50000, .i32⟩ : BufTy).Contents (Elt Ideal)) (x3 : (⟨S128x64, .f32⟩ : BufTy).Contents (Elt Ideal))
    (x4 : (⟨S64, .f32⟩ : BufTy).Contents (Elt Ideal)) (x5 : (⟨S64x8, .f32⟩ : BufTy).Contents (Elt Ideal))
    (x6 : (⟨S8, .f32⟩ : BufTy).Contents (Elt Ideal)) (g : Fin 256) (o : Fin 8) :
    Read.val_main_v63 (F := Ideal) x0 x1 x2 x3 x4 x5 x6 (ix2 g o)
      = (∑ q : Fin 64, Ideal.div (Read.val_main_v50 (F := Ideal) x0 x1 x2 x3 x4 (ix2 g q))
          (max (Read.val_main_v54 (F := Ideal) x2 (ix1 g)) (Ideal.ofBits .f32 0x3F800000#32)) * x5 (ix2 q o)) + x6 (ix1 o) := by
  have eb : Read.idx_main_v61 (Read.idx_main_v62 (ix2 g o)) = ix1 o :=
    funext fun a => Fin.ext (by match a with | ⟨0, _⟩ => rfl)
  rw [Read.val_main_v63_apply, Read.val_main_v60_apply, Read.val_main_v62_apply, Read.val_main_v61_apply, eb, Ideal.addf_def]
  refine congrArg (fun t => t + x6 (ix1 o)) ?_
  refine Finset.sum_congr rfl fun q _ => ?_
  have el : Read.lidx_main_v60 (ix2 g o) q = ix2 g q :=
    funext fun a => Fin.ext (by match a with | ⟨0, _⟩ => rfl | ⟨1, _⟩ => rfl)
  have er : Read.ridx_main_v60 (ix2 g o) q = ix2 q o :=
    funext fun a => Fin.ext (by match a with | ⟨0, _⟩ => rfl | ⟨1, _⟩ => rfl)
  have ec : Read.idx_main_v57 (Read.idx_main_v58 (ix2 g q)) = ix1 g :=
    funext fun a => Fin.ext (by match a with | ⟨0, _⟩ => rfl)
  rw [el, er, Read.val_main_v59_apply, Read.val_main_v58_apply, Read.val_main_v57_apply, ec, Read.val_main_v56_apply,
    Read.val_main_v55_apply, Read.val_main_cst_12_apply, Ideal.hostDivf_def, Ideal.maximumf_def, Ideal.ofBits_def]

/-! ## The pooled sums and counts -/

/-- The sum of the hidden rows with graph id `g`, column `q`. -/
theorem sums_apply (x0 : (⟨S50000x128, .f32⟩ : BufTy).Contents (Elt Ideal)) (x1 : (⟨S2x800000, .i32⟩ : BufTy).Contents (Elt Ideal))
    (x2 : (⟨S50000, .i32⟩ : BufTy).Contents (Elt Ideal)) (x3 : (⟨S128x64, .f32⟩ : BufTy).Contents (Elt Ideal))
    (x4 : (⟨S64, .f32⟩ : BufTy).Contents (Elt Ideal)) (g : Fin 256) (q : Fin 64) :
    Read.val_main_v50 (F := Ideal) x0 x1 x2 x3 x4 (ix2 g q)
      = (0 : EReal) + ∑ n ∈ Finset.univ.filter (fun n : Fin 50000 => (x2 (ix1 n)).toInt = (g.val : Int)),
          refH (fun n k => x0 (ix2 n k)) (edgeW (fun e' => x1 (ix2 (0 : Fin 2) e'))) (edgeW (fun e' => x1 (ix2 (1 : Fin 2) e')))
            (dinvS (edgeW (fun e' => x1 (ix2 (1 : Fin 2) e')))) (fun k q' => x3 (ix2 k q')) (fun q' => x4 (ix1 q')) n q := by
  unfold Read.val_main_v50
  rw [scat_sum_eq]
  exact scatD_read _ _ _ _ g q 0 (fun n => x2 (ix1 n)) _
    (by rw [Read.val_main_v48_apply, Read.val_main_cst_9_apply, Ideal.ofBits_def, Ideal.ofBits_zero_f32])
    (fun n => by
      rw [Read.val_main_v49_apply]
      exact congrArg x2 (funext fun a => Fin.ext (by match a with | ⟨0, _⟩ => rfl)))
    (fun n => hid_apply x0 x1 x3 x4 n q)

/-- The number of nodes with graph id `g`. -/
theorem cnts_apply (x2 : (⟨S50000, .i32⟩ : BufTy).Contents (Elt Ideal)) (g : Fin 256) :
    Read.val_main_v54 (F := Ideal) x2 (ix1 g)
      = (0 : EReal) + ∑ n ∈ Finset.univ.filter (fun n : Fin 50000 => (x2 (ix1 n)).toInt = (g.val : Int)), (1 : EReal) := by
  unfold Read.val_main_v54
  rw [scat_cnt_eq]
  exact scat1_read _ _ _ _ g 0 (fun n => x2 (ix1 n)) _
    (by rw [Read.val_main_v52_apply, Read.val_main_cst_11_apply, Ideal.ofBits_def, Ideal.ofBits_zero_f32])
    (fun n => by
      rw [Read.val_main_v53_apply]
      exact congrArg x2 (funext fun a => Fin.ext (by match a with | ⟨0, _⟩ => rfl)))
    (fun n => by rw [Read.val_main_v51_apply, Read.val_main_cst_10_apply, Ideal.ofBits_def, ofBits_one_f32])

variable (m : (ℓ : Loc nD τ sig) → Buf (Elt Ideal) ℓ)

/-! ## The inputs as plain families -/

def xIn (c : Dev nD) : Fin 50000 → Fin 128 → EReal := fun n k => (m ((c.tc : Thread nD τ).loc main_arg0) : S50000x128.Idx → EReal) (ix2 n k)
def eiIn (c : Dev nD) : Fin 2 → Fin 800000 → BitVec 32 := fun a e => (m ((c.tc : Thread nD τ).loc main_arg1) : S2x800000.Idx → BitVec 32) (ix2 a e)
def batchIn (c : Dev nD) : Fin 50000 → BitVec 32 := fun n => (m ((c.tc : Thread nD τ).loc main_arg2) : S50000.Idx → BitVec 32) (ix1 n)
def WIn (c : Dev nD) : Fin 128 → Fin 64 → EReal := fun k q => (m ((c.tc : Thread nD τ).loc main_arg3) : S128x64.Idx → EReal) (ix2 k q)
def bIn (c : Dev nD) : Fin 64 → EReal := fun q => (m ((c.tc : Thread nD τ).loc main_arg4) : S64.Idx → EReal) (ix1 q)
def WfcIn (c : Dev nD) : Fin 64 → Fin 8 → EReal := fun q o => (m ((c.tc : Thread nD τ).loc main_arg5) : S64x8.Idx → EReal) (ix2 q o)
def bfcIn (c : Dev nD) : Fin 8 → EReal := fun o => (m ((c.tc : Thread nD τ).loc main_arg6) : S8.Idx → EReal) (ix1 o)
def rowIn (c : Dev nD) : Fin 850000 → BitVec 32 := edgeW (eiIn m c 0)
def colIn (c : Dev nD) : Fin 850000 → BitVec 32 := edgeW (eiIn m c 1)

/-- THE REFERENCE'S RESULT AT `(g, o)`: the run's term for the returned buffer is the specification's formula of the
    arguments. -/
theorem ref_result (c : Dev nD) (g : Fin 256) (o : Fin 8) :
    (res_out0 (F := Ideal) m c : S256x8.Idx → EReal) (ix2 g o)
      = refS (refH (xIn m c) (rowIn m c) (colIn m c) (dinvS (colIn m c)) (WIn m c) (bIn m c)) (batchIn m c) (WfcIn m c) (bfcIn m c) g o := by
  refine (congrFun (Read.val_main_v63_eq (F := Ideal) m c) (ix2 g o)).trans ?_
  rw [out_apply, ofBits_one_f32]
  unfold refS
  refine congrArg (fun t => t + bfcIn m c o) (Finset.sum_congr rfl fun q _ => ?_)
  rw [sums_apply, cnts_apply]
  rfl

end Cert.ReferenceIdeal.RefValue

end
-- ==== Proof.Pre.lean ====
/-
  The precondition decoded: every source word of the edge list (and so of the edge list with its self-loops) is a node.
-/
import proofs.«402996_j73263552135827_2_alg».proof.Proof.Gen.KernelIdeal
import proofs.«402996_j73263552135827_2_alg».proof.Proof.Gen.Pre_finite_inputs
import proofs.«402996_j73263552135827_2_alg».proof.Defs
import proofs.«402996_j73263552135827_2_alg».proof.Proof.SpecInputs
import Idealize.ShloMosaic.Lib.ReduceAll
import Idealize.ShloMosaic.Lib.StableHlo.Predicate
import Idealize.ShloMosaic.Lib.ValueIdx
import Idealize.ShloMosaic.Lib.Pipeline.Value

set_option maxRecDepth 16384

noncomputable section

namespace Cert.Proof.PreDecode

open Idealize.ShloMosaic Idealize.ShloMosaic.TcCoe Idealize.ShloMosaic.ValueIdx Idealize.SL.Sem
open Cert.KernelIdeal Cert.Proof.Spec

/-- The scalar result shape has one index. -/
private instance subsingleton_scalar_idx : Subsingleton Cert.Pre_finite_inputs.S_.Idx :=
  ⟨fun a b => funext fun d => d.elim0⟩

/-- A word that passes the two signed compares `w ≥ 0` and `w < 50000` lies in `[0, 50000)` read signed. -/
private theorem word_range (w : BitVec 32) (h0 : IntOp.cmpi .sge w 0#32 = 1#1) (h1 : IntOp.cmpi .slt w 50000#32 = 1#1) :
    0 ≤ w.toInt ∧ w.toInt < 50000 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (50000#32 : BitVec 32).toInt = 50000 := by decide
  rw [e0] at h0
  rw [e1] at h1
  exact ⟨h0, h1⟩

/-- Row 0 of a `[2, 800000]` array, cut out and flattened, reads at `e` the array at `(0, e)`: the flattening keeps the
    row-major position (`0 * 800000 + e = e`) and the cut starts at offset `(0, 0)`. -/
private theorem row0_apply (x : IVec Cert.Pre_finite_inputs.S2x800000 32)
    (hs : Cert.Pre_finite_inputs.S2x800000.Slices ![0, 0] Cert.Pre_finite_inputs.S1x800000)
    (hc : Cert.Pre_finite_inputs.S1x800000.ShapeCasts Cert.Pre_finite_inputs.S800000) (e : Fin 800000) :
    shapeCast Cert.Pre_finite_inputs.S800000 (extractStridedSlice Cert.Pre_finite_inputs.S1x800000 ![0, 0] x hs) hc (ix1 e)
      = x (ix2 0 e) := by
  rw [shapeCast_apply _ hc (ix1 e) (ix2 (0 : Fin 1) e) (by
    rw [Shape.rowMajor_val_two, Shape.rowMajor_val_one]
    show 0 * 800000 + e.val = e.val
    rw [Nat.zero_mul, Nat.zero_add])]
  exact extractStridedSlice_apply _ _ hs _ _ (fun a => by
    match a with
    | ⟨0, _⟩ => rfl
    | ⟨1, _⟩ => exact (Nat.zero_add _).symm)

/-- Every given source word lies in `[0, 50000)`: the precondition's last conjunct, read at an edge. -/
theorem row_in_range (m : (ℓ : Loc nD τ sig) → Buf (Elt Ideal) ℓ) (h : Cert.Pre_KernelIdeal m) (c : Dev nD) (e : Fin 800000) :
    0 ≤ ((m ((c.tc : Thread nD τ).loc main_arg1) : S2x800000.Idx → BitVec 32) (ix2 0 e)).toInt
      ∧ ((m ((c.tc : Thread nD τ).loc main_arg1) : S2x800000.Idx → BitVec 32) (ix2 0 e)).toInt < 50000 := by
  -- the precondition at this device, read at the scalar result's one index
  have h0 := congrFun (h c) ValueIdx.ix0
  dsimp only [Cert.Pre_finite_inputs.fn, Cert.Pre_finite_inputs.fn_part1] at h0
  -- the last conjunct: the reduction by `and` of the elementwise range test is 1, so the test is 1 at every edge
  have h1 := (IntOp.andi_eq_one.1 h0).2
  have h2 := Host.reduce_andi_all _ _ _ _ _ h1 (ix1 e)
  obtain ⟨hge, hlt⟩ := IntOp.andi_eq_one.1 h2
  -- the tested word at `e` is the source word of edge `e`; the constants broadcast to themselves
  have key := row0_apply (m ((c.tc : Thread nD τ).loc main_arg1))
    Cert.Pre_finite_inputs.Facts.slices_S2x800000_S1x800000_0_0
    Cert.Pre_finite_inputs.Facts.shapeCasts_S1x800000_S800000 e
  refine word_range _ ?_ ?_
  · rw [← key]; exact hge
  · rw [← key]; exact hlt

/-- With the self-loops appended every source word is still a node: loop `n` is the word of `n < 50000`. -/
theorem edgeW_in_range (ei : Fin 800000 → BitVec 32) (h : ∀ e, 0 ≤ (ei e).toInt ∧ (ei e).toInt < 50000) (e : Fin 850000) :
    0 ≤ (edgeW ei e).toInt ∧ (edgeW ei e).toInt < 50000 := by
  unfold edgeW
  split
  · exact h _
  · -- a self-loop: the word of `e - 800000 < 50000`, which reads signed as that number
    rename_i hlt
    have he := e.isLt
    rw [StableHlo.Predicate.toInt_ofNat_small _ (by omega)]
    omega

end Cert.Proof.PreDecode

end
-- ==== Proof.SpecGather.lean ====
/-
  The gather and scatter stages of the bridge: the comparison-mask products are the reference's gather and scatter-add.
-/
import proofs.«402996_j73263552135827_2_alg».proof.Proof.Spec
import Mathlib.Algebra.BigOperators.Group.Finset.Basic
import Mathlib.Algebra.BigOperators.Fin
import Mathlib.Data.EReal.Basic

open scoped BigOperators

noncomputable section

namespace Cert.Proof.Spec

open Idealize.ShloMosaic Finset

/-! ## Words and node indices -/

/-- A word equals the word of a natural number below 2^31 exactly when its signed reading is that number. -/
theorem gather_word_eq_ofNat_iff (w : BitVec 32) (n : Nat) (hn : n < 2147483648) :
    w = BitVec.ofNat 32 n ↔ w.toInt = (n : Int) := by
  rw [← BitVec.toNat_inj, BitVec.toNat_ofNat, BitVec.toInt_eq_toNat_cond]
  have hw : w.toNat < 4294967296 := w.isLt
  have hm : n % 2 ^ 32 = n := Nat.mod_eq_of_lt (by omega)
  rw [hm]
  split <;> constructor <;> intro h <;> omega

/-- A word whose signed reading is non-negative is read the same signed and unsigned. -/
theorem gather_toInt_eq_toNat_of_nonneg (w : BitVec 32) (h0 : 0 ≤ w.toInt) : w.toInt = (w.toNat : Int) := by
  have hw : w.toNat < 4294967296 := w.isLt
  rw [BitVec.toInt_eq_toNat_cond] at h0 ⊢
  split at h0 <;> split <;> omega

/-- The node the gather reads for a word whose signed reading is a node index: that node (no wrap, no clamp). -/
theorem gather_gi_of_range (w : BitVec 32) (h0 : 0 ≤ w.toInt) (h1 : w.toInt < 50000) :
    (gi w).val = w.toNat := by
  have hti := gather_toInt_eq_toNat_of_nonneg w h0
  have hs : w.slt 0#32 = false := by
    simp only [BitVec.slt, BitVec.toInt_zero]
    simpa using h0
  simp only [gi, hs, Bool.false_eq_true, if_false]
  omega

/-! ## The two stages -/

/-- THE GATHER STAGE. A real edge's kernel message is the reference's (the mask selects the source's row of `y`, which is
    the dense layer times the source's scale; times the destination's scale: the same three factors, regrouped); a padding
    edge's is zero (its weight is). -/
theorem msg_stage (x : Fin 50000 → Fin 128 → EReal) (row col : Fin 850000 → BitVec 32) (dinv : Fin 50000 → EReal)
    (W : Fin 128 → Fin 64 → EReal) (hrow : ∀ e, 0 ≤ (row e).toInt ∧ (row e).toInt < 50000)
    (eb : Fin 208) (e : Fin 4096) (q : Fin 64) :
    msgS (idx3Of row) (w3Of col dinv) (yS (xpOf x) W (dpOf dinv)) eb e q
      = if h : eb.val * 4096 + e.val < 850000 then refMsg x row col dinv W ⟨eb.val * 4096 + e.val, h⟩ q else 0 := by
  by_cases h : eb.val * 4096 + e.val < 850000
  · -- a real edge: the indicator sum has its one term at the source node
    obtain ⟨h0, h1⟩ := hrow ⟨eb.val * 4096 + e.val, h⟩
    have hti := gather_toInt_eq_toNat_of_nonneg _ h0
    have hlt : (row ⟨eb.val * 4096 + e.val, h⟩).toNat < 50000 := by omega
    have hg := gather_gi_of_range _ h0 h1
    -- the source node, among the padded nodes
    let s0 : Fin 50176 := ⟨(row ⟨eb.val * 4096 + e.val, h⟩).toNat, by omega⟩
    have hsel : ∀ s : Fin 50176,
        (row ⟨eb.val * 4096 + e.val, h⟩ = BitVec.ofNat 32 s.val) ↔ s = s0 := by
      intro s
      rw [gather_word_eq_ofNat_iff _ _ (by have := s.isLt; omega), hti, Fin.ext_iff]
      show _ ↔ s.val = (row ⟨eb.val * 4096 + e.val, h⟩).toNat
      omega
    have hgi : gi (row ⟨eb.val * 4096 + e.val, h⟩) = ⟨(row ⟨eb.val * 4096 + e.val, h⟩).toNat, hlt⟩ :=
      Fin.ext hg
    simp only [msgS, idx3Of, w3Of, dif_pos h, hsel, Finset.sum_ite_eq', Finset.mem_univ, if_true, refMsg]
    simp only [yS, xpOf, dpOf, s0, dif_pos hlt, hgi]
    rw [mul_assoc]
  · -- a padding edge: weight zero
    simp only [msgS, w3Of, dif_neg h, mul_zero]

/-- THE SCATTER STAGE. At a real node the kernel's hidden row is the reference's: the indicator-weighted sum over the
    851968 padded edges is the sum over the real edges whose destination word is the node (padding edges carry zero). -/
theorem hpad_stage (x : Fin 50000 → Fin 128 → EReal) (row col : Fin 850000 → BitVec 32) (dinv : Fin 50000 → EReal)
    (W : Fin 128 → Fin 64 → EReal) (b : Fin 64 → EReal) (hrow : ∀ e, 0 ≤ (row e).toInt ∧ (row e).toInt < 50000)
    (j : Fin 50176) (hj : j.val < 50000) (q : Fin 64) :
    hpadS (idx3Of col) (msgS (idx3Of row) (w3Of col dinv) (yS (xpOf x) W (dpOf dinv))) b j q
      = refH x row col dinv W b ⟨j.val, hj⟩ q := by
  -- the term of a real edge: the word test is the signed test, the message the reference's
  have hreal : ∀ (eb : Fin 208) (e : Fin 4096) (h : eb.val * 4096 + e.val < 850000),
      (if idx3Of col eb e = BitVec.ofNat 32 j.val then
          msgS (idx3Of row) (w3Of col dinv) (yS (xpOf x) W (dpOf dinv)) eb e q else 0)
        = if (col ⟨eb.val * 4096 + e.val, h⟩).toInt = (j.val : Int) then
            refMsg x row col dinv W ⟨eb.val * 4096 + e.val, h⟩ q else 0 := by
    intro eb e h
    rw [msg_stage x row col dinv W hrow eb e q, dif_pos h]
    simp only [idx3Of, dif_pos h, gather_word_eq_ofNat_iff _ _ (show j.val < 2147483648 by omega)]
  -- the term of a padding edge: zero, whatever its word
  have hpadz : ∀ (eb : Fin 208) (e : Fin 4096) (_ : ¬ eb.val * 4096 + e.val < 850000),
      (if idx3Of col eb e = BitVec.ofNat 32 j.val then
          msgS (idx3Of row) (w3Of col dinv) (yS (xpOf x) W (dpOf dinv)) eb e q else 0) = 0 := by
    intro eb e h
    rw [msg_stage x row col dinv W hrow eb e q, dif_neg h, ite_self]
  -- the sum over the padded edge positions is the sum over the real edges: edge i sits at block i / 4096, place i % 4096
  have hsum : (∑ eb : Fin 208, ∑ e : Fin 4096,
        if idx3Of col eb e = BitVec.ofNat 32 j.val then
          msgS (idx3Of row) (w3Of col dinv) (yS (xpOf x) W (dpOf dinv)) eb e q else 0)
      = ∑ i : Fin 850000, if (col i).toInt = (j.val : Int) then refMsg x row col dinv W i q else 0 := by
    refine (Fintype.sum_prod_type' (fun (eb : Fin 208) (e : Fin 4096) =>
        if idx3Of col eb e = BitVec.ofNat 32 j.val then
          msgS (idx3Of row) (w3Of col dinv) (yS (xpOf x) W (dpOf dinv)) eb e q else 0)).symm.trans ?_
    symm
    refine Finset.sum_of_injOn
      (fun i : Fin 850000 => ((⟨i.val / 4096, by have := i.isLt; omega⟩ : Fin 208),
        (⟨i.val % 4096, Nat.mod_lt _ (by norm_num)⟩ : Fin 4096))) ?_ ?_ ?_ ?_
    · intro a _ c _ hac
      simp only [Prod.mk.injEq, Fin.mk.injEq] at hac
      apply Fin.ext; omega
    · intro _ _; exact Finset.mem_coe.2 (Finset.mem_univ _)
    · rintro ⟨eb, e⟩ _ hnot
      by_cases h : eb.val * 4096 + e.val < 850000
      · exfalso; apply hnot
        refine ⟨⟨eb.val * 4096 + e.val, h⟩, Finset.mem_coe.2 (Finset.mem_univ _), ?_⟩
        have he := e.isLt
        refine Prod.ext (Fin.ext ?_) (Fin.ext ?_)
        · show (eb.val * 4096 + e.val) / 4096 = eb.val
          omega
        · show (eb.val * 4096 + e.val) % 4096 = e.val
          omega
      · exact hpadz eb e h
    · intro i _
      have hi : (i.val / 4096) * 4096 + i.val % 4096 < 850000 := by have := i.isLt; omega
      have hfin : (⟨(i.val / 4096) * 4096 + i.val % 4096, hi⟩ : Fin 850000) = i := Fin.ext (by
        show (i.val / 4096) * 4096 + i.val % 4096 = i.val
        omega)
      have := hreal ⟨i.val / 4096, by have := i.isLt; omega⟩ ⟨i.val % 4096, Nat.mod_lt _ (by norm_num)⟩ hi
      rw [hfin] at this
      exact this.symm
  unfold hpadS refH
  rw [hsum, zero_add, Finset.sum_filter]

end Cert.Proof.Spec

end
-- ==== Proof.SpecPool.lean ====
/-
  The pool stage of the bridge: indicator-weighted sums over the padded nodes are the reference's scatter-adds over the real ones.
-/
import proofs.«402996_j73263552135827_2_alg».proof.Proof.Spec
import Mathlib.Algebra.BigOperators.Group.Finset.Basic

open scoped BigOperators

noncomputable section

namespace Cert.Proof.Spec

open Idealize.ShloMosaic Finset

/-- For a natural number below 2^31, a 32-bit word is the word of that number exactly when its signed reading is it:
    both say the word's unsigned value is that number, which lies in the non-negative half. -/
theorem word_eq_ofNat_iff (w : BitVec 32) (j : Nat) (hj : j < 2147483648) :
    w = BitVec.ofNat 32 j ↔ w.toInt = (j : Int) := by
  have hw := w.isLt
  rw [BitVec.toInt_eq_toNat_cond, ← BitVec.toNat_inj, BitVec.toNat_ofNat]
  split <;> omega

/-- The padding word, all ones (−1 read signed), is the word of no natural number below 2^31. -/
theorem pad_ne_ofNat (j : Nat) (hj : j < 2147483648) : (4294967295#32 : BitVec 32) ≠ BitVec.ofNat 32 j := by
  rw [Ne, ← BitVec.toNat_inj, BitVec.toNat_ofNat, BitVec.toNat_ofNat]
  omega

/-- An indicator-weighted sum over the 50176 padded nodes is the reference's scatter-add into zero over the 50000 real
    ones. The real nodes embed into the padded ones; a padded node outside the image carries the all-ones id word, the
    word of no graph, so its term is 0; and on a real node "the id word is the word of g" says the same as "the id word
    read signed is g", so the two indicators select the same terms. -/
theorem sum_pad_filter (batch : Fin 50000 → BitVec 32) (g : Fin 256) (F : Fin 50176 → EReal) (G : Fin 50000 → EReal)
    (hFG : ∀ (n : Fin 50176) (hn : n.val < 50000), F n = G ⟨n.val, hn⟩) :
    (∑ n : Fin 50176, if batchpOf batch n = BitVec.ofNat 32 g.val then F n else 0)
      = 0 + ∑ n ∈ univ.filter (fun n : Fin 50000 => (batch n).toInt = (g.val : Int)), G n := by
  have hg : g.val < 2147483648 := by omega
  -- the sum over the selected real nodes is the sum over all real nodes of the indicator-weighted terms
  rw [zero_add, Finset.sum_filter]
  symm
  -- re-index along the embedding of the real nodes into the padded ones
  refine Finset.sum_of_injOn (fun n : Fin 50000 => (⟨n.val, by omega⟩ : Fin 50176)) ?_ ?_ ?_ ?_
  · -- the embedding is injective
    intro a _ b _ hab
    have : a.val = b.val := congrArg (fun m : Fin 50176 => m.val) hab
    exact Fin.ext this
  · intro a _
    exact Finset.mem_coe.2 (Finset.mem_univ _)
  · -- a node outside the image is a padding node: its id word is all ones, so its term is 0
    intro m _ hm
    have hm' : ¬ m.val < 50000 := by
      intro hlt
      exact hm ⟨⟨m.val, hlt⟩, Finset.mem_coe.2 (Finset.mem_univ _), Fin.ext rfl⟩
    have hb : batchpOf batch m = 4294967295#32 := by
      unfold batchpOf
      rw [dif_neg hm']
    rw [hb, if_neg (pad_ne_ofNat g.val hg)]
  · -- on a real node the padded id word is the node's own, the two arrays agree, and the two tests are equivalent
    intro n _
    have hn : (⟨n.val, by omega⟩ : Fin 50176).val < 50000 := n.isLt
    have hb : batchpOf batch ⟨n.val, by omega⟩ = batch n := by
      unfold batchpOf
      rw [dif_pos hn]
    show (if (batch n).toInt = (g.val : Int) then G n else 0)
        = if batchpOf batch ⟨n.val, by omega⟩ = BitVec.ofNat 32 g.val then F ⟨n.val, by omega⟩ else 0
    rw [hb, hFG ⟨n.val, by omega⟩ hn]
    by_cases hc : (batch n).toInt = (g.val : Int)
    · rw [if_pos hc, if_pos ((word_eq_ofNat_iff _ _ hg).2 hc)]
    · rw [if_neg hc, if_neg (fun h => hc ((word_eq_ofNat_iff _ _ hg).1 h))]

/-- THE POOL STAGE. If a padded hidden array agrees with `h` on the real nodes, the kernel's pooled result is the
    reference's: padded nodes carry graph id −1, which is no graph's word, so they enter neither sum nor count. -/
theorem out_stage (hpad : Fin 50176 → Fin 64 → EReal) (h : Fin 50000 → Fin 64 → EReal)
    (hh : ∀ (n : Fin 50176) (hn : n.val < 50000) (q : Fin 64), hpad n q = h ⟨n.val, hn⟩ q)
    (batch : Fin 50000 → BitVec 32) (Wfc : Fin 64 → Fin 8 → EReal) (bfc : Fin 8 → EReal) (g : Fin 256) (o : Fin 8) :
    outS hpad (batchpOf batch) Wfc bfc g o = refS h batch Wfc bfc g o := by
  unfold outS refS
  -- the count: the indicator sum of the constant 1 over the padded nodes is the reference's count
  have hcount := sum_pad_filter batch g (fun _ => (1 : EReal)) (fun _ => (1 : EReal)) (fun _ _ => rfl)
  rw [hcount]
  refine congrArg (fun t : EReal => t + bfc o) ?_
  refine Finset.sum_congr rfl (fun q _ => ?_)
  -- the sum: column q of the padded hidden array against column q of the reference's
  rw [sum_pad_filter batch g (fun n => hpad n q) (fun n => h n q) (fun n hn => hh n hn q)]

end Cert.Proof.Spec

end
-- ==== Proof.SpecBridge.lean ====
/-
  The bridge assembled: the kernel's four stages composed are the reference's formula.
-/
import proofs.«402996_j73263552135827_2_alg».proof.Proof.SpecGather
import proofs.«402996_j73263552135827_2_alg».proof.Proof.SpecPool

open scoped BigOperators

noncomputable section

namespace Cert.Proof.Spec

open Idealize.ShloMosaic Finset

/-- THE KERNEL'S PIPELINE IS THE REFERENCE, at every `(g, o)`, when every source word is a node. -/
theorem bridge (x : Fin 50000 → Fin 128 → EReal) (row col : Fin 850000 → BitVec 32) (batch : Fin 50000 → BitVec 32)
    (dinv : Fin 50000 → EReal) (W : Fin 128 → Fin 64 → EReal) (b : Fin 64 → EReal) (Wfc : Fin 64 → Fin 8 → EReal)
    (bfc : Fin 8 → EReal)
    (hrow : ∀ e, 0 ≤ (row e).toInt ∧ (row e).toInt < 50000) (g : Fin 256) (o : Fin 8) :
    outS (hpadS (idx3Of col) (msgS (idx3Of row) (w3Of col dinv) (yS (xpOf x) W (dpOf dinv))) b) (batchpOf batch) Wfc bfc g o
      = refS (refH x row col dinv W b) batch Wfc bfc g o :=
  out_stage _ _ (fun n hn q => hpad_stage x row col dinv W b hrow n hn q) batch Wfc bfc g o

end Cert.Proof.Spec

end
-- ==== Proof.lean ====
/-
  The certificate of a graph-convolution layer with a mean pool and a dense layer, computed by four kernel regions
  (a dense layer scaled row by row; a gather and a scatter-add written as products with comparison masks, accumulated
  over a grid axis; a mean pool by graph id with the last dense layer) against the plain gather / scatter-add reference.

  * The three frames: the kernel program at both instances runs to the end, faults nowhere and leaves its arguments
    unchanged, by the launch of its eight items (host stretches and regions) over each region's body obligation; the
    reference by its run read back.
  * The idealization rewrote nothing, so the preservation claim is the trivial one.
  * The two idealized programs end with equal results: the kernel's result is the composition of its four regions'
    values over what the host operations hand them; the reference's result is its operations read at an index; and the
    two formulas agree because a sum of indicator-weighted terms is the sum over the selected indices, padded edges carry
    weight zero, padded nodes graph id −1, and every source word is a node (the added conjunct of the precondition).
-/
import proofs.«402996_j73263552135827_2_alg».proof.Defs
import proofs.«402996_j73263552135827_2_alg».proof.Proof.Gen.Kernel
import proofs.«402996_j73263552135827_2_alg».proof.Proof.Gen.KernelIdeal
import proofs.«402996_j73263552135827_2_alg».proof.Proof.Gen.ReferenceIdeal
import proofs.«402996_j73263552135827_2_alg».proof.Proof.Gen.Pre_finite_inputs
import proofs.«402996_j73263552135827_2_alg».proof.Proof.K.Run
import proofs.«402996_j73263552135827_2_alg».proof.Proof.KernelValue
import proofs.«402996_j73263552135827_2_alg».proof.Proof.RefG
import proofs.«402996_j73263552135827_2_alg».proof.Proof.Pre
import proofs.«402996_j73263552135827_2_alg».proof.Proof.SpecBridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.Proof.Spec

/-! ## The frames -/

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-! ## The two results agree -/

section Agree

open Cert.KernelIdeal

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- From memories agreeing on the arguments, under the precondition, the reference's result is the kernel program's:
    both sides read down to the arguments, then the algebra of the two formulas. -/
theorem results_agree (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) :
    (Cert.ReferenceIdeal.Value.res_out0 (F := Ideal) m' c : S256x8.Idx → EReal)
      = (Cert.KernelIdeal.Hand.W8 m ρ c (Proc.devRef .tc Cert.KernelIdeal.main_v40) : S256x8.Idx → EReal) := by
  funext i
  obtain ⟨g, o, rfl⟩ : ∃ (g : Fin 256) (o : Fin 8), i = ix2 g o := ⟨i 0, i 1, eq_ix2 i⟩
  obtain ⟨h0, h1, h2, h3, h4, h5, h6⟩ := hagree c
  -- the two programs' inputs, as plain families, are the same families
  have ex : Cert.ReferenceIdeal.RefValue.xIn m' c = Cert.KernelIdeal.Hand.xIn m c :=
    funext fun n => funext fun k => congrFun h0 (ix2 n k)
  have eei : Cert.ReferenceIdeal.RefValue.eiIn m' c = Cert.KernelIdeal.Hand.eiIn m c :=
    funext fun a => funext fun e => congrFun h1 (ix2 a e)
  have ebatch : Cert.ReferenceIdeal.RefValue.batchIn m' c = Cert.KernelIdeal.Hand.batchIn m c :=
    funext fun n => congrFun h2 (ix1 n)
  have eW : Cert.ReferenceIdeal.RefValue.WIn m' c = Cert.KernelIdeal.Hand.WIn m c :=
    funext fun k => funext fun q => congrFun h3 (ix2 k q)
  have eb : Cert.ReferenceIdeal.RefValue.bIn m' c = Cert.KernelIdeal.Hand.bIn m c :=
    funext fun q => congrFun h4 (ix1 q)
  have eWfc : Cert.ReferenceIdeal.RefValue.WfcIn m' c = Cert.KernelIdeal.Hand.WfcIn m c :=
    funext fun q => funext fun o => congrFun h5 (ix2 q o)
  have ebfc : Cert.ReferenceIdeal.RefValue.bfcIn m' c = Cert.KernelIdeal.Hand.bfcIn m c :=
    funext fun o => congrFun h6 (ix1 o)
  have erow : Cert.ReferenceIdeal.RefValue.rowIn m' c = Cert.KernelIdeal.Hand.rowIn m c := by
    unfold Cert.ReferenceIdeal.RefValue.rowIn Cert.KernelIdeal.Hand.rowIn; rw [eei]
  have ecol : Cert.ReferenceIdeal.RefValue.colIn m' c = Cert.KernelIdeal.Hand.colIn m c := by
    unfold Cert.ReferenceIdeal.RefValue.colIn Cert.KernelIdeal.Hand.colIn; rw [eei]
  -- every source word, self-loops included, is a node
  have hrow : ∀ e, 0 ≤ (Cert.KernelIdeal.Hand.rowIn m c e).toInt ∧ (Cert.KernelIdeal.Hand.rowIn m c e).toInt < 50000 :=
    fun e => Cert.Proof.PreDecode.edgeW_in_range (Cert.KernelIdeal.Hand.eiIn m c 0)
      (fun e' => Cert.Proof.PreDecode.row_in_range m hpre c e') e
  rw [Cert.ReferenceIdeal.RefValue.ref_result m' c g o, Cert.KernelIdeal.Hand.kernel_result m ρ c g o,
    ex, erow, ecol, ebatch, eW, eb, eWfc, ebfc]
  exact (bridge (Cert.KernelIdeal.Hand.xIn m c) (Cert.KernelIdeal.Hand.rowIn m c) (Cert.KernelIdeal.Hand.colIn m c)
    (Cert.KernelIdeal.Hand.batchIn m c) (dinvS (Cert.KernelIdeal.Hand.colIn m c)) (Cert.KernelIdeal.Hand.WIn m c)
    (Cert.KernelIdeal.Hand.bIn m c) (Cert.KernelIdeal.Hand.WfcIn m c) (Cert.KernelIdeal.Hand.bfcIn m c) hrow g o).symm

end Agree

/-! ## The claims -/

/-- At the ideal instance both programs run to the end from memories agreeing on the arguments, with equal results: the
    kernel program's launch ends with every buffer at the last fold of its items, whose result buffer is region 3's
    output array; the reference's run ends with its result at its operations' composed term; the two are one array. -/
theorem algebraic : Cert.algebraic_KernelIdeal_ReferenceIdeal := by
  intro m ρ m' ρ' hpre hagree
  refine ⟨fun c => Cert.KernelIdeal.Hand.W8 m ρ c (Proc.devRef .tc Cert.KernelIdeal.main_v40), ?_, ?_⟩
  · refine (θ_run Cert.KernelIdeal.defs _ _).mono (fun r h c => ?_) (Cert.KernelIdeal.Hand.run_all (F := Ideal) m ρ)
    obtain ⟨a0, a1, a2, a3, a4, a5, a6⟩ := Cert.KernelIdeal.Hand.W8_args (F := Ideal) m ρ c
    exact ⟨h c (Proc.devRef .tc Cert.KernelIdeal.main_v40) (by decide),
      (h c (Proc.devRef .tc Cert.KernelIdeal.main_arg0) (by decide)).trans a0,
      (h c (Proc.devRef .tc Cert.KernelIdeal.main_arg1) (by decide)).trans a1,
      (h c (Proc.devRef .tc Cert.KernelIdeal.main_arg2) (by decide)).trans a2,
      (h c (Proc.devRef .tc Cert.KernelIdeal.main_arg3) (by decide)).trans a3,
      (h c (Proc.devRef .tc Cert.KernelIdeal.main_arg4) (by decide)).trans a4,
      (h c (Proc.devRef .tc Cert.KernelIdeal.main_arg5) (by decide)).trans a5,
      (h c (Proc.devRef .tc Cert.KernelIdeal.main_arg6) (by decide)).trans a6⟩
  · refine (θ_run Cert.ReferenceIdeal.defs _ _).mono (fun r h c => ⟨(h c).1.trans ?_, (h c).2⟩)
      (Cert.ReferenceIdeal.Value.run (F := Ideal) m' ρ')
    exact results_agree m ρ m' hpre hagree c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
